-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024x3 : Shape := ⟨3, ![512, 1024, 3]⟩
abbrev S8192 : Shape := ⟨1, ![8192]⟩
abbrev S2048 : Shape := ⟨1, ![2048]⟩
abbrev S32x9 : Shape := ⟨2, ![32, 9]⟩
abbrev S32 : Shape := ⟨1, ![32]⟩
abbrev S32x96 : Shape := ⟨2, ![32, 96]⟩
abbrev S64x96 : Shape := ⟨2, ![64, 96]⟩
abbrev S64 : Shape := ⟨1, ![64]⟩
abbrev S64x192 : Shape := ⟨2, ![64, 192]⟩
abbrev S512x4096 : Shape := ⟨2, ![512, 4096]⟩
abbrev S512 : Shape := ⟨1, ![512]⟩
abbrev S63x512 : Shape := ⟨2, ![63, 512]⟩
abbrev S63 : Shape := ⟨1, ![63]⟩
abbrev S_ : Shape := ⟨0, ![]⟩

class Facts : Prop where
  bcast_S_S512x1024x3 : S_.BroadcastsInDim S512x1024x3 (![] : Fin 0 → Fin S512x1024x3.rank)
  reducesTo_S512x1024x3_S_d0_1_2 : S512x1024x3.ReducesTo [0, 1, 2] S_
  h_S_ : 0 < S_.numel
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_
  bcast_S_S32x9 : S_.BroadcastsInDim S32x9 (![] : Fin 0 → Fin S32x9.rank)
  reducesTo_S32x9_S_d0_1 : S32x9.ReducesTo [0, 1] S_
  bcast_S_S32 : S_.BroadcastsInDim S32 (![] : Fin 0 → Fin S32.rank)
  reducesTo_S32_S_d0 : S32.ReducesTo [0] S_
  bcast_S_S32x96 : S_.BroadcastsInDim S32x96 (![] : Fin 0 → Fin S32x96.rank)
  reducesTo_S32x96_S_d0_1 : S32x96.ReducesTo [0, 1] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_
  bcast_S_S64x192 : S_.BroadcastsInDim S64x192 (![] : Fin 0 → Fin S64x192.rank)
  reducesTo_S64x192_S_d0_1 : S64x192.ReducesTo [0, 1] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_
  bcast_S_S63x512 : S_.BroadcastsInDim S63x512 (![] : Fin 0 → Fin S63x512.rank)
  reducesTo_S63x512_S_d0_1 : S63x512.ReducesTo [0, 1] S_
  bcast_S_S63 : S_.BroadcastsInDim S63 (![] : Fin 0 → Fin S63.rank)
  reducesTo_S63_S_d0 : S63.ReducesTo [0] S_

variable [Facts]

def fn_part5 {F : FTy → Type} [FloatOps F] (main_arg4 : IVec S2048 32) (main_arg5 : IVec S2048 32) (main_v80 : IVec S_ 1) (main_v82 : IVec S8192 1) (main_v84 : IVec S8192 1) : IVec S_ 1 :=
  let main_v85 : IVec S8192 1 := andi main_v82 main_v84
  let main_c_33 : IVec S_ 1 := constantI S_ 1 1#1
  let main_v86 : IVec S_ 1 := (fun x v => Host.reduce IntOp.andi x v reducesTo_S8192_S_d0 h_S_) main_v85 main_c_33
  let main_v87 : IVec S_ 1 := andi main_v80 main_v86
  let main_c_34 : IVec S_ 32 := constantI S_ 32 0#32
  let main_v88 : IVec S2048 32 := broadcastInDim S2048 ![] bcast_S_S2048 main_c_34
  let main_v89 : IVec S2048 1 := cmpi .sge main_arg4 main_v88
  let main_c_35 : IVec S_ 32 := constantI S_ 32 256#32
  let main_v90 : IVec S2048 32 := broadcastInDim S2048 ![] bcast_S_S2048 main_c_35
  let main_v91 : IVec S2048 1 := cmpi .slt main_arg4 main_v90
  let main_v92 : IVec S2048 1 := andi main_v89 main_v91
  let main_c_36 : IVec S_ 1 := constantI S_ 1 1#1
  let main_v93 : IVec S_ 1 := (fun x v => Host.reduce IntOp.andi x v reducesTo_S2048_S_d0 h_S_) main_v92 main_c_36
  let main_v94 : IVec S_ 1 := andi main_v87 main_v93
  let main_c_37 : IVec S_ 32 := constantI S_ 32 0#32
  let main_v95 : IVec S2048 32 := broadcastInDim S2048 ![] bcast_S_S2048 main_c_37
  let main_v96 : IVec S2048 1 := cmpi .sge main_arg5 main_v95
  let main_c_38 : IVec S_ 32 := constantI S_ 32 256#32
  let main_v97 : IVec S2048 32 := broadcastInDim S2048 ![] bcast_S_S2048 main_c_38
  let main_v98 : IVec S2048 1 := cmpi .slt main_arg5 main_v97
  let main_v99 : IVec S2048 1 := andi main_v96 main_v98
  let main_c_39 : IVec S_ 1 := constantI S_ 1 1#1
  let main_v100 : IVec S_ 1 := (fun x v => Host.reduce IntOp.andi x v reducesTo_S2048_S_d0 h_S_) main_v99 main_c_39
  let main_v101 : IVec S_ 1 := andi main_v94 main_v100
  main_v101

def fn_part4 {F : FTy → Type} [FloatOps F] (main_arg1 : IVec S8192 32) (main_arg2 : IVec S8192 32) (main_arg4 : IVec S2048 32) (main_arg5 : IVec S2048 32) (main_arg18 : FVec F S63 .f32) (main_v63 : IVec S_ 1) (main_v67 : IVec S_ 1) : IVec S_ 1 :=
  let main_v68 : IVec S_ 1 := andi main_v63 main_v67
  let main_v69 : FVec F S63 .f32 := Host.absf main_arg18
  let main_cst_26 : FVec F S_ .f32 := constant S_ .f32 0x7F800000#32
  let main_v70 : FVec F S63 .f32 := broadcastInDim S63 ![] bcast_S_S63 main_cst_26
  let main_v71 : IVec S63 1 := cmpf .olt main_v69 main_v70
  let main_c_27 : IVec S_ 1 := constantI S_ 1 1#1
  let main_v72 : IVec S_ 1 := (fun x v => Host.reduce IntOp.andi x v reducesTo_S63_S_d0 h_S_) main_v71 main_c_27
  let main_v73 : IVec S_ 1 := andi main_v68 main_v72
  let main_c_28 : IVec S_ 32 := constantI S_ 32 0#32
  let main_v74 : IVec S8192 32 := broadcastInDim S8192 ![] bcast_S_S8192 main_c_28
  let main_v75 : IVec S8192 1 := cmpi .sge main_arg1 main_v74
  let main_c_29 : IVec S_ 32 := constantI S_ 32 1024#32
  let main_v76 : IVec S8192 32 := broadcastInDim S8192 ![] bcast_S_S8192 main_c_29
  let main_v77 : IVec S8192 1 := cmpi .slt main_arg1 main_v76
  let main_v78 : IVec S8192 1 := andi main_v75 main_v77
  let main_c_30 : IVec S_ 1 := constantI S_ 1 1#1
  let main_v79 : IVec S_ 1 := (fun x v => Host.reduce IntOp.andi x v reducesTo_S8192_S_d0 h_S_) main_v78 main_c_30
  let main_v80 : IVec S_ 1 := andi main_v73 main_v79
  let main_c_31 : IVec S_ 32 := constantI S_ 32 0#32
  let main_v81 : IVec S8192 32 := broadcastInDim S8192 ![] bcast_S_S8192 main_c_31
  let main_v82 : IVec S8192 1 := cmpi .sge main_arg2 main_v81
  let main_c_32 : IVec S_ 32 := constantI S_ 32 1024#32
  let main_v83 : IVec S8192 32 := broadcastInDim S8192 ![] bcast_S_S8192 main_c_32
  let main_v84 : IVec S8192 1 := cmpi .slt main_arg2 main_v83
  fn_part5 (F := F) main_arg4 main_arg5 main_v80 main_v82 main_v84

def fn_part3 {F : FTy → Type} [FloatOps F] (main_arg1 : IVec S8192 32) (main_arg2 : IVec S8192 32) (main_arg4 : IVec S2048 32) (main_arg5 : IVec S2048 32) (main_arg15 : FVec F S512x4096 .f32) (main_arg16 : FVec F S512 .f32) (main_arg17 : FVec F S63x512 .f32) (main_arg18 : FVec F S63 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x4096 .f32 := Host.absf main_arg15
  let main_cst_20 : FVec F S_ .f32 := constant S_ .f32 0x7F800000#32
  let main_v55 : FVec F S512x4096 .f32 := broadcastInDim S512x4096 ![] bcast_S_S512x4096 main_cst_20
  let main_v56 : IVec S512x4096 1 := cmpf .olt main_v54 main_v55
  let main_c_21 : IVec S_ 1 := constantI S_ 1 1#1
  let main_v57 : IVec S_ 1 := (fun x v => Host.reduce IntOp.andi x v reducesTo_S512x4096_S_d0_1 h_S_) main_v56 main_c_21
  let main_v58 : IVec S_ 1 := andi main_v53 main_v57
  let main_v59 : FVec F S512 .f32 := Host.absf main_arg16
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S63x512 .f32 := Host.absf main_arg17
  let main_cst_24 : FVec F S_ .f32 := constant S_ .f32 0x7F800000#32
  let main_v65 : FVec F S63x512 .f32 := broadcastInDim S63x512 ![] bcast_S_S63x512 main_cst_24
  let main_v66 : IVec S63x512 1 := cmpf .olt main_v64 main_v65
  let main_c_25 : IVec S_ 1 := constantI S_ 1 1#1
  let main_v67 : IVec S_ 1 := (fun x v => Host.reduce IntOp.andi x v reducesTo_S63x512_S_d0_1 h_S_) main_v66 main_c_25
  fn_part4 (F := F) main_arg1 main_arg2 main_arg4 main_arg5 main_arg18 main_v63 main_v67

def fn_part2 {F : FTy → Type} [FloatOps F] (main_arg1 : IVec S8192 32) (main_arg2 : IVec S8192 32) (main_arg4 : IVec S2048 32) (main_arg5 : IVec S2048 32) (main_arg11 : FVec F S64x96 .f32) (main_arg12 : FVec F S64 .f32) (main_arg13 : FVec F S64x192 .f32) (main_arg14 : FVec F S64 .f32) (main_arg15 : FVec F S512x4096 .f32) (main_arg16 : FVec F S512 .f32) (main_arg17 : FVec F S63x512 .f32) (main_arg18 : FVec F S63 .f32) (main_v33 : IVec S_ 1) : IVec S_ 1 :=
  let main_v34 : FVec F S64x96 .f32 := Host.absf main_arg11
  let main_cst_12 : FVec F S_ .f32 := constant S_ .f32 0x7F800000#32
  let main_v35 : FVec F S64x96 .f32 := broadcastInDim S64x96 ![] bcast_S_S64x96 main_cst_12
  let main_v36 : IVec S64x96 1 := cmpf .olt main_v34 main_v35
  let main_c_13 : IVec S_ 1 := constantI S_ 1 1#1
  let main_v37 : IVec S_ 1 := (fun x v => Host.reduce IntOp.andi x v reducesTo_S64x96_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x192 .f32 := Host.absf main_arg13
  let main_cst_16 : FVec F S_ .f32 := constant S_ .f32 0x7F800000#32
  let main_v45 : FVec F S64x192 .f32 := broadcastInDim S64x192 ![] bcast_S_S64x192 main_cst_16
  let main_v46 : IVec S64x192 1 := cmpf .olt main_v44 main_v45
  let main_c_17 : IVec S_ 1 := constantI S_ 1 1#1
  let main_v47 : IVec S_ 1 := (fun x v => Host.reduce IntOp.andi x v reducesTo_S64x192_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg1 main_arg2 main_arg4 main_arg5 main_arg15 main_arg16 main_arg17 main_arg18 main_v48 main_v49 main_v50

def fn_part1 {F : FTy → Type} [FloatOps F] (main_arg1 : IVec S8192 32) (main_arg2 : IVec S8192 32) (main_arg4 : IVec S2048 32) (main_arg5 : IVec S2048 32) (main_arg8 : FVec F S32 .f32) (main_arg9 : FVec F S32x96 .f32) (main_arg10 : FVec F S32 .f32) (main_arg11 : FVec F S64x96 .f32) (main_arg12 : FVec F S64 .f32) (main_arg13 : FVec F S64x192 .f32) (main_arg14 : FVec F S64 .f32) (main_arg15 : FVec F S512x4096 .f32) (main_arg16 : FVec F S512 .f32) (main_arg17 : FVec F S63x512 .f32) (main_arg18 : FVec F S63 .f32) (main_v13 : IVec S_ 1) (main_v16 : IVec S32x9 1) : IVec S_ 1 :=
  let main_c_5 : IVec S_ 1 := constantI S_ 1 1#1
  let main_v17 : IVec S_ 1 := (fun x v => Host.reduce IntOp.andi x v reducesTo_S32x9_S_d0_1 h_S_) main_v16 main_c_5
  let main_v18 : IVec S_ 1 := andi main_v13 main_v17
  let main_v19 : FVec F S32 .f32 := Host.absf main_arg8
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x96 .f32 := Host.absf main_arg9
  let main_cst_8 : FVec F S_ .f32 := constant S_ .f32 0x7F800000#32
  let main_v25 : FVec F S32x96 .f32 := broadcastInDim S32x96 ![] bcast_S_S32x96 main_cst_8
  let main_v26 : IVec S32x96 1 := cmpf .olt main_v24 main_v25
  let main_c_9 : IVec S_ 1 := constantI S_ 1 1#1
  let main_v27 : IVec S_ 1 := (fun x v => Host.reduce IntOp.andi x v reducesTo_S32x96_S_d0_1 h_S_) main_v26 main_c_9
  let main_v28 : IVec S_ 1 := andi main_v23 main_v27
  let main_v29 : FVec F S32 .f32 := Host.absf main_arg10
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg2 main_arg4 main_arg5 main_arg11 main_arg12 main_arg13 main_arg14 main_arg15 main_arg16 main_arg17 main_arg18 main_v33

def fn {F : FTy → Type} [FloatOps F] (main_arg0 : FVec F S512x1024x3 .f32) (main_arg1 : IVec S8192 32) (main_arg2 : IVec S8192 32) (main_arg3 : FVec F S8192 .f32) (main_arg4 : IVec S2048 32) (main_arg5 : IVec S2048 32) (main_arg6 : FVec F S2048 .f32) (main_arg7 : FVec F S32x9 .f32) (main_arg8 : FVec F S32 .f32) (main_arg9 : FVec F S32x96 .f32) (main_arg10 : FVec F S32 .f32) (main_arg11 : FVec F S64x96 .f32) (main_arg12 : FVec F S64 .f32) (main_arg13 : FVec F S64x192 .f32) (main_arg14 : FVec F S64 .f32) (main_arg15 : FVec F S512x4096 .f32) (main_arg16 : FVec F S512 .f32) (main_arg17 : FVec F S63x512 .f32) (main_arg18 : FVec F S63 .f32) : IVec S_ 1 :=
  let main_v0 : FVec F S512x1024x3 .f32 := Host.absf main_arg0
  let main_cst : FVec F S_ .f32 := constant S_ .f32 0x7F800000#32
  let main_v1 : FVec F S512x1024x3 .f32 := broadcastInDim S512x1024x3 ![] bcast_S_S512x1024x3 main_cst
  let main_v2 : IVec S512x1024x3 1 := cmpf .olt main_v0 main_v1
  let main_c : IVec S_ 1 := constantI S_ 1 1#1
  let main_v3 : IVec S_ 1 := (fun x v => Host.reduce IntOp.andi x v reducesTo_S512x1024x3_S_d0_1_2 h_S_) main_v2 main_c
  let main_v4 : FVec F S8192 .f32 := Host.absf main_arg3
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S2048 .f32 := Host.absf main_arg6
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S32x9 .f32 := Host.absf main_arg7
  let main_cst_4 : FVec F S_ .f32 := constant S_ .f32 0x7F800000#32
  let main_v15 : FVec F S32x9 .f32 := broadcastInDim S32x9 ![] bcast_S_S32x9 main_cst_4
  let main_v16 : IVec S32x9 1 := cmpf .olt main_v14 main_v15
  fn_part1 (F := F) main_arg1 main_arg2 main_arg4 main_arg5 main_arg8 main_arg9 main_arg10 main_arg11 main_arg12 main_arg13 main_arg14 main_arg15 main_arg16 main_arg17 main_arg18 main_v13 main_v16
-- ==== Kernel.lean ====
abbrev S512x1024x3 : Shape := ⟨3, ![512, 1024, 3]⟩
abbrev S8192 : Shape := ⟨1, ![8192]⟩
abbrev S2048 : Shape := ⟨1, ![2048]⟩
abbrev S32x9 : Shape := ⟨2, ![32, 9]⟩
abbrev S32 : Shape := ⟨1, ![32]⟩
abbrev S32x96 : Shape := ⟨2, ![32, 96]⟩
abbrev S64x96 : Shape := ⟨2, ![64, 96]⟩
abbrev S64 : Shape := ⟨1, ![64]⟩
abbrev S64x192 : Shape := ⟨2, ![64, 192]⟩
abbrev S512x4096 : Shape := ⟨2, ![512, 4096]⟩
abbrev S512 : Shape := ⟨1, ![512]⟩
abbrev S63x512 : Shape := ⟨2, ![63, 512]⟩
abbrev S63 : Shape := ⟨1, ![63]⟩
abbrev S_ : Shape := ⟨0, ![]⟩
abbrev S1024x1024 : Shape := ⟨2, ![1024, 1024]⟩
abbrev S8192x1 : Shape := ⟨2, ![8192, 1]⟩
abbrev S8192x2 : Shape := ⟨2, ![8192, 2]⟩
abbrev S256x256 : Shape := ⟨2, ![256, 256]⟩
abbrev S2048x1 : Shape := ⟨2, ![2048, 1]⟩
abbrev S2048x2 : Shape := ⟨2, ![2048, 2]⟩
abbrev S1024x512x3 : Shape := ⟨3, ![1024, 512, 3]⟩
abbrev S32x3x3 : Shape := ⟨3, ![32, 3, 3]⟩
abbrev S32x3x1 : Shape := ⟨3, ![32, 3, 1]⟩
abbrev S32x3 : Shape := ⟨2, ![32, 3]⟩
abbrev S3x32 : Shape := ⟨2, ![3, 32]⟩
abbrev S1x32 : Shape := ⟨2, ![1, 32]⟩
abbrev S1024x512x32 : Shape := ⟨3, ![1024, 512, 32]⟩
abbrev S1024x64x3 : Shape := ⟨3, ![1024, 64, 3]⟩
abbrev S1024x64x32 : Shape := ⟨3, ![1024, 64, 32]⟩
abbrev S1024x192 : Shape := ⟨2, ![1024, 192]⟩
abbrev S65536x3 : Shape := ⟨2, ![65536, 3]⟩
abbrev S65536x32 : Shape := ⟨2, ![65536, 32]⟩
abbrev S32x32x3 : Shape := ⟨3, ![32, 32, 3]⟩
abbrev S32x32x1 : Shape := ⟨3, ![32, 32, 1]⟩
abbrev S32x32 : Shape := ⟨2, ![32, 32]⟩
abbrev S256x512x32 : Shape := ⟨3, ![256, 512, 32]⟩
abbrev S1024x32x32 : Shape := ⟨3, ![1024, 32, 32]⟩
abbrev S256x32x32 : Shape := ⟨3, ![256, 32, 32]⟩
abbrev S32768x32 : Shape := ⟨2, ![32768, 32]⟩
abbrev S256x4x32x32 : Shape := ⟨4, ![256, 4, 32, 32]⟩
abbrev S64x32x3 : Shape := ⟨3, ![64, 32, 3]⟩
abbrev S64x32x1 : Shape := ⟨3, ![64, 32, 1]⟩
abbrev S64x32 : Shape := ⟨2, ![64, 32]⟩
abbrev S32x64 : Shape := ⟨2, ![32, 64]⟩
abbrev S1x64 : Shape := ⟨2, ![1, 64]⟩
abbrev S256x512x64 : Shape := ⟨3, ![256, 512, 64]⟩
abbrev S256x128x32 : Shape := ⟨3, ![256, 128, 32]⟩
abbrev S256x128x64 : Shape := ⟨3, ![256, 128, 64]⟩
abbrev S256x4096 : Shape := ⟨2, ![256, 4096]⟩
abbrev S32768x64 : Shape := ⟨2, ![32768, 64]⟩
abbrev S64x64x3 : Shape := ⟨3, ![64, 64, 3]⟩
abbrev S64x64x1 : Shape := ⟨3, ![64, 64, 1]⟩
abbrev S64x64 : Shape := ⟨2, ![64, 64]⟩
abbrev S64x512x64 : Shape := ⟨3, ![64, 512, 64]⟩
abbrev S256x64x64 : Shape := ⟨3, ![256, 64, 64]⟩
abbrev S64x64x64 : Shape := ⟨3, ![64, 64, 64]⟩
abbrev S16384x64 : Shape := ⟨2, ![16384, 64]⟩
abbrev S64x4x64x64 : Shape := ⟨4, ![64, 4, 64, 64]⟩
abbrev S512x64x64 : Shape := ⟨3, ![512, 64, 64]⟩
abbrev S1x512 : Shape := ⟨2, ![1, 512]⟩
abbrev S512x512 : Shape := ⟨2, ![512, 512]⟩
abbrev S1x256 : Shape := ⟨2, ![1, 256]⟩
abbrev S1x63 : Shape := ⟨2, ![1, 63]⟩
abbrev S512x63 : Shape := ⟨2, ![512, 63]⟩
abbrev S256x512 : Shape := ⟨2, ![256, 512]⟩
abbrev S256x63 : Shape := ⟨2, ![256, 63]⟩

abbrev nBuf : Space → Nat
  | .hbm => 114
  | .vmem => 50
  | .smem => 0
  | _ => 0

abbrev bufTy : (tb : Table) → Fin (tcTables nBuf tb) → BufTy
  | .hbm, ⟨0, _⟩ => ⟨S512x1024x3, .f32⟩
  | .hbm, ⟨1, _⟩ => ⟨S8192, .i32⟩
  | .hbm, ⟨2, _⟩ => ⟨S8192, .i32⟩
  | .hbm, ⟨3, _⟩ => ⟨S8192, .f32⟩
  | .hbm, ⟨4, _⟩ => ⟨S2048, .i32⟩
  | .hbm, ⟨5, _⟩ => ⟨S2048, .i32⟩
  | .hbm, ⟨6, _⟩ => ⟨S2048, .f32⟩
  | .hbm, ⟨7, _⟩ => ⟨S32x9, .f32⟩
  | .hbm, ⟨8, _⟩ => ⟨S32, .f32⟩
  | .hbm, ⟨9, _⟩ => ⟨S32x96, .f32⟩
  | .hbm, ⟨10, _⟩ => ⟨S32, .f32⟩
  | .hbm, ⟨11, _⟩ => ⟨S64x96, .f32⟩
  | .hbm, ⟨12, _⟩ => ⟨S64, .f32⟩
  | .hbm, ⟨13, _⟩ => ⟨S64x192, .f32⟩
  | .hbm, ⟨14, _⟩ => ⟨S64, .f32⟩
  | .hbm, ⟨15, _⟩ => ⟨S512x4096, .f32⟩
  | .hbm, ⟨16, _⟩ => ⟨S512, .f32⟩
  | .hbm, ⟨17, _⟩ => ⟨S63x512, .f32⟩
  | .hbm, ⟨18, _⟩ => ⟨S63, .f32⟩
  | .hbm, ⟨19, _⟩ => ⟨S_, .f32⟩
  | .hbm, ⟨20, _⟩ => ⟨S1024x1024, .f32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x1, .i32⟩
  | .hbm, ⟨37, _⟩ => ⟨S8192x2, .i32⟩
  | .hbm, ⟨38, _⟩ => ⟨S1024x1024, .f32⟩
  | .hbm, ⟨39, _⟩ => ⟨S_, .f32⟩
  | .hbm, ⟨40, _⟩ => ⟨S256x256, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048x1, .i32⟩
  | .hbm, ⟨57, _⟩ => ⟨S2048x2, .i32⟩
  | .hbm, ⟨58, _⟩ => ⟨S256x256, .f32⟩
  | .hbm, ⟨59, _⟩ => ⟨S1024x512x3, .f32⟩
  | .hbm, ⟨60, _⟩ => ⟨S32x3x3, .f32⟩
  | .hbm, ⟨61, _⟩ => ⟨S32x3x1, .f32⟩
  | .hbm, ⟨62, _⟩ => ⟨S32x3, .f32⟩
  | .hbm, ⟨63, _⟩ => ⟨S3x32, .f32⟩
  | .hbm, ⟨64, _⟩ => ⟨S32x3x1, .f32⟩
  | .hbm, ⟨65, _⟩ => ⟨S32x3, .f32⟩
  | .hbm, ⟨66, _⟩ => ⟨S3x32, .f32⟩
  | .hbm, ⟨67, _⟩ => ⟨S32x3x1, .f32⟩
  | .hbm, ⟨68, _⟩ => ⟨S32x3, .f32⟩
  | .hbm, ⟨69, _⟩ => ⟨S3x32, .f32⟩
  | .hbm, ⟨70, _⟩ => ⟨S1x32, .f32⟩
  | .hbm, ⟨71, _⟩ => ⟨S1024x512x32, .f32⟩
  | .hbm, ⟨72, _⟩ => ⟨S32x32x3, .f32⟩
  | .hbm, ⟨73, _⟩ => ⟨S32x32x1, .f32⟩
  | .hbm, ⟨74, _⟩ => ⟨S32x32, .f32⟩
  | .hbm, ⟨75, _⟩ => ⟨S32x32, .f32⟩
  | .hbm, ⟨76, _⟩ => ⟨S32x32x1, .f32⟩
  | .hbm, ⟨77, _⟩ => ⟨S32x32, .f32⟩
  | .hbm, ⟨78, _⟩ => ⟨S32x32, .f32⟩
  | .hbm, ⟨79, _⟩ => ⟨S32x32x1, .f32⟩
  | .hbm, ⟨80, _⟩ => ⟨S32x32, .f32⟩
  | .hbm, ⟨81, _⟩ => ⟨S32x32, .f32⟩
  | .hbm, ⟨82, _⟩ => ⟨S1x32, .f32⟩
  | .hbm, ⟨83, _⟩ => ⟨S256x512x32, .f32⟩
  | .hbm, ⟨84, _⟩ => ⟨S64x32x3, .f32⟩
  | .hbm, ⟨85, _⟩ => ⟨S64x32x1, .f32⟩
  | .hbm, ⟨86, _⟩ => ⟨S64x32, .f32⟩
  | .hbm, ⟨87, _⟩ => ⟨S32x64, .f32⟩
  | .hbm, ⟨88, _⟩ => ⟨S64x32x1, .f32⟩
  | .hbm, ⟨89, _⟩ => ⟨S64x32, .f32⟩
  | .hbm, ⟨90, _⟩ => ⟨S32x64, .f32⟩
  | .hbm, ⟨91, _⟩ => ⟨S64x32x1, .f32⟩
  | .hbm, ⟨92, _⟩ => ⟨S64x32, .f32⟩
  | .hbm, ⟨93, _⟩ => ⟨S32x64, .f32⟩
  | .hbm, ⟨94, _⟩ => ⟨S1x64, .f32⟩
  | .hbm, ⟨95, _⟩ => ⟨S256x512x64, .f32⟩
  | .hbm, ⟨96, _⟩ => ⟨S64x64x3, .f32⟩
  | .hbm, ⟨97, _⟩ => ⟨S64x64x1, .f32⟩
  | .hbm, ⟨98, _⟩ => ⟨S64x64, .f32⟩
  | .hbm, ⟨99, _⟩ => ⟨S64x64, .f32⟩
  | .hbm, ⟨100, _⟩ => ⟨S64x64x1, .f32⟩
  | .hbm, ⟨101, _⟩ => ⟨S64x64, .f32⟩
  | .hbm, ⟨102, _⟩ => ⟨S64x64, .f32⟩
  | .hbm, ⟨103, _⟩ => ⟨S64x64x1, .f32⟩
  | .hbm, ⟨104, _⟩ => ⟨S64x64, .f32⟩
  | .hbm, ⟨105, _⟩ => ⟨S64x64, .f32⟩
  | .hbm, ⟨106, _⟩ => ⟨S1x64, .f32⟩
  | .hbm, ⟨107, _⟩ => ⟨S64x512x64, .f32⟩
  | .hbm, ⟨108, _⟩ => ⟨S512x64x64, .f32⟩
  | .hbm, ⟨109, _⟩ => ⟨S512x4096, .f32⟩
  | .hbm, ⟨110, _⟩ => ⟨S1x512, .f32⟩
  | .hbm, ⟨111, _⟩ => ⟨S512x512, .f32⟩
  | .hbm, ⟨112, _⟩ => ⟨S1x63, .f32⟩
  | .hbm, ⟨113, _⟩ => ⟨S512x63, .f32⟩
  | .local _ .vmem, ⟨0, _⟩ => ⟨S1024x1024, .f32⟩
  | .local _ .vmem, ⟨1, _⟩ => ⟨S1024x64x3, .f32⟩
  | .local _ .vmem, ⟨2, _⟩ => ⟨S1024x64x3, .f32⟩
  | .local _ .vmem, ⟨3, _⟩ => ⟨S3x32, .f32⟩
  | .local _ .vmem, ⟨4, _⟩ => ⟨S3x32, .f32⟩
  | .local _ .vmem, ⟨5, _⟩ => ⟨S3x32, .f32⟩
  | .local _ .vmem, ⟨6, _⟩ => ⟨S1x32, .f32⟩
  | .local _ .vmem, ⟨7, _⟩ => ⟨S1024x64x32, .f32⟩
  | .local _ .vmem, ⟨8, _⟩ => ⟨S1024x64x32, .f32⟩
  | .local _ .vmem, ⟨9, _⟩ => ⟨S1024x1024, .f32⟩
  | .local _ .vmem, ⟨10, _⟩ => ⟨S1024x32x32, .f32⟩
  | .local _ .vmem, ⟨11, _⟩ => ⟨S1024x32x32, .f32⟩
  | .local _ .vmem, ⟨12, _⟩ => ⟨S32x32, .f32⟩
  | .local _ .vmem, ⟨13, _⟩ => ⟨S32x32, .f32⟩
  | .local _ .vmem, ⟨14, _⟩ => ⟨S32x32, .f32⟩
  | .local _ .vmem, ⟨15, _⟩ => ⟨S1x32, .f32⟩
  | .local _ .vmem, ⟨16, _⟩ => ⟨S256x32x32, .f32⟩
  | .local _ .vmem, ⟨17, _⟩ => ⟨S256x32x32, .f32⟩
  | .local _ .vmem, ⟨18, _⟩ => ⟨S256x256, .f32⟩
  | .local _ .vmem, ⟨19, _⟩ => ⟨S256x128x32, .f32⟩
  | .local _ .vmem, ⟨20, _⟩ => ⟨S256x128x32, .f32⟩
  | .local _ .vmem, ⟨21, _⟩ => ⟨S32x64, .f32⟩
  | .local _ .vmem, ⟨22, _⟩ => ⟨S32x64, .f32⟩
  | .local _ .vmem, ⟨23, _⟩ => ⟨S32x64, .f32⟩
  | .local _ .vmem, ⟨24, _⟩ => ⟨S1x64, .f32⟩
  | .local _ .vmem, ⟨25, _⟩ => ⟨S256x128x64, .f32⟩
  | .local _ .vmem, ⟨26, _⟩ => ⟨S256x128x64, .f32⟩
  | .local _ .vmem, ⟨27, _⟩ => ⟨S256x256, .f32⟩
  | .local _ .vmem, ⟨28, _⟩ => ⟨S256x64x64, .f32⟩
  | .local _ .vmem, ⟨29, _⟩ => ⟨S256x64x64, .f32⟩
  | .local _ .vmem, ⟨30, _⟩ => ⟨S64x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S64x64x64, .f32⟩
  | .local _ .vmem, ⟨35, _⟩ => ⟨S64x64x64, .f32⟩
  | .local _ .vmem, ⟨36, _⟩ => ⟨S256x4096, .f32⟩
  | .local _ .vmem, ⟨37, _⟩ => ⟨S256x4096, .f32⟩
  | .local _ .vmem, ⟨38, _⟩ => ⟨S256x4096, .f32⟩
  | .local _ .vmem, ⟨39, _⟩ => ⟨S256x4096, .f32⟩
  | .local _ .vmem, ⟨40, _⟩ => ⟨S1x256, .f32⟩
  | .local _ .vmem, ⟨41, _⟩ => ⟨S1x256, .f32⟩
  | .local _ .vmem, ⟨42, _⟩ => ⟨S256x256, .f32⟩
  | .local _ .vmem, ⟨43, _⟩ => ⟨S256x256, .f32⟩
  | .local _ .vmem, ⟨44, _⟩ => ⟨S256x512, .f32⟩
  | .local _ .vmem, ⟨45, _⟩ => ⟨S256x512, .f32⟩
  | .local _ .vmem, ⟨46, _⟩ => ⟨S63x512, .f32⟩
  | .local _ .vmem, ⟨47, _⟩ => ⟨S1x63, .f32⟩
  | .local _ .vmem, ⟨48, _⟩ => ⟨S256x63, .f32⟩
  | .local _ .vmem, ⟨49, _⟩ => ⟨S256x63, .f32⟩
  | _, _ => ⟨S512x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_1 : Ref sig .tc := ⟨.hbm, 28, rfl⟩
abbrev main_v6 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_c_5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_6 : Ref sig .tc := ⟨.hbm, 48, rfl⟩
abbrev main_v21 : Ref sig .tc := ⟨.hbm, 49, rfl⟩
abbrev main_v22 : Ref sig .tc := ⟨.hbm, 50, rfl⟩
abbrev main_c_7 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x64x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x32x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x32x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 1 → Memref sig .tc .vmem S256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S256x128x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x128x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 1 → Memref sig .tc .vmem S256x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S256x64x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S64x64x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S256x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S256x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![2, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S63x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1x63 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true]

abbrev stage5_3 : Fin 2 → Memref sig .tc .vmem S256x63 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

class Facts₀ : Prop where
  bcast_S_S1024x1024 : S_.BroadcastsInDim S1024x1024 (![] : Fin 0 → Fin S1024x1024.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  bcast_S_S256x256 : S_.BroadcastsInDim S256x256 (![] : Fin 0 → Fin S256x256.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  transposes_S512x1024x3_S1024x512x3_1_0_2 : S512x1024x3.Transposes [1, 0, 2] S1024x512x3
  shapeCasts_S32x9_S32x3x3 : S32x9.ShapeCasts S32x3x3
  slices_S32x3x3_S32x3x1_0_0_0 : S32x3x3.Slices ![0, 0, 0] S32x3x1
  shapeCasts_S32x3x1_S32x3 : S32x3x1.ShapeCasts S32x3
  transposes_S32x3_S3x32_1_0 : S32x3.Transposes [1, 0] S3x32
  slices_S32x3x3_S32x3x1_0_0_1 : S32x3x3.Slices ![0, 0, 1] S32x3x1
  slices_S32x3x3_S32x3x1_0_0_2 : S32x3x3.Slices ![0, 0, 2] S32x3x1
  shapeCasts_S32_S1x32 : S32.ShapeCasts S1x32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x64x3_S1024x64x3_0_0_0 : ∀ a, (![0, 0, 0] : Fin 3 → Nat) a + S1024x64x3.size a ≤ S1024x64x3.size a
  h_S1024x64x3 : 0 < S1024x64x3.numel
  shapeCasts_S1024x64x3_S1024x64x3 : S1024x64x3.ShapeCasts S1024x64x3
  shapeCasts_S1024x64x3_S1024x192 : S1024x64x3.ShapeCasts S1024x192
  shapeCasts_S1024x192_S65536x3 : S1024x192.ShapeCasts S65536x3
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S65536x32 : S1x32.Broadcasts S65536x32
  shapeCasts_S65536x32_S1024x64x32 : S65536x32.ShapeCasts S1024x64x32
  inb_S1024x64x32_S1024x64x32_0_0_0 : ∀ a, (![0, 0, 0] : Fin 3 → Nat) a + S1024x64x32.size a ≤ S1024x64x32.size a
  h_S1024x64x32 : 0 < S1024x64x32.numel
  shapeCasts_S32x96_S32x32x3 : S32x96.ShapeCasts S32x32x3
  slices_S32x32x3_S32x32x1_0_0_0 : S32x32x3.Slices ![0, 0, 0] S32x32x1
  shapeCasts_S32x32x1_S32x32 : S32x32x1.ShapeCasts S32x32
  transposes_S32x32_S32x32_1_0 : S32x32.Transposes [1, 0] S32x32
  slices_S32x32x3_S32x32x1_0_0_1 : S32x32x3.Slices ![0, 0, 1] S32x32x1
  slices_S32x32x3_S32x32x1_0_0_2 : S32x32x3.Slices ![0, 0, 2] S32x32x1
  inb_S1024x32x32_S1024x32x32_0_0_0 : ∀ a, (![0, 0, 0] : Fin 3 → Nat) a + S1024x32x32.size a ≤ S1024x32x32.size a
  h_S1024x32x32 : 0 < S1024x32x32.numel
  shapeCasts_S1024x32x32_S1024x32x32 : S1024x32x32.ShapeCasts S1024x32x32
  shapeCasts_S1024x32x32_S1024x1024 : S1024x32x32.ShapeCasts S1024x1024
  shapeCasts_S1024x1024_S32768x32 : S1024x1024.ShapeCasts S32768x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  broadcasts_S1x32_S32768x32 : S1x32.Broadcasts S32768x32
  shapeCasts_S32768x32_S1024x32x32 : S32768x32.ShapeCasts S1024x32x32
  shapeCasts_S1024x32x32_S256x4x32x32 : S1024x32x32.ShapeCasts S256x4x32x32
  reduces_S256x4x32x32_S256x32x32 : S256x4x32x32.Reduces [1] S256x32x32
  inb_S256x32x32_S256x32x32_0_0_0 : ∀ a, (![0, 0, 0] : Fin 3 → Nat) a + S256x32x32.size a ≤ S256x32x32.size a
  h_S256x32x32 : 0 < S256x32x32.numel
  shapeCasts_S64x96_S64x32x3 : S64x96.ShapeCasts S64x32x3
  slices_S64x32x3_S64x32x1_0_0_0 : S64x32x3.Slices ![0, 0, 0] S64x32x1
  shapeCasts_S64x32x1_S64x32 : S64x32x1.ShapeCasts S64x32
  transposes_S64x32_S32x64_1_0 : S64x32.Transposes [1, 0] S32x64
  slices_S64x32x3_S64x32x1_0_0_1 : S64x32x3.Slices ![0, 0, 1] S64x32x1
  slices_S64x32x3_S64x32x1_0_0_2 : S64x32x3.Slices ![0, 0, 2] S64x32x1
  shapeCasts_S64_S1x64 : S64.ShapeCasts S1x64
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128x32_S256x128x32_0_0_0 : ∀ a, (![0, 0, 0] : Fin 3 → Nat) a + S256x128x32.size a ≤ S256x128x32.size a
  h_S256x128x32 : 0 < S256x128x32.numel
  shapeCasts_S256x128x32_S256x128x32 : S256x128x32.ShapeCasts S256x128x32
  shapeCasts_S256x128x32_S256x4096 : S256x128x32.ShapeCasts S256x4096
  shapeCasts_S256x4096_S32768x32 : S256x4096.ShapeCasts S32768x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S32768x64 : S1x64.Broadcasts S32768x64
  shapeCasts_S32768x64_S256x128x64 : S32768x64.ShapeCasts S256x128x64
  inb_S256x128x64_S256x128x64_0_0_0 : ∀ a, (![0, 0, 0] : Fin 3 → Nat) a + S256x128x64.size a ≤ S256x128x64.size a
  h_S256x128x64 : 0 < S256x128x64.numel
  shapeCasts_S64x192_S64x64x3 : S64x192.ShapeCasts S64x64x3
  slices_S64x64x3_S64x64x1_0_0_0 : S64x64x3.Slices ![0, 0, 0] S64x64x1
  shapeCasts_S64x64x1_S64x64 : S64x64x1.ShapeCasts S64x64
  transposes_S64x64_S64x64_1_0 : S64x64.Transposes [1, 0] S64x64
  slices_S64x64x3_S64x64x1_0_0_1 : S64x64x3.Slices ![0, 0, 1] S64x64x1
  slices_S64x64x3_S64x64x1_0_0_2 : S64x64x3.Slices ![0, 0, 2] S64x64x1
  inb_S256x64x64_S256x64x64_0_0_0 : ∀ a, (![0, 0, 0] : Fin 3 → Nat) a + S256x64x64.size a ≤ S256x64x64.size a
  h_S256x64x64 : 0 < S256x64x64.numel
  shapeCasts_S256x64x64_S256x64x64 : S256x64x64.ShapeCasts S256x64x64
  shapeCasts_S256x64x64_S256x4096 : S256x64x64.ShapeCasts S256x4096
  shapeCasts_S256x4096_S16384x64 : S256x4096.ShapeCasts S16384x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S16384x64 : S1x64.Broadcasts S16384x64
  shapeCasts_S16384x64_S256x64x64 : S16384x64.ShapeCasts S256x64x64
  shapeCasts_S256x64x64_S64x4x64x64 : S256x64x64.ShapeCasts S64x4x64x64
  reduces_S64x4x64x64_S64x64x64 : S64x4x64x64.Reduces [1] S64x64x64
  inb_S64x64x64_S64x64x64_0_0_0 : ∀ a, (![0, 0, 0] : Fin 3 → Nat) a + S64x64x64.size a ≤ S64x64x64.size a
  h_S64x64x64 : 0 < S64x64x64.numel
  transposes_S64x512x64_S512x64x64_1_0_2 : S64x512x64.Transposes [1, 0, 2] S512x64x64
  shapeCasts_S512x64x64_S512x4096 : S512x64x64.ShapeCasts S512x4096
  shapeCasts_S512_S1x512 : S512.ShapeCasts S1x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  shapeCasts_S63_S1x63 : S63.ShapeCasts S1x63
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S63x512_S63x512_0_0 : ∀ a, (![0, 0] : Fin 2 → Nat) a + S63x512.size a ≤ S63x512.size a
  h_S63x512 : 0 < S63x512.numel
  inb_S1x63_S1x63_0_0 : ∀ a, (![0, 0] : Fin 2 → Nat) a + S1x63.size a ≤ S1x63.size a
  h_S1x63 : 0 < S1x63.numel
  shapeCasts_S1x63_S1x63 : S1x63.ShapeCasts S1x63
  broadcasts_S1x63_S256x63 : S1x63.Broadcasts S256x63
  inb_S256x63_S256x63_0_0 : ∀ a, (![0, 0] : Fin 2 → Nat) a + S256x63.size a ≤ S256x63.size a
  h_S256x63 : 0 < S256x63.numel
  scatter_S1024x1024_S8192x2_S8192_n_01_01_1_wf : ScatterDims.WF S1024x1024 S8192x2 S8192 [] [0, 1] [0, 1] 1
  scatter_S256x256_S2048x2_S2048_n_01_01_1_wf : ScatterDims.WF S256x256 S2048x2 S2048 [] [0, 1] [0, 1] 1
  dot_S1024x1024_S1024x192_S1024x192_1_0_0_1_n_n_wf : DotDims.WF S1024x1024 S1024x192 S1024x192 [1] [0] [0] [1] [] []
  dot_S65536x3_S3x32_S65536x32_1_0_0_1_n_n_wf : DotDims.WF S65536x3 S3x32 S65536x32 [1] [0] [0] [1] [] []
  dot_S1024x1024_S1024x1024_S1024x1024_1_0_0_1_n_n_wf : DotDims.WF S1024x1024 S1024x1024 S1024x1024 [1] [0] [0] [1] [] []
  dot_S32768x32_S32x32_S32768x32_1_0_0_1_n_n_wf : DotDims.WF S32768x32 S32x32 S32768x32 [1] [0] [0] [1] [] []
  dot_S256x256_S256x4096_S256x4096_1_0_0_1_n_n_wf : DotDims.WF S256x256 S256x4096 S256x4096 [1] [0] [0] [1] [] []
  dot_S32768x32_S32x64_S32768x64_1_0_0_1_n_n_wf : DotDims.WF S32768x32 S32x64 S32768x64 [1] [0] [0] [1] [] []
  dot_S16384x64_S64x64_S16384x64_1_0_0_1_n_n_wf : DotDims.WF S16384x64 S64x64 S16384x64 [1] [0] [0] [1] [] []
  dot_S256x4096_S256x4096_S256x256_1_1_0_0_n_n_wf : DotDims.WF S256x4096 S256x4096 S256x256 [1] [1] [0] [0] [] []
  dot_S256x512_S63x512_S256x63_1_1_0_0_n_n_wf : DotDims.WF S256x512 S63x512 S256x63 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64x3.size a ≤ S1024x512x3.size a
  hwx0_1 : ∀ i : grid0.Coords, EltTy.bits .f32 = 32 ∨ (Rect.block (s := S1024x512x3) S1024x64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x32.size a ≤ S3x32.size a
  hwx0_2 : ∀ i : grid0.Coords, EltTy.bits .f32 = 32 ∨ (Rect.block (s := S3x32) S3x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x32.size a ≤ S3x32.size a
  hwx0_4 : ∀ i : grid0.Coords, EltTy.bits .f32 = 32 ∨ (Rect.block (s := S3x32) S3x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x64x32.size a ≤ S1024x512x32.size a
  hwx0_6 : ∀ i : grid0.Coords, EltTy.bits .f32 = 32 ∨ (Rect.block (s := S1024x512x32) S1024x64x32.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S1024x1024.size a
  hwx1_0 : ∀ i : grid1.Coords, EltTy.bits .f32 = 32 ∨ (Rect.block (s := S1024x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32x32.size a ≤ S1024x512x32.size a
  hwx1_1 : ∀ i : grid1.Coords, EltTy.bits .f32 = 32 ∨ (Rect.block (s := S1024x512x32) S1024x32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .f32 = 32 ∨ (Rect.block (s := S32x32) S32x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x32x32.size a ≤ S256x512x32.size a
  hwx1_6 : ∀ i : grid1.Coords, EltTy.bits .f32 = 32 ∨ (Rect.block (s := S256x512x32) S256x32x32.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x256.size a ≤ S256x256.size a
  hwx2_0 : ∀ i : grid2.Coords, EltTy.bits .f32 = 32 ∨ (Rect.block (s := S256x256) S256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x128x32.size a ≤ S256x512x32.size a
  hwx2_1 : ∀ i : grid2.Coords, EltTy.bits .f32 = 32 ∨ (Rect.block (s := S256x512x32) S256x128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x64.size a ≤ S32x64.size a
  hwx2_4 : ∀ i : grid2.Coords, EltTy.bits .f32 = 32 ∨ (Rect.block (s := S32x64) S32x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x128x64.size a ≤ S256x512x64.size a
  hwx2_6 : ∀ i : grid2.Coords, EltTy.bits .f32 = 32 ∨ (Rect.block (s := S256x512x64) S256x128x64.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x256.size a ≤ S256x256.size a
  hwx3_0 : ∀ i : grid3.Coords, EltTy.bits .f32 = 32 ∨ (Rect.block (s := S256x256) S256x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x64x64.size a ≤ S256x512x64.size a
  hwx3_1 : ∀ i : grid3.Coords, EltTy.bits .f32 = 32 ∨ (Rect.block (s := S256x512x64) S256x64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S64x64x64.size a ≤ S64x512x64.size a
  hwx3_6 : ∀ i : grid3.Coords, EltTy.bits .f32 = 32 ∨ (Rect.block (s := S64x512x64) S64x64x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x4096.size a ≤ S512x4096.size a
  hwx4_0 : ∀ i : grid4.Coords, EltTy.bits .f32 = 32 ∨ (Rect.block (s := S512x4096) S256x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S256x4096.size a ≤ S512x4096.size a
  hwx4_1 : ∀ i : grid4.Coords, EltTy.bits .f32 = 32 ∨ (Rect.block (s := S512x4096) S256x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x512.size a
  hwx4_2 : ∀ i : grid4.Coords, EltTy.bits .f32 = 32 ∨ (Rect.block (s := S1x512) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S512x512.size a
  hwx4_3 : ∀ i : grid4.Coords, EltTy.bits .f32 = 32 ∨ (Rect.block (s := S512x512) S256x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x512.size a ≤ S512x512.size a
  hwx5_0 : ∀ i : grid5.Coords, EltTy.bits .f32 = 32 ∨ (Rect.block (s := S512x512) S256x512.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S63x512.size a ≤ S63x512.size a
  hwx5_1 : ∀ i : grid5.Coords, EltTy.bits .f32 = 32 ∨ (Rect.block (s := S63x512) S63x512.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x63.size a ≤ S1x63.size a
  hwx5_2 : ∀ i : grid5.Coords, EltTy.bits .f32 = 32 ∨ (Rect.block (s := S1x63) S1x63.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x63.size a ≤ S512x63.size a
  hwx5_3 : ∀ i : grid5.Coords, EltTy.bits .f32 = 32 ∨ (Rect.block (s := S512x63) S256x63.size (cc5_transform_3 i) (hinb5_3 i)).WholeWords (EltTy.packing .f32)

variable [Facts₀]

def scatter_S1024x1024_S8192x2_S8192_n_01_01_1 : ScatterDims S1024x1024 S8192x2 S8192 where
  updateWindowDims := []
  insertedWindowDims := [0, 1]
  scatterDimsToOperandDims := [0, 1]
  indexVectorDim := 1
  wf := scatter_S1024x1024_S8192x2_S8192_n_01_01_1_wf
def scatter_S256x256_S2048x2_S2048_n_01_01_1 : ScatterDims S256x256 S2048x2 S2048 where
  updateWindowDims := []
  insertedWindowDims := [0, 1]
  scatterDimsToOperandDims := [0, 1]
  indexVectorDim := 1
  wf := scatter_S256x256_S2048x2_S2048_n_01_01_1_wf
def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S65536x3_S3x32_S65536x32_1_0_0_1_n_n : DotDims S65536x3 S3x32 S65536x32 where
  lhsContracting := [1]
  rhsContracting := [0]
  lhsNonContracting := [0]
  rhsNonContracting := [1]
  lhsBatch := []
  rhsBatch := []
  wf := dot_S65536x3_S3x32_S65536x32_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S32768x32_S32x32_S32768x32_1_0_0_1_n_n : DotDims S32768x32 S32x32 S32768x32 where
  lhsContracting := [1]
  rhsContracting := [0]
  lhsNonContracting := [0]
  rhsNonContracting := [1]
  lhsBatch := []
  rhsBatch := []
  wf := dot_S32768x32_S32x32_S32768x32_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf
def dot_S32768x32_S32x64_S32768x64_1_0_0_1_n_n : DotDims S32768x32 S32x64 S32768x64 where
  lhsContracting := [1]
  rhsContracting := [0]
  lhsNonContracting := [0]
  rhsNonContracting := [1]
  lhsBatch := []
  rhsBatch := []
  wf := dot_S32768x32_S32x64_S32768x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x512_S63x512_S256x63_1_1_0_0_n_n : DotDims S256x512 S63x512 S256x63 where
  lhsContracting := [1]
  rhsContracting := [1]
  lhsNonContracting := [0]
  rhsNonContracting := [0]
  lhsBatch := []
  rhsBatch := []
  wf := dot_S256x512_S63x512_S256x63_1_1_0_0_n_n_wf

abbrev win0_0 : Pipeline.Window sig grid0 :=
  Pipeline.Window.ofSpec (Memref.whole main_v14) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S3x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40) S3x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42) S1024x64x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S1024x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1024x32x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S256x32x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v54) S256x128x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S32x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S256x128x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v29) S256x256.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v66) S256x64x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v70) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S64x64x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v80) S256x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S256x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v82) S256x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v82) S256x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S63x512.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x63.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S256x63.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S512x1024x3 : Shape := ⟨3, ![512, 1024, 3]⟩
abbrev S8192 : Shape := ⟨1, ![8192]⟩
abbrev S2048 : Shape := ⟨1, ![2048]⟩
abbrev S32x9 : Shape := ⟨2, ![32, 9]⟩
abbrev S32 : Shape := ⟨1, ![32]⟩
abbrev S32x96 : Shape := ⟨2, ![32, 96]⟩
abbrev S64x96 : Shape := ⟨2, ![64, 96]⟩
abbrev S64 : Shape := ⟨1, ![64]⟩
abbrev S64x192 : Shape := ⟨2, ![64, 192]⟩
abbrev S512x4096 : Shape := ⟨2, ![512, 4096]⟩
abbrev S512 : Shape := ⟨1, ![512]⟩
abbrev S63x512 : Shape := ⟨2, ![63, 512]⟩
abbrev S63 : Shape := ⟨1, ![63]⟩
abbrev S1024x512x3 : Shape := ⟨3, ![1024, 512, 3]⟩
abbrev S8192x1x1 : Shape := ⟨3, ![8192, 1, 1]⟩
abbrev S_ : Shape := ⟨0, ![]⟩
abbrev S8192x1 : Shape := ⟨2, ![8192, 1]⟩
abbrev S8192x512x3 : Shape := ⟨3, ![8192, 512, 3]⟩
abbrev S1024x512x3x1 : Shape := ⟨4, ![1024, 512, 3, 1]⟩
abbrev S1024x512x3x3 : Shape := ⟨4, ![1024, 512, 3, 3]⟩
abbrev S512x1024x3x3 : Shape := ⟨4, ![512, 1024, 3, 3]⟩
abbrev S512x1024x9 : Shape := ⟨3, ![512, 1024, 9]⟩
abbrev S512x1024x32 : Shape := ⟨3, ![512, 1024, 32]⟩
abbrev S1x1x32 : Shape := ⟨3, ![1, 1, 32]⟩
abbrev S1024x512x32 : Shape := ⟨3, ![1024, 512, 32]⟩
abbrev S8192x512x32 : Shape := ⟨3, ![8192, 512, 32]⟩
abbrev S1024x512x32x1 : Shape := ⟨4, ![1024, 512, 32, 1]⟩
abbrev S1024x512x32x3 : Shape := ⟨4, ![1024, 512, 32, 3]⟩
abbrev S512x1024x32x3 : Shape := ⟨4, ![512, 1024, 32, 3]⟩
abbrev S512x1024x96 : Shape := ⟨3, ![512, 1024, 96]⟩
abbrev S512x256x4x32 : Shape := ⟨4, ![512, 256, 4, 32]⟩
abbrev S512x256x32 : Shape := ⟨3, ![512, 256, 32]⟩
abbrev S256x512x32 : Shape := ⟨3, ![256, 512, 32]⟩
abbrev S2048x1x1 : Shape := ⟨3, ![2048, 1, 1]⟩
abbrev S2048x1 : Shape := ⟨2, ![2048, 1]⟩
abbrev S2048x512x32 : Shape := ⟨3, ![2048, 512, 32]⟩
abbrev S256x512x32x1 : Shape := ⟨4, ![256, 512, 32, 1]⟩
abbrev S256x512x32x3 : Shape := ⟨4, ![256, 512, 32, 3]⟩
abbrev S512x256x32x3 : Shape := ⟨4, ![512, 256, 32, 3]⟩
abbrev S512x256x96 : Shape := ⟨3, ![512, 256, 96]⟩
abbrev S512x256x64 : Shape := ⟨3, ![512, 256, 64]⟩
abbrev S1x1x64 : Shape := ⟨3, ![1, 1, 64]⟩
abbrev S256x512x64 : Shape := ⟨3, ![256, 512, 64]⟩
abbrev S2048x512x64 : Shape := ⟨3, ![2048, 512, 64]⟩
abbrev S256x512x64x1 : Shape := ⟨4, ![256, 512, 64, 1]⟩
abbrev S256x512x64x3 : Shape := ⟨4, ![256, 512, 64, 3]⟩
abbrev S512x256x64x3 : Shape := ⟨4, ![512, 256, 64, 3]⟩
abbrev S512x256x192 : Shape := ⟨3, ![512, 256, 192]⟩
abbrev S512x64x4x64 : Shape := ⟨4, ![512, 64, 4, 64]⟩
abbrev S512x64x64 : Shape := ⟨3, ![512, 64, 64]⟩
abbrev S4096x512 : Shape := ⟨2, ![4096, 512]⟩
abbrev S512x512 : Shape := ⟨2, ![512, 512]⟩
abbrev S1x512 : Shape := ⟨2, ![1, 512]⟩
abbrev S512x63 : Shape := ⟨2, ![512, 63]⟩
abbrev S1x63 : Shape := ⟨2, ![1, 63]⟩

abbrev nBuf : Space → Nat
  | .hbm => 224
  | .vmem => 0
  | .smem => 0
  | _ => 0

abbrev hbmTy0_0 (i : Nat) : BufTy := match i % 128 with
  | 0 => ⟨S512x1024x3, .f32⟩
  | 1 => ⟨S8192, .i32⟩
  | 2 => ⟨S8192, .i32⟩
  | 3 => ⟨S8192, .f32⟩
  | 4 => ⟨S2048, .i32⟩
  | 5 => ⟨S2048, .i32⟩
  | 6 => ⟨S2048, .f32⟩
  | 7 => ⟨S32x9, .f32⟩
  | 8 => ⟨S32, .f32⟩
  | 9 => ⟨S32x96, .f32⟩
  | 10 => ⟨S32, .f32⟩
  | 11 => ⟨S64x96, .f32⟩
  | 12 => ⟨S64, .f32⟩
  | 13 => ⟨S64x192, .f32⟩
  | 14 => ⟨S64, .f32⟩
  | 15 => ⟨S512x4096, .f32⟩
  | 16 => ⟨S512, .f32⟩
  | 17 => ⟨S63x512, .f32⟩
  | 18 => ⟨S63, .f32⟩
  | 19 => ⟨S1024x512x3, .f32⟩
  | 20 => ⟨S8192x1x1, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x512x3, .f32⟩
  | 30 => ⟨S8192x512x3, .f32⟩
  | 31 => ⟨S8192x512x3, .f32⟩
  | 32 => ⟨S_, .f32⟩
  | 33 => ⟨S1024x512x3, .f32⟩
  | 34 => ⟨S8192x1, .i32⟩
  | 35 => ⟨S1024x512x3, .f32⟩
  | 36 => ⟨S8192x1x1, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S8192x512x3, .f32⟩
  | 46 => ⟨S8192x512x3, .f32⟩
  | 47 => ⟨S8192x512x3, .f32⟩
  | 48 => ⟨S_, .f32⟩
  | 49 => ⟨S1024x512x3, .f32⟩
  | 50 => ⟨S8192x1, .i32⟩
  | 51 => ⟨S1024x512x3, .f32⟩
  | 52 => ⟨S_, .f32⟩
  | 53 => ⟨S1024x512x3, .f32⟩
  | 54 => ⟨S1024x512x3, .f32⟩
  | 55 => ⟨S1024x512x3, .f32⟩
  | 56 => ⟨S1024x512x3x1, .f32⟩
  | 57 => ⟨S1024x512x3x1, .f32⟩
  | 58 => ⟨S1024x512x3x1, .f32⟩
  | 59 => ⟨S1024x512x3x3, .f32⟩
  | 60 => ⟨S512x1024x3x3, .f32⟩
  | 61 => ⟨S512x1024x9, .f32⟩
  | 62 => ⟨S512x1024x32, .f32⟩
  | 63 => ⟨S1x1x32, .f32⟩
  | 64 => ⟨S512x1024x32, .f32⟩
  | 65 => ⟨S512x1024x32, .f32⟩
  | 66 => ⟨S1024x512x32, .f32⟩
  | 67 => ⟨S8192x1x1, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512x32, .f32⟩
  | 77 => ⟨S8192x512x32, .f32⟩
  | 78 => ⟨S8192x512x32, .f32⟩
  | 79 => ⟨S_, .f32⟩
  | 80 => ⟨S1024x512x32, .f32⟩
  | 81 => ⟨S8192x1, .i32⟩
  | 82 => ⟨S1024x512x32, .f32⟩
  | 83 => ⟨S8192x1x1, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x512x32, .f32⟩
  | 93 => ⟨S8192x512x32, .f32⟩
  | 94 => ⟨S8192x512x32, .f32⟩
  | 95 => ⟨S_, .f32⟩
  | 96 => ⟨S1024x512x32, .f32⟩
  | 97 => ⟨S8192x1, .i32⟩
  | 98 => ⟨S1024x512x32, .f32⟩
  | 99 => ⟨S_, .f32⟩
  | 100 => ⟨S1024x512x32, .f32⟩
  | 101 => ⟨S1024x512x32, .f32⟩
  | 102 => ⟨S1024x512x32, .f32⟩
  | 103 => ⟨S1024x512x32x1, .f32⟩
  | 104 => ⟨S1024x512x32x1, .f32⟩
  | 105 => ⟨S1024x512x32x1, .f32⟩
  | 106 => ⟨S1024x512x32x3, .f32⟩
  | 107 => ⟨S512x1024x32x3, .f32⟩
  | 108 => ⟨S512x1024x96, .f32⟩
  | 109 => ⟨S512x1024x32, .f32⟩
  | 110 => ⟨S1x1x32, .f32⟩
  | 111 => ⟨S512x1024x32, .f32⟩
  | 112 => ⟨S512x1024x32, .f32⟩
  | 113 => ⟨S512x256x4x32, .f32⟩
  | 114 => ⟨S_, .f32⟩
  | 115 => ⟨S512x256x32, .f32⟩
  | 116 => ⟨S256x512x32, .f32⟩
  | 117 => ⟨S2048x1x1, .f32⟩
  | 118 => ⟨S_, .i32⟩
  | 119 => ⟨S2048, .i32⟩
  | 120 => ⟨S2048, .i1⟩
  | 121 => ⟨S_, .i32⟩
  | 122 => ⟨S2048, .i32⟩
  | 123 => ⟨S2048, .i32⟩
  | 124 => ⟨S2048, .i32⟩
  | 125 => ⟨S2048x1, .i32⟩
  | 126 => ⟨S2048x512x32, .f32⟩
  | 127 => ⟨S2048x512x32, .f32⟩
  | _ => ⟨S512x1024x3, .f32⟩

abbrev hbmTy0_1 (i : Nat) : BufTy := match i % 128 with
  | 0 => ⟨S2048x512x32, .f32⟩
  | 1 => ⟨S_, .f32⟩
  | 2 => ⟨S256x512x32, .f32⟩
  | 3 => ⟨S2048x1, .i32⟩
  | 4 => ⟨S256x512x32, .f32⟩
  | 5 => ⟨S2048x1x1, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S2048x512x32, .f32⟩
  | 15 => ⟨S2048x512x32, .f32⟩
  | 16 => ⟨S2048x512x32, .f32⟩
  | 17 => ⟨S_, .f32⟩
  | 18 => ⟨S256x512x32, .f32⟩
  | 19 => ⟨S2048x1, .i32⟩
  | 20 => ⟨S256x512x32, .f32⟩
  | 21 => ⟨S_, .f32⟩
  | 22 => ⟨S256x512x32, .f32⟩
  | 23 => ⟨S256x512x32, .f32⟩
  | 24 => ⟨S256x512x32, .f32⟩
  | 25 => ⟨S256x512x32x1, .f32⟩
  | 26 => ⟨S256x512x32x1, .f32⟩
  | 27 => ⟨S256x512x32x1, .f32⟩
  | 28 => ⟨S256x512x32x3, .f32⟩
  | 29 => ⟨S512x256x32x3, .f32⟩
  | 30 => ⟨S512x256x96, .f32⟩
  | 31 => ⟨S512x256x64, .f32⟩
  | 32 => ⟨S1x1x64, .f32⟩
  | 33 => ⟨S512x256x64, .f32⟩
  | 34 => ⟨S512x256x64, .f32⟩
  | 35 => ⟨S256x512x64, .f32⟩
  | 36 => ⟨S2048x1x1, .f32⟩
  | 37 => ⟨S_, .i32⟩
  | 38 => ⟨S2048, .i32⟩
  | 39 => ⟨S2048, .i1⟩
  | 40 => ⟨S_, .i32⟩
  | 41 => ⟨S2048, .i32⟩
  | 42 => ⟨S2048, .i32⟩
  | 43 => ⟨S2048, .i32⟩
  | 44 => ⟨S2048x1, .i32⟩
  | 45 => ⟨S2048x512x64, .f32⟩
  | 46 => ⟨S2048x512x64, .f32⟩
  | 47 => ⟨S2048x512x64, .f32⟩
  | 48 => ⟨S_, .f32⟩
  | 49 => ⟨S256x512x64, .f32⟩
  | 50 => ⟨S2048x1, .i32⟩
  | 51 => ⟨S256x512x64, .f32⟩
  | 52 => ⟨S2048x1x1, .f32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S2048x512x64, .f32⟩
  | 62 => ⟨S2048x512x64, .f32⟩
  | 63 => ⟨S2048x512x64, .f32⟩
  | 64 => ⟨S_, .f32⟩
  | 65 => ⟨S256x512x64, .f32⟩
  | 66 => ⟨S2048x1, .i32⟩
  | 67 => ⟨S256x512x64, .f32⟩
  | 68 => ⟨S_, .f32⟩
  | 69 => ⟨S256x512x64, .f32⟩
  | 70 => ⟨S256x512x64, .f32⟩
  | 71 => ⟨S256x512x64, .f32⟩
  | 72 => ⟨S256x512x64x1, .f32⟩
  | 73 => ⟨S256x512x64x1, .f32⟩
  | 74 => ⟨S256x512x64x1, .f32⟩
  | 75 => ⟨S256x512x64x3, .f32⟩
  | 76 => ⟨S512x256x64x3, .f32⟩
  | 77 => ⟨S512x256x192, .f32⟩
  | 78 => ⟨S512x256x64, .f32⟩
  | 79 => ⟨S1x1x64, .f32⟩
  | 80 => ⟨S512x256x64, .f32⟩
  | 81 => ⟨S512x256x64, .f32⟩
  | 82 => ⟨S512x64x4x64, .f32⟩
  | 83 => ⟨S_, .f32⟩
  | 84 => ⟨S512x64x64, .f32⟩
  | 85 => ⟨S512x4096, .f32⟩
  | 86 => ⟨S4096x512, .f32⟩
  | 87 => ⟨S512x512, .f32⟩
  | 88 => ⟨S1x512, .f32⟩
  | 89 => ⟨S512x512, .f32⟩
  | 90 => ⟨S512x512, .f32⟩
  | 91 => ⟨S512x63, .f32⟩
  | 92 => ⟨S512x63, .f32⟩
  | 93 => ⟨S1x63, .f32⟩
  | 94 => ⟨S512x63, .f32⟩
  | 95 => ⟨S512x63, .f32⟩
  | _ => ⟨S512x1024x3, .f32⟩

abbrev hbmTy (i : Nat) : BufTy := match i / 128 with
  | 0 => hbmTy0_0 i
  | 1 => hbmTy0_1 i
  | _ => ⟨S512x1024x3, .f32⟩

abbrev bufTy : (tb : Table) → Fin (tcTables nBuf tb) → BufTy
  | .hbm, ⟨i, _⟩ => hbmTy i
  | _, _ => ⟨S512x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_c_2 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_5 : Ref sig .tc := ⟨.hbm, 68, rfl⟩
abbrev main_v42 : Ref sig .tc := ⟨.hbm, 69, rfl⟩
abbrev main_v43 : Ref sig .tc := ⟨.hbm, 70, rfl⟩
abbrev main_c_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_8 : Ref sig .tc := ⟨.hbm, 84, rfl⟩
abbrev main_v55 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_11 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_12 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_13 : Ref sig .tc := ⟨.hbm, 118, rfl⟩
abbrev main_v84 : Ref sig .tc := ⟨.hbm, 119, rfl⟩
abbrev main_v85 : Ref sig .tc := ⟨.hbm, 120, rfl⟩
abbrev main_c_14 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_16 : Ref sig .tc := ⟨.hbm, 134, rfl⟩
abbrev main_v97 : Ref sig .tc := ⟨.hbm, 135, rfl⟩
abbrev main_v98 : Ref sig .tc := ⟨.hbm, 136, rfl⟩
abbrev main_c_17 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_18 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_19 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_c_20 : Ref sig .tc := ⟨.hbm, 165, rfl⟩
abbrev main_v124 : Ref sig .tc := ⟨.hbm, 166, rfl⟩
abbrev main_v125 : Ref sig .tc := ⟨.hbm, 167, rfl⟩
abbrev main_c_21 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_22 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_c_23 : Ref sig .tc := ⟨.hbm, 181, rfl⟩
abbrev main_v137 : Ref sig .tc := ⟨.hbm, 182, rfl⟩
abbrev main_v138 : Ref sig .tc := ⟨.hbm, 183, rfl⟩
abbrev main_c_24 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_cst_25 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_26 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_27 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩

abbrev nD : Nat := 1
abbrev τ : Topo := Topo.v7x

variable {F : FTy → Type} [FloatOps F]

class Facts₀ : Prop where
  transposes_S512x1024x3_S1024x512x3_1_0_2 : S512x1024x3.Transposes [1, 0, 2] S1024x512x3
  bcast_S8192_S8192x1x1_0 : S8192.BroadcastsInDim S8192x1x1 (![0] : Fin 1 → Fin S8192x1x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1x1_S8192x512x3_0_1_2 : S8192x1x1.BroadcastsInDim S8192x512x3 (![0, 1, 2] : Fin 3 → Fin S8192x512x3.rank)
  bcast_S_S1024x512x3 : S_.BroadcastsInDim S1024x512x3 (![] : Fin 0 → Fin S1024x512x3.rank)
  bcast_S1024x512x3_S1024x512x3x1_0_1_2 : S1024x512x3.BroadcastsInDim S1024x512x3x1 (![0, 1, 2] : Fin 3 → Fin S1024x512x3x1.rank)
  concatenates_S1024x512x3x1_S1024x512x3x1_S1024x512x3x1_S1024x512x3x3_d3 : Shape.Concatenates [S1024x512x3x1, S1024x512x3x1, S1024x512x3x1] S1024x512x3x3 3
  transposes_S1024x512x3x3_S512x1024x3x3_1_0_2_3 : S1024x512x3x3.Transposes [1, 0, 2, 3] S512x1024x3x3
  shapeCasts_S512x1024x3x3_S512x1024x9 : S512x1024x3x3.ShapeCasts S512x1024x9
  bcast_S32_S1x1x32_2 : S32.BroadcastsInDim S1x1x32 (![2] : Fin 1 → Fin S1x1x32.rank)
  bcast_S1x1x32_S512x1024x32_0_1_2 : S1x1x32.BroadcastsInDim S512x1024x32 (![0, 1, 2] : Fin 3 → Fin S512x1024x32.rank)
  transposes_S512x1024x32_S1024x512x32_1_0_2 : S512x1024x32.Transposes [1, 0, 2] S1024x512x32
  bcast_S8192x1x1_S8192x512x32_0_1_2 : S8192x1x1.BroadcastsInDim S8192x512x32 (![0, 1, 2] : Fin 3 → Fin S8192x512x32.rank)
  bcast_S_S1024x512x32 : S_.BroadcastsInDim S1024x512x32 (![] : Fin 0 → Fin S1024x512x32.rank)
  bcast_S1024x512x32_S1024x512x32x1_0_1_2 : S1024x512x32.BroadcastsInDim S1024x512x32x1 (![0, 1, 2] : Fin 3 → Fin S1024x512x32x1.rank)
  concatenates_S1024x512x32x1_S1024x512x32x1_S1024x512x32x1_S1024x512x32x3_d3 : Shape.Concatenates [S1024x512x32x1, S1024x512x32x1, S1024x512x32x1] S1024x512x32x3 3
  transposes_S1024x512x32x3_S512x1024x32x3_1_0_2_3 : S1024x512x32x3.Transposes [1, 0, 2, 3] S512x1024x32x3
  shapeCasts_S512x1024x32x3_S512x1024x96 : S512x1024x32x3.ShapeCasts S512x1024x96
  shapeCasts_S512x1024x32_S512x256x4x32 : S512x1024x32.ShapeCasts S512x256x4x32
  reducesTo_S512x256x4x32_S512x256x32_d2 : S512x256x4x32.ReducesTo [2] S512x256x32
  h_S_ : 0 < S_.numel
  transposes_S512x256x32_S256x512x32_1_0_2 : S512x256x32.Transposes [1, 0, 2] S256x512x32
  bcast_S2048_S2048x1x1_0 : S2048.BroadcastsInDim S2048x1x1 (![0] : Fin 1 → Fin S2048x1x1.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1x1_S2048x512x32_0_1_2 : S2048x1x1.BroadcastsInDim S2048x512x32 (![0, 1, 2] : Fin 3 → Fin S2048x512x32.rank)
  bcast_S_S256x512x32 : S_.BroadcastsInDim S256x512x32 (![] : Fin 0 → Fin S256x512x32.rank)
  bcast_S256x512x32_S256x512x32x1_0_1_2 : S256x512x32.BroadcastsInDim S256x512x32x1 (![0, 1, 2] : Fin 3 → Fin S256x512x32x1.rank)
  concatenates_S256x512x32x1_S256x512x32x1_S256x512x32x1_S256x512x32x3_d3 : Shape.Concatenates [S256x512x32x1, S256x512x32x1, S256x512x32x1] S256x512x32x3 3
  transposes_S256x512x32x3_S512x256x32x3_1_0_2_3 : S256x512x32x3.Transposes [1, 0, 2, 3] S512x256x32x3
  shapeCasts_S512x256x32x3_S512x256x96 : S512x256x32x3.ShapeCasts S512x256x96
  bcast_S64_S1x1x64_2 : S64.BroadcastsInDim S1x1x64 (![2] : Fin 1 → Fin S1x1x64.rank)
  bcast_S1x1x64_S512x256x64_0_1_2 : S1x1x64.BroadcastsInDim S512x256x64 (![0, 1, 2] : Fin 3 → Fin S512x256x64.rank)
  transposes_S512x256x64_S256x512x64_1_0_2 : S512x256x64.Transposes [1, 0, 2] S256x512x64
  bcast_S2048x1x1_S2048x512x64_0_1_2 : S2048x1x1.BroadcastsInDim S2048x512x64 (![0, 1, 2] : Fin 3 → Fin S2048x512x64.rank)
  bcast_S_S256x512x64 : S_.BroadcastsInDim S256x512x64 (![] : Fin 0 → Fin S256x512x64.rank)
  bcast_S256x512x64_S256x512x64x1_0_1_2 : S256x512x64.BroadcastsInDim S256x512x64x1 (![0, 1, 2] : Fin 3 → Fin S256x512x64x1.rank)
  concatenates_S256x512x64x1_S256x512x64x1_S256x512x64x1_S256x512x64x3_d3 : Shape.Concatenates [S256x512x64x1, S256x512x64x1, S256x512x64x1] S256x512x64x3 3
  transposes_S256x512x64x3_S512x256x64x3_1_0_2_3 : S256x512x64x3.Transposes [1, 0, 2, 3] S512x256x64x3
  shapeCasts_S512x256x64x3_S512x256x192 : S512x256x64x3.ShapeCasts S512x256x192
  shapeCasts_S512x256x64_S512x64x4x64 : S512x256x64.ShapeCasts S512x64x4x64
  reducesTo_S512x64x4x64_S512x64x64_d2 : S512x64x4x64.ReducesTo [2] S512x64x64
  shapeCasts_S512x64x64_S512x4096 : S512x64x64.ShapeCasts S512x4096
  transposes_S512x4096_S4096x512_1_0 : S512x4096.Transposes [1, 0] S4096x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  transposes_S63x512_S512x63_1_0 : S63x512.Transposes [1, 0] S512x63
  bcast_S63_S1x63_1 : S63.BroadcastsInDim S1x63 (![1] : Fin 1 → Fin S1x63.rank)
  bcast_S1x63_S512x63_0_1 : S1x63.BroadcastsInDim S512x63 (![0, 1] : Fin 2 → Fin S512x63.rank)
  gather_S1024x512x3_S8192x1_S8192x512x3_12_0_n_n_0_1_15123_wf : GatherDims.WF S1024x512x3 S8192x1 S8192x512x3 [1, 2] [0] [] [0] [] 1 ![1, 512, 3]
  scatter_S1024x512x3_S8192x1_S8192x512x3_12_0_0_1_wf : ScatterDims.WF S1024x512x3 S8192x1 S8192x512x3 [1, 2] [0] [0] 1
  dot_S512x1024x9_S32x9_S512x1024x32_2_1_01_0_n_n_wf : DotDims.WF S512x1024x9 S32x9 S512x1024x32 [2] [1] [0, 1] [0] [] []
  gather_S1024x512x32_S8192x1_S8192x512x32_12_0_n_n_0_1_151232_wf : GatherDims.WF S1024x512x32 S8192x1 S8192x512x32 [1, 2] [0] [] [0] [] 1 ![1, 512, 32]
  scatter_S1024x512x32_S8192x1_S8192x512x32_12_0_0_1_wf : ScatterDims.WF S1024x512x32 S8192x1 S8192x512x32 [1, 2] [0] [0] 1
  dot_S512x1024x96_S32x96_S512x1024x32_2_1_01_0_n_n_wf : DotDims.WF S512x1024x96 S32x96 S512x1024x32 [2] [1] [0, 1] [0] [] []
  gather_S256x512x32_S2048x1_S2048x512x32_12_0_n_n_0_1_151232_wf : GatherDims.WF S256x512x32 S2048x1 S2048x512x32 [1, 2] [0] [] [0] [] 1 ![1, 512, 32]
  scatter_S256x512x32_S2048x1_S2048x512x32_12_0_0_1_wf : ScatterDims.WF S256x512x32 S2048x1 S2048x512x32 [1, 2] [0] [0] 1
  dot_S512x256x96_S64x96_S512x256x64_2_1_01_0_n_n_wf : DotDims.WF S512x256x96 S64x96 S512x256x64 [2] [1] [0, 1] [0] [] []
  gather_S256x512x64_S2048x1_S2048x512x64_12_0_n_n_0_1_151264_wf : GatherDims.WF S256x512x64 S2048x1 S2048x512x64 [1, 2] [0] [] [0] [] 1 ![1, 512, 64]
  scatter_S256x512x64_S2048x1_S2048x512x64_12_0_0_1_wf : ScatterDims.WF S256x512x64 S2048x1 S2048x512x64 [1, 2] [0] [0] 1
  dot_S512x256x192_S64x192_S512x256x64_2_1_01_0_n_n_wf : DotDims.WF S512x256x192 S64x192 S512x256x64 [2] [1] [0, 1] [0] [] []
  dot_S512x4096_S4096x512_S512x512_1_0_0_1_n_n_wf : DotDims.WF S512x4096 S4096x512 S512x512 [1] [0] [0] [1] [] []
  dot_S512x512_S512x63_S512x63_1_0_0_1_n_n_wf : DotDims.WF S512x512 S512x63 S512x63 [1] [0] [0] [1] [] []

variable [Facts₀]

def gather_S1024x512x3_S8192x1_S8192x512x3_12_0_n_n_0_1_15123 : GatherDims S1024x512x3 S8192x1 S8192x512x3 where
  offsetDims := [1, 2]
  collapsedSliceDims := [0]
  operandBatchingDims := []
  startIndicesBatchingDims := []
  startIndexMap := [0]
  indexVectorDim := 1
  sliceSizes := ![1, 512, 3]
  wf := gather_S1024x512x3_S8192x1_S8192x512x3_12_0_n_n_0_1_15123_wf
def scatter_S1024x512x3_S8192x1_S8192x512x3_12_0_0_1 : ScatterDims S1024x512x3 S8192x1 S8192x512x3 where
  updateWindowDims := [1, 2]
  insertedWindowDims := [0]
  scatterDimsToOperandDims := [0]
  indexVectorDim := 1
  wf := scatter_S1024x512x3_S8192x1_S8192x512x3_12_0_0_1_wf
def dot_S512x1024x9_S32x9_S512x1024x32_2_1_01_0_n_n : DotDims S512x1024x9 S32x9 S512x1024x32 where
  lhsContracting := [2]
  rhsContracting := [1]
  lhsNonContracting := [0, 1]
  rhsNonContracting := [0]
  lhsBatch := []
  rhsBatch := []
  wf := dot_S512x1024x9_S32x9_S512x1024x32_2_1_01_0_n_n_wf
def gather_S1024x512x32_S8192x1_S8192x512x32_12_0_n_n_0_1_151232 : GatherDims S1024x512x32 S8192x1 S8192x512x32 where
  offsetDims := [1, 2]
  collapsedSliceDims := [0]
  operandBatchingDims := []
  startIndicesBatchingDims := []
  startIndexMap := [0]
  indexVectorDim := 1
  sliceSizes := ![1, 512, 32]
  wf := gather_S1024x512x32_S8192x1_S8192x512x32_12_0_n_n_0_1_151232_wf
def scatter_S1024x512x32_S8192x1_S8192x512x32_12_0_0_1 : ScatterDims S1024x512x32 S8192x1 S8192x512x32 where
  updateWindowDims := [1, 2]
  insertedWindowDims := [0]
  scatterDimsToOperandDims := [0]
  indexVectorDim := 1
  wf := scatter_S1024x512x32_S8192x1_S8192x512x32_12_0_0_1_wf
def dot_S512x1024x96_S32x96_S512x1024x32_2_1_01_0_n_n : DotDims S512x1024x96 S32x96 S512x1024x32 where
  lhsContracting := [2]
  rhsContracting := [1]
  lhsNonContracting := [0, 1]
  rhsNonContracting := [0]
  lhsBatch := []
  rhsBatch := []
  wf := dot_S512x1024x96_S32x96_S512x1024x32_2_1_01_0_n_n_wf
def gather_S256x512x32_S2048x1_S2048x512x32_12_0_n_n_0_1_151232 : GatherDims S256x512x32 S2048x1 S2048x512x32 where
  offsetDims := [1, 2]
  collapsedSliceDims := [0]
  operandBatchingDims := []
  startIndicesBatchingDims := []
  startIndexMap := [0]
  indexVectorDim := 1
  sliceSizes := ![1, 512, 32]
  wf := gather_S256x512x32_S2048x1_S2048x512x32_12_0_n_n_0_1_151232_wf
def scatter_S256x512x32_S2048x1_S2048x512x32_12_0_0_1 : ScatterDims S256x512x32 S2048x1 S2048x512x32 where
  updateWindowDims := [1, 2]
  insertedWindowDims := [0]
  scatterDimsToOperandDims := [0]
  indexVectorDim := 1
  wf := scatter_S256x512x32_S2048x1_S2048x512x32_12_0_0_1_wf
def dot_S512x256x96_S64x96_S512x256x64_2_1_01_0_n_n : DotDims S512x256x96 S64x96 S512x256x64 where
  lhsContracting := [2]
  rhsContracting := [1]
  lhsNonContracting := [0, 1]
  rhsNonContracting := [0]
  lhsBatch := []
  rhsBatch := []
  wf := dot_S512x256x96_S64x96_S512x256x64_2_1_01_0_n_n_wf
def gather_S256x512x64_S2048x1_S2048x512x64_12_0_n_n_0_1_151264 : GatherDims S256x512x64 S2048x1 S2048x512x64 where
  offsetDims := [1, 2]
  collapsedSliceDims := [0]
  operandBatchingDims := []
  startIndicesBatchingDims := []
  startIndexMap := [0]
  indexVectorDim := 1
  sliceSizes := ![1, 512, 64]
  wf := gather_S256x512x64_S2048x1_S2048x512x64_12_0_n_n_0_1_151264_wf
def scatter_S256x512x64_S2048x1_S2048x512x64_12_0_0_1 : ScatterDims S256x512x64 S2048x1 S2048x512x64 where
  updateWindowDims := [1, 2]
  insertedWindowDims := [0]
  scatterDimsToOperandDims := [0]
  indexVectorDim := 1
  wf := scatter_S256x512x64_S2048x1_S2048x512x64_12_0_0_1_wf
def dot_S512x256x192_S64x192_S512x256x64_2_1_01_0_n_n : DotDims S512x256x192 S64x192 S512x256x64 where
  lhsContracting := [2]
  rhsContracting := [1]
  lhsNonContracting := [0, 1]
  rhsNonContracting := [0]
  lhsBatch := []
  rhsBatch := []
  wf := dot_S512x256x192_S64x192_S512x256x64_2_1_01_0_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf
def dot_S512x512_S512x63_S512x63_1_0_0_1_n_n : DotDims S512x512 S512x63 S512x63 where
  lhsContracting := [1]
  rhsContracting := [0]
  lhsNonContracting := [0]
  rhsNonContracting := [1]
  lhsBatch := []
  rhsBatch := []
  wf := dot_S512x512_S512x63_S512x63_1_0_0_1_n_n_wf

class Facts : Prop extends Facts₀ where

variable [Facts]
-- ==== Proof.Spec.lean ====
/-
  The network both programs compute, written once over plain coordinates (no array shapes): a Chebyshev graph
  convolution of order three followed by a linear map, a max-pool over groups of four consecutive vertices, and an
  affine map. Each piece is stated in the two arrangements the programs use.

  * "dense" arrangement: the graph operator is a V × V matrix `L v u = ∑ e, [rows e = v ∧ cols e = u] vals e`
    (`denseE`), activations are vertex-major `x v b f`, the operator acts by `(L x) v b f = ∑ u, L v u * x u b f`
    (`lmulE`), the three Chebyshev terms x, L x, 2 L (L x) − x are projected by three Fi × Fo matrices and summed
    (`chebDenseE`).
  * "edge list" arrangement: the operator acts edge by edge, `(S x) v b f = ∑ e, [rows e = v] vals e * x (cols e) b f`
    (`spmmE`), the three terms are interleaved along the feature axis (position 3 f + k holds term k at feature f:
    `stack3E`) and contracted with one Fo × 3 Fi matrix (`chebCooE`); activations are batch-major `x b v f`.

  Everything is stated over the extended reals (what the idealized programs hold) and again over the reals (`…R`);
  Proof/Algebra.lean shows that on real inputs the extended-real functions are the coercions of the real ones and that the
  two arrangements agree.
-/
import Idealize.ShloMosaic.PureOps.Ideal
import Idealize.ShloMosaic.Lib.ValueIdx

noncomputable section

namespace Cert.Net

open Idealize.ShloMosaic Idealize.ShloMosaic.ValueIdx

/-! ## Arrays read by coordinates -/

/-- A rank-1 array as a function of its coordinate. -/
def cur1 {a : Nat} {α : Type} (x : (⟨1, ![a]⟩ : Shape).Idx → α) : Fin a → α := fun i => x (ix1 i)
/-- A rank-2 array as a function of its coordinates. -/
def cur2 {a b : Nat} {α : Type} (x : (⟨2, ![a, b]⟩ : Shape).Idx → α) : Fin a → Fin b → α := fun i j => x (ix2 i j)
/-- A rank-3 array as a function of its coordinates. -/
def cur3 {a b c : Nat} {α : Type} (x : (⟨3, ![a, b, c]⟩ : Shape).Idx → α) : Fin a → Fin b → Fin c → α :=
  fun i j k => x (ix3 i j k)

theorem cur1_apply {a : Nat} {α : Type} (x : (⟨1, ![a]⟩ : Shape).Idx → α) (i : Fin a) : cur1 x i = x (ix1 i) := rfl
theorem cur2_apply {a b : Nat} {α : Type} (x : (⟨2, ![a, b]⟩ : Shape).Idx → α) (i : Fin a) (j : Fin b) :
    cur2 x i j = x (ix2 i j) := rfl
theorem cur3_apply {a b c : Nat} {α : Type} (x : (⟨3, ![a, b, c]⟩ : Shape).Idx → α) (i : Fin a) (j : Fin b) (k : Fin c) :
    cur3 x i j k = x (ix3 i j k) := rfl

/-- Two rank-1 arrays with the same coordinates' values are equal. -/
theorem cur1_inj {a : Nat} {α : Type} {x y : (⟨1, ![a]⟩ : Shape).Idx → α} (h : cur1 x = cur1 y) : x = y := by
  funext j; rw [eq_ix1 j]; exact congrFun h (j 0)
/-- Two rank-2 arrays with the same coordinates' values are equal. -/
theorem cur2_inj {a b : Nat} {α : Type} {x y : (⟨2, ![a, b]⟩ : Shape).Idx → α} (h : cur2 x = cur2 y) : x = y := by
  funext j; rw [eq_ix2 j]; exact congrFun (congrFun h (j 0)) (j 1)
/-- Two rank-3 arrays with the same coordinates' values are equal. -/
theorem cur3_inj {a b c : Nat} {α : Type} {x y : (⟨3, ![a, b, c]⟩ : Shape).Idx → α} (h : cur3 x = cur3 y) : x = y := by
  funext j; rw [eq_ix3 j]; exact congrFun (congrFun (congrFun h (j 0)) (j 1)) (j 2)

/-! ## The three float constants the programs carry, as extended reals -/

/-- The f32 word of 2.0. -/
def two : EReal := Ideal.ofBits .f32 0x40000000#32
/-- The f32 word of −∞ (a maximum's starting value). -/
def ninf : EReal := Ideal.ofBits .f32 0xFF800000#32
/-- The f32 word of +0.0. -/
def zeroE : EReal := Ideal.ofBits .f32 0x00000000#32

/-! ## Reals as extended reals, coordinate by coordinate -/

def c1 {a : Nat} (x : Fin a → ℝ) : Fin a → EReal := fun i => ((x i : ℝ) : EReal)
def c2 {a b : Nat} (x : Fin a → Fin b → ℝ) : Fin a → Fin b → EReal := fun i j => ((x i j : ℝ) : EReal)
def c3 {a b c : Nat} (x : Fin a → Fin b → Fin c → ℝ) : Fin a → Fin b → Fin c → EReal := fun i j k => ((x i j k : ℝ) : EReal)

/-! ## Re-arrangements -/

section Layout
variable {α : Type} {B V F Fi Fo K : Nat}

/-- Batch-major to vertex-major (and back: the same swap). -/
def vmaj (x : Fin B → Fin V → Fin F → α) : Fin V → Fin B → Fin F → α := fun v b f => x b v f

/-- Term `k` of the Fo × 3 Fi projection matrix, transposed: entry (f, o) is `W o (3 f + k)`. -/
def splitW (h3 : 3 * Fi = K) (W : Fin Fo → Fin K → α) (k : Fin 3) : Fin Fi → Fin Fo → α :=
  fun f o => W o ⟨3 * f.val + k.val, by have := f.isLt; have := k.isLt; omega⟩

/-- A vertex-major activation flattened per batch row: position v · F + f holds `y v b f`. -/
def flat (hK : V * F = K) (hF : 0 < F) (y : Fin V → Fin B → Fin F → α) : Fin B → Fin K → α :=
  fun b i => y ⟨i.val / F, Nat.div_lt_of_lt_mul (by rw [Nat.mul_comm, hK]; exact i.isLt)⟩ b ⟨i.val % F, Nat.mod_lt _ hF⟩

/-- A batch-major activation flattened per batch row: position v · F + f holds `y b v f`. -/
def flatB (hK : V * F = K) (hF : 0 < F) (y : Fin B → Fin V → Fin F → α) : Fin B → Fin K → α :=
  fun b i => y b ⟨i.val / F, Nat.div_lt_of_lt_mul (by rw [Nat.mul_comm, hK]; exact i.isLt)⟩ ⟨i.val % F, Nat.mod_lt _ hF⟩

end Layout

/-! ## Over the extended reals -/

section E
variable {E V V' B Fi Fo K M N : Nat}

/-- The V × V graph operator of an edge list: entry (r, c) sums the values of the edges from c to r. -/
def denseE (rows cols : Fin E → Fin V) (vals : Fin E → EReal) (r c : Fin V) : EReal :=
  ∑ e : Fin E, if rows e = r ∧ cols e = c then vals e else 0

/-- A V × V matrix applied along the vertex axis of a vertex-major activation. -/
def lmulE (L : Fin V → Fin V → EReal) (x : Fin V → Fin B → Fin Fi → EReal) (v : Fin V) (b : Fin B) (f : Fin Fi) : EReal :=
  ∑ u : Fin V, L v u * x u b f

/-- The third Chebyshev term, 2 L (L x) − x. -/
def cheb2E (L : Fin V → Fin V → EReal) (x : Fin V → Fin B → Fin Fi → EReal) (v : Fin V) (b : Fin B) (f : Fin Fi) : EReal :=
  two * lmulE L (lmulE L x) v b f - x v b f

/-- The Chebyshev layer, dense arrangement: ((x W₀ + (L x) W₁) + (2 L L x − x) W₂) + bias, vertex-major. -/
def chebDenseE (L : Fin V → Fin V → EReal) (x : Fin V → Fin B → Fin Fi → EReal) (W0 W1 W2 : Fin Fi → Fin Fo → EReal)
    (bias : Fin Fo → EReal) (v : Fin V) (b : Fin B) (o : Fin Fo) : EReal :=
  (((∑ f : Fin Fi, x v b f * W0 f o) + ∑ f : Fin Fi, lmulE L x v b f * W1 f o) + ∑ f : Fin Fi, cheb2E L x v b f * W2 f o)
    + bias o

/-- The maximum over each group of four consecutive vertices, from −∞, vertex-major. -/
def poolE (h : 4 * V' = V) (y : Fin V → Fin B → Fin Fo → EReal) (v : Fin V') (b : Fin B) (o : Fin Fo) : EReal :=
  (Finset.univ : Finset (Fin 4)).fold max ninf
    (fun k => y ⟨4 * v.val + k.val, by have := v.isLt; have := k.isLt; omega⟩ b o)

/-- An affine map with the weight matrix given row by output: (∑ k, A i k · W n k) + bias n. -/
def fcE (A : Fin M → Fin K → EReal) (W : Fin N → Fin K → EReal) (bias : Fin N → EReal) (i : Fin M) (n : Fin N) : EReal :=
  (∑ k : Fin K, A i k * W n k) + bias n

/-- The edge list applied along the vertex axis of a vertex-major activation. -/
def spmmE (rows cols : Fin E → Fin V) (vals : Fin E → EReal) (x : Fin V → Fin B → Fin Fi → EReal)
    (v : Fin V) (b : Fin B) (f : Fin Fi) : EReal :=
  ∑ e : Fin E, if rows e = v then vals e * x (cols e) b f else 0

/-- The third Chebyshev term through the edge list. -/
def cheb2CooE (rows cols : Fin E → Fin V) (vals : Fin E → EReal) (x : Fin V → Fin B → Fin Fi → EReal)
    (v : Fin V) (b : Fin B) (f : Fin Fi) : EReal :=
  two * spmmE rows cols vals (spmmE rows cols vals x) v b f - x v b f

/-- Three vertex-major activations interleaved along the feature axis, batch-major: position 3 f + k holds term k at f. -/
def stack3E (h3 : 3 * Fi = K) (x0 x1 x2 : Fin V → Fin B → Fin Fi → EReal) (b : Fin B) (v : Fin V) (i : Fin K) : EReal :=
  let f : Fin Fi := ⟨i.val / 3, by have := i.isLt; omega⟩
  if i.val % 3 = 0 then x0 v b f else if i.val % 3 = 1 then x1 v b f else x2 v b f

/-- The Chebyshev layer, edge-list arrangement, batch-major in and out. -/
def chebCooE (rows cols : Fin E → Fin V) (vals : Fin E → EReal) (x : Fin B → Fin V → Fin Fi → EReal) (h3 : 3 * Fi = K)
    (W : Fin Fo → Fin K → EReal) (bias : Fin Fo → EReal) (b : Fin B) (v : Fin V) (o : Fin Fo) : EReal :=
  (∑ i : Fin K, stack3E h3 (vmaj x) (spmmE rows cols vals (vmaj x)) (cheb2CooE rows cols vals (vmaj x)) b v i * W o i) + bias o

/-- The maximum over each group of four consecutive vertices, from −∞, batch-major. -/
def poolBE (h : 4 * V' = V) (y : Fin B → Fin V → Fin Fo → EReal) (b : Fin B) (v : Fin V') (o : Fin Fo) : EReal :=
  (Finset.univ : Finset (Fin 4)).fold max ninf
    (fun k => y b ⟨4 * v.val + k.val, by have := v.isLt; have := k.isLt; omega⟩ o)

end E

/-! ## Over the reals -/

section R
variable {E V V' B Fi Fo K M N : Nat}

def spmmR (rows cols : Fin E → Fin V) (vals : Fin E → ℝ) (x : Fin V → Fin B → Fin Fi → ℝ)
    (v : Fin V) (b : Fin B) (f : Fin Fi) : ℝ :=
  ∑ e : Fin E, if rows e = v then vals e * x (cols e) b f else 0

def cheb2CooR (rows cols : Fin E → Fin V) (vals : Fin E → ℝ) (x : Fin V → Fin B → Fin Fi → ℝ)
    (v : Fin V) (b : Fin B) (f : Fin Fi) : ℝ :=
  2 * spmmR rows cols vals (spmmR rows cols vals x) v b f - x v b f

def stack3R (h3 : 3 * Fi = K) (x0 x1 x2 : Fin V → Fin B → Fin Fi → ℝ) (b : Fin B) (v : Fin V) (i : Fin K) : ℝ :=
  let f : Fin Fi := ⟨i.val / 3, by have := i.isLt; omega⟩
  if i.val % 3 = 0 then x0 v b f else if i.val % 3 = 1 then x1 v b f else x2 v b f

/-- The Chebyshev layer over the reals, batch-major in and out. -/
def chebR (rows cols : Fin E → Fin V) (vals : Fin E → ℝ) (x : Fin B → Fin V → Fin Fi → ℝ) (h3 : 3 * Fi = K)
    (W : Fin Fo → Fin K → ℝ) (bias : Fin Fo → ℝ) (b : Fin B) (v : Fin V) (o : Fin Fo) : ℝ :=
  (∑ i : Fin K, stack3R h3 (vmaj x) (spmmR rows cols vals (vmaj x)) (cheb2CooR rows cols vals (vmaj x)) b v i * W o i) + bias o

/-- The maximum of each group of four consecutive vertices, batch-major. -/
def poolR (h : 4 * V' = V) (y : Fin B → Fin V → Fin Fo → ℝ) (b : Fin B) (v : Fin V') (o : Fin Fo) : ℝ :=
  max (max (max (y b ⟨4 * v.val + 0, by have := v.isLt; omega⟩ o) (y b ⟨4 * v.val + 1, by have := v.isLt; omega⟩ o))
    (y b ⟨4 * v.val + 2, by have := v.isLt; omega⟩ o)) (y b ⟨4 * v.val + 3, by have := v.isLt; omega⟩ o)

def fcR (A : Fin M → Fin K → ℝ) (W : Fin N → Fin K → ℝ) (bias : Fin N → ℝ) (i : Fin M) (n : Fin N) : ℝ :=
  (∑ k : Fin K, A i k * W n k) + bias n

end R

end Cert.Net

end
-- ==== Proof.KRegion0Body.lean ====
/-
  The arithmetic of region 0's body at one index, over plain blocks (no pipeline).
  A tile is 1024 vertices × 64 batch columns × 3 features. Flattened to 1024 × 192, its column b · 3 + f is batch column b
  at feature f; the 1024 × 1024 operator applied to that matrix acts on every column separately, so the two products and
  2 L (L x) − x are the terms L x and 2 L L x − x of each batch column. Re-read as (vertex · 64 + batch) × 3 matrices, each
  term is projected by its 3 × 32 weight (a sum over the three features), the three projections and the bias row are added,
  and the result is re-read as 1024 × 64 × 32. At (v, b, o) that is the Chebyshev layer of the Spec at (v, b, o).
  Because the layer never mixes batch columns, the value on a tile is the value on the whole array at the tile's columns.
-/
import proofs.«430908_j10015863734924_3_alg».proof.Proof.Gen.KernelIdeal.Skeleton
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue.Body0

open Cert.KernelIdeal Cert.KernelIdeal.Gen Cert.Net
open Idealize.ShloMosaic Idealize.ShloMosaic.ValueIdx
open scoped BigOperators

/-! ## The two contractions' operand indices, axis by axis -/

theorem lhsL_0 (j : S1024x192.Idx) (k : dot_S1024x1024_S1024x192_S1024x192_1_0_0_1_n_n.contr.Idx) :
    (dot_S1024x1024_S1024x192_S1024x192_1_0_0_1_n_n.lhsIdx j k 0 : ℕ) = j 0 := by
  simp [DotDims.lhsIdx, dot_S1024x1024_S1024x192_S1024x192_1_0_0_1_n_n]; rfl
theorem lhsL_1 (j : S1024x192.Idx) (k : dot_S1024x1024_S1024x192_S1024x192_1_0_0_1_n_n.contr.Idx) :
    (dot_S1024x1024_S1024x192_S1024x192_1_0_0_1_n_n.lhsIdx j k 1 : ℕ) = k ⟨0, by decide⟩ := by
  simp [DotDims.lhsIdx, dot_S1024x1024_S1024x192_S1024x192_1_0_0_1_n_n]; rfl
theorem rhsL_0 (j : S1024x192.Idx) (k : dot_S1024x1024_S1024x192_S1024x192_1_0_0_1_n_n.contr.Idx) :
    (dot_S1024x1024_S1024x192_S1024x192_1_0_0_1_n_n.rhsIdx j k 0 : ℕ) = k ⟨0, by decide⟩ := by
  simp [DotDims.rhsIdx, dot_S1024x1024_S1024x192_S1024x192_1_0_0_1_n_n]; rfl
theorem rhsL_1 (j : S1024x192.Idx) (k : dot_S1024x1024_S1024x192_S1024x192_1_0_0_1_n_n.contr.Idx) :
    (dot_S1024x1024_S1024x192_S1024x192_1_0_0_1_n_n.rhsIdx j k 1 : ℕ) = j 1 := by
  simp [DotDims.rhsIdx, dot_S1024x1024_S1024x192_S1024x192_1_0_0_1_n_n]; rfl

theorem lhsW_0 (j : S65536x32.Idx) (k : dot_S65536x3_S3x32_S65536x32_1_0_0_1_n_n.contr.Idx) :
    (dot_S65536x3_S3x32_S65536x32_1_0_0_1_n_n.lhsIdx j k 0 : ℕ) = j 0 := by
  simp [DotDims.lhsIdx, dot_S65536x3_S3x32_S65536x32_1_0_0_1_n_n]; rfl
theorem lhsW_1 (j : S65536x32.Idx) (k : dot_S65536x3_S3x32_S65536x32_1_0_0_1_n_n.contr.Idx) :
    (dot_S65536x3_S3x32_S65536x32_1_0_0_1_n_n.lhsIdx j k 1 : ℕ) = k ⟨0, by decide⟩ := by
  simp [DotDims.lhsIdx, dot_S65536x3_S3x32_S65536x32_1_0_0_1_n_n]; rfl
theorem rhsW_0 (j : S65536x32.Idx) (k : dot_S65536x3_S3x32_S65536x32_1_0_0_1_n_n.contr.Idx) :
    (dot_S65536x3_S3x32_S65536x32_1_0_0_1_n_n.rhsIdx j k 0 : ℕ) = k ⟨0, by decide⟩ := by
  simp [DotDims.rhsIdx, dot_S65536x3_S3x32_S65536x32_1_0_0_1_n_n]; rfl
theorem rhsW_1 (j : S65536x32.Idx) (k : dot_S65536x3_S3x32_S65536x32_1_0_0_1_n_n.contr.Idx) :
    (dot_S65536x3_S3x32_S65536x32_1_0_0_1_n_n.rhsIdx j k 1 : ℕ) = j 1 := by
  simp [DotDims.rhsIdx, dot_S65536x3_S3x32_S65536x32_1_0_0_1_n_n]; rfl

/-! ## The two matrix products at an index -/

/-- The operator applied to a flattened tile: entry (v, c) sums the operator's row v against column c. -/
theorem mmL_apply (A : FVec Ideal S1024x1024 .f32) (Z : FVec Ideal S1024x192 .f32) (v : Fin 1024) (c : Fin 192) :
    matmul dot_S1024x1024_S1024x192_S1024x192_1_0_0_1_n_n (some .fp32) A Z (constant (F := Ideal) S1024x192 .f32 0x00000000#32) (ix2 v c)
      = ∑ u : Fin 1024, A (ix2 v u) * Z (ix2 u c) := by
  refine (Ideal.matmul_constant_zero_apply _ _ A Z (ix2 v c)).trans ?_
  rw [← Equiv.sum_comp (contrEquiv1 dot_S1024x1024_S1024x192_S1024x192_1_0_0_1_n_n 1024 rfl rfl).symm]
  refine Finset.sum_congr rfl fun u _ => ?_
  have hl : dot_S1024x1024_S1024x192_S1024x192_1_0_0_1_n_n.lhsIdx (ix2 v c)
      ((contrEquiv1 dot_S1024x1024_S1024x192_S1024x192_1_0_0_1_n_n 1024 rfl rfl).symm u) = ix2 v u := by
    apply Shape.idx_ext₂
    · exact lhsL_0 _ _
    · exact (lhsL_1 _ _).trans (contrEquiv1_symm_val _ 1024 rfl rfl u)
  have hr : dot_S1024x1024_S1024x192_S1024x192_1_0_0_1_n_n.rhsIdx (ix2 v c)
      ((contrEquiv1 dot_S1024x1024_S1024x192_S1024x192_1_0_0_1_n_n 1024 rfl rfl).symm u) = ix2 u c := by
    apply Shape.idx_ext₂
    · exact (rhsL_0 _ _).trans (contrEquiv1_symm_val _ 1024 rfl rfl u)
    · exact rhsL_1 _ _
  rw [hl, hr]

/-- A (vertex · tile) × 3 matrix projected by a 3 × 32 weight: entry (r, o) sums over the three features. -/
theorem mmW_apply (P : FVec Ideal S65536x3 .f32) (W : FVec Ideal S3x32 .f32) (r : Fin 65536) (o : Fin 32) :
    matmul dot_S65536x3_S3x32_S65536x32_1_0_0_1_n_n (some .fp32) P W (constant (F := Ideal) S65536x32 .f32 0x00000000#32) (ix2 r o)
      = ∑ f : Fin 3, P (ix2 r f) * W (ix2 f o) := by
  refine (Ideal.matmul_constant_zero_apply _ _ P W (ix2 r o)).trans ?_
  rw [← Equiv.sum_comp (contrEquiv1 dot_S65536x3_S3x32_S65536x32_1_0_0_1_n_n 3 rfl rfl).symm]
  refine Finset.sum_congr rfl fun f _ => ?_
  have hl : dot_S65536x3_S3x32_S65536x32_1_0_0_1_n_n.lhsIdx (ix2 r o)
      ((contrEquiv1 dot_S65536x3_S3x32_S65536x32_1_0_0_1_n_n 3 rfl rfl).symm f) = ix2 r f := by
    apply Shape.idx_ext₂
    · exact lhsW_0 _ _
    · exact (lhsW_1 _ _).trans (contrEquiv1_symm_val _ 3 rfl rfl f)
  have hr : dot_S65536x3_S3x32_S65536x32_1_0_0_1_n_n.rhsIdx (ix2 r o)
      ((contrEquiv1 dot_S65536x3_S3x32_S65536x32_1_0_0_1_n_n 3 rfl rfl).symm f) = ix2 f o := by
    apply Shape.idx_ext₂
    · exact (rhsW_0 _ _).trans (contrEquiv1_symm_val _ 3 rfl rfl f)
    · exact rhsW_1 _ _
  rw [hl, hr]

/-! ## The tile's three arrangements -/

/-- Column b · 3 + f of the flattened tile. -/
abbrev col (b : Fin 64) (f : Fin 3) : Fin 192 := ⟨b.val * 3 + f.val, by omega⟩
/-- Row v · 64 + b of the (vertex · tile) × feature arrangement. -/
abbrev row (v : Fin 1024) (b : Fin 64) : Fin 65536 := ⟨v.val * 64 + b.val, by omega⟩

section Casts
variable {α : Type}

/-- The tile flattened to 1024 × 192 holds, at (v, b · 3 + f), the tile's (v, b, f). -/
theorem flatten_apply (y : S1024x64x3.Idx → α) (h : S1024x64x3.ShapeCasts S1024x192) (v : Fin 1024) (b : Fin 64) (f : Fin 3) :
    shapeCast S1024x192 y h (ix2 v (col b f)) = y (ix3 v b f) := by
  refine shapeCast_apply y h _ (ix3 v b f) ?_
  rw [Shape.rowMajor_val_three, Shape.rowMajor_val_two]
  show (v.val * 64 + b.val) * 3 + f.val = v.val * 192 + (b.val * 3 + f.val)
  omega

/-- A 1024 × 192 matrix re-read as (vertex · tile) × 3 holds, at (v · 64 + b, f), its (v, b · 3 + f). -/
theorem rows_apply (z : S1024x192.Idx → α) (h : S1024x192.ShapeCasts S65536x3) (v : Fin 1024) (b : Fin 64) (f : Fin 3) :
    shapeCast S65536x3 z h (ix2 (row v b) f) = z (ix2 v (col b f)) := by
  refine shapeCast_apply z h _ (ix2 v (col b f)) ?_
  rw [Shape.rowMajor_val_two, Shape.rowMajor_val_two]
  show v.val * 192 + (b.val * 3 + f.val) = (v.val * 64 + b.val) * 3 + f.val
  omega

/-- A (vertex · tile) × 32 matrix re-read as 1024 × tile × 32 holds, at (v, b, o), its (v · 64 + b, o). -/
theorem tile_apply (q : S65536x32.Idx → α) (h : S65536x32.ShapeCasts S1024x64x32) (v : Fin 1024) (b : Fin 64) (o : Fin 32) :
    shapeCast S1024x64x32 q h (ix3 v b o) = q (ix2 (row v b) o) := by
  refine shapeCast_apply q h _ (ix2 (row v b) o) ?_
  rw [Shape.rowMajor_val_two, Shape.rowMajor_val_three]
  show (v.val * 64 + b.val) * 32 + o.val = (v.val * 64 + b.val) * 32 + o.val
  rfl

end Casts

/-! ## The body at an index -/

/-- The body's result at (v, b, o) of a tile is the Chebyshev layer of the tile's blocks there: the flattened tile's
    column b · 3 + f is batch column b at feature f, both operator products act on each such column separately, and
    row v · 64 + b of the three (vertex · tile) × 3 re-readings is vertex v at batch column b. -/
theorem k0_pay1_apply (x0 : S1024x1024.Idx → EReal) (x1 : S1024x64x3.Idx → EReal) (w0 w1 w2 : S3x32.Idx → EReal) (bi : S1x32.Idx → EReal)
    (v : Fin 1024) (b : Fin 64) (o : Fin 32) :
    k0_pay1 (F := Ideal) x0 x1 w0 w1 w2 bi (ix3 v b o)
      = chebDenseE (cur2 x0) (cur3 x1) (cur2 w0) (cur2 w1) (cur2 w2) (cur2 bi 0) v b o := by
  unfold k0_pay1
  simp only [shapeCast_self]
  refine (tile_apply _ _ v b o).trans ?_
  simp only [addf_apply, mmW_apply, rows_apply, subf_apply, mulf_apply, broadcast_apply, mmL_apply, flatten_apply]
  rw [broadcastTo_1b_ab_apply]
  rfl

/-! ## A tile of the batch axis -/

/-- The layer acts on each batch column separately: on the activation re-indexed along the batch axis by any map β
    it is the layer of the whole activation read at β's image. -/
theorem chebDenseE_batch {Vn B B' Fi Fo : Nat} (L : Fin Vn → Fin Vn → EReal) (x : Fin Vn → Fin B → Fin Fi → EReal)
    (W0 W1 W2 : Fin Fi → Fin Fo → EReal) (bias : Fin Fo → EReal) (β : Fin B' → Fin B) (v : Fin Vn) (b : Fin B') (o : Fin Fo) :
    chebDenseE L (fun u b' f => x u (β b') f) W0 W1 W2 bias v b o = chebDenseE L x W0 W1 W2 bias v (β b) o := rfl

/-- Batch column b of tile n is batch column n · 64 + b of the array. -/
abbrev tileCol (n : Nat) (hn : n < 8) (b : Fin 64) : Fin 512 := ⟨n * 64 + b.val, by omega⟩

/-- The body on tile n's blocks, at an index j of the tile, is the layer of the whole arrays at the array index i that
    j sits at: the operator, the weights and the bias blocks are their arrays (h0, h2 … h5), the activation block is
    batch columns n · 64 … n · 64 + 63 of its array (h1), and i is j moved n · 64 along the batch axis (hi0, hi1, hi2). -/
theorem point_value (A : S1024x1024.Idx → EReal) (X : S1024x512x3.Idx → EReal) (W0 W1 W2 : S3x32.Idx → EReal) (Bi : S1x32.Idx → EReal)
    (x0 : S1024x1024.Idx → EReal) (x1 : S1024x64x3.Idx → EReal) (w0 w1 w2 : S3x32.Idx → EReal) (bi : S1x32.Idx → EReal)
    (n : Nat) (hn : n < 8) (h0 : x0 = A)
    (h1 : ∀ (u : Fin 1024) (b : Fin 64) (f : Fin 3), x1 (ix3 u b f) = X (ix3 u (tileCol n hn b) f))
    (h2 : w0 = W0) (h3 : w1 = W1) (h4 : w2 = W2) (h5 : bi = Bi)
    (j : S1024x64x32.Idx) (i : S1024x512x32.Idx)
    (hi0 : (i 0).val = (j 0).val) (hi1 : (i 1).val = n * 64 + (j 1).val) (hi2 : (i 2).val = (j 2).val) :
    k0_pay1 (F := Ideal) x0 x1 w0 w1 w2 bi j
      = chebDenseE (cur2 A) (cur3 X) (cur2 W0) (cur2 W1) (cur2 W2) (cur2 Bi 0) (i 0) (i 1) (i 2) := by
  subst h0 h2 h3 h4 h5
  obtain ⟨v, b, o, rfl⟩ : ∃ (v : Fin 1024) (b : Fin 64) (o : Fin 32), j = ix3 v b o := ⟨j 0, j 1, j 2, eq_ix3 j⟩
  obtain ⟨p, q, r, rfl⟩ : ∃ (p : Fin 1024) (q : Fin 512) (r : Fin 32), i = ix3 p q r := ⟨i 0, i 1, i 2, eq_ix3 i⟩
  obtain rfl : p = v := Fin.ext hi0
  obtain rfl : q = tileCol n hn b := Fin.ext hi1
  obtain rfl : r = o := Fin.ext hi2
  rw [k0_pay1_apply]
  have hx : cur3 x1 = fun u b' f => cur3 X u (tileCol n hn b') f :=
    funext fun u => funext fun b' => funext fun f => h1 u b' f
  rw [hx]
  exact chebDenseE_batch (cur2 x0) (cur3 X) (cur2 w0) (cur2 w1) (cur2 w2) (cur2 bi 0) (tileCol n hn) p b r

end Cert.KernelIdeal.RegionValue.Body0

end
-- ==== Proof.KRegion0.lean ====
/-
  Region 0 of the kernel's program: one Chebyshev layer, tiled over the batch axis.
  A grid point holds 1024 vertices × one batch tile × 3 features. The body flattens the tile to 1024 × (tile · 3), applies the
  1024 × 1024 operator twice by matrix products (x₁ = L x₀, x₂ = 2 L x₁ − x₀), re-reads the three terms as (vertex · tile) × 3
  matrices, projects each by its 3 × 32 weight, sums them with the bias.
  Every step acts on each batch column separately, so the tiles together hold `chebDenseE …` of the whole arrays.
-/
import proofs.«430908_j10015863734924_3_alg».proof.Proof.Gen.KernelIdeal.Frame
import proofs.«430908_j10015863734924_3_alg».proof.Proof.Spec
import proofs.«430908_j10015863734924_3_alg».proof.Proof.KRegion0Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

namespace R0

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point is below 8. -/
theorem t_lt (t : Fin cfg0.N) : t.val < 8 := lt_of_lt_of_eq t.isLt N_0

/-- The printed index maps over the grid: the operator, the three weights and the bias are fetched whole (block
    index 0 on every axis) at every point; the activation and the output move along the batch axis with the point. -/
theorem idx_facts : ∀ t : Fin cfg0.N,
    (win0_0.index t (0 : Fin 2) = 0 ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = 0 ∧ win0_6.index t (1 : Fin 3) = t.val ∧ win0_6.index t (2 : Fin 3) = 0) :=
  (by decide +kernel : ∀ t : Fin grid0.N, _)

/-- What region 0 leaves in its output array, as one function of the arrays at entry, index by index. -/
def G (c : Dev nD) : S1024x512x32.Idx → EReal := fun i =>
  chebDenseE (cur2 (V c main_v14 : S1024x1024.Idx → EReal)) (cur3 (V c main_v30 : S1024x512x3.Idx → EReal))
    (cur2 (V c main_v34 : S3x32.Idx → EReal)) (cur2 (V c main_v37 : S3x32.Idx → EReal)) (cur2 (V c main_v40 : S3x32.Idx → EReal))
    (cur2 (V c main_v41 : S1x32.Idx → EReal) 0) (i 0) (i 1) (i 2)

/-! ## The input blocks at a point -/

/-- The operator's block at any point is the whole operator. -/
theorem blk_op (c : Dev nD) (t : Fin cfg0.N) :
    (iblk0 V c 0 t : S1024x1024.Idx → EReal) = (V c main_v14 : S1024x1024.Idx → EReal) := by
  obtain ⟨⟨e0, e1⟩, -⟩ := idx_facts t
  funext y
  show (V c main_v14 : S1024x1024.Idx → EReal) (((cfg0.win 0).blk t).view.emb y) = (V c main_v14 : S1024x1024.Idx → EReal) y
  refine congrArg (V c main_v14 : S1024x1024.Idx → EReal) (funext fun a => Fin.ext ?_)
  match a with
  | ⟨0, _⟩ => show win0_0.index t (0 : Fin 2) * 1024 + 1 * (y 0).val = (y 0).val; rw [e0]; omega
  | ⟨1, _⟩ => show win0_0.index t (1 : Fin 2) * 1024 + 1 * (y 1).val = (y 1).val; rw [e1]; omega

/-- The activation's block at point t is batch columns t · 64 … t · 64 + 63 of the activation. -/
theorem blk_act (c : Dev nD) (t : Fin cfg0.N) (u : Fin 1024) (b : Fin 64) (f : Fin 3) :
    (iblk0 V c 1 t : S1024x64x3.Idx → EReal) (ix3 u b f)
      = (V c main_v30 : S1024x512x3.Idx → EReal) (ix3 u (Body0.tileCol t.val (t_lt t) b) f) := by
  obtain ⟨-, ⟨e0, e1, e2⟩, -⟩ := idx_facts t
  show (V c main_v30 : S1024x512x3.Idx → EReal) (((cfg0.win 1).blk t).view.emb (ix3 u b f)) = _
  refine congrArg (V c main_v30 : S1024x512x3.Idx → EReal) (funext fun a => Fin.ext ?_)
  match a with
  | ⟨0, _⟩ => show win0_1.index t (0 : Fin 3) * 1024 + 1 * u.val = u.val; rw [e0]; omega
  | ⟨1, _⟩ => show win0_1.index t (1 : Fin 3) * 64 + 1 * b.val = t.val * 64 + b.val; rw [e1]; omega
  | ⟨2, _⟩ => show win0_1.index t (2 : Fin 3) * 3 + 1 * f.val = f.val; rw [e2]; omega

/-- The first weight's block at any point is the whole weight. -/
theorem blk_w0 (c : Dev nD) (t : Fin cfg0.N) :
    (iblk0 V c 2 t : S3x32.Idx → EReal) = (V c main_v34 : S3x32.Idx → EReal) := by
  obtain ⟨-, -, ⟨e0, e1⟩, -⟩ := idx_facts t
  funext y
  show (V c main_v34 : S3x32.Idx → EReal) (((cfg0.win 2).blk t).view.emb y) = (V c main_v34 : S3x32.Idx → EReal) y
  refine congrArg (V c main_v34 : S3x32.Idx → EReal) (funext fun a => Fin.ext ?_)
  match a with
  | ⟨0, _⟩ => show win0_2.index t (0 : Fin 2) * 3 + 1 * (y 0).val = (y 0).val; rw [e0]; omega
  | ⟨1, _⟩ => show win0_2.index t (1 : Fin 2) * 32 + 1 * (y 1).val = (y 1).val; rw [e1]; omega

/-- The second weight's block at any point is the whole weight. -/
theorem blk_w1 (c : Dev nD) (t : Fin cfg0.N) :
    (iblk0 V c 3 t : S3x32.Idx → EReal) = (V c main_v37 : S3x32.Idx → EReal) := by
  obtain ⟨-, -, -, ⟨e0, e1⟩, -⟩ := idx_facts t
  funext y
  show (V c main_v37 : S3x32.Idx → EReal) (((cfg0.win 3).blk t).view.emb y) = (V c main_v37 : S3x32.Idx → EReal) y
  refine congrArg (V c main_v37 : S3x32.Idx → EReal) (funext fun a => Fin.ext ?_)
  match a with
  | ⟨0, _⟩ => show win0_3.index t (0 : Fin 2) * 3 + 1 * (y 0).val = (y 0).val; rw [e0]; omega
  | ⟨1, _⟩ => show win0_3.index t (1 : Fin 2) * 32 + 1 * (y 1).val = (y 1).val; rw [e1]; omega

/-- The third weight's block at any point is the whole weight. -/
theorem blk_w2 (c : Dev nD) (t : Fin cfg0.N) :
    (iblk0 V c 4 t : S3x32.Idx → EReal) = (V c main_v40 : S3x32.Idx → EReal) := by
  obtain ⟨-, -, -, -, ⟨e0, e1⟩, -⟩ := idx_facts t
  funext y
  show (V c main_v40 : S3x32.Idx → EReal) (((cfg0.win 4).blk t).view.emb y) = (V c main_v40 : S3x32.Idx → EReal) y
  refine congrArg (V c main_v40 : S3x32.Idx → EReal) (funext fun a => Fin.ext ?_)
  match a with
  | ⟨0, _⟩ => show win0_4.index t (0 : Fin 2) * 3 + 1 * (y 0).val = (y 0).val; rw [e0]; omega
  | ⟨1, _⟩ => show win0_4.index t (1 : Fin 2) * 32 + 1 * (y 1).val = (y 1).val; rw [e1]; omega

/-- The bias row's block at any point is the whole row. -/
theorem blk_bias (c : Dev nD) (t : Fin cfg0.N) :
    (iblk0 V c 5 t : S1x32.Idx → EReal) = (V c main_v41 : S1x32.Idx → EReal) := by
  obtain ⟨-, -, -, -, -, ⟨e0, e1⟩, -⟩ := idx_facts t
  funext y
  show (V c main_v41 : S1x32.Idx → EReal) (((cfg0.win 5).blk t).view.emb y) = (V c main_v41 : S1x32.Idx → EReal) y
  refine congrArg (V c main_v41 : S1x32.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 32 + 1 * (y 1).val = (y 1).val; rw [e1]; omega

/-! ## What a point writes back -/

/-- Point t writes back block t of `G`: the body's result on the point's blocks, at an index of the tile, is the layer of
    the whole arrays at the array index the tile's index sits at. -/
theorem flushed_eq (c : Dev nD) (t : Fin cfg0.N) :
    (dat0 (F := Ideal) V c).flushed 6 t = ((cfg0.win 6).blk t).view.read (Elt Ideal) (G V c) := by
  show (cfg0.win 6).cut (grid0.coords t) ((dat0 (F := Ideal) V c).after 6 t) = _
  rw [after0_6]
  unfold out0_6
  rw [View.canon_unit_zero hz3]
  simp only [View.ld_unit_zero (S := S1024x1024) hz2, View.ld_unit_zero (S := S1024x64x3) hz3,
    View.ld_unit_zero (S := S3x32) hz2, View.ld_unit_zero (S := S1x32) hz2]
  obtain ⟨-, -, -, -, -, -, ⟨e0, e1, e2⟩⟩ := idx_facts t
  funext j
  show k0_pay1 (F := Ideal) (iblk0 V c 0 t) (iblk0 V c 1 t) (iblk0 V c 2 t) (iblk0 V c 3 t) (iblk0 V c 4 t) (iblk0 V c 5 t) j
    = G V c (((cfg0.win 6).blk t).view.emb j)
  refine Body0.point_value (V c main_v14) (V c main_v30) (V c main_v34) (V c main_v37) (V c main_v40) (V c main_v41)
    (iblk0 V c 0 t) (iblk0 V c 1 t) (iblk0 V c 2 t) (iblk0 V c 3 t) (iblk0 V c 4 t) (iblk0 V c 5 t)
    t.val (t_lt t) (blk_op V c t) (blk_act V c t) (blk_w0 V c t) (blk_w1 V c t) (blk_w2 V c t) (blk_bias V c t)
    j (((cfg0.win 6).blk t).view.emb j) ?_ ?_ ?_
  · show win0_6.index t (0 : Fin 3) * 1024 + 1 * (j 0).val = (j 0).val; rw [e0]; omega
  · show win0_6.index t (1 : Fin 3) * 64 + 1 * (j 1).val = t.val * 64 + (j 1).val; rw [e1]; omega
  · show win0_6.index t (2 : Fin 3) * 32 + 1 * (j 2).val = (j 2).val; rw [e2]; omega

/-! ## The tiles cover the array -/

/-- An index of the array is in point t's block iff each coordinate is in the block's range on its axis. -/
theorem mem_blk (t : Fin cfg0.N) (i : S1024x512x32.Idx) :
    i ∈ ((cfg0.win 6).blk t).view.set ↔ ∀ a : Fin 3, win0_6.index t a * S1024x64x32.size a ≤ (i a).val
      ∧ (i a).val < win0_6.index t a * S1024x64x32.size a + S1024x64x32.size a := by
  show i ∈ ((View.whole main_v42).slice (win0_6.rect t)).set ↔ _
  rw [View.set_slice_whole, Rect.mem_set_unit]
  exact Iff.rfl

/-- Every index of the array lies in the block of the point its batch coordinate divided by 64 names. -/
theorem cover (i : S1024x512x32.Idx) :
    ∃ t : Fin cfg0.N, (cfg0.win 6).flush t = true ∧ i ∈ ((cfg0.win 6).blk t).view.set := by
  have h0 : (i 0).val < 1024 := (i 0).isLt
  have h1 : (i 1).val < 512 := (i 1).isLt
  have h2 : (i 2).val < 32 := (i 2).isLt
  have hN : cfg0.N = 8 := N_0
  have ht : (i 1).val / 64 < cfg0.N := by rw [hN]; omega
  obtain ⟨-, -, -, -, -, -, ⟨e0, e1, e2⟩⟩ := idx_facts ⟨(i 1).val / 64, ht⟩
  have e1' : win0_6.index ⟨(i 1).val / 64, ht⟩ (1 : Fin 3) = (i 1).val / 64 := e1
  refine ⟨⟨(i 1).val / 64, ht⟩, flush0_6 _, ?_⟩
  rw [mem_blk]
  intro a
  match a with
  | ⟨0, _⟩ =>
    show win0_6.index ⟨(i 1).val / 64, ht⟩ (0 : Fin 3) * 1024 ≤ (i 0).val
      ∧ (i 0).val < win0_6.index ⟨(i 1).val / 64, ht⟩ (0 : Fin 3) * 1024 + 1024
    rw [e0]; omega
  | ⟨1, _⟩ =>
    show win0_6.index ⟨(i 1).val / 64, ht⟩ (1 : Fin 3) * 64 ≤ (i 1).val
      ∧ (i 1).val < win0_6.index ⟨(i 1).val / 64, ht⟩ (1 : Fin 3) * 64 + 64
    rw [e1']; omega
  | ⟨2, _⟩ =>
    show win0_6.index ⟨(i 1).val / 64, ht⟩ (2 : Fin 3) * 32 ≤ (i 2).val
      ∧ (i 2).val < win0_6.index ⟨(i 1).val / 64, ht⟩ (2 : Fin 3) * 32 + 32
    rw [e2]; omega

/-- The output array after all grid points is `G` of the arrays at entry. -/
theorem arr_eq (c : Dev nD) : (dat0 (F := Ideal) V c).arrAt 6 cfg0.N = G V c :=
  (dat0 (F := Ideal) V c).arrAt_eq_of_cover 6 (G V c) (fun t _ => flushed_eq V c t) cover

end R0

/-- What region 0 leaves in its output array, as a function of its input arrays at entry. -/
theorem region0_value (c : Dev nD) :
    cur3 ((dat0 (F := Ideal) V c).arrAt 6 cfg0.N : S1024x512x32.Idx → EReal)
      = chebDenseE (cur2 (V c main_v14 : S1024x1024.Idx → EReal)) (cur3 (V c main_v30 : S1024x512x3.Idx → EReal))
          (cur2 (V c main_v34 : S3x32.Idx → EReal)) (cur2 (V c main_v37 : S3x32.Idx → EReal)) (cur2 (V c main_v40 : S3x32.Idx → EReal))
          (cur2 (V c main_v41 : S1x32.Idx → EReal) 0) := by
  funext v b o
  show ((dat0 (F := Ideal) V c).arrAt 6 cfg0.N : S1024x512x32.Idx → EReal) (ix3 v b o) = _
  rw [R0.arr_eq V c]
  rfl

end Cert.KernelIdeal.RegionValue

end
-- ==== Proof.KRegion1Body.lean ====
/-
  The arithmetic of region 1's body at one index of its output block.

  A grid point holds the 1024 × 1024 operator L, a block x of 1024 vertices × 32 batch rows × 32 features, three 32 × 32
  weights and a 1 × 32 bias. The body flattens x to a 1024 × 1024 matrix whose column 32 b + f holds (b, f), multiplies by L
  once and twice along the vertex axis, forms 2 L (L x) − x, re-reads the three terms as (32 v + b) × 32 matrices, projects each
  by its weight, adds the bias, and takes the maximum over the four vertices 4 v' … 4 v' + 3. Read at (v', b, o) this is the
  specification's max-pool of the dense Chebyshev layer of the block's coordinates.
-/
import proofs.«430908_j10015863734924_3_alg».proof.Proof.Gen.KernelIdeal.Skeleton
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue.Body1

open Cert.KernelIdeal Cert.KernelIdeal.Gen Cert.Net
open Idealize.ShloMosaic Idealize.ShloMosaic.ValueIdx

/-! ## Positions in the flattened arrangements -/

/-- Column 32 b + f of the flattened 1024 × 1024 block: batch row b, feature f. -/
abbrev col (b f : Fin 32) : Fin 1024 := ⟨b.val * 32 + f.val, by omega⟩
/-- Row 32 v + b of the 32768 × 32 arrangement: vertex v, batch row b. -/
abbrev row (v : Fin 1024) (b : Fin 32) : Fin 32768 := ⟨v.val * 32 + b.val, by omega⟩
/-- Vertex 4 v' + k: member k of pooling group v'. -/
abbrev vert (v : Fin 256) (k : Fin 4) : Fin 1024 := ⟨4 * v.val + k.val, by omega⟩

/-! ## The shape casts at an index -/

section Casts
variable {α : Type}

/-- Vertex × batch × feature flattened to vertex × (batch, feature). -/
theorem cast_flat (x : S1024x32x32.Idx → α) (h : S1024x32x32.ShapeCasts S1024x1024) (v : Fin 1024) (b f : Fin 32) :
    shapeCast S1024x1024 x h (ix2 v (col b f)) = x (ix3 v b f) := by
  refine shapeCast_apply x h _ _ ?_
  rw [Shape.rowMajor_val_three, Shape.rowMajor_val_two]
  show (v.val * 32 + b.val) * 32 + f.val = v.val * 1024 + (b.val * 32 + f.val)
  omega

/-- Vertex × (batch, feature) re-read as (vertex, batch) × feature. -/
theorem cast_rows (y : S1024x1024.Idx → α) (h : S1024x1024.ShapeCasts S32768x32) (v : Fin 1024) (b f : Fin 32) :
    shapeCast S32768x32 y h (ix2 (row v b) f) = y (ix2 v (col b f)) := by
  refine shapeCast_apply y h _ _ ?_
  rw [Shape.rowMajor_val_two, Shape.rowMajor_val_two]
  show v.val * 1024 + (b.val * 32 + f.val) = (v.val * 32 + b.val) * 32 + f.val
  omega

/-- (vertex, batch) × feature re-read as vertex × batch × feature. -/
theorem cast_unrows (z : S32768x32.Idx → α) (h : S32768x32.ShapeCasts S1024x32x32) (v : Fin 1024) (b o : Fin 32) :
    shapeCast S1024x32x32 z h (ix3 v b o) = z (ix2 (row v b) o) := by
  refine shapeCast_apply z h _ _ ?_
  rw [Shape.rowMajor_val_two, Shape.rowMajor_val_three]
  show (v.val * 32 + b.val) * 32 + o.val = (v.val * 32 + b.val) * 32 + o.val
  rfl

/-- The vertex axis split into groups of four. -/
theorem cast_groups (w : S1024x32x32.Idx → α) (h : S1024x32x32.ShapeCasts S256x4x32x32) (v : Fin 256) (k : Fin 4) (b o : Fin 32) :
    shapeCast S256x4x32x32 w h (ix4 v k b o) = w (ix3 (vert v k) b o) := by
  refine shapeCast_apply w h _ _ ?_
  rw [Shape.rowMajor_val_three, Shape.rowMajor_val_four]
  show ((4 * v.val + k.val) * 32 + b.val) * 32 + o.val = ((v.val * 4 + k.val) * 32 + b.val) * 32 + o.val
  omega

end Casts

/-! ## The two matrix products at an index -/

theorem lhs_big_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_big_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_big_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_big_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The 1024 × 1024 product into a zero accumulator: entry (i, j) sums A i k · B k j over the 1024 positions k. -/
theorem matmul_big_apply (A B : FVec Ideal S1024x1024 .f32) (i j : Fin 1024) :
    matmul dot_S1024x1024_S1024x1024_S1024x1024_1_0_0_1_n_n (some .fp32) A B (constant S1024x1024 .f32 0x00000000#32) (ix2 i j)
      = ∑ k : Fin 1024, A (ix2 i k) * B (ix2 k j) := by
  refine (Ideal.matmul_constant_zero_apply _ _ A B (ix2 i j)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i j) ((contrEquiv1 dot_S1024x1024_S1024x1024_S1024x1024_1_0_0_1_n_n 1024 rfl rfl).symm k) = ix2 i k := funext fun a => Fin.ext (by
    match a with
    | ⟨0, _⟩ => exact lhs_big_0 _ _
    | ⟨1, _⟩ => exact (lhs_big_1 _ _).trans hk)
  have er : dot_S1024x1024_S1024x1024_S1024x1024_1_0_0_1_n_n.rhsIdx (ix2 i j) ((contrEquiv1 dot_S1024x1024_S1024x1024_S1024x1024_1_0_0_1_n_n 1024 rfl rfl).symm k) = ix2 k j := funext fun a => Fin.ext (by
    match a with
    | ⟨0, _⟩ => exact (rhs_big_0 _ _).trans hk
    | ⟨1, _⟩ => exact rhs_big_1 _ _)
  rw [el, er]

theorem lhs_proj_0 (i : S32768x32.Idx) (q : dot_S32768x32_S32x32_S32768x32_1_0_0_1_n_n.contr.Idx) :
    (dot_S32768x32_S32x32_S32768x32_1_0_0_1_n_n.lhsIdx i q 0).val = (i 0).val := by
  unfold DotDims.lhsIdx
  rw [dif_neg (show ¬(0 : Fin S32768x32.rank) ∈ dot_S32768x32_S32x32_S32768x32_1_0_0_1_n_n.lhsBatch by decide), dif_pos (show (0 : Fin S32768x32.rank) ∈ dot_S32768x32_S32x32_S32768x32_1_0_0_1_n_n.lhsNonContracting by decide)]
  rfl
theorem lhs_proj_1 (i : S32768x32.Idx) (q : dot_S32768x32_S32x32_S32768x32_1_0_0_1_n_n.contr.Idx) :
    (dot_S32768x32_S32x32_S32768x32_1_0_0_1_n_n.lhsIdx i q 1).val = (q ⟨0, by decide⟩).val :=
  dot_S32768x32_S32x32_S32768x32_1_0_0_1_n_n.lhsIdx_val_of_single rfl i q
theorem rhs_proj_0 (i : S32768x32.Idx) (q : dot_S32768x32_S32x32_S32768x32_1_0_0_1_n_n.contr.Idx) :
    (dot_S32768x32_S32x32_S32768x32_1_0_0_1_n_n.rhsIdx i q 0).val = (q ⟨0, by decide⟩).val :=
  dot_S32768x32_S32x32_S32768x32_1_0_0_1_n_n.rhsIdx_val_of_single rfl i q
theorem rhs_proj_1 (i : S32768x32.Idx) (q : dot_S32768x32_S32x32_S32768x32_1_0_0_1_n_n.contr.Idx) :
    (dot_S32768x32_S32x32_S32768x32_1_0_0_1_n_n.rhsIdx i q 1).val = (i 1).val := by
  unfold DotDims.rhsIdx
  rw [dif_neg (show ¬(1 : Fin S32x32.rank) ∈ dot_S32768x32_S32x32_S32768x32_1_0_0_1_n_n.rhsBatch by decide), dif_pos (show (1 : Fin S32x32.rank) ∈ dot_S32768x32_S32x32_S32768x32_1_0_0_1_n_n.rhsNonContracting by decide)]
  rfl

/-- The 32768 × 32 by 32 × 32 product into a zero accumulator: entry (r, o) sums A r f · W f o over the 32 features f. -/
theorem matmul_proj_apply (A : FVec Ideal S32768x32 .f32) (W : FVec Ideal S32x32 .f32) (r : Fin 32768) (o : Fin 32) :
    matmul dot_S32768x32_S32x32_S32768x32_1_0_0_1_n_n (some .fp32) A W (constant S32768x32 .f32 0x00000000#32) (ix2 r o)
      = ∑ f : Fin 32, A (ix2 r f) * W (ix2 f o) := by
  refine (Ideal.matmul_constant_zero_apply _ _ A W (ix2 r o)).trans ?_
  rw [← Equiv.sum_comp (contrEquiv1 dot_S32768x32_S32x32_S32768x32_1_0_0_1_n_n 32 rfl rfl).symm]
  refine Finset.sum_congr rfl fun k _ => ?_
  have hk := contrEquiv1_symm_val dot_S32768x32_S32x32_S32768x32_1_0_0_1_n_n 32 rfl rfl k
  have el : dot_S32768x32_S32x32_S32768x32_1_0_0_1_n_n.lhsIdx (ix2 r o) ((contrEquiv1 dot_S32768x32_S32x32_S32768x32_1_0_0_1_n_n 32 rfl rfl).symm k) = ix2 r k := funext fun a => Fin.ext (by
    match a with
    | ⟨0, _⟩ => exact lhs_proj_0 _ _
    | ⟨1, _⟩ => exact (lhs_proj_1 _ _).trans hk)
  have er : dot_S32768x32_S32x32_S32768x32_1_0_0_1_n_n.rhsIdx (ix2 r o) ((contrEquiv1 dot_S32768x32_S32x32_S32768x32_1_0_0_1_n_n 32 rfl rfl).symm k) = ix2 k o := funext fun a => Fin.ext (by
    match a with
    | ⟨0, _⟩ => exact (rhs_proj_0 _ _).trans hk
    | ⟨1, _⟩ => exact rhs_proj_1 _ _)
  rw [el, er]

/-! ## The maximum over a group of four vertices -/

/-- The reduction over the group axis, at (v', b, o): the fold of max from −∞ over the four members' values. -/
theorem pool_apply (src : FVec Ideal S256x4x32x32 .f32) (h : S256x4x32x32.Reduces [1] S256x32x32) (hφ : FKind.Formats .f32)
    (hacc : (0xFF800000#32 : BitVec 32) = FKind.maximumf.neutral .f32 hφ) (v : Fin 256) (b o : Fin 32) :
    multiReduction .maximumf [1] S256x32x32 src 0xFF800000#32 h hφ hacc (ix3 v b o)
      = (Finset.univ : Finset (Fin 4)).fold max ninf (fun k => src (ix4 v k b o)) := by
  refine (Ideal.multiReduction_maximumf_single src _ h hφ hacc (ix3 v b o)).trans ?_
  refine congrArg (Finset.fold max _ · Finset.univ) (funext fun k => ?_)
  show src (h.lift (ix3 v b o) k) = src (ix4 v k b o)
  refine congrArg src (funext fun a => Fin.ext ?_)
  match a with
  | ⟨0, _⟩ => rfl
  | ⟨1, _⟩ => rfl
  | ⟨2, _⟩ => rfl
  | ⟨3, _⟩ => rfl

/-! ## The body's intermediate values, named

Each definition below is one stretch of the body's term; `k1_pay1` is their composition by unfolding. -/

section Stages
variable (L : FVec Ideal S1024x1024 .f32) (x : FVec Ideal S1024x32x32 .f32) (W0 W1 W2 : FVec Ideal S32x32 .f32) (bias : FVec Ideal S1x32 .f32)

/-- The operator as the body reads it. -/
def opL : FVec Ideal S1024x1024 .f32 := shapeCast S1024x1024 L shapeCasts_S1024x1024_S1024x1024
/-- The block flattened to vertex × (batch, feature): the first Chebyshev term. -/
def flatX : FVec Ideal S1024x1024 .f32 :=
  shapeCast S1024x1024 (shapeCast S1024x32x32 x shapeCasts_S1024x32x32_S1024x32x32) shapeCasts_S1024x32x32_S1024x1024
/-- L x: the second term. -/
def term1 : FVec Ideal S1024x1024 .f32 :=
  matmul dot_S1024x1024_S1024x1024_S1024x1024_1_0_0_1_n_n (some .fp32) (opL L) (flatX x) (constant S1024x1024 .f32 0x00000000#32)
/-- L (L x). -/
def twice : FVec Ideal S1024x1024 .f32 :=
  matmul dot_S1024x1024_S1024x1024_S1024x1024_1_0_0_1_n_n (some .fp32) (opL L) (term1 L x) (constant S1024x1024 .f32 0x00000000#32)
/-- 2 L (L x) − x: the third term. -/
def term2 : FVec Ideal S1024x1024 .f32 :=
  subf (mulf (broadcast S1024x1024 (Scalar.ofBits .f32 0x40000000#32)) (twice L x)) (flatX x)
/-- A term re-read as (vertex, batch) × feature and projected by a 32 × 32 weight. -/
def proj (A : FVec Ideal S1024x1024 .f32) (W : FVec Ideal S32x32 .f32) : FVec Ideal S32768x32 .f32 :=
  matmul dot_S32768x32_S32x32_S32768x32_1_0_0_1_n_n (some .fp32) (shapeCast S32768x32 A shapeCasts_S1024x1024_S32768x32)
    (shapeCast S32x32 W shapeCasts_S32x32_S32x32) (constant S32768x32 .f32 0x00000000#32)
/-- The layer before pooling, vertex × batch × feature. -/
def layer : FVec Ideal S1024x32x32 .f32 :=
  shapeCast S1024x32x32
    (addf (addf (addf (proj (flatX x) W0) (proj (term1 L x) W1)) (proj (term2 L x) W2))
      (broadcastTo S32768x32 (shapeCast S1x32 bias shapeCasts_S1x32_S1x32) broadcasts_S1x32_S32768x32))
    shapeCasts_S32768x32_S1024x32x32

set_option maxRecDepth 65536 in
/-- The body's term is the maximum over the group axis of the layer with its vertex axis split in fours. -/
theorem k1_pay1_eq : k1_pay1 (F := Ideal) L x W0 W1 W2 bias
    = multiReduction .maximumf [1] S256x32x32 (shapeCast S256x4x32x32 (layer L x W0 W1 W2 bias) shapeCasts_S1024x32x32_S256x4x32x32)
        0xFF800000#32 reduces_S256x4x32x32_S256x32x32 (.inl rfl) rfl := rfl

theorem opL_apply (v u : Fin 1024) : opL L (ix2 v u) = cur2 L v u :=
  congrFun (shapeCast_self L _) (ix2 v u)

theorem flatX_apply (v : Fin 1024) (b f : Fin 32) : flatX x (ix2 v (col b f)) = cur3 x v b f := by
  unfold flatX
  refine (cast_flat _ _ v b f).trans ?_
  exact congrFun (shapeCast_self x _) (ix3 v b f)

theorem term1_apply (v : Fin 1024) (b f : Fin 32) : term1 L x (ix2 v (col b f)) = lmulE (cur2 L) (cur3 x) v b f := by
  unfold term1
  refine (matmul_big_apply _ _ v (col b f)).trans ?_
  unfold lmulE
  exact Finset.sum_congr rfl fun u _ => congrArg₂ (· * ·) (opL_apply L v u) (flatX_apply x u b f)

theorem twice_apply (v : Fin 1024) (b f : Fin 32) :
    twice L x (ix2 v (col b f)) = lmulE (cur2 L) (lmulE (cur2 L) (cur3 x)) v b f := by
  unfold twice
  refine (matmul_big_apply _ _ v (col b f)).trans ?_
  unfold lmulE
  exact Finset.sum_congr rfl fun u _ => congrArg₂ (· * ·) (opL_apply L v u) (term1_apply L x u b f)

theorem term2_apply (v : Fin 1024) (b f : Fin 32) : term2 L x (ix2 v (col b f)) = cheb2E (cur2 L) (cur3 x) v b f := by
  unfold term2 cheb2E
  refine (subf_apply _ _ _).trans ?_
  refine congrArg₂ (· - ·) ?_ (flatX_apply x v b f)
  refine (mulf_apply _ _ _).trans ?_
  exact congrArg₂ (· * ·) rfl (twice_apply L x v b f)

/-- A projected term at ((v, b), o): the sum over the features of the term at (v, b, f) times the weight at (f, o). -/
theorem proj_apply (A : FVec Ideal S1024x1024 .f32) (W : FVec Ideal S32x32 .f32) (g : Fin 1024 → Fin 32 → Fin 32 → EReal)
    (hA : ∀ v b f, A (ix2 v (col b f)) = g v b f) (v : Fin 1024) (b o : Fin 32) :
    proj A W (ix2 (row v b) o) = ∑ f : Fin 32, g v b f * cur2 W f o := by
  unfold proj
  refine (matmul_proj_apply _ _ (row v b) o).trans ?_
  refine Finset.sum_congr rfl fun f _ => congrArg₂ (· * ·) ?_ ?_
  · exact (cast_rows A _ v b f).trans (hA v b f)
  · exact congrFun (shapeCast_self W _) (ix2 f o)

/-- The layer at (v, b, o) is the specification's dense Chebyshev layer of the block's coordinates. -/
theorem layer_apply (v : Fin 1024) (b o : Fin 32) :
    layer L x W0 W1 W2 bias (ix3 v b o)
      = chebDenseE (cur2 L) (cur3 x) (cur2 W0) (cur2 W1) (cur2 W2) (cur2 bias 0) v b o := by
  unfold layer chebDenseE
  refine (cast_unrows _ _ v b o).trans ?_
  refine (addf_apply _ _ _).trans ?_
  refine congrArg₂ (· + ·) ?_ ?_
  · refine (addf_apply _ _ _).trans ?_
    refine congrArg₂ (· + ·) ?_ ?_
    · refine (addf_apply _ _ _).trans ?_
      refine congrArg₂ (· + ·) ?_ ?_
      · exact proj_apply _ W0 _ (flatX_apply x) v b o
      · exact proj_apply _ W1 _ (term1_apply L x) v b o
    · exact proj_apply _ W2 _ (term2_apply L x) v b o
  · refine (broadcastTo_1b_ab_apply _ _ (row v b) o).trans ?_
    exact congrFun (shapeCast_self bias _) (ix2 (0 : Fin 1) o)

/-- THE BODY AT AN INDEX: entry (v', b, o) of what the body stores is the maximum over the four vertices of group v' of
    the dense Chebyshev layer of the blocks' coordinates, at batch row b and output feature o. -/
theorem k1_pay1_apply (v : Fin 256) (b o : Fin 32) :
    k1_pay1 (F := Ideal) L x W0 W1 W2 bias (ix3 v b o)
      = poolE (by decide : 4 * 256 = 1024) (chebDenseE (cur2 L) (cur3 x) (cur2 W0) (cur2 W1) (cur2 W2) (cur2 bias 0)) v b o := by
  rw [k1_pay1_eq]
  refine (pool_apply _ _ _ _ v b o).trans ?_
  unfold poolE
  refine congrArg (Finset.fold max ninf · Finset.univ) (funext fun k => ?_)
  refine (cast_groups _ _ v k b o).trans ?_
  exact layer_apply L x W0 W1 W2 bias (vert v k) b o

end Stages

end Cert.KernelIdeal.RegionValue.Body1

end
-- ==== Proof.KRegion1.lean ====
/-
  Region 1 of the kernel's program: one Chebyshev layer and the max-pool over groups of four vertices, tiled over the batch axis.
  A grid point holds 1024 vertices × one batch tile × 32 features. The body flattens the tile to 1024 × (tile · 32), applies the
  1024 × 1024 operator twice by matrix products (x₁ = L x₀, x₂ = 2 L x₁ − x₀), re-reads the three terms as (vertex · tile) × 32
  matrices, projects each by its 32 × 32 weight, sums them with the bias, and takes the maximum over each group of four consecutive vertices.
  Every step acts on each batch column separately, so the tiles together hold `poolE … (chebDenseE …)` of the whole arrays.
-/
import proofs.«430908_j10015863734924_3_alg».proof.Proof.Gen.KernelIdeal.Frame
import proofs.«430908_j10015863734924_3_alg».proof.Proof.Spec
import proofs.«430908_j10015863734924_3_alg».proof.Proof.KRegion1Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

/-! ## The layer acts on each batch column separately -/

section Columns
variable {Nv Np B B' Fi Fo : Nat}

/-- The dense Chebyshev layer of an activation read through a map of batch positions is the layer read through that map:
    no step of it mixes batch positions. -/
theorem chebDenseE_batch (L : Fin Nv → Fin Nv → EReal) (x : Fin Nv → Fin B → Fin Fi → EReal) (σ : Fin B' → Fin B)
    (W0 W1 W2 : Fin Fi → Fin Fo → EReal) (bias : Fin Fo → EReal) :
    chebDenseE L (fun u b f => x u (σ b) f) W0 W1 W2 bias = fun v b o => chebDenseE L x W0 W1 W2 bias v (σ b) o := rfl

/-- The same for the max-pool over vertex groups. -/
theorem poolE_batch (h : 4 * Np = Nv) (y : Fin Nv → Fin B → Fin Fo → EReal) (σ : Fin B' → Fin B) (v : Fin Np) (b : Fin B') (o : Fin Fo) :
    poolE h (fun v b o => y v (σ b) o) v b o = poolE h y v (σ b) o := rfl

end Columns

/-! ## The output array as one function of the input arrays -/

/-- What region 1 leaves in its output array: at (v', b, o), the maximum over vertex group v' of the dense Chebyshev layer of the
    whole arrays. -/
def pooled (L : S1024x1024.Idx → EReal) (X : S1024x512x32.Idx → EReal) (W0 W1 W2 : S32x32.Idx → EReal) (Bi : S1x32.Idx → EReal) :
    S256x512x32.Idx → EReal :=
  fun i => poolE (by decide : 4 * 256 = 1024) (chebDenseE (cur2 L) (cur3 X) (cur2 W0) (cur2 W1) (cur2 W2) (cur2 Bi 0)) (i 0) (i 1) (i 2)

/-- The body's stored block, when its input blocks are the operator, the weights and the bias whole and the batch tile of the
    activation that `σ` places: entry (v', b, o) is the output function at (v', σ b, o). -/
theorem point_value (L : FVec Ideal S1024x1024 .f32) (X : FVec Ideal S1024x512x32 .f32) (W0 W1 W2 : FVec Ideal S32x32 .f32) (Bi : FVec Ideal S1x32 .f32)
    (x0 : FVec Ideal S1024x1024 .f32) (x1 : FVec Ideal S1024x32x32 .f32) (x2 x3 x4 : FVec Ideal S32x32 .f32) (x5 : FVec Ideal S1x32 .f32)
    (σ : Fin 32 → Fin 512)
    (h0 : x0 = L) (h1 : ∀ u b f, x1 (ix3 u b f) = X (ix3 u (σ b) f)) (h2 : x2 = W0) (h3 : x3 = W1) (h4 : x4 = W2) (h5 : x5 = Bi)
    (v : Fin 256) (b o : Fin 32) :
    k1_pay1 (F := Ideal) x0 x1 x2 x3 x4 x5 (ix3 v b o) = pooled L X W0 W1 W2 Bi (ix3 v (σ b) o) := by
  subst h0 h2 h3 h4 h5
  refine (Body1.k1_pay1_apply x0 x1 x2 x3 x4 x5 v b o).trans ?_
  have e : cur3 x1 = fun u b f => cur3 X u (σ b) f := funext fun u => funext fun b => funext fun f => h1 u b f
  rw [e, chebDenseE_batch, poolE_batch]
  rfl

/-! ## What a grid point writes back -/

-- the TensorCore's buffer contents when the region is entered: any
variable (V : (c : Dev nD) → (b : Ref sig .tc) → Buf (Elt Ideal) ((c : Thread nD τ).loc b))

theorem zeros2 : (![0, 0] : Fin 2 → Nat) = fun _ => 0 := funext fun a => by fin_cases a <;> rfl
theorem zeros3 : (![0, 0, 0] : Fin 3 → Nat) = fun _ => 0 := funext fun a => by fin_cases a <;> rfl

/-- The index maps over the 16 grid points: the operator, the weights and the bias are staged whole at every point; the
    activation's and the output's blocks move along the batch axis alone, to tile t at point t. -/
theorem idx_facts : ∀ t : Fin cfg1.N,
    win1_0.index t (0 : Fin 2) = 0 ∧ win1_0.index t (1 : Fin 2) = 0
    ∧ win1_1.index t (0 : Fin 3) = 0 ∧ win1_1.index t (1 : Fin 3) = t.val ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = 0 ∧ win1_6.index t (1 : Fin 3) = t.val ∧ win1_6.index t (2 : Fin 3) = 0 :=
  (by decide +kernel : ∀ t : Fin grid1.N, _)

/-- The batch position of row b of tile t: 32 t + b. -/
def tilePos (t : Fin cfg1.N) (b : Fin 32) : Fin 512 :=
  ⟨t.val * 32 + b.val, by have hN : cfg1.N = 16 := N_1; have := t.isLt; have := b.isLt; omega⟩

theorem tilePos_val (t : Fin cfg1.N) (b : Fin 32) : (tilePos t b).val = t.val * 32 + b.val := rfl

/-- The operator's window holds the whole operator at every point. -/
theorem read_op (c : Dev nD) (t : Fin cfg1.N) :
    (iblk1 (F := Ideal) V c 0 t : FVec Ideal S1024x1024 .f32) = (V c main_v14 : FVec Ideal S1024x1024 .f32) := by
  obtain ⟨a00, a01, -⟩ := idx_facts t
  funext y
  show V c main_v14 (((cfg1.win 0).blk t).view.emb y) = V c main_v14 y
  refine congrArg (V c main_v14) (funext fun a => Fin.ext ?_)
  match a with
  | ⟨0, _⟩ => show win1_0.index t (0 : Fin 2) * 1024 + 1 * (y 0).val = (y 0).val; omega
  | ⟨1, _⟩ => show win1_0.index t (1 : Fin 2) * 1024 + 1 * (y 1).val = (y 1).val; omega

/-- The activation's window at point t holds batch tile t: its entry (u, b, f) is the array's at (u, 32 t + b, f). -/
theorem read_act (c : Dev nD) (t : Fin cfg1.N) (u : Fin 1024) (b f : Fin 32) :
    (iblk1 (F := Ideal) V c 1 t : FVec Ideal S1024x32x32 .f32) (ix3 u b f)
      = (V c main_v42 : FVec Ideal S1024x512x32 .f32) (ix3 u (tilePos t b) f) := by
  obtain ⟨-, -, a10, a11, a12, -⟩ := idx_facts t
  show V c main_v42 (((cfg1.win 1).blk t).view.emb (ix3 u b f)) = V c main_v42 (ix3 u (tilePos t b) f)
  refine congrArg (V c main_v42) (funext fun a => Fin.ext ?_)
  match a with
  | ⟨0, _⟩ => show win1_1.index t (0 : Fin 3) * 1024 + 1 * u.val = u.val; omega
  | ⟨1, _⟩ => show win1_1.index t (1 : Fin 3) * 32 + 1 * b.val = t.val * 32 + b.val; omega
  | ⟨2, _⟩ => show win1_1.index t (2 : Fin 3) * 32 + 1 * f.val = f.val; omega

/-- The first weight's window holds it whole. -/
theorem read_w0 (c : Dev nD) (t : Fin cfg1.N) :
    (iblk1 (F := Ideal) V c 2 t : FVec Ideal S32x32 .f32) = (V c main_v46 : FVec Ideal S32x32 .f32) := by
  obtain ⟨-, -, -, -, -, a20, a21, -⟩ := idx_facts t
  funext y
  show V c main_v46 (((cfg1.win 2).blk t).view.emb y) = V c main_v46 y
  refine congrArg (V c main_v46) (funext fun a => Fin.ext ?_)
  match a with
  | ⟨0, _⟩ => show win1_2.index t (0 : Fin 2) * 32 + 1 * (y 0).val = (y 0).val; omega
  | ⟨1, _⟩ => show win1_2.index t (1 : Fin 2) * 32 + 1 * (y 1).val = (y 1).val; omega

/-- The second weight's window holds it whole. -/
theorem read_w1 (c : Dev nD) (t : Fin cfg1.N) :
    (iblk1 (F := Ideal) V c 3 t : FVec Ideal S32x32 .f32) = (V c main_v49 : FVec Ideal S32x32 .f32) := by
  obtain ⟨-, -, -, -, -, -, -, a30, a31, -⟩ := idx_facts t
  funext y
  show V c main_v49 (((cfg1.win 3).blk t).view.emb y) = V c main_v49 y
  refine congrArg (V c main_v49) (funext fun a => Fin.ext ?_)
  match a with
  | ⟨0, _⟩ => show win1_3.index t (0 : Fin 2) * 32 + 1 * (y 0).val = (y 0).val; omega
  | ⟨1, _⟩ => show win1_3.index t (1 : Fin 2) * 32 + 1 * (y 1).val = (y 1).val; omega

/-- The third weight's window holds it whole. -/
theorem read_w2 (c : Dev nD) (t : Fin cfg1.N) :
    (iblk1 (F := Ideal) V c 4 t : FVec Ideal S32x32 .f32) = (V c main_v52 : FVec Ideal S32x32 .f32) := by
  obtain ⟨-, -, -, -, -, -, -, -, -, a40, a41, -⟩ := idx_facts t
  funext y
  show V c main_v52 (((cfg1.win 4).blk t).view.emb y) = V c main_v52 y
  refine congrArg (V c main_v52) (funext fun a => Fin.ext ?_)
  match a with
  | ⟨0, _⟩ => show win1_4.index t (0 : Fin 2) * 32 + 1 * (y 0).val = (y 0).val; omega
  | ⟨1, _⟩ => show win1_4.index t (1 : Fin 2) * 32 + 1 * (y 1).val = (y 1).val; omega

/-- The bias's window holds it whole. -/
theorem read_bias (c : Dev nD) (t : Fin cfg1.N) :
    (iblk1 (F := Ideal) V c 5 t : FVec Ideal S1x32 .f32) = (V c main_v53 : FVec Ideal S1x32 .f32) := by
  obtain ⟨-, -, -, -, -, -, -, -, -, -, -, a50, a51, -⟩ := idx_facts t
  funext y
  show V c main_v53 (((cfg1.win 5).blk t).view.emb y) = V c main_v53 y
  refine congrArg (V c main_v53) (funext fun a => Fin.ext ?_)
  match a with
  | ⟨0, _⟩ => show win1_5.index t (0 : Fin 2) * 1 + 1 * (y 0).val = (y 0).val; omega
  | ⟨1, _⟩ => show win1_5.index t (1 : Fin 2) * 32 + 1 * (y 1).val = (y 1).val; omega

/-- Entry (v', b, o) of the output's block at point t sits in the array at (v', 32 t + b, o). -/
theorem out_pos (t : Fin cfg1.N) (v : Fin 256) (b o : Fin 32) :
    ((cfg1.win 6).blk t).view.emb (ix3 v b o) = (ix3 v (tilePos t b) o : S256x512x32.Idx) := by
  obtain ⟨-, -, -, -, -, -, -, -, -, -, -, -, -, a60, a61, a62⟩ := idx_facts t
  funext a; apply Fin.ext
  match a with
  | ⟨0, _⟩ => show win1_6.index t (0 : Fin 3) * 256 + 1 * v.val = v.val; omega
  | ⟨1, _⟩ => show win1_6.index t (1 : Fin 3) * 32 + 1 * b.val = t.val * 32 + b.val; omega
  | ⟨2, _⟩ => show win1_6.index t (2 : Fin 3) * 32 + 1 * o.val = o.val; omega

/-- WHAT POINT t WRITES BACK is block t of the output function of the arrays as the region finds them: the input blocks at t
    are the operator, weights and bias whole and batch tile t of the activation, and the body's value at (v', b, o) depends on
    the activation through batch position 32 t + b alone. -/
theorem flushed_eq (c : Dev nD) (t : Fin cfg1.N) :
    (dat1 (F := Ideal) V c).flushed 6 t
      = ((cfg1.win 6).blk t).view.read (Elt Ideal)
          (pooled (V c main_v14) (V c main_v42) (V c main_v46) (V c main_v49) (V c main_v52) (V c main_v53)) := by
  show (cfg1.win 6).cut (grid1.coords t) ((dat1 V c).after 6 t) = _
  rw [after1_6]
  unfold out1_6
  rw [View.canon_unit_zero zeros3]
  simp only [View.ld_unit_zero (S := S1024x1024) zeros2, View.ld_unit_zero (S := S1024x32x32) zeros3,
    View.ld_unit_zero (S := S32x32) zeros2, View.ld_unit_zero (S := S1x32) zeros2]
  funext j
  obtain ⟨v, b, o, rfl⟩ : ∃ (v : Fin 256) (b o : Fin 32), j = ix3 v b o := ⟨j 0, j 1, j 2, eq_ix3 j⟩
  show k1_pay1 (F := Ideal) (iblk1 V c 0 t) (iblk1 V c 1 t) (iblk1 V c 2 t) (iblk1 V c 3 t) (iblk1 V c 4 t) (iblk1 V c 5 t) (ix3 v b o)
    = pooled (V c main_v14) (V c main_v42) (V c main_v46) (V c main_v49) (V c main_v52) (V c main_v53)
        (((cfg1.win 6).blk t).view.emb (ix3 v b o))
  rw [out_pos t v b o]
  exact point_value (V c main_v14) (V c main_v42) (V c main_v46) (V c main_v49) (V c main_v52) (V c main_v53)
    (iblk1 V c 0 t) (iblk1 V c 1 t) (iblk1 V c 2 t) (iblk1 V c 3 t) (iblk1 V c 4 t) (iblk1 V c 5 t) (tilePos t)
    (read_op V c t) (read_act V c t) (read_w0 V c t) (read_w1 V c t) (read_w2 V c t) (read_bias V c t) v b o

/-! ## The blocks cover the output array -/

/-- An index of the output array is in point t's block iff each coordinate is in the block's range on its axis. -/
theorem mem_blk (t : Fin cfg1.N) (i : S256x512x32.Idx) :
    i ∈ ((cfg1.win 6).blk t).view.set
      ↔ ∀ a : Fin 3, win1_6.index t a * S256x32x32.size a ≤ (i a).val ∧ (i a).val < win1_6.index t a * S256x32x32.size a + S256x32x32.size a := by
  show i ∈ ((View.whole main_v54).slice (win1_6.rect t)).set ↔ _
  rw [View.set_slice_whole, Rect.mem_set_unit]
  exact Iff.rfl

/-- Every index (v', p, o) of the output array lies in the block of the point p / 32, which writes back. -/
theorem covered (i : S256x512x32.Idx) : ∃ t : Fin cfg1.N, (cfg1.win 6).flush t = true ∧ i ∈ ((cfg1.win 6).blk t).view.set := by
  have hi0 : (i 0).val < 256 := (i 0).isLt
  have hi1 : (i 1).val < 512 := (i 1).isLt
  have hi2 : (i 2).val < 32 := (i 2).isLt
  have hN : cfg1.N = 16 := N_1
  obtain ⟨t, ht⟩ : ∃ t : Fin cfg1.N, t.val = (i 1).val / 32 := ⟨⟨(i 1).val / 32, by omega⟩, rfl⟩
  refine ⟨t, flush1_6 t, ?_⟩
  rw [mem_blk]
  obtain ⟨-, -, -, -, -, -, -, -, -, -, -, -, -, a60, a61, a62⟩ := idx_facts t
  intro a
  match a with
  | ⟨0, _⟩ => show win1_6.index t (0 : Fin 3) * 256 ≤ (i 0).val ∧ (i 0).val < win1_6.index t (0 : Fin 3) * 256 + 256; omega
  | ⟨1, _⟩ => show win1_6.index t (1 : Fin 3) * 32 ≤ (i 1).val ∧ (i 1).val < win1_6.index t (1 : Fin 3) * 32 + 32; omega
  | ⟨2, _⟩ => show win1_6.index t (2 : Fin 3) * 32 ≤ (i 2).val ∧ (i 2).val < win1_6.index t (2 : Fin 3) * 32 + 32; omega

/-- The output array after all grid points is the output function of the arrays at entry. -/
theorem final (c : Dev nD) :
    (dat1 (F := Ideal) V c).arrAt 6 cfg1.N
      = pooled (V c main_v14) (V c main_v42) (V c main_v46) (V c main_v49) (V c main_v52) (V c main_v53) :=
  (dat1 V c).arrAt_eq_of_cover 6 (pooled (V c main_v14) (V c main_v42) (V c main_v46) (V c main_v49) (V c main_v52) (V c main_v53))
    (fun t _ => flushed_eq V c t) covered

/-- What region 1 leaves in its output array, as a function of its input arrays at entry. -/
theorem region1_value (c : Dev nD) :
    cur3 ((dat1 (F := Ideal) V c).arrAt 6 cfg1.N : S256x512x32.Idx → EReal)
      = poolE (by decide : 4 * 256 = 1024) (chebDenseE (cur2 (V c main_v14 : S1024x1024.Idx → EReal)) (cur3 (V c main_v42 : S1024x512x32.Idx → EReal))
          (cur2 (V c main_v46 : S32x32.Idx → EReal)) (cur2 (V c main_v49 : S32x32.Idx → EReal)) (cur2 (V c main_v52 : S32x32.Idx → EReal))
          (cur2 (V c main_v53 : S1x32.Idx → EReal) 0)) := by
  funext v b o
  exact congrFun (final V c) (ix3 v b o)

end Cert.KernelIdeal.RegionValue

end
-- ==== Proof.KRegion2Body.lean ====
/-
  The arithmetic of region 2's body at one index.
  A tile is 256 vertices × 128 batch columns × 32 features. Flattened to 256 × 4096, column b · 32 + f holds (b, f); the
  256 × 256 operator acts on the vertex axis by a matrix product, so column (b, f) of L x is ∑ u, L v u · x u b f, and the
  same again for L (L x). Re-read as a (v · 128 + b) × 32 matrix, row v · 128 + b holds the 32 features of (v, b), which
  the 32 × 64 weights contract. So the value stored at (v, b, o) is the dense Chebyshev layer of the tile at (v, b, o),
  and it depends on the tile only through its batch column b.
-/
import proofs.«430908_j10015863734924_3_alg».proof.Proof.Gen.KernelIdeal.Skeleton
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue.Body2

open Cert.KernelIdeal Cert.KernelIdeal.Gen Cert.Net
open Idealize.ShloMosaic Idealize.ShloMosaic.ValueIdx

/-- The tile flattened: (v, b · 32 + f) of the 256 × 4096 matrix is (v, b, f) of the tile. -/
theorem flat_apply (x : S256x128x32.Idx → EReal) (h : S256x128x32.ShapeCasts S256x4096) (v : Fin 256) (b : Fin 128)
    (f : Fin 32) (j : Fin 4096) (hj : j.val = b.val * 32 + f.val) :
    shapeCast S256x4096 x h (ix2 v j) = x (ix3 v b f) := by
  refine shapeCast_apply x h (ix2 v j) (ix3 v b f) ?_
  rw [Shape.rowMajor_val_three, Shape.rowMajor_val_two]
  show (v.val * 128 + b.val) * 32 + f.val = v.val * 4096 + j.val
  omega

/-- The flattened tile re-read by rows of 32: (v · 128 + b, f) is (v, b · 32 + f). -/
theorem rows_apply (y : S256x4096.Idx → EReal) (h : S256x4096.ShapeCasts S32768x32) (v : Fin 256) (b : Fin 128)
    (f : Fin 32) (r : Fin 32768) (j : Fin 4096) (hr : r.val = v.val * 128 + b.val) (hj : j.val = b.val * 32 + f.val) :
    shapeCast S32768x32 y h (ix2 r f) = y (ix2 v j) := by
  refine shapeCast_apply y h (ix2 r f) (ix2 v j) ?_
  rw [Shape.rowMajor_val_two, Shape.rowMajor_val_two]
  show v.val * 4096 + j.val = r.val * 32 + f.val
  omega

/-- The result re-read as a tile: (v, b, o) is row v · 128 + b, column o. -/
theorem unrows_apply (z : S32768x64.Idx → EReal) (h : S32768x64.ShapeCasts S256x128x64) (v : Fin 256) (b : Fin 128)
    (o : Fin 64) (r : Fin 32768) (hr : r.val = v.val * 128 + b.val) :
    shapeCast S256x128x64 z h (ix3 v b o) = z (ix2 r o) := by
  refine shapeCast_apply z h (ix3 v b o) (ix2 r o) ?_
  rw [Shape.rowMajor_val_three, Shape.rowMajor_val_two]
  show r.val * 64 + o.val = (v.val * 128 + b.val) * 64 + o.val
  omega

/-- The product by the 256 × 256 operator into a zero accumulator, at (v, j): the sum over the contracted vertex. -/
theorem mmL_apply (A : FVec Ideal S256x256 .f32) (B : FVec Ideal S256x4096 .f32) (v : Fin 256) (j : Fin 4096) :
    matmul dot_S256x256_S256x4096_S256x4096_1_0_0_1_n_n (some .fp32) A B (constant S256x4096 .f32 0x00000000#32) (ix2 v j)
      = ∑ u : Fin 256, A (ix2 v u) * B (ix2 u j) := by
  show FloatOps.matmul _ _ A B _ (ix2 v j) = _
  rw [Ideal.matmul_constant_zero_apply,
    ← Equiv.sum_comp (contrEquiv1 dot_S256x256_S256x4096_S256x4096_1_0_0_1_n_n 256 rfl rfl).symm]
  refine Finset.sum_congr rfl fun u _ => ?_
  have c2 := contrEquiv1_symm_val dot_S256x256_S256x4096_S256x4096_1_0_0_1_n_n 256 rfl rfl u
  have l2 : dot_S256x256_S256x4096_S256x4096_1_0_0_1_n_n.lhsIdx (ix2 v j) ((contrEquiv1 _ 256 rfl rfl).symm u) = ix2 v u := by
    funext ax; apply Fin.ext
    match ax with
    | ⟨0, _⟩ => simp [DotDims.lhsIdx, dot_S256x256_S256x4096_S256x4096_1_0_0_1_n_n]; rfl
    | ⟨1, _⟩ => simp [DotDims.lhsIdx, dot_S256x256_S256x4096_S256x4096_1_0_0_1_n_n]; exact c2
  have r2 : dot_S256x256_S256x4096_S256x4096_1_0_0_1_n_n.rhsIdx (ix2 v j) ((contrEquiv1 _ 256 rfl rfl).symm u) = ix2 u j := by
    funext ax; apply Fin.ext
    match ax with
    | ⟨0, _⟩ => simp [DotDims.rhsIdx, dot_S256x256_S256x4096_S256x4096_1_0_0_1_n_n]; exact c2
    | ⟨1, _⟩ => simp [DotDims.rhsIdx, dot_S256x256_S256x4096_S256x4096_1_0_0_1_n_n]; rfl
  rw [l2, r2]

/-- The product by a 32 × 64 weight into a zero accumulator, at (r, o): the sum over the contracted feature. -/
theorem mmW_apply (A : FVec Ideal S32768x32 .f32) (B : FVec Ideal S32x64 .f32) (r : Fin 32768) (o : Fin 64) :
    matmul dot_S32768x32_S32x64_S32768x64_1_0_0_1_n_n (some .fp32) A B (constant S32768x64 .f32 0x00000000#32) (ix2 r o)
      = ∑ f : Fin 32, A (ix2 r f) * B (ix2 f o) := by
  show FloatOps.matmul _ _ A B _ (ix2 r o) = _
  rw [Ideal.matmul_constant_zero_apply,
    ← Equiv.sum_comp (contrEquiv1 dot_S32768x32_S32x64_S32768x64_1_0_0_1_n_n 32 rfl rfl).symm]
  refine Finset.sum_congr rfl fun f _ => ?_
  have c2 := contrEquiv1_symm_val dot_S32768x32_S32x64_S32768x64_1_0_0_1_n_n 32 rfl rfl f
  have l2 : dot_S32768x32_S32x64_S32768x64_1_0_0_1_n_n.lhsIdx (ix2 r o) ((contrEquiv1 _ 32 rfl rfl).symm f) = ix2 r f := by
    funext ax; apply Fin.ext
    match ax with
    | ⟨0, _⟩ => simp [DotDims.lhsIdx, dot_S32768x32_S32x64_S32768x64_1_0_0_1_n_n]; rfl
    | ⟨1, _⟩ => simp [DotDims.lhsIdx, dot_S32768x32_S32x64_S32768x64_1_0_0_1_n_n]; exact c2
  have r2 : dot_S32768x32_S32x64_S32768x64_1_0_0_1_n_n.rhsIdx (ix2 r o) ((contrEquiv1 _ 32 rfl rfl).symm f) = ix2 f o := by
    funext ax; apply Fin.ext
    match ax with
    | ⟨0, _⟩ => simp [DotDims.rhsIdx, dot_S32768x32_S32x64_S32768x64_1_0_0_1_n_n]; exact c2
    | ⟨1, _⟩ => simp [DotDims.rhsIdx, dot_S32768x32_S32x64_S32768x64_1_0_0_1_n_n]; rfl
  rw [l2, r2]

/-- The scalar 2.0 of the body is the specification's. -/
theorem two_eq : (Scalar.ofBits (F := Ideal) .f32 0x40000000#32 : EReal) = two := rfl

/-- The 256 × 256 operator applied to a flattened tile whose column (b, f) is known. -/
theorem lmul_apply (x0 : FVec Ideal S256x256 .f32) (Y : FVec Ideal S256x4096 .f32) (y : Fin 256 → Fin 128 → Fin 32 → EReal)
    (b : Fin 128) (f : Fin 32) (j : Fin 4096) (hY : ∀ u : Fin 256, Y (ix2 u j) = y u b f) (v : Fin 256) :
    matmul dot_S256x256_S256x4096_S256x4096_1_0_0_1_n_n (some .fp32) x0 Y (constant S256x4096 .f32 0x00000000#32) (ix2 v j)
      = lmulE (cur2 (x0 : S256x256.Idx → EReal)) y v b f := by
  rw [mmL_apply]
  unfold lmulE
  exact Finset.sum_congr rfl fun u _ => by rw [hY u]; rfl

/-- What the body stores at (v, b, o): the dense Chebyshev layer of its six loaded blocks. -/
theorem k2_pay1_apply (x0 : Vec Ideal S256x256 .f32) (x1 : Vec Ideal S256x128x32 .f32) (x2 x3 x4 : Vec Ideal S32x64 .f32)
    (x5 : Vec Ideal S1x64 .f32) (v : Fin 256) (b : Fin 128) (o : Fin 64) :
    k2_pay1 (F := Ideal) x0 x1 x2 x3 x4 x5 (ix3 v b o)
      = chebDenseE (cur2 (x0 : S256x256.Idx → EReal)) (cur3 (x1 : S256x128x32.Idx → EReal)) (cur2 (x2 : S32x64.Idx → EReal))
          (cur2 (x3 : S32x64.Idx → EReal)) (cur2 (x4 : S32x64.Idx → EReal)) (cur2 (x5 : S1x64.Idx → EReal) 0) v b o := by
  unfold k2_pay1
  simp only [shapeCast_self]
  have hv := v.isLt
  have hb := b.isLt
  -- the row of the (vertex · tile) × feature matrices that holds (v, b)
  obtain ⟨r, hr⟩ : ∃ r : Fin 32768, r.val = v.val * 128 + b.val := ⟨⟨v.val * 128 + b.val, by omega⟩, rfl⟩
  -- the column of the flattened tile that holds (b, f)
  have hcol : ∀ f : Fin 32, ∃ j : Fin 4096, j.val = b.val * 32 + f.val := fun f =>
    ⟨⟨b.val * 32 + f.val, by have := f.isLt; omega⟩, rfl⟩
  -- the three Chebyshev terms at (u, b, f), read in the flattened tile
  have t0 : ∀ (f : Fin 32) (j : Fin 4096), j.val = b.val * 32 + f.val → ∀ u : Fin 256,
      shapeCast S256x4096 x1 shapeCasts_S256x128x32_S256x4096 (ix2 u j) = cur3 (x1 : S256x128x32.Idx → EReal) u b f :=
    fun f j hj u => flat_apply x1 _ u b f j hj
  have t1 : ∀ (f : Fin 32) (j : Fin 4096), j.val = b.val * 32 + f.val → ∀ u : Fin 256,
      matmul (F := Ideal) (φ₁ := .f32) (φ₂ := .f32) dot_S256x256_S256x4096_S256x4096_1_0_0_1_n_n (some .fp32) x0
        (shapeCast S256x4096 x1 shapeCasts_S256x128x32_S256x4096) (constant S256x4096 .f32 0x00000000#32) (ix2 u j)
        = lmulE (cur2 (x0 : S256x256.Idx → EReal)) (cur3 (x1 : S256x128x32.Idx → EReal)) u b f :=
    fun f j hj u => lmul_apply x0 _ _ b f j (t0 f j hj) u
  have t2 : ∀ (f : Fin 32) (j : Fin 4096), j.val = b.val * 32 + f.val → ∀ u : Fin 256,
      matmul (F := Ideal) (φ₁ := .f32) (φ₂ := .f32) dot_S256x256_S256x4096_S256x4096_1_0_0_1_n_n (some .fp32) x0
        (matmul (F := Ideal) (φ₁ := .f32) (φ₂ := .f32) dot_S256x256_S256x4096_S256x4096_1_0_0_1_n_n (some .fp32) x0
          (shapeCast S256x4096 x1 shapeCasts_S256x128x32_S256x4096) (constant S256x4096 .f32 0x00000000#32))
        (constant S256x4096 .f32 0x00000000#32) (ix2 u j)
        = lmulE (cur2 (x0 : S256x256.Idx → EReal)) (lmulE (cur2 (x0 : S256x256.Idx → EReal)) (cur3 (x1 : S256x128x32.Idx → EReal))) u b f :=
    fun f j hj u => lmul_apply x0 _ _ b f j (t1 f j hj) u
  rw [unrows_apply _ _ v b o r hr]
  simp only [addf_apply]
  rw [mmW_apply, mmW_apply, mmW_apply, broadcastTo_1b_ab_apply]
  unfold chebDenseE
  refine congrArg₂ (· + ·) (congrArg₂ (· + ·) (congrArg₂ (· + ·) ?_ ?_) ?_) rfl
  · refine Finset.sum_congr rfl fun f _ => ?_
    obtain ⟨j, hj⟩ := hcol f
    rw [rows_apply _ _ v b f r j hr hj, t0 f j hj v]; rfl
  · refine Finset.sum_congr rfl fun f _ => ?_
    obtain ⟨j, hj⟩ := hcol f
    rw [rows_apply _ _ v b f r j hr hj, t1 f j hj v]; rfl
  · refine Finset.sum_congr rfl fun f _ => ?_
    obtain ⟨j, hj⟩ := hcol f
    rw [rows_apply _ _ v b f r j hr hj, subf_apply, mulf_apply, broadcast_apply, t2 f j hj v, t0 f j hj v]; rfl

/-- The layer's value at batch column `b` depends on the activation only through that column: two activations that agree
    on a column (here: a tile's column and the whole array's column it was cut from) give the same value there. -/
theorem chebDenseE_col {V B B' Fi Fo : Nat} (L : Fin V → Fin V → EReal) (x : Fin V → Fin B → Fin Fi → EReal)
    (x' : Fin V → Fin B' → Fin Fi → EReal) (W0 W1 W2 : Fin Fi → Fin Fo → EReal) (bias : Fin Fo → EReal)
    (b : Fin B) (b' : Fin B') (h : ∀ (u : Fin V) (f : Fin Fi), x u b f = x' u b' f) (v : Fin V) (o : Fin Fo) :
    chebDenseE L x W0 W1 W2 bias v b o = chebDenseE L x' W0 W1 W2 bias v b' o := by
  unfold chebDenseE cheb2E lmulE
  simp only [h]

end Cert.KernelIdeal.RegionValue.Body2

end
-- ==== Proof.KRegion2.lean ====
/-
  Region 2 of the kernel's program: one Chebyshev layer, tiled over the batch axis.
  A grid point holds 256 vertices × one batch tile × 32 features. The body flattens the tile to 256 × (tile · 32), applies the
  256 × 256 operator twice by matrix products (x₁ = L x₀, x₂ = 2 L x₁ − x₀), re-reads the three terms as (vertex · tile) × 32
  matrices, projects each by its 32 × 64 weight, sums them with the bias.
  Every step acts on each batch column separately, so the tiles together hold `chebDenseE …` of the whole arrays.
-/
import proofs.«430908_j10015863734924_3_alg».proof.Proof.Gen.KernelIdeal.Frame
import proofs.«430908_j10015863734924_3_alg».proof.Proof.Spec
import proofs.«430908_j10015863734924_3_alg».proof.Proof.KRegion2Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

namespace R2

/-- The zero offset of a rank-2 whole-buffer access. -/
theorem hz2 : (![0, 0] : Fin 2 → Nat) = fun _ => 0 := funext fun a => by fin_cases a <;> rfl
/-- The zero offset of a rank-3 whole-buffer access. -/
theorem hz3 : (![0, 0, 0] : Fin 3 → Nat) = fun _ => 0 := funext fun a => by fin_cases a <;> rfl

/-- The block indices over the grid: the operator, the three weights and the bias are whole arrays at block (0, 0) at
    every point; the activation's and the output's block at point t is batch tile t. -/
theorem idx_facts : ∀ t : Fin cfg2.N,
    win2_0.index t (0 : Fin 2) = 0 ∧ win2_0.index t (1 : Fin 2) = 0
    ∧ win2_1.index t (0 : Fin 3) = 0 ∧ win2_1.index t (1 : Fin 3) = t.val ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 3) = 0 ∧ win2_6.index t (1 : Fin 3) = t.val ∧ win2_6.index t (2 : Fin 3) = 0 :=
  (by decide +kernel : ∀ t : Fin grid2.N, _)

/-- A function of three coordinates as a rank-3 array. -/
def unc3 {a b c : Nat} {α : Type} (g : Fin a → Fin b → Fin c → α) : (⟨3, ![a, b, c]⟩ : Shape).Idx → α :=
  fun i => g (i 0) (i 1) (i 2)

/-- Reading that array by coordinates gives the function back. -/
theorem cur3_unc3 {a b c : Nat} {α : Type} (g : Fin a → Fin b → Fin c → α) : cur3 (unc3 g) = g := rfl

/-- What the body stores at index j of a tile is the layer of the WHOLE arrays at the index i with the same vertex and
    output feature and batch coordinate k · 128 + (j's batch coordinate), when the loaded blocks are the whole operator,
    weights and bias and batch tile k of the activation: the layer reads the activation only through that batch column. -/
theorem tile_value
    (A : S256x256.Idx → EReal) (X : S256x512x32.Idx → EReal) (W0 W1 W2 : S32x64.Idx → EReal) (Bi : S1x64.Idx → EReal)
    (x0 : Vec Ideal S256x256 .f32) (x1 : Vec Ideal S256x128x32 .f32) (x2 x3 x4 : Vec Ideal S32x64 .f32) (x5 : Vec Ideal S1x64 .f32)
    (k : Nat) (h0 : x0 = A) (h2 : x2 = W0) (h3 : x3 = W1) (h4 : x4 = W2) (h5 : x5 = Bi)
    (h1 : ∀ (u : Fin 256) (b : Fin 128) (f : Fin 32) (b' : Fin 512), b'.val = k * 128 + b.val → x1 (ix3 u b f) = X (ix3 u b' f))
    (j : S256x128x64.Idx) (i : S256x512x64.Idx) (hi0 : (i 0).val = (j 0).val) (hi1 : (i 1).val = k * 128 + (j 1).val)
    (hi2 : (i 2).val = (j 2).val) :
    Gen.k2_pay1 (F := Ideal) x0 x1 x2 x3 x4 x5 j
      = unc3 (chebDenseE (cur2 A) (cur3 X) (cur2 W0) (cur2 W1) (cur2 W2) (cur2 Bi 0)) i := by
  subst h0 h2 h3 h4 h5
  obtain ⟨v, b, o, rfl⟩ : ∃ (v : Fin 256) (b : Fin 128) (o : Fin 64), j = ix3 v b o := ⟨j 0, j 1, j 2, eq_ix3 j⟩
  obtain ⟨p, q, s, rfl⟩ : ∃ (p : Fin 256) (q : Fin 512) (s : Fin 64), i = ix3 p q s := ⟨i 0, i 1, i 2, eq_ix3 i⟩
  obtain rfl : p = v := Fin.ext hi0
  obtain rfl : s = o := Fin.ext hi2
  rw [Body2.k2_pay1_apply]
  exact Body2.chebDenseE_col _ _ _ _ _ _ _ b q (fun u f => h1 u b f q hi1) p s

/-- The output array region 2 ends with: the dense Chebyshev layer of the arrays at entry, index by index. -/
abbrev G2 (c : Dev nD) : S256x512x64.Idx → EReal :=
  unc3 (chebDenseE (cur2 (V c main_v29 : S256x256.Idx → EReal)) (cur3 (V c main_v54 : S256x512x32.Idx → EReal))
          (cur2 (V c main_v58 : S32x64.Idx → EReal)) (cur2 (V c main_v61 : S32x64.Idx → EReal)) (cur2 (V c main_v64 : S32x64.Idx → EReal))
          (cur2 (V c main_v65 : S1x64.Idx → EReal) 0))

/-- The operator's block at every point is the whole 256 × 256 array. -/
theorem blk0_eq (c : Dev nD) (t : Fin cfg2.N) : (iblk2 V c 0 t : Vec Ideal S256x256 .f32) = (V c main_v29 : S256x256.Idx → EReal) := by
  obtain ⟨e0, e1, -⟩ := idx_facts t
  funext y
  show (V c main_v29 : S256x256.Idx → EReal) (((cfg2.win 0).blk t).view.emb y) = _
  refine congrArg _ (funext fun a => Fin.ext ?_)
  match a with
  | ⟨0, _⟩ => show win2_0.index t (0 : Fin 2) * 256 + 1 * (y 0).val = (y 0).val; omega
  | ⟨1, _⟩ => show win2_0.index t (1 : Fin 2) * 256 + 1 * (y 1).val = (y 1).val; omega

/-- The activation's block at point t is batch tile t: local batch coordinate b is t · 128 + b of the array. -/
theorem blk1_apply (c : Dev nD) (t : Fin cfg2.N) (u : Fin 256) (b : Fin 128) (f : Fin 32) (b' : Fin 512)
    (hb : b'.val = t.val * 128 + b.val) :
    (iblk2 V c 1 t : Vec Ideal S256x128x32 .f32) (ix3 u b f) = (V c main_v54 : S256x512x32.Idx → EReal) (ix3 u b' f) := by
  obtain ⟨-, -, e0, e1, e2, -⟩ := idx_facts t
  show (V c main_v54 : S256x512x32.Idx → EReal) (((cfg2.win 1).blk t).view.emb (ix3 u b f)) = _
  refine congrArg _ (funext fun a => Fin.ext ?_)
  match a with
  | ⟨0, _⟩ => show win2_1.index t (0 : Fin 3) * 256 + 1 * u.val = u.val; omega
  | ⟨1, _⟩ => show win2_1.index t (1 : Fin 3) * 128 + 1 * b.val = b'.val; omega
  | ⟨2, _⟩ => show win2_1.index t (2 : Fin 3) * 32 + 1 * f.val = f.val; omega

/-- The first weight's block at every point is the whole 32 × 64 array. -/
theorem blk2_eq (c : Dev nD) (t : Fin cfg2.N) : (iblk2 V c 2 t : Vec Ideal S32x64 .f32) = (V c main_v58 : S32x64.Idx → EReal) := by
  obtain ⟨-, -, -, -, -, e0, e1, -⟩ := idx_facts t
  funext y
  show (V c main_v58 : S32x64.Idx → EReal) (((cfg2.win 2).blk t).view.emb y) = _
  refine congrArg _ (funext fun a => Fin.ext ?_)
  match a with
  | ⟨0, _⟩ => show win2_2.index t (0 : Fin 2) * 32 + 1 * (y 0).val = (y 0).val; omega
  | ⟨1, _⟩ => show win2_2.index t (1 : Fin 2) * 64 + 1 * (y 1).val = (y 1).val; omega

/-- The second weight's block at every point is the whole 32 × 64 array. -/
theorem blk3_eq (c : Dev nD) (t : Fin cfg2.N) : (iblk2 V c 3 t : Vec Ideal S32x64 .f32) = (V c main_v61 : S32x64.Idx → EReal) := by
  obtain ⟨-, -, -, -, -, -, -, e0, e1, -⟩ := idx_facts t
  funext y
  show (V c main_v61 : S32x64.Idx → EReal) (((cfg2.win 3).blk t).view.emb y) = _
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 64 + 1 * (y 1).val = (y 1).val; omega

/-- The third weight's block at every point is the whole 32 × 64 array. -/
theorem blk4_eq (c : Dev nD) (t : Fin cfg2.N) : (iblk2 V c 4 t : Vec Ideal S32x64 .f32) = (V c main_v64 : S32x64.Idx → EReal) := by
  obtain ⟨-, -, -, -, -, -, -, -, -, e0, e1, -⟩ := idx_facts t
  funext y
  show (V c main_v64 : S32x64.Idx → EReal) (((cfg2.win 4).blk t).view.emb y) = _
  refine congrArg _ (funext fun a => Fin.ext ?_)
  match a with
  | ⟨0, _⟩ => show win2_4.index t (0 : Fin 2) * 32 + 1 * (y 0).val = (y 0).val; omega
  | ⟨1, _⟩ => show win2_4.index t (1 : Fin 2) * 64 + 1 * (y 1).val = (y 1).val; omega

/-- The bias's block at every point is the whole 1 × 64 array. -/
theorem blk5_eq (c : Dev nD) (t : Fin cfg2.N) : (iblk2 V c 5 t : Vec Ideal S1x64 .f32) = (V c main_v65 : S1x64.Idx → EReal) := by
  obtain ⟨-, -, -, -, -, -, -, -, -, -, -, e0, e1, -⟩ := idx_facts t
  funext y
  show (V c main_v65 : S1x64.Idx → EReal) (((cfg2.win 5).blk t).view.emb y) = _
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- What point t writes back is batch tile t of `G2`. -/
theorem flushed_eq (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz3]
  simp only [View.ld_unit_zero (S := S256x256) hz2, View.ld_unit_zero (S := S256x128x32) hz3, View.ld_unit_zero (S := S32x64) hz2, View.ld_unit_zero (S := S1x64) hz2]
  obtain ⟨-, -, -, -, -, -, -, -, -, -, -, -, -, e0, e1, e2⟩ := idx_facts t
  funext y
  refine tile_value (V c main_v29) (V c main_v54) (V c main_v58) (V c main_v61) (V c main_v64) (V c main_v65)
    (iblk2 V c 0 t) (iblk2 V c 1 t) (iblk2 V c 2 t) (iblk2 V c 3 t) (iblk2 V c 4 t) (iblk2 V c 5 t) t.val
    (blk0_eq V c t) (blk2_eq V c t) (blk3_eq V c t) (blk4_eq V c t) (blk5_eq V c t) (fun u b f b' hb => blk1_apply V c t u b f b' hb)
    ((win2 6).xinj (grid2.coords t) y) (((cfg2.win 6).blk t).view.emb y) ?_ ?_ ?_
  · show win2_6.index t (0 : Fin 3) * 256 + 1 * (y 0).val = (y 0).val; omega
  · show win2_6.index t (1 : Fin 3) * 128 + 1 * (y 1).val = t.val * 128 + (y 1).val; omega
  · show win2_6.index t (2 : Fin 3) * 64 + 1 * (y 2).val = (y 2).val; omega

/-- An index of the output array is in point t's block iff each coordinate is in the block's range on its axis. -/
theorem mem_blk6 (t : Fin cfg2.N) (i : S256x512x64.Idx) :
    i ∈ ((cfg2.win 6).blk t).view.set ↔ ∀ a : Fin 3, win2_6.index t a * S256x128x64.size a ≤ (i a).val ∧ (i a).val < win2_6.index t a * S256x128x64.size a + S256x128x64.size a := by
  show i ∈ ((View.whole main_v66).slice (win2_6.rect t)).set ↔ _
  rw [View.set_slice_whole, Rect.mem_set_unit]
  exact Iff.rfl

/-- Every index of the output array is in the block of the point its batch coordinate divided by 128 names. -/
theorem cover6 (i : S256x512x64.Idx) :
    ∃ t : Fin cfg2.N, (cfg2.win 6).flush t = true ∧ i ∈ ((cfg2.win 6).blk t).view.set := by
  have hN : grid2.N = 4 := N_2
  have hi0 : (i 0).val < 256 := (i 0).isLt
  have hi1 : (i 1).val < 512 := (i 1).isLt
  have hi2 : (i 2).val < 64 := (i 2).isLt
  have ht : (i 1).val / 128 < cfg2.N := by show (i 1).val / 128 < grid2.N; rw [hN]; omega
  refine ⟨⟨(i 1).val / 128, ht⟩, flush2_6 _, ?_⟩
  obtain ⟨-, -, -, -, -, -, -, -, -, -, -, -, -, e0, e1, e2⟩ := idx_facts ⟨(i 1).val / 128, ht⟩
  rw [mem_blk6]
  intro a
  match a with
  | ⟨0, _⟩ => show win2_6.index ⟨(i 1).val / 128, ht⟩ (0 : Fin 3) * 256 ≤ (i 0).val ∧ (i 0).val < win2_6.index ⟨(i 1).val / 128, ht⟩ (0 : Fin 3) * 256 + 256; omega
  | ⟨1, _⟩ => show win2_6.index ⟨(i 1).val / 128, ht⟩ (1 : Fin 3) * 128 ≤ (i 1).val ∧ (i 1).val < win2_6.index ⟨(i 1).val / 128, ht⟩ (1 : Fin 3) * 128 + 128
              rw [e1]; show (i 1).val / 128 * 128 ≤ (i 1).val ∧ (i 1).val < (i 1).val / 128 * 128 + 128; omega
  | ⟨2, _⟩ => show win2_6.index ⟨(i 1).val / 128, ht⟩ (2 : Fin 3) * 64 ≤ (i 2).val ∧ (i 2).val < win2_6.index ⟨(i 1).val / 128, ht⟩ (2 : Fin 3) * 64 + 64; omega

end R2

/-- What region 2 leaves in its output array, as a function of its input arrays at entry. -/
theorem region2_value (c : Dev nD) :
    cur3 ((dat2 (F := Ideal) V c).arrAt 6 cfg2.N : S256x512x64.Idx → EReal)
      = chebDenseE (cur2 (V c main_v29 : S256x256.Idx → EReal)) (cur3 (V c main_v54 : S256x512x32.Idx → EReal))
          (cur2 (V c main_v58 : S32x64.Idx → EReal)) (cur2 (V c main_v61 : S32x64.Idx → EReal)) (cur2 (V c main_v64 : S32x64.Idx → EReal))
          (cur2 (V c main_v65 : S1x64.Idx → EReal) 0) := by
  have final : (dat2 (F := Ideal) V c).arrAt 6 cfg2.N = R2.G2 V c :=
    (dat2 (F := Ideal) V c).arrAt_eq_of_cover 6 (R2.G2 V c) (fun t _ => R2.flushed_eq V c t) R2.cover6
  rw [final]
  rfl

end Cert.KernelIdeal.RegionValue

end
-- ==== Proof.KRegion3Body.lean ====
/-
  The arithmetic of region 3's body at one index. The body takes the 256 × 256 operator L, a tile x of 256 vertices × 64 batch
  columns × 64 features, three 64 × 64 weights and a 1 × 64 bias. It flattens the tile to 256 × 4096 (column b · 64 + f holds
  x v b f), applies L by matrix products (L x, then L (L x)), forms 2 L L x − x, re-reads the three terms as 16384 × 64 matrices
  (row v · 64 + b), multiplies each by its weight, adds the three products and the bias row, re-reads the sum as 256 × 64 × 64,
  splits the vertex axis as 64 × 4 and takes the maximum over the 4. Read at (v, b, o) that is the maximum over k < 4, from −∞,
  of the Chebyshev layer at vertex 4 v + k, batch column b, output feature o.
-/
import proofs.«430908_j10015863734924_3_alg».proof.Proof.Gen.KernelIdeal.Skeleton
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue.Body3

open Cert.KernelIdeal Cert.KernelIdeal.Gen Cert.Net
open Idealize.ShloMosaic Idealize.ShloMosaic.ValueIdx

/-! ## The body's steps, named -/

/-- The tile with batch column and feature flattened: column b · 64 + f holds x v b f. -/
def flat (x : FVec Ideal S256x64x64 .f32) : FVec Ideal S256x4096 .f32 :=
  shapeCast S256x4096 x shapeCasts_S256x64x64_S256x4096
/-- A 256 × 4096 matrix re-read with vertex and batch column as the row: row v · 64 + b, column f. -/
def rows (z : FVec Ideal S256x4096 .f32) : FVec Ideal S16384x64 .f32 :=
  shapeCast S16384x64 z shapeCasts_S256x4096_S16384x64
/-- The operator applied: a 256 × 256 by 256 × 4096 product into a zero accumulator. -/
def mmL (L : FVec Ideal S256x256 .f32) (z : FVec Ideal S256x4096 .f32) : FVec Ideal S256x4096 .f32 :=
  matmul dot_S256x256_S256x4096_S256x4096_1_0_0_1_n_n (some .fp32) L z (constant S256x4096 .f32 0x00000000#32)
/-- A projection: a 16384 × 64 by 64 × 64 product into a zero accumulator. -/
def mmW (a : FVec Ideal S16384x64 .f32) (w : FVec Ideal S64x64 .f32) : FVec Ideal S16384x64 .f32 :=
  matmul dot_S16384x64_S64x64_S16384x64_1_0_0_1_n_n (some .fp32) a w (constant S16384x64 .f32 0x00000000#32)
/-- The bias row repeated on every row. -/
def biasRows (r : FVec Ideal S1x64 .f32) : FVec Ideal S16384x64 .f32 :=
  broadcastTo S16384x64 r broadcasts_S1x64_S16384x64
/-- The rows split back into vertex and batch column. -/
def unrows (z : FVec Ideal S16384x64 .f32) : FVec Ideal S256x64x64 .f32 :=
  shapeCast S256x64x64 z shapeCasts_S16384x64_S256x64x64
/-- The vertex axis split into 64 groups of 4 consecutive vertices. -/
def groups (y : FVec Ideal S256x64x64 .f32) : FVec Ideal S64x4x64x64 .f32 :=
  shapeCast S64x4x64x64 y shapeCasts_S256x64x64_S64x4x64x64
/-- The maximum over each group, from −∞. -/
def pool4 (y : FVec Ideal S64x4x64x64 .f32) : FVec Ideal S64x64x64 .f32 :=
  multiReduction .maximumf [1] S64x64x64 y 0xFF800000#32 reduces_S64x4x64x64_S64x64x64 (.inl rfl) rfl

/-- The body's payload is those steps composed. -/
theorem pay_eq (x0 : FVec Ideal S256x256 .f32) (x1 : FVec Ideal S256x64x64 .f32) (x2 x3 x4 : FVec Ideal S64x64 .f32)
    (x5 : FVec Ideal S1x64 .f32) :
    k3_pay1 (F := Ideal) x0 x1 x2 x3 x4 x5
      = pool4 (groups (unrows (addf (addf (addf (mmW (rows (flat x1)) x2) (mmW (rows (mmL x0 (flat x1))) x3))
          (mmW (rows (subf (mulf (broadcast S256x4096 (Scalar.ofBits (F := Ideal) .f32 0x40000000#32)) (mmL x0 (mmL x0 (flat x1)))) (flat x1))) x4))
          (biasRows x5)))) := by
  unfold k3_pay1 pool4 groups unrows mmW rows mmL flat biasRows
  simp only [shapeCast_self]

/-! ## Each step read at an index -/

theorem flat_apply (x : FVec Ideal S256x64x64 .f32) (u : Fin 256) (b f : Fin 64) (h : b.val * 64 + f.val < 4096) :
    flat x (ix2 u ⟨b.val * 64 + f.val, h⟩) = x (ix3 u b f) := by
  unfold flat
  refine shapeCast_apply x _ _ (ix3 u b f) ?_
  rw [Shape.rowMajor_val_three, Shape.rowMajor_val_two]
  show (u.val * 64 + b.val) * 64 + f.val = u.val * 4096 + (b.val * 64 + f.val)
  omega

theorem rows_apply (z : FVec Ideal S256x4096 .f32) (u : Fin 256) (b f : Fin 64) (h : u.val * 64 + b.val < 16384)
    (h' : b.val * 64 + f.val < 4096) :
    rows z (ix2 ⟨u.val * 64 + b.val, h⟩ f) = z (ix2 u ⟨b.val * 64 + f.val, h'⟩) := by
  unfold rows
  refine shapeCast_apply z _ _ (ix2 u ⟨b.val * 64 + f.val, h'⟩) ?_
  rw [Shape.rowMajor_val_two, Shape.rowMajor_val_two]
  show u.val * 4096 + (b.val * 64 + f.val) = (u.val * 64 + b.val) * 64 + f.val
  omega

theorem unrows_apply (z : FVec Ideal S16384x64 .f32) (u : Fin 256) (b o : Fin 64) (h : u.val * 64 + b.val < 16384) :
    unrows z (ix3 u b o) = z (ix2 ⟨u.val * 64 + b.val, h⟩ o) := by
  unfold unrows
  refine shapeCast_apply z _ _ (ix2 ⟨u.val * 64 + b.val, h⟩ o) ?_
  rw [Shape.rowMajor_val_three, Shape.rowMajor_val_two]
  rfl

theorem groups_apply (y : FVec Ideal S256x64x64 .f32) (v : Fin 64) (k : Fin 4) (b o : Fin 64) (h : 4 * v.val + k.val < 256) :
    groups y (ix4 v k b o) = y (ix3 ⟨4 * v.val + k.val, h⟩ b o) := by
  unfold groups
  refine shapeCast_apply y _ _ (ix3 ⟨4 * v.val + k.val, h⟩ b o) ?_
  rw [Shape.rowMajor_val_three, Shape.rowMajor_val_four]
  show ((4 * v.val + k.val) * 64 + b.val) * 64 + o.val = ((v.val * 4 + k.val) * 64 + b.val) * 64 + o.val
  omega

theorem biasRows_apply (r : FVec Ideal S1x64 .f32) (p : Fin 16384) (o : Fin 64) :
    biasRows r (ix2 p o) = r (ix2 (0 : Fin 1) o) := by
  unfold biasRows
  exact broadcastTo_1b_ab_apply r _ p o

theorem pool4_apply (y : FVec Ideal S64x4x64x64 .f32) (v b o : Fin 64) :
    pool4 y (ix3 v b o) = (Finset.univ : Finset (Fin 4)).fold max ninf (fun k => y (ix4 v k b o)) := by
  unfold pool4
  refine (Ideal.multiReduction_maximumf_single y _ _ _ _ (ix3 v b o)).trans ?_
  show (Finset.univ : Finset (Fin 4)).fold max ninf _ = _
  refine Finset.fold_congr fun k _ => ?_
  refine congrArg y (funext fun a => Fin.ext ?_)
  match a with
  | ⟨0, _⟩ => rfl
  | ⟨1, _⟩ => rfl
  | ⟨2, _⟩ => rfl
  | ⟨3, _⟩ => rfl

/-! ## The two matrix products read at an index -/

theorem lhs_L_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide),
    dif_pos (show (0 : Fin S256x256.rank) ∈ dot_S256x256_S256x4096_S256x4096_1_0_0_1_n_n.lhsNonContracting by decide)]
  rfl
theorem lhs_L_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhs_L_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhs_L_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide),
    dif_pos (show (1 : Fin S256x4096.rank) ∈ dot_S256x256_S256x4096_S256x4096_1_0_0_1_n_n.rhsNonContracting by decide)]
  rfl

/-- (L z) at (v, q) is the sum over vertices u of L v u · z u q. -/
theorem mmL_apply (L : FVec Ideal S256x256 .f32) (z : FVec Ideal S256x4096 .f32) (v : Fin 256) (q : Fin 4096) :
    mmL L z (ix2 v q) = ∑ u : Fin 256, L (ix2 v u) * z (ix2 u q) := by
  unfold mmL
  show FloatOps.matmul _ _ L z _ (ix2 v q) = _
  rw [Ideal.matmul_constant_zero_apply,
    ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 v q)
      ((contrEquiv1 dot_S256x256_S256x4096_S256x4096_1_0_0_1_n_n 256 rfl rfl).symm k) = ix2 v k := funext fun a => Fin.ext (by
    match a with
    | ⟨0, _⟩ => exact lhs_L_0 _ _
    | ⟨1, _⟩ => exact (lhs_L_1 _ _).trans hk)
  have er : dot_S256x256_S256x4096_S256x4096_1_0_0_1_n_n.rhsIdx (ix2 v q)
      ((contrEquiv1 dot_S256x256_S256x4096_S256x4096_1_0_0_1_n_n 256 rfl rfl).symm k) = ix2 k q := funext fun a => Fin.ext (by
    match a with
    | ⟨0, _⟩ => exact (rhs_L_0 _ _).trans hk
    | ⟨1, _⟩ => exact rhs_L_1 _ _)
  rw [el, er]

theorem lhs_W_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide),
    dif_pos (show (0 : Fin S16384x64.rank) ∈ dot_S16384x64_S64x64_S16384x64_1_0_0_1_n_n.lhsNonContracting by decide)]
  rfl
theorem lhs_W_1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
theorem rhs_W_0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
theorem rhs_W_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide),
    dif_pos (show (1 : Fin S64x64.rank) ∈ dot_S16384x64_S64x64_S16384x64_1_0_0_1_n_n.rhsNonContracting by decide)]
  rfl

/-- (a w) at (p, o) is the sum over features f of a p f · w f o. -/
theorem mmW_apply (a : FVec Ideal S16384x64 .f32) (w : FVec Ideal S64x64 .f32) (p : Fin 16384) (o : Fin 64) :
    mmW a w (ix2 p o) = ∑ f : Fin 64, a (ix2 p f) * w (ix2 f o) := by
  unfold mmW
  show FloatOps.matmul _ _ a w _ (ix2 p o) = _
  rw [Ideal.matmul_constant_zero_apply,
    ← Equiv.sum_comp (contrEquiv1 dot_S16384x64_S64x64_S16384x64_1_0_0_1_n_n 64 rfl rfl).symm]
  refine Finset.sum_congr rfl fun k _ => ?_
  have hk := contrEquiv1_symm_val dot_S16384x64_S64x64_S16384x64_1_0_0_1_n_n 64 rfl rfl k
  have el : dot_S16384x64_S64x64_S16384x64_1_0_0_1_n_n.lhsIdx (ix2 p o)
      ((contrEquiv1 dot_S16384x64_S64x64_S16384x64_1_0_0_1_n_n 64 rfl rfl).symm k) = ix2 p k := funext fun a => Fin.ext (by
    match a with
    | ⟨0, _⟩ => exact lhs_W_0 _ _
    | ⟨1, _⟩ => exact (lhs_W_1 _ _).trans hk)
  have er : dot_S16384x64_S64x64_S16384x64_1_0_0_1_n_n.rhsIdx (ix2 p o)
      ((contrEquiv1 dot_S16384x64_S64x64_S16384x64_1_0_0_1_n_n 64 rfl rfl).symm k) = ix2 k o := funext fun a => Fin.ext (by
    match a with
    | ⟨0, _⟩ => exact (rhs_W_0 _ _).trans hk
    | ⟨1, _⟩ => exact rhs_W_1 _ _)
  rw [el, er]

/-! ## The payload at an index -/

/-- The body's payload at (v, b, o): the maximum over the four vertices 4 v + k, from −∞, of the Chebyshev layer of the
    tile's batch column b at output feature o. -/
theorem pay_apply (x0 : FVec Ideal S256x256 .f32) (x1 : FVec Ideal S256x64x64 .f32) (x2 x3 x4 : FVec Ideal S64x64 .f32)
    (x5 : FVec Ideal S1x64 .f32) (v b o : Fin 64) :
    k3_pay1 (F := Ideal) x0 x1 x2 x3 x4 x5 (ix3 v b o)
      = poolE (by decide : 4 * 64 = 256) (chebDenseE (cur2 x0) (cur3 x1) (cur2 x2) (cur2 x3) (cur2 x4) (cur2 x5 0)) v b o := by
  rw [pay_eq, pool4_apply]
  unfold poolE
  refine Finset.fold_congr fun k _ => ?_
  have hu : 4 * v.val + k.val < 256 := by have := v.isLt; have := k.isLt; omega
  have hp : (⟨4 * v.val + k.val, hu⟩ : Fin 256).val * 64 + b.val < 16384 := by
    have := b.isLt; show (4 * v.val + k.val) * 64 + b.val < 16384; omega
  have hq : ∀ f : Fin 64, b.val * 64 + f.val < 4096 := fun f => by have := b.isLt; have := f.isLt; omega
  rw [groups_apply _ v k b o hu, unrows_apply _ _ b o hp]
  simp only [addf_apply, subf_apply, mulf_apply, broadcast_apply, mmW_apply, biasRows_apply,
    rows_apply _ _ b _ hp (hq _), mmL_apply, flat_apply _ _ b _ (hq _)]
  rfl

end Cert.KernelIdeal.RegionValue.Body3

end
-- ==== Proof.KRegion3.lean ====
/-
  Region 3 of the kernel's program: one Chebyshev layer and the max-pool over groups of four vertices, tiled over the batch axis.
  A grid point holds 256 vertices × one batch tile × 64 features. The body flattens the tile to 256 × (tile · 64), applies the
  256 × 256 operator twice by matrix products (x₁ = L x₀, x₂ = 2 L x₁ − x₀), re-reads the three terms as (vertex · tile) × 64
  matrices, projects each by its 64 × 64 weight, sums them with the bias, and takes the maximum over each group of four consecutive vertices.
  Every step acts on each batch column separately, so the tiles together hold `poolE … (chebDenseE …)` of the whole arrays.
-/
import proofs.«430908_j10015863734924_3_alg».proof.Proof.Gen.KernelIdeal.Frame
import proofs.«430908_j10015863734924_3_alg».proof.Proof.Spec
import proofs.«430908_j10015863734924_3_alg».proof.Proof.KRegion3Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

namespace R3

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: the operator, the weights and the bias stay at block 0; the activation tile and the
    output tile move along the batch axis with the point. -/
theorem idx_facts : ∀ t : Fin cfg3.N,
    win3_0.index t (0 : Fin 2) = 0 ∧ win3_0.index t (1 : Fin 2) = 0
    ∧ win3_1.index t (0 : Fin 3) = 0 ∧ win3_1.index t (1 : Fin 3) = t.val ∧ win3_1.index t (2 : Fin 3) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 3) = 0 ∧ win3_6.index t (1 : Fin 3) = t.val ∧ win3_6.index t (2 : Fin 3) = 0 :=
  (by decide +kernel : ∀ t : Fin grid3.N, _)

/-- The operator's block is the whole operator. -/
theorem blk0 (c : Dev nD) (t : Fin cfg3.N) :
    (iblk3 (F := Ideal) V c 0 t : S256x256.Idx → EReal) = (V c main_v29 : S256x256.Idx → EReal) := by
  obtain ⟨e0, e1, -⟩ := idx_facts t
  funext y
  show V c main_v29 (((cfg3.win 0).blk t).view.emb y) = V c main_v29 y
  refine congrArg (V c main_v29) (funext fun a => Fin.ext ?_)
  match a with
  | ⟨0, _⟩ => show win3_0.index t (0 : Fin 2) * 256 + 1 * (y 0).val = (y 0).val; omega
  | ⟨1, _⟩ => show win3_0.index t (1 : Fin 2) * 256 + 1 * (y 1).val = (y 1).val; omega

/-- The activation's block at point t is batch columns 64 t … 64 t + 63 of the activation. -/
theorem blk1 (c : Dev nD) (t : Fin cfg3.N) (u : Fin 256) (b f : Fin 64) (h : t.val * 64 + b.val < 512) :
    (iblk3 (F := Ideal) V c 1 t : S256x64x64.Idx → EReal) (ix3 u b f)
      = (V c main_v66 : S256x512x64.Idx → EReal) (ix3 u ⟨t.val * 64 + b.val, h⟩ f) := by
  obtain ⟨-, -, e0, e1, e2, -⟩ := idx_facts t
  show V c main_v66 (((cfg3.win 1).blk t).view.emb (ix3 u b f)) = V c main_v66 (ix3 u ⟨t.val * 64 + b.val, h⟩ f)
  refine congrArg (V c main_v66) (funext fun a => Fin.ext ?_)
  match a with
  | ⟨0, _⟩ => show win3_1.index t (0 : Fin 3) * 256 + 1 * u.val = u.val; omega
  | ⟨1, _⟩ => show win3_1.index t (1 : Fin 3) * 64 + 1 * b.val = t.val * 64 + b.val; omega
  | ⟨2, _⟩ => show win3_1.index t (2 : Fin 3) * 64 + 1 * f.val = f.val; omega

/-- The three weights' blocks are the whole weights. -/
theorem blk2 (c : Dev nD) (t : Fin cfg3.N) :
    (iblk3 (F := Ideal) V c 2 t : S64x64.Idx → EReal) = (V c main_v70 : S64x64.Idx → EReal) := by
  obtain ⟨-, -, -, -, -, e0, e1, -⟩ := idx_facts t
  funext y
  show V c main_v70 (((cfg3.win 2).blk t).view.emb y) = V c main_v70 y
  refine congrArg (V c main_v70) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

theorem blk3 (c : Dev nD) (t : Fin cfg3.N) :
    (iblk3 (F := Ideal) V c 3 t : S64x64.Idx → EReal) = (V c main_v73 : S64x64.Idx → EReal) := by
  obtain ⟨-, -, -, -, -, -, -, e0, e1, -⟩ := idx_facts t
  funext y
  show V c main_v73 (((cfg3.win 3).blk t).view.emb y) = V c main_v73 y
  refine congrArg (V c main_v73) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

theorem blk4 (c : Dev nD) (t : Fin cfg3.N) :
    (iblk3 (F := Ideal) V c 4 t : S64x64.Idx → EReal) = (V c main_v76 : S64x64.Idx → EReal) := by
  obtain ⟨-, -, -, -, -, -, -, -, -, e0, e1, -⟩ := idx_facts t
  funext y
  show V c main_v76 (((cfg3.win 4).blk t).view.emb y) = V c main_v76 y
  refine congrArg (V c main_v76) (funext fun a => Fin.ext ?_)
  match a with
  | ⟨0, _⟩ => show win3_4.index t (0 : Fin 2) * 64 + 1 * (y 0).val = (y 0).val; omega
  | ⟨1, _⟩ => show win3_4.index t (1 : Fin 2) * 64 + 1 * (y 1).val = (y 1).val; omega

/-- The bias's block is the whole bias row. -/
theorem blk5 (c : Dev nD) (t : Fin cfg3.N) :
    (iblk3 (F := Ideal) V c 5 t : S1x64.Idx → EReal) = (V c main_v77 : S1x64.Idx → EReal) := by
  obtain ⟨-, -, -, -, -, -, -, -, -, -, -, e0, e1, -⟩ := idx_facts t
  funext y
  show V c main_v77 (((cfg3.win 5).blk t).view.emb y) = V c main_v77 y
  refine congrArg (V c main_v77) (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- The output's block at point t sits at batch columns 64 t … 64 t + 63 of the output. -/
theorem emb6 (t : Fin cfg3.N) (v b o : Fin 64) (h : t.val * 64 + b.val < 512) :
    (((cfg3.win 6).blk t).view.emb (ix3 v b o) : S64x512x64.Idx) = ix3 v ⟨t.val * 64 + b.val, h⟩ o := by
  obtain ⟨-, -, -, -, -, -, -, -, -, -, -, -, -, e0, e1, e2⟩ := idx_facts t
  refine funext fun a => Fin.ext ?_
  match a with
  | ⟨0, _⟩ => show win3_6.index t (0 : Fin 3) * 64 + 1 * v.val = v.val; omega
  | ⟨1, _⟩ => show win3_6.index t (1 : Fin 3) * 64 + 1 * b.val = t.val * 64 + b.val; omega
  | ⟨2, _⟩ => show win3_6.index t (2 : Fin 3) * 64 + 1 * o.val = o.val; omega

/-- The pooled layer at a batch column depends on the activation only through that column. -/
theorem pool_cheb_batch {Vn V' B B' Fi Fo : Nat} (hV : 4 * V' = Vn) (L : Fin Vn → Fin Vn → EReal)
    (x : Fin Vn → Fin B → Fin Fi → EReal) (x' : Fin Vn → Fin B' → Fin Fi → EReal) (W0 W1 W2 : Fin Fi → Fin Fo → EReal)
    (bias : Fin Fo → EReal) (b : Fin B) (b' : Fin B') (h : ∀ u f, x u b f = x' u b' f) (v : Fin V') (o : Fin Fo) :
    poolE hV (chebDenseE L x W0 W1 W2 bias) v b o = poolE hV (chebDenseE L x' W0 W1 W2 bias) v b' o := by
  unfold poolE chebDenseE cheb2E lmulE
  simp only [h]

/-- What the output array ends holding, as one function of the arrays at entry. -/
abbrev G3 (c : Dev nD) : S64x512x64.Idx → EReal := fun i =>
  poolE (by decide : 4 * 64 = 256) (chebDenseE (cur2 (V c main_v29 : S256x256.Idx → EReal)) (cur3 (V c main_v66 : S256x512x64.Idx → EReal))
    (cur2 (V c main_v70 : S64x64.Idx → EReal)) (cur2 (V c main_v73 : S64x64.Idx → EReal)) (cur2 (V c main_v76 : S64x64.Idx → EReal))
    (cur2 (V c main_v77 : S1x64.Idx → EReal) 0)) (i 0) (i 1) (i 2)

/-- The body's payload on blocks that are the operator, batch columns 64 T … of the activation, the weights and the bias, at
    (v, b, o), is the whole-array function at (v, 64 T + b, o). -/
theorem point_value (A0 : S256x256.Idx → EReal) (A1 : S256x512x64.Idx → EReal) (A2 A3 A4 : S64x64.Idx → EReal) (A5 : S1x64.Idx → EReal)
    (x0 : FVec Ideal S256x256 .f32) (x1 : FVec Ideal S256x64x64 .f32) (x2 x3 x4 : FVec Ideal S64x64 .f32) (x5 : FVec Ideal S1x64 .f32)
    (T : Nat) (b : Fin 64) (hT : T * 64 + b.val < 512)
    (e0 : x0 = A0) (e1 : ∀ u f, x1 (ix3 u b f) = A1 (ix3 u ⟨T * 64 + b.val, hT⟩ f)) (e2 : x2 = A2) (e3 : x3 = A3) (e4 : x4 = A4) (e5 : x5 = A5)
    (v o : Fin 64) :
    k3_pay1 (F := Ideal) x0 x1 x2 x3 x4 x5 (ix3 v b o)
      = poolE (by decide : 4 * 64 = 256) (chebDenseE (cur2 A0) (cur3 A1) (cur2 A2) (cur2 A3) (cur2 A4) (cur2 A5 0)) v ⟨T * 64 + b.val, hT⟩ o := by
  rw [Body3.pay_apply]
  subst e0 e2 e3 e4 e5
  exact pool_cheb_batch _ _ _ _ _ _ _ _ b ⟨T * 64 + b.val, hT⟩ (fun u f => e1 u f) v o

/-- What point t writes back is block t of the whole-array function. -/
theorem flushed3 (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S256x256) hz2, View.ld_unit_zero (S := S256x64x64) hz3,
    View.ld_unit_zero (S := S64x64) hz2, View.ld_unit_zero (S := S1x64) hz2]
  funext j
  obtain ⟨v, b, o, rfl⟩ : ∃ (v b o : Fin 64), j = ix3 v b o := ⟨j 0, j 1, j 2, eq_ix3 j⟩
  have hN : cfg3.N = 8 := N_3
  have hb : t.val * 64 + b.val < 512 := by have := b.isLt; have := t.isLt; omega
  show k3_pay1 (F := Ideal) (iblk3 V c 0 t) (iblk3 V c 1 t) (iblk3 V c 2 t) (iblk3 V c 3 t) (iblk3 V c 4 t) (iblk3 V c 5 t) (ix3 v b o)
      = G3 V c (((cfg3.win 6).blk t).view.emb (ix3 v b o))
  rw [emb6 t v b o hb]
  exact point_value (V c main_v29) (V c main_v66) (V c main_v70) (V c main_v73) (V c main_v76) (V c main_v77)
    (iblk3 V c 0 t) (iblk3 V c 1 t) (iblk3 V c 2 t) (iblk3 V c 3 t) (iblk3 V c 4 t) (iblk3 V c 5 t)
    t.val b hb (blk0 V c t) (fun u f => blk1 V c t u b f hb) (blk2 V c t) (blk3 V c t) (blk4 V c t) (blk5 V c t) v o

/-- Every index of the output lies in the block of the point its batch coordinate's tile names. -/
theorem cover3 (i : S64x512x64.Idx) :
    ∃ t : Fin cfg3.N, (cfg3.win 6).flush t = true ∧ i ∈ ((cfg3.win 6).blk t).view.set := by
  have hN : cfg3.N = 8 := N_3
  have hi0 : (i 0).val < 64 := (i 0).isLt
  have hi1 : (i 1).val < 512 := (i 1).isLt
  have hi2 : (i 2).val < 64 := (i 2).isLt
  obtain ⟨t, ht⟩ : ∃ t : Fin cfg3.N, t.val = (i 1).val / 64 := ⟨⟨(i 1).val / 64, by omega⟩, rfl⟩
  obtain ⟨-, -, -, -, -, -, -, -, -, -, -, -, -, e0, e1, e2⟩ := idx_facts t
  refine ⟨t, flush3_6 t, ?_⟩
  show i ∈ ((View.whole main_v78).slice (win3_6.rect t)).set
  rw [View.set_slice_whole, Rect.mem_set_unit]
  intro a
  match a with
  | ⟨0, _⟩ => show win3_6.index t (0 : Fin 3) * 64 ≤ (i 0).val ∧ (i 0).val < win3_6.index t (0 : Fin 3) * 64 + 64; omega
  | ⟨1, _⟩ => show win3_6.index t (1 : Fin 3) * 64 ≤ (i 1).val ∧ (i 1).val < win3_6.index t (1 : Fin 3) * 64 + 64; omega
  | ⟨2, _⟩ => show win3_6.index t (2 : Fin 3) * 64 ≤ (i 2).val ∧ (i 2).val < win3_6.index t (2 : Fin 3) * 64 + 64; omega

/-- The output array after all grid points is the whole-array function. -/
theorem final3 (c : Dev nD) : ((dat3 (F := Ideal) V c).arrAt 6 cfg3.N : S64x512x64.Idx → EReal) = G3 V c :=
  (dat3 (F := Ideal) V c).arrAt_eq_of_cover 6 (G3 V c) (fun t _ => flushed3 V c t) cover3

end R3

/-- What region 3 leaves in its output array, as a function of its input arrays at entry. -/
theorem region3_value (c : Dev nD) :
    cur3 ((dat3 (F := Ideal) V c).arrAt 6 cfg3.N : S64x512x64.Idx → EReal)
      = poolE (by decide : 4 * 64 = 256) (chebDenseE (cur2 (V c main_v29 : S256x256.Idx → EReal)) (cur3 (V c main_v66 : S256x512x64.Idx → EReal))
          (cur2 (V c main_v70 : S64x64.Idx → EReal)) (cur2 (V c main_v73 : S64x64.Idx → EReal)) (cur2 (V c main_v76 : S64x64.Idx → EReal))
          (cur2 (V c main_v77 : S1x64.Idx → EReal) 0)) := by
  rw [R3.final3 V c]
  rfl

end Cert.KernelIdeal.RegionValue

end
-- ==== Proof.KRegion4Body.lean ====
/-
  The arithmetic of region 4's body at one entry of its 256 × 256 result: row p of the block of A contracted with row q of the
  block of W along their 4096 columns, plus entry q of the block of the bias row. This is the affine map `fcE` of the three
  blocks read by coordinates.
-/
import proofs.«430908_j10015863734924_3_alg».proof.Proof.Gen.KernelIdeal.Skeleton
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.ValueIdx

/-- The contraction record of the body's product: both operands contract their second axis. -/
abbrev D4 : DotDims S256x4096 S256x4096 S256x256 := dot_S256x4096_S256x4096_S256x256_1_1_0_0_n_n

/-- The left operand's index at result (p, q) and contraction position k is (p, k). -/
theorem D4_lhs (p q : Fin 256) (k : Fin 4096) :
    D4.lhsIdx (ix2 p q) ((contrEquiv1 D4 4096 rfl rfl).symm k) = ix2 p k := by
  have ck := contrEquiv1_symm_val D4 4096 rfl rfl k
  funext ax; apply Fin.ext
  match ax with
  | ⟨0, _⟩ => simp [DotDims.lhsIdx, D4, dot_S256x4096_S256x4096_S256x256_1_1_0_0_n_n]; rfl
  | ⟨1, _⟩ => simp [DotDims.lhsIdx, D4, dot_S256x4096_S256x4096_S256x256_1_1_0_0_n_n]; exact ck

/-- The right operand's index at result (p, q) and contraction position k is (q, k). -/
theorem D4_rhs (p q : Fin 256) (k : Fin 4096) :
    D4.rhsIdx (ix2 p q) ((contrEquiv1 D4 4096 rfl rfl).symm k) = ix2 q k := by
  have ck := contrEquiv1_symm_val D4 4096 rfl rfl k
  funext ax; apply Fin.ext
  match ax with
  | ⟨0, _⟩ => simp [DotDims.rhsIdx, D4, dot_S256x4096_S256x4096_S256x256_1_1_0_0_n_n]; rfl
  | ⟨1, _⟩ => simp [DotDims.rhsIdx, D4, dot_S256x4096_S256x4096_S256x256_1_1_0_0_n_n]; exact ck

/-- The product into the zero accumulator at (p, q): the sum over the 4096 columns of A's row p times W's row q. -/
theorem matmul4_apply (a b : FVec Ideal S256x4096 .f32) (p q : Fin 256) :
    FloatOps.matmul D4 (some .fp32) a b (constant S256x256 .f32 0x00000000#32) (ix2 p q)
      = ∑ k : Fin 4096, a (ix2 p k) * b (ix2 q k) := by
  rw [Ideal.matmul_constant_zero_apply, ← Equiv.sum_comp (contrEquiv1 D4 4096 rfl rfl).symm]
  refine Finset.sum_congr rfl fun k _ => ?_
  rw [D4_lhs, D4_rhs]

/-- The body's value at (p, q) is the affine map of its three blocks. -/
theorem k4_pay1_apply (x0 x1 : Vec Ideal S256x4096 .f32) (x2 : Vec Ideal S1x256 .f32) (p q : Fin 256) :
    k4_pay1 (F := Ideal) x0 x1 x2 (ix2 p q)
      = fcE (cur2 (x0 : S256x4096.Idx → EReal)) (cur2 (x1 : S256x4096.Idx → EReal)) (cur2 (x2 : S1x256.Idx → EReal) 0) p q := by
  unfold k4_pay1
  rw [shapeCast_self, shapeCast_self, addf_apply]
  refine congrArg₂ (· + ·) ?_ ?_
  · exact matmul4_apply x0 x1 p q
  · exact broadcastTo_1b_ab_apply x2 broadcasts_S1x256_S256x256 p q

end Cert.KernelIdeal.RegionValue

end
-- ==== Proof.KRegion4.lean ====
/-
  Region 4 of the kernel's program: an affine layer A Wᵀ + bias, tiled over rows and columns of the result.
  A grid point holds a block of rows of A (all 4096 columns), a block of rows of W (all 4096 columns) and the bias entries of
  those outputs; the body contracts the two blocks along their second axes and adds the bias row. The blocks tile the
  512 × 512 result, so together they hold `fcE` of the whole arrays.
-/
import proofs.«430908_j10015863734924_3_alg».proof.Proof.Gen.KernelIdeal.Frame
import proofs.«430908_j10015863734924_3_alg».proof.Proof.Spec
import proofs.«430908_j10015863734924_3_alg».proof.Proof.KRegion4Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-- The body's one store and its loads start at offset (0, 0): they move whole blocks. -/
theorem hz4 : (![0, 0] : Fin 2 → Nat) = fun _ => 0 := funext fun a => by fin_cases a <;> rfl

/-- The whole result array: the affine map of the whole input arrays, entry by entry. -/
def G4 (A W : S512x4096.Idx → EReal) (B : S1x512.Idx → EReal) : S512x512.Idx → EReal :=
  fun i => fcE (cur2 A) (cur2 W) (cur2 B 0) (i 0) (i 1)

/-- A tile of the result. If the block of A holds rows i0 · 256 + p of A, the block of W rows i1 · 256 + q of W and the block
    of the bias entries i1 · 256 + q, then the body's value at (p, q) is the whole result at (i0 · 256 + p, i1 · 256 + q):
    the sum over the 4096 columns runs over the same products, and the same bias entry is added. -/
theorem tile_value (A W : S512x4096.Idx → EReal) (B : S1x512.Idx → EReal)
    (x0 x1 : Vec Ideal S256x4096 .f32) (x2 : Vec Ideal S1x256 .f32) (i0 i1 : Nat)
    (h0 : ∀ (p : Fin 256) (k : Fin 4096) (P : Fin 512), P.val = i0 * 256 + p.val → x0 (ix2 p k) = A (ix2 P k))
    (h1 : ∀ (q : Fin 256) (k : Fin 4096) (Q : Fin 512), Q.val = i1 * 256 + q.val → x1 (ix2 q k) = W (ix2 Q k))
    (h2 : ∀ (q : Fin 256) (Q : Fin 512), Q.val = i1 * 256 + q.val → x2 (ix2 (0 : Fin 1) q) = B (ix2 (0 : Fin 1) Q))
    (y : S256x256.Idx) (i : S512x512.Idx)
    (hi0 : (i 0).val = i0 * 256 + (y 0).val) (hi1 : (i 1).val = i1 * 256 + (y 1).val) :
    k4_pay1 (F := Ideal) x0 x1 x2 y = G4 A W B i := by
  obtain ⟨p, q, rfl⟩ : ∃ (p : Fin 256) (q : Fin 256), y = ix2 p q := ⟨y 0, y 1, eq_ix2 y⟩
  obtain ⟨P, Q, rfl⟩ : ∃ (P : Fin 512) (Q : Fin 512), i = ix2 P Q := ⟨i 0, i 1, eq_ix2 i⟩
  have hP : P.val = i0 * 256 + p.val := hi0
  have hQ : Q.val = i1 * 256 + q.val := hi1
  rw [k4_pay1_apply]
  show (∑ k : Fin 4096, x0 (ix2 p k) * x1 (ix2 q k)) + x2 (ix2 (0 : Fin 1) q)
    = (∑ k : Fin 4096, A (ix2 P k) * W (ix2 Q k)) + B (ix2 (0 : Fin 1) Q)
  rw [h2 q Q hQ]
  refine congrArg (· + B (ix2 (0 : Fin 1) Q)) (Finset.sum_congr rfl fun k _ => ?_)
  rw [h0 p k P hP, h1 q k Q hQ]

/-- An entry of window 0's block at a point is the entry of A at block index × block size + the coordinate inside, axis by axis. -/
theorem iblk4_0_apply (c : Dev nD) (t : Fin cfg4.N) (x : S256x4096.Idx) (k : S512x4096.Idx)
    (hk0 : (k 0).val = win4_0.index t (0 : Fin 2) * 256 + (x 0).val)
    (hk1 : (k 1).val = win4_0.index t (1 : Fin 2) * 4096 + (x 1).val) :
    (iblk4 V c 0 t : Vec Ideal S256x4096 .f32) x = (V c main_v80 : S512x4096.Idx → EReal) k := by
  unfold iblk4
  rw [View.read_apply]
  show V c main_v80 _ = V c main_v80 _
  congr 1
  funext a
  apply Fin.ext
  match a with
  | ⟨0, _⟩ => show win4_0.index t (0 : Fin 2) * 256 + 1 * (x 0).val = (k 0).val; omega
  | ⟨1, _⟩ => show win4_0.index t (1 : Fin 2) * 4096 + 1 * (x 1).val = (k 1).val; omega

/-- The same for window 1's block and W. -/
theorem iblk4_1_apply (c : Dev nD) (t : Fin cfg4.N) (x : S256x4096.Idx) (k : S512x4096.Idx)
    (hk0 : (k 0).val = win4_1.index t (0 : Fin 2) * 256 + (x 0).val)
    (hk1 : (k 1).val = win4_1.index t (1 : Fin 2) * 4096 + (x 1).val) :
    (iblk4 V c 1 t : Vec Ideal S256x4096 .f32) x = (V c main_arg15 : S512x4096.Idx → EReal) k := by
  unfold iblk4
  rw [View.read_apply]
  show V c main_arg15 _ = V c main_arg15 _
  congr 1
  funext a
  apply Fin.ext
  match a with
  | ⟨0, _⟩ => show win4_1.index t (0 : Fin 2) * 256 + 1 * (x 0).val = (k 0).val; omega
  | ⟨1, _⟩ => show win4_1.index t (1 : Fin 2) * 4096 + 1 * (x 1).val = (k 1).val; omega

/-- The same for window 2's block and the bias row. -/
theorem iblk4_2_apply (c : Dev nD) (t : Fin cfg4.N) (x : S1x256.Idx) (k : S1x512.Idx)
    (hk0 : (k 0).val = win4_2.index t (0 : Fin 2) * 1 + (x 0).val)
    (hk1 : (k 1).val = win4_2.index t (1 : Fin 2) * 256 + (x 1).val) :
    (iblk4 V c 2 t : Vec Ideal S1x256 .f32) x = (V c main_v81 : S1x512.Idx → EReal) k := by
  unfold iblk4
  rw [View.read_apply]
  show V c main_v81 _ = V c main_v81 _
  congr 1
  funext a
  apply Fin.ext
  match a with
  | ⟨0, _⟩ => show win4_2.index t (0 : Fin 2) * 1 + 1 * (x 0).val = (k 0).val; omega
  | ⟨1, _⟩ => show win4_2.index t (1 : Fin 2) * 256 + 1 * (x 1).val = (k 1).val; omega

/-- The block indices at every grid point: A's block follows the result's row block, W's and the bias's follow the result's
    column block, the other block coordinates are 0, and the result's block indices are 0 or 1. -/
theorem idx_facts4 : ∀ t : Fin cfg4.N,
    win4_0.index t (0 : Fin 2) = win4_3.index t (0 : Fin 2) ∧ win4_0.index t (1 : Fin 2) = 0
    ∧ win4_1.index t (0 : Fin 2) = win4_3.index t (1 : Fin 2) ∧ win4_1.index t (1 : Fin 2) = 0
    ∧ win4_2.index t (0 : Fin 2) = 0 ∧ win4_2.index t (1 : Fin 2) = win4_3.index t (1 : Fin 2)
    ∧ win4_3.index t (0 : Fin 2) ≤ 1 ∧ win4_3.index t (1 : Fin 2) ≤ 1 :=
  (by decide +kernel : ∀ t : Fin grid4.N, _)

/-- Every one of the 2 × 2 blocks of the result is some grid point's. -/
theorem idx_onto4 : ∀ (q0 : Fin 2) (q1 : Fin 2), ∃ t : Fin cfg4.N, win4_3.index t = ![q0.val, q1.val] :=
  (by decide +kernel : ∀ (q0 : Fin 2) (q1 : Fin 2), ∃ t : Fin grid4.N, win4_3.index t = ![q0.val, q1.val])

/-- What a grid point writes back is its block of the whole result: the tile at block (i0, i1) reads rows i0 · 256 + p of A,
    rows i1 · 256 + q of W and bias entries i1 · 256 + q, which are the rows and entries the whole result uses at
    (i0 · 256 + p, i1 · 256 + q). -/
theorem flushed4 (c : Dev nD) (t : Fin cfg4.N) :
    (dat4 (F := Ideal) V c).flushed 3 t
      = ((cfg4.win 3).blk t).view.read (Elt Ideal) (G4 (V c main_v80) (V c main_arg15) (V c main_v81)) := by
  show (cfg4.win 3).cut (grid4.coords t) ((dat4 V c).after 3 t) = _
  rw [after4_3]
  unfold out4_3
  rw [View.canon_unit_zero hz4]
  simp only [View.ld_unit_zero (S := S256x4096) hz4, View.ld_unit_zero (S := S1x256) hz4]
  obtain ⟨e0, e1, e2, e3, e4, e5, e6, e7⟩ := idx_facts4 t
  funext j
  show k4_pay1 (F := Ideal) (iblk4 V c 0 t) (iblk4 V c 1 t) (iblk4 V c 2 t) (win4_3.xinj (grid4.coords t) j)
    = G4 (V c main_v80) (V c main_arg15) (V c main_v81) (((cfg4.win 3).blk t).view.emb j)
  refine tile_value (V c main_v80) (V c main_arg15) (V c main_v81) (iblk4 V c 0 t) (iblk4 V c 1 t) (iblk4 V c 2 t)
    (win4_3.index t (0 : Fin 2)) (win4_3.index t (1 : Fin 2)) ?_ ?_ ?_ (win4_3.xinj (grid4.coords t) j)
    (((cfg4.win 3).blk t).view.emb j) ?_ ?_
  · intro p k P hP
    refine iblk4_0_apply V c t (ix2 p k) (ix2 P k) ?_ ?_
    · show P.val = win4_0.index t (0 : Fin 2) * 256 + p.val
      omega
    · show k.val = win4_0.index t (1 : Fin 2) * 4096 + k.val
      omega
  · intro q k Q hQ
    refine iblk4_1_apply V c t (ix2 q k) (ix2 Q k) ?_ ?_
    · show Q.val = win4_1.index t (0 : Fin 2) * 256 + q.val
      omega
    · show k.val = win4_1.index t (1 : Fin 2) * 4096 + k.val
      omega
  · intro q Q hQ
    refine iblk4_2_apply V c t (ix2 (0 : Fin 1) q) (ix2 (0 : Fin 1) Q) ?_ ?_
    · show (0 : Nat) = win4_2.index t (0 : Fin 2) * 1 + 0
      omega
    · show Q.val = win4_2.index t (1 : Fin 2) * 256 + q.val
      omega
  · show win4_3.index t (0 : Fin 2) * 256 + 1 * (j 0).val = win4_3.index t (0 : Fin 2) * 256 + (j 0).val
    omega
  · show win4_3.index t (1 : Fin 2) * 256 + 1 * (j 1).val = win4_3.index t (1 : Fin 2) * 256 + (j 1).val
    omega

/-- An index of the result lies in a point's block iff each coordinate lies in the block's range on its axis. -/
theorem mem_blk4 (t : Fin cfg4.N) (i : S512x512.Idx) :
    i ∈ ((cfg4.win 3).blk t).view.set
      ↔ ∀ a : Fin 2, win4_3.index t a * S256x256.size a ≤ (i a).val
          ∧ (i a).val < win4_3.index t a * S256x256.size a + S256x256.size a := by
  show i ∈ ((View.whole main_v82).slice (win4_3.rect t)).set ↔ _
  rw [View.set_slice_whole, Rect.mem_set_unit]
  exact Iff.rfl

/-- The 2 × 2 tiles of 256 × 256 fill the 512 × 512 result: entry (r, s) lies in the tile at block (r / 256, s / 256),
    and every grid point writes its tile back. -/
theorem cover4 (i : S512x512.Idx) :
    ∃ t : Fin cfg4.N, (cfg4.win 3).flush t = true ∧ i ∈ ((cfg4.win 3).blk t).view.set := by
  have hi0 : (i 0).val < 512 := (i 0).isLt
  have hi1 : (i 1).val < 512 := (i 1).isLt
  obtain ⟨t, ht⟩ := idx_onto4 ⟨(i 0).val / 256, by omega⟩ ⟨(i 1).val / 256, by omega⟩
  have q0 : win4_3.index t (0 : Fin 2) = (i 0).val / 256 := congrFun ht 0
  have q1 : win4_3.index t (1 : Fin 2) = (i 1).val / 256 := congrFun ht 1
  refine ⟨t, flush4_3 t, ?_⟩
  rw [mem_blk4]
  intro a
  match a with
  | ⟨0, _⟩ =>
    show win4_3.index t (0 : Fin 2) * 256 ≤ (i 0).val ∧ (i 0).val < win4_3.index t (0 : Fin 2) * 256 + 256
    omega
  | ⟨1, _⟩ =>
    show win4_3.index t (1 : Fin 2) * 256 ≤ (i 1).val ∧ (i 1).val < win4_3.index t (1 : Fin 2) * 256 + 256
    omega

/-- The result array after all grid points is the affine map of the whole input arrays. -/
theorem final4 (c : Dev nD) :
    (dat4 (F := Ideal) V c).arrAt 3 cfg4.N = G4 (V c main_v80) (V c main_arg15) (V c main_v81) :=
  (dat4 (F := Ideal) V c).arrAt_eq_of_cover 3 (G4 (V c main_v80) (V c main_arg15) (V c main_v81))
    (fun t _ => flushed4 V c t) cover4

/-- What region 4 leaves in its output array, as a function of its input arrays at entry. -/
theorem region4_value (c : Dev nD) :
    cur2 ((dat4 (F := Ideal) V c).arrAt 3 cfg4.N : S512x512.Idx → EReal)
      = fcE (cur2 (V c main_v80 : S512x4096.Idx → EReal)) (cur2 (V c main_arg15 : S512x4096.Idx → EReal))
          (cur2 (V c main_v81 : S1x512.Idx → EReal) 0) := by
  rw [final4 V c]
  rfl

end Cert.KernelIdeal.RegionValue

end
-- ==== Proof.KRegion5Body.lean ====
/-
  The body of region 5 at one entry of its result block: a row of the first block contracted with a row of the second
  along their 512 columns, plus the bias entry of that output column.
-/
import proofs.«430908_j10015863734924_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen
open Idealize.ShloMosaic Idealize.ShloMosaic.ValueIdx

/-- The contraction of region 5's product: axis 1 of both operands; the result's axes are the operands' axes 0. -/
abbrev D5 : DotDims S256x512 S63x512 S256x63 := dot_S256x512_S63x512_S256x63_1_1_0_0_n_n

/-- The left operand is read at the result's row … -/
theorem D5_lhs_0 (j : S256x63.Idx) (k : dot_S256x512_S63x512_S256x63_1_1_0_0_n_n.contr.Idx) :
    (dot_S256x512_S63x512_S256x63_1_1_0_0_n_n.lhsIdx j k 0).val = (j 0).val := by
  simp [DotDims.lhsIdx, dot_S256x512_S63x512_S256x63_1_1_0_0_n_n]; rfl
/-- … and at the contraction position; -/
theorem D5_lhs_1 (j : S256x63.Idx) (k : dot_S256x512_S63x512_S256x63_1_1_0_0_n_n.contr.Idx) :
    (dot_S256x512_S63x512_S256x63_1_1_0_0_n_n.lhsIdx j k 1).val = (k ⟨0, by decide⟩).val :=
  dot_S256x512_S63x512_S256x63_1_1_0_0_n_n.lhsIdx_val_of_single (cl := 1) rfl j k
/-- the right operand at the result's column … -/
theorem D5_rhs_0 (j : S256x63.Idx) (k : dot_S256x512_S63x512_S256x63_1_1_0_0_n_n.contr.Idx) :
    (dot_S256x512_S63x512_S256x63_1_1_0_0_n_n.rhsIdx j k 0).val = (j 1).val := by
  simp [DotDims.rhsIdx, dot_S256x512_S63x512_S256x63_1_1_0_0_n_n]; rfl
/-- … and at the contraction position. -/
theorem D5_rhs_1 (j : S256x63.Idx) (k : dot_S256x512_S63x512_S256x63_1_1_0_0_n_n.contr.Idx) :
    (dot_S256x512_S63x512_S256x63_1_1_0_0_n_n.rhsIdx j k 1).val = (k ⟨0, by decide⟩).val :=
  dot_S256x512_S63x512_S256x63_1_1_0_0_n_n.rhsIdx_val_of_single (cr := 1) rfl j k

/-- The product into a zero accumulator, at an entry: the sum over the 512 columns of the products of the two rows' entries. -/
theorem matmul5_apply (A : FVec Ideal S256x512 .f32) (W : FVec Ideal S63x512 .f32) (p : Fin 256) (o : Fin 63) :
    FloatOps.matmul dot_S256x512_S63x512_S256x63_1_1_0_0_n_n (some .fp32) A W (constant (F := Ideal) S256x63 .f32 0x00000000#32) (ix2 p o)
      = ∑ k : Fin 512, A (ix2 p k) * W (ix2 o k) := by
  rw [Ideal.matmul_constant_zero_apply,
    ← Equiv.sum_comp (contrEquiv1 dot_S256x512_S63x512_S256x63_1_1_0_0_n_n 512 rfl rfl).symm]
  refine Finset.sum_congr rfl fun k _ => ?_
  have hk := contrEquiv1_symm_val dot_S256x512_S63x512_S256x63_1_1_0_0_n_n 512 rfl rfl k
  have hl : dot_S256x512_S63x512_S256x63_1_1_0_0_n_n.lhsIdx (ix2 p o)
      ((contrEquiv1 dot_S256x512_S63x512_S256x63_1_1_0_0_n_n 512 rfl rfl).symm k) = ix2 p k := by
    funext a; apply Fin.ext
    match a with
    | ⟨0, _⟩ => exact D5_lhs_0 _ _
    | ⟨1, _⟩ => exact (D5_lhs_1 _ _).trans hk
  have hr : dot_S256x512_S63x512_S256x63_1_1_0_0_n_n.rhsIdx (ix2 p o)
      ((contrEquiv1 dot_S256x512_S63x512_S256x63_1_1_0_0_n_n 512 rfl rfl).symm k) = ix2 o k := by
    funext a; apply Fin.ext
    match a with
    | ⟨0, _⟩ => exact D5_rhs_0 _ _
    | ⟨1, _⟩ => exact (D5_rhs_1 _ _).trans hk
  rw [hl, hr]

/-- THE BODY AT AN ENTRY: row `p` of the first block against row `o` of the second, plus the bias at `o`. -/
theorem k5_pay1_apply (x0 : Vec Ideal S256x512 .f32) (x1 : Vec Ideal S63x512 .f32) (x2 : Vec Ideal S1x63 .f32)
    (p : Fin 256) (o : Fin 63) :
    k5_pay1 x0 x1 x2 (ix2 p o) = (∑ k : Fin 512, x0 (ix2 p k) * x1 (ix2 o k)) + x2 (ix2 (0 : Fin 1) o) := by
  unfold k5_pay1
  rw [addf_apply, shapeCast_self, shapeCast_self]
  refine congrArg₂ (· + ·) (matmul5_apply x0 x1 p o) ?_
  exact broadcastTo_1b_ab_apply x2 broadcasts_S1x63_S256x63 p o

end Cert.KernelIdeal.RegionValue

end
-- ==== Proof.KRegion5.lean ====
/-
  Region 5 of the kernel's program: an affine layer A Wᵀ + bias, tiled over the rows of the result.
  A grid point holds a block of 256 rows of A (all 512 columns), all of W (63 rows of 512 columns) and the 63 bias
  entries; the body contracts the two blocks along their second axes and adds the bias row. Every step of the body acts
  on each row of A separately, so the entry (p, o) of the block of point t depends on A only through its row
  256 t + p: the two blocks tile the 512 × 63 result and together hold `fcE` of the whole arrays.
-/
import proofs.«430908_j10015863734924_3_alg».proof.Proof.Gen.KernelIdeal.Frame
import proofs.«430908_j10015863734924_3_alg».proof.Proof.Spec
import proofs.«430908_j10015863734924_3_alg».proof.Proof.KRegion5Body
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Cert.Net
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

theorem zeroOffsets5 : (![0, 0] : Fin 2 → Nat) = fun _ => 0 := funext fun a => by fin_cases a <;> rfl

/-- The affine layer over whole arrays, entry by entry: row `i 0` of `A` against row `i 1` of `W`, plus the bias at `i 1`. -/
def affine5 (A : S512x512.Idx → EReal) (W : S63x512.Idx → EReal) (b : S1x63.Idx → EReal) : S512x63.Idx → EReal :=
  fun i => (∑ k : Fin 512, A (ix2 (i 0 : Fin 512) k) * W (ix2 (i 1 : Fin 63) k)) + b (ix2 (0 : Fin 1) (i 1 : Fin 63))

/-- The printed index maps over the grid: the block of rows of A moves with the result's, along axis 0 with the point;
    every other block index is zero. -/
theorem indexFacts5 : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The block of A at point `t`: rows 256 · (block index) … of the array, all columns. -/
theorem iblk5_0_apply (c : Dev nD) (t : Fin cfg5.N) (x : S256x512.Idx) (k : S512x512.Idx)
    (hk0 : (k 0).val = win5_0.index t (0 : Fin 2) * 256 + (x 0).val) (hk1 : (k 1).val = (x 1).val) :
    (iblk5 V c 0 t : Vec Ideal S256x512 .f32) x = (V c main_v82 : S512x512.Idx → Elt Ideal .f32) k := by
  obtain ⟨-, e1, -⟩ := indexFacts5 t
  unfold iblk5
  rw [View.read_apply]
  show V c main_v82 _ = V c main_v82 _
  congr 1
  funext a
  apply Fin.ext
  match a with
  | ⟨0, _⟩ => show win5_0.index t (0 : Fin 2) * 256 + 1 * (x 0).val = (k 0).val; omega
  | ⟨1, _⟩ => show win5_0.index t (1 : Fin 2) * 512 + 1 * (x 1).val = (k 1).val; omega

/-- The block of W at every point is the whole array. -/
theorem iblk5_1_eq (c : Dev nD) (t : Fin cfg5.N) :
    (iblk5 V c 1 t : Vec Ideal S63x512 .f32) = (V c main_arg17 : S63x512.Idx → Elt Ideal .f32) := by
  obtain ⟨-, -, e2, e3, -⟩ := indexFacts5 t
  funext x
  unfold iblk5
  rw [View.read_apply]
  show V c main_arg17 _ = V c main_arg17 _
  congr 1
  funext a
  apply Fin.ext
  match a with
  | ⟨0, _⟩ => show win5_1.index t (0 : Fin 2) * 63 + 1 * (x 0).val = (x 0).val; omega
  | ⟨1, _⟩ => show win5_1.index t (1 : Fin 2) * 512 + 1 * (x 1).val = (x 1).val; omega

/-- The bias block at every point is the whole array. -/
theorem iblk5_2_eq (c : Dev nD) (t : Fin cfg5.N) :
    (iblk5 V c 2 t : Vec Ideal S1x63 .f32) = (V c main_v83 : S1x63.Idx → Elt Ideal .f32) := by
  obtain ⟨-, -, -, -, e4, e5, -⟩ := indexFacts5 t
  funext x
  unfold iblk5
  rw [View.read_apply]
  show V c main_v83 _ = V c main_v83 _
  congr 1
  funext a
  apply Fin.ext
  match a with
  | ⟨0, _⟩ => show win5_2.index t (0 : Fin 2) * 1 + 1 * (x 0).val = (x 0).val; omega
  | ⟨1, _⟩ => show win5_2.index t (1 : Fin 2) * 63 + 1 * (x 1).val = (x 1).val; omega

/-- ONE ENTRY OF ONE POINT'S RESULT. If the first block is rows `256 r …` of `A`, the second is `W` and the third the
    bias, the body's value at `j` is the affine layer of the whole arrays at the entry `j` sits at in the result:
    row `256 r + j 0`, column `j 1`. -/
theorem body5_at (x0 : Vec Ideal S256x512 .f32) (x1 : Vec Ideal S63x512 .f32) (x2 : Vec Ideal S1x63 .f32)
    (A : S512x512.Idx → EReal) (W : S63x512.Idx → EReal) (b : S1x63.Idx → EReal) (r : Nat)
    (h0 : ∀ (x : S256x512.Idx) (k : S512x512.Idx), (k 0).val = r * 256 + (x 0).val → (k 1).val = (x 1).val → x0 x = A k)
    (h1 : x1 = W) (h2 : x2 = b)
    (j : S256x63.Idx) (i : S512x63.Idx) (hi0 : (i 0).val = r * 256 + (j 0).val) (hi1 : (i 1).val = (j 1).val) :
    k5_pay1 x0 x1 x2 j = affine5 A W b i := by
  subst h1 h2
  obtain ⟨p, o, rfl⟩ : ∃ (p : Fin 256) (o : Fin 63), j = ix2 p o := ⟨j 0, j 1, eq_ix2 j⟩
  obtain ⟨q, o', rfl⟩ : ∃ (q : Fin 512) (o' : Fin 63), i = ix2 q o' := ⟨i 0, i 1, eq_ix2 i⟩
  obtain rfl : o' = o := Fin.ext hi1
  rw [k5_pay1_apply]
  show _ = (∑ k : Fin 512, A (ix2 q k) * x1 (ix2 o' k)) + x2 (ix2 (0 : Fin 1) o')
  refine congrArg₂ (· + ·) (Finset.sum_congr rfl fun k _ => ?_) rfl
  rw [h0 (ix2 p k) (ix2 q k) hi0 rfl]

/-- WHAT POINT `t` WRITES BACK is its block of the affine layer of the arrays as the region finds them. -/
theorem flushed5_eq (c : Dev nD) (t : Fin cfg5.N) :
    (dat5 (F := Ideal) V c).flushed 3 t
      = ((cfg5.win 3).blk t).view.read (Elt Ideal) (affine5 (V c main_v82) (V c main_arg17) (V c main_v83)) := by
  show (cfg5.win 3).cut (grid5.coords t) ((dat5 V c).after 3 t) = _
  rw [after5_3]
  unfold out5_3
  rw [View.canon_unit_zero zeroOffsets5]
  simp only [View.ld_unit_zero (S := S256x512) zeroOffsets5, View.ld_unit_zero (S := S63x512) zeroOffsets5,
    View.ld_unit_zero (S := S1x63) zeroOffsets5]
  obtain ⟨e0, -, -, -, -, -, -, e7⟩ := indexFacts5 t
  funext j
  exact body5_at (iblk5 V c 0 t) (iblk5 V c 1 t) (iblk5 V c 2 t) (V c main_v82) (V c main_arg17) (V c main_v83)
    (win5_3.index t (0 : Fin 2))
    (fun x k hk0 hk1 => iblk5_0_apply V c t x k (by rw [e0]; exact hk0) hk1) (iblk5_1_eq V c t) (iblk5_2_eq V c t)
    j (((cfg5.win 3).blk t).view.emb j)
    (by show win5_3.index t (0 : Fin 2) * 256 + 1 * (j 0).val = win5_3.index t (0 : Fin 2) * 256 + (j 0).val; omega)
    (by show win5_3.index t (1 : Fin 2) * 63 + 1 * (j 1).val = (j 1).val; omega)

/-- An index of the result is in point `t`'s block iff each coordinate is in the block's range on its axis. -/
theorem mem_blk5 (t : Fin cfg5.N) (i : S512x63.Idx) :
    i ∈ ((cfg5.win 3).blk t).view.set ↔ ∀ a : Fin 2, win5_3.index t a * S256x63.size a ≤ (i a).val ∧ (i a).val < win5_3.index t a * S256x63.size a + S256x63.size a := by
  show i ∈ ((View.whole main_v84).slice (win5_3.rect t)).set ↔ _
  rw [View.set_slice_whole, Rect.mem_set_unit]
  exact Iff.rfl

/-- Every entry of the result lies in the block of the point its row divided by 256 names. -/
theorem cover5 (i : S512x63.Idx) : ∃ t : Fin cfg5.N, (cfg5.win 3).flush t = true ∧ i ∈ ((cfg5.win 3).blk t).view.set := by
  have hi0 : (i 0).val < 512 := (i 0).isLt
  have hi1 : (i 1).val < 63 := (i 1).isLt
  have hN : cfg5.N = 2 := N_5
  refine ⟨⟨(i 0).val / 256, by rw [hN]; omega⟩, flush5_3 _, ?_⟩
  rw [mem_blk5]
  obtain ⟨-, -, -, -, -, -, e6, e7⟩ := indexFacts5 ⟨(i 0).val / 256, by rw [hN]; omega⟩
  intro a
  match a with
  | ⟨0, _⟩ =>
    show win5_3.index _ (0 : Fin 2) * 256 ≤ (i 0).val ∧ (i 0).val < win5_3.index _ (0 : Fin 2) * 256 + 256
    rw [e6]; show (i 0).val / 256 * 256 ≤ (i 0).val ∧ (i 0).val < (i 0).val / 256 * 256 + 256; omega
  | ⟨1, _⟩ =>
    show win5_3.index _ (1 : Fin 2) * 63 ≤ (i 1).val ∧ (i 1).val < win5_3.index _ (1 : Fin 2) * 63 + 63
    rw [e7]; omega

/-- The result array after all grid points is the affine layer of the arrays at entry. -/
theorem final5 (c : Dev nD) :
    (dat5 (F := Ideal) V c).arrAt 3 cfg5.N = affine5 (V c main_v82) (V c main_arg17) (V c main_v83) :=
  (dat5 (F := Ideal) V c).arrAt_eq_of_cover 3 (affine5 (V c main_v82) (V c main_arg17) (V c main_v83))
    (fun t _ => flushed5_eq V c t) cover5

/-- What region 5 leaves in its output array, as a function of its input arrays at entry. -/
theorem region5_value (c : Dev nD) :
    cur2 ((dat5 (F := Ideal) V c).arrAt 3 cfg5.N : S512x63.Idx → EReal)
      = fcE (cur2 (V c main_v82 : S512x512.Idx → EReal)) (cur2 (V c main_arg17 : S63x512.Idx → EReal))
          (cur2 (V c main_v83 : S1x63.Idx → EReal) 0) := by
  rw [final5]
  rfl

end Cert.KernelIdeal.RegionValue

end
-- ==== Proof.Net.lean ====
/-
  The whole network, in the two arrangements, as functions of the nineteen inputs; the inputs as real arrays and
  in-range index maps (`RealInputs`); the nineteen argument arrays of a program as one record (`Args`); and what it
  means for the arrays to hold such inputs (`Args.Holds`: every float array is the coercion of the real one, every
  index word is the word of the in-range index).
-/
import proofs.«430908_j10015863734924_3_alg».proof.Proof.Spec

noncomputable section

namespace Cert.Net

open Idealize.ShloMosaic Idealize.ShloMosaic.ValueIdx

/-- The inputs, finite and in range: a batch of 512 point clouds on 1024 vertices, two edge lists (8192 edges on 1024
    vertices, 2048 on 256), four Chebyshev layers' weights and biases, two affine layers'. -/
structure RealInputs where
  x : Fin 512 → Fin 1024 → Fin 3 → ℝ
  rows0 : Fin 8192 → Fin 1024
  cols0 : Fin 8192 → Fin 1024
  vals0 : Fin 8192 → ℝ
  rows1 : Fin 2048 → Fin 256
  cols1 : Fin 2048 → Fin 256
  vals1 : Fin 2048 → ℝ
  W0 : Fin 32 → Fin 9 → ℝ
  b0 : Fin 32 → ℝ
  W1 : Fin 32 → Fin 96 → ℝ
  b1 : Fin 32 → ℝ
  W2 : Fin 64 → Fin 96 → ℝ
  b2 : Fin 64 → ℝ
  W3 : Fin 64 → Fin 192 → ℝ
  b3 : Fin 64 → ℝ
  fcW1 : Fin 512 → Fin 4096 → ℝ
  fcb1 : Fin 512 → ℝ
  fcW2 : Fin 63 → Fin 512 → ℝ
  fcb2 : Fin 63 → ℝ

/-- A program's nineteen argument arrays at the ideal values. -/
structure Args where
  x : (⟨3, ![512, 1024, 3]⟩ : Shape).Idx → EReal
  rows0 : (⟨1, ![8192]⟩ : Shape).Idx → BitVec 32
  cols0 : (⟨1, ![8192]⟩ : Shape).Idx → BitVec 32
  vals0 : (⟨1, ![8192]⟩ : Shape).Idx → EReal
  rows1 : (⟨1, ![2048]⟩ : Shape).Idx → BitVec 32
  cols1 : (⟨1, ![2048]⟩ : Shape).Idx → BitVec 32
  vals1 : (⟨1, ![2048]⟩ : Shape).Idx → EReal
  W0 : (⟨2, ![32, 9]⟩ : Shape).Idx → EReal
  b0 : (⟨1, ![32]⟩ : Shape).Idx → EReal
  W1 : (⟨2, ![32, 96]⟩ : Shape).Idx → EReal
  b1 : (⟨1, ![32]⟩ : Shape).Idx → EReal
  W2 : (⟨2, ![64, 96]⟩ : Shape).Idx → EReal
  b2 : (⟨1, ![64]⟩ : Shape).Idx → EReal
  W3 : (⟨2, ![64, 192]⟩ : Shape).Idx → EReal
  b3 : (⟨1, ![64]⟩ : Shape).Idx → EReal
  fcW1 : (⟨2, ![512, 4096]⟩ : Shape).Idx → EReal
  fcb1 : (⟨1, ![512]⟩ : Shape).Idx → EReal
  fcW2 : (⟨2, ![63, 512]⟩ : Shape).Idx → EReal
  fcb2 : (⟨1, ![63]⟩ : Shape).Idx → EReal

/-- The arrays hold the inputs: floats are the reals' coercions, index words are the in-range indices' words. -/
structure Args.Holds (A : Args) (I : RealInputs) : Prop where
  x : cur3 A.x = c3 I.x
  rows0 : ∀ e, A.rows0 (ix1 e) = BitVec.ofNat 32 (I.rows0 e).val
  cols0 : ∀ e, A.cols0 (ix1 e) = BitVec.ofNat 32 (I.cols0 e).val
  vals0 : cur1 A.vals0 = c1 I.vals0
  rows1 : ∀ e, A.rows1 (ix1 e) = BitVec.ofNat 32 (I.rows1 e).val
  cols1 : ∀ e, A.cols1 (ix1 e) = BitVec.ofNat 32 (I.cols1 e).val
  vals1 : cur1 A.vals1 = c1 I.vals1
  W0 : cur2 A.W0 = c2 I.W0
  b0 : cur1 A.b0 = c1 I.b0
  W1 : cur2 A.W1 = c2 I.W1
  b1 : cur1 A.b1 = c1 I.b1
  W2 : cur2 A.W2 = c2 I.W2
  b2 : cur1 A.b2 = c1 I.b2
  W3 : cur2 A.W3 = c2 I.W3
  b3 : cur1 A.b3 = c1 I.b3
  fcW1 : cur2 A.fcW1 = c2 I.fcW1
  fcb1 : cur1 A.fcb1 = c1 I.fcb1
  fcW2 : cur2 A.fcW2 = c2 I.fcW2
  fcb2 : cur1 A.fcb2 = c1 I.fcb2

/-! ## The dense arrangement's stages (vertex-major) and result -/

/-- After the first layer: 1024 vertices, 32 features. -/
def kStage1 (I : RealInputs) : Fin 1024 → Fin 512 → Fin 32 → EReal :=
  chebDenseE (denseE I.rows0 I.cols0 (c1 I.vals0)) (vmaj (c3 I.x))
    (splitW (by decide : 3 * 3 = 9) (c2 I.W0) 0) (splitW (by decide : 3 * 3 = 9) (c2 I.W0) 1) (splitW (by decide : 3 * 3 = 9) (c2 I.W0) 2) (c1 I.b0)
/-- After the second layer and the pool: 256 vertices, 32 features. -/
def kStage2 (I : RealInputs) : Fin 256 → Fin 512 → Fin 32 → EReal :=
  poolE (by decide : 4 * 256 = 1024) (chebDenseE (denseE I.rows0 I.cols0 (c1 I.vals0)) (kStage1 I)
    (splitW (by decide : 3 * 32 = 96) (c2 I.W1) 0) (splitW (by decide : 3 * 32 = 96) (c2 I.W1) 1) (splitW (by decide : 3 * 32 = 96) (c2 I.W1) 2) (c1 I.b1))
/-- After the third layer: 256 vertices, 64 features. -/
def kStage3 (I : RealInputs) : Fin 256 → Fin 512 → Fin 64 → EReal :=
  chebDenseE (denseE I.rows1 I.cols1 (c1 I.vals1)) (kStage2 I)
    (splitW (by decide : 3 * 32 = 96) (c2 I.W2) 0) (splitW (by decide : 3 * 32 = 96) (c2 I.W2) 1) (splitW (by decide : 3 * 32 = 96) (c2 I.W2) 2) (c1 I.b2)
/-- After the fourth layer and the pool: 64 vertices, 64 features. -/
def kStage4 (I : RealInputs) : Fin 64 → Fin 512 → Fin 64 → EReal :=
  poolE (by decide : 4 * 64 = 256) (chebDenseE (denseE I.rows1 I.cols1 (c1 I.vals1)) (kStage3 I)
    (splitW (by decide : 3 * 64 = 192) (c2 I.W3) 0) (splitW (by decide : 3 * 64 = 192) (c2 I.W3) 1) (splitW (by decide : 3 * 64 = 192) (c2 I.W3) 2) (c1 I.b3))
/-- After the first affine layer. -/
def kStage5 (I : RealInputs) : Fin 512 → Fin 512 → EReal :=
  fcE (flat (by decide : 64 * 64 = 4096) (by decide : 0 < 64) (kStage4 I)) (c2 I.fcW1) (c1 I.fcb1)
/-- The dense arrangement's result. -/
def kernelNet (I : RealInputs) : Fin 512 → Fin 63 → EReal := fcE (kStage5 I) (c2 I.fcW2) (c1 I.fcb2)

/-! ## The edge-list arrangement's stages (batch-major) and result -/

def rStage1 (I : RealInputs) : Fin 512 → Fin 1024 → Fin 32 → EReal :=
  chebCooE I.rows0 I.cols0 (c1 I.vals0) (c3 I.x) (by decide : 3 * 3 = 9) (c2 I.W0) (c1 I.b0)
def rStage2 (I : RealInputs) : Fin 512 → Fin 256 → Fin 32 → EReal :=
  poolBE (by decide : 4 * 256 = 1024) (chebCooE I.rows0 I.cols0 (c1 I.vals0) (rStage1 I) (by decide : 3 * 32 = 96) (c2 I.W1) (c1 I.b1))
def rStage3 (I : RealInputs) : Fin 512 → Fin 256 → Fin 64 → EReal :=
  chebCooE I.rows1 I.cols1 (c1 I.vals1) (rStage2 I) (by decide : 3 * 32 = 96) (c2 I.W2) (c1 I.b2)
def rStage4 (I : RealInputs) : Fin 512 → Fin 64 → Fin 64 → EReal :=
  poolBE (by decide : 4 * 64 = 256) (chebCooE I.rows1 I.cols1 (c1 I.vals1) (rStage3 I) (by decide : 3 * 64 = 192) (c2 I.W3) (c1 I.b3))
def rStage5 (I : RealInputs) : Fin 512 → Fin 512 → EReal :=
  fcE (flatB (by decide : 64 * 64 = 4096) (by decide : 0 < 64) (rStage4 I)) (c2 I.fcW1) (c1 I.fcb1)
/-- The edge-list arrangement's result. -/
def refNet (I : RealInputs) : Fin 512 → Fin 63 → EReal := fcE (rStage5 I) (c2 I.fcW2) (c1 I.fcb2)

end Cert.Net

end
-- ==== Proof.KArgs.lean ====
/-
  The kernel program's nineteen argument arrays, at the launch memory, as one record.
-/
import proofs.«430908_j10015863734924_3_alg».proof.Proof.Gen.KernelIdeal.Frame
import proofs.«430908_j10015863734924_3_alg».proof.Proof.Net

set_option maxRecDepth 16384

noncomputable section

namespace Cert.KernelIdeal.HostValue

open Cert.KernelIdeal Cert.KernelIdeal.Gen Cert.Net
open Idealize.ShloMosaic Idealize.ShloMosaic.TcCoe Idealize.ShloMosaic.ValueIdx Idealize.SL.Sem Idealize.ShloMosaic.StableHlo

/-- Core `c`'s argument arrays in the launch memory `m`. -/
abbrev kArgs (m : (ℓ : Loc nD τ sig) → Buf (Elt Ideal) ℓ) (c : Dev nD) : Args where
  x := m ((c.tc : Thread nD τ).loc main_arg0)
  rows0 := m ((c.tc : Thread nD τ).loc main_arg1)
  cols0 := m ((c.tc : Thread nD τ).loc main_arg2)
  vals0 := m ((c.tc : Thread nD τ).loc main_arg3)
  rows1 := m ((c.tc : Thread nD τ).loc main_arg4)
  cols1 := m ((c.tc : Thread nD τ).loc main_arg5)
  vals1 := m ((c.tc : Thread nD τ).loc main_arg6)
  W0 := m ((c.tc : Thread nD τ).loc main_arg7)
  b0 := m ((c.tc : Thread nD τ).loc main_arg8)
  W1 := m ((c.tc : Thread nD τ).loc main_arg9)
  b1 := m ((c.tc : Thread nD τ).loc main_arg10)
  W2 := m ((c.tc : Thread nD τ).loc main_arg11)
  b2 := m ((c.tc : Thread nD τ).loc main_arg12)
  W3 := m ((c.tc : Thread nD τ).loc main_arg13)
  b3 := m ((c.tc : Thread nD τ).loc main_arg14)
  fcW1 := m ((c.tc : Thread nD τ).loc main_arg15)
  fcb1 := m ((c.tc : Thread nD τ).loc main_arg16)
  fcW2 := m ((c.tc : Thread nD τ).loc main_arg17)
  fcb2 := m ((c.tc : Thread nD τ).loc main_arg18)

end Cert.KernelIdeal.HostValue

end
-- ==== Proof.KHostL.lean ====
/-
  The two graph operators the kernel's program builds before its first region: a 2-index scatter-add of the edge
  values into a zero matrix, at (rows e, cols e) after the negative-index wrap (an index below zero gets the extent
  added). For in-range indices the wrap is the identity and no update is dropped, so entry (r, c) of the matrix is
  0 + the sum of the values of the edges with rows e = r and cols e = c: `denseE`.
-/
import proofs.«430908_j10015863734924_3_alg».proof.Proof.Gen.KernelIdeal.Frame
import proofs.«430908_j10015863734924_3_alg».proof.Proof.Net
import proofs.«430908_j10015863734924_3_alg».proof.Proof.KArgs
import Idealize.ShloMosaic.Lib.StableHlo.Run
import Idealize.ShloMosaic.Lib.StableHlo.Predicate
import Idealize.ShloMosaic.Lib.Pipeline.Value
import Idealize.ShloMosaic.Lib.ValueLayout
import Idealize.ShloMosaic.Lib.ValueIdxRank1
import Idealize.ShloMosaic.PureOps.Ideal.Laws

set_option maxRecDepth 16384

noncomputable section

namespace Cert.KernelIdeal.HostValue

open Cert.KernelIdeal Cert.KernelIdeal.Gen Cert.Net
open Idealize.ShloMosaic Idealize.ShloMosaic.TcCoe Idealize.ShloMosaic.ValueIdx Idealize.SL.Sem Idealize.ShloMosaic.StableHlo

/-! ## The 2-index scatter-add, at any extents -/

section Scatter
variable {V W E : Nat}

/-- The 2-index scatter's dimension numbers: no window axis, both operand axes inserted and named by the index
    vector's two components, the index vector along the indices' second axis. -/
abbrev scatL_dims (wf : ScatterDims.WF (⟨2, ![V, W]⟩ : Shape) ⟨2, ![E, 2]⟩ ⟨1, ![E]⟩ [] [0, 1] [0, 1] 1) :
    ScatterDims (⟨2, ![V, W]⟩ : Shape) ⟨2, ![E, 2]⟩ ⟨1, ![E]⟩ := ⟨[], [0, 1], [0, 1], 1, wf⟩

variable (wf : ScatterDims.WF (⟨2, ![V, W]⟩ : Shape) ⟨2, ![E, 2]⟩ ⟨1, ![E]⟩ [] [0, 1] [0, 1] 1)

theorem scatL_window (j : (⟨1, ![E]⟩ : Shape).Idx) (a : Fin 2) : (scatL_dims wf).window j a = 0 := by
  unfold ScatterDims.window
  rw [dif_neg]
  have ha : a = 0 ∨ a = 1 := by
    rcases a with ⟨v, hv⟩
    have : v = 0 ∨ v = 1 := by omega
    rcases this with rfl | rfl
    · exact Or.inl rfl
    · exact Or.inr rfl
  rcases ha with rfl | rfl
  · show (0 : Fin 2) ∉ (List.finRange 2).filter (fun x => decide (x ∉ ([0, 1] : List (Fin 2)))); decide
  · show (1 : Fin 2) ∉ (List.finRange 2).filter (fun x => decide (x ∉ ([0, 1] : List (Fin 2)))); decide

theorem scatL_start0 (e : Fin E) (idx : IVec (⟨2, ![E, 2]⟩ : Shape) 32) :
    (scatL_dims wf).start (ix1 e) idx 0 = (idx (ix2 e 0)).toInt := by
  unfold ScatterDims.start
  rw [dif_pos (show (0 : Fin 2) ∈ ([0, 1] : List (Fin 2)) by decide)]
  refine congrArg (fun i => (idx i).toInt) ?_
  funext b
  match b with
  | ⟨0, _⟩ => exact Fin.ext rfl
  | ⟨1, _⟩ => exact Fin.ext rfl

theorem scatL_start1 (e : Fin E) (idx : IVec (⟨2, ![E, 2]⟩ : Shape) 32) :
    (scatL_dims wf).start (ix1 e) idx 1 = (idx (ix2 e 1)).toInt := by
  unfold ScatterDims.start
  rw [dif_pos (show (1 : Fin 2) ∈ ([0, 1] : List (Fin 2)) by decide)]
  refine congrArg (fun i => (idx i).toInt) ?_
  funext b
  match b with
  | ⟨0, _⟩ => exact Fin.ext rfl
  | ⟨1, _⟩ => exact Fin.ext rfl

theorem scatL_resultIdx (hV : V < 2 ^ 31) (hW : W < 2 ^ 31) (idx : IVec (⟨2, ![E, 2]⟩ : Shape) 32) (e : Fin E) (r : Fin V) (c : Fin W)
    (hr : idx (ix2 e 0) = BitVec.ofNat 32 r.val) (hc : idx (ix2 e 1) = BitVec.ofNat 32 c.val) :
    (scatL_dims wf).resultIdx? (ix1 e) idx = some (ix2 r c) := by
  have s0 : (scatL_dims wf).start (ix1 e) idx 0 + ((scatL_dims wf).window (ix1 e) 0 : Int) = (r.val : Int) := by
    rw [scatL_start0, scatL_window, hr, Predicate.toInt_ofNat_small _ (by have := r.isLt; omega)]; simp
  have s1 : (scatL_dims wf).start (ix1 e) idx 1 + ((scatL_dims wf).window (ix1 e) 1 : Int) = (c.val : Int) := by
    rw [scatL_start1, scatL_window, hc, Predicate.toInt_ofNat_small _ (by have := c.isLt; omega)]; simp
  unfold ScatterDims.resultIdx?
  rw [dif_pos]
  · refine congrArg some (funext fun a => ?_)
    match a with
    | ⟨0, _⟩ => exact Fin.ext (by show ((scatL_dims wf).start (ix1 e) idx 0 + ((scatL_dims wf).window (ix1 e) 0 : Int)).toNat = r.val; rw [s0]; simp)
    | ⟨1, _⟩ => exact Fin.ext (by show ((scatL_dims wf).start (ix1 e) idx 1 + ((scatL_dims wf).window (ix1 e) 1 : Int)).toNat = c.val; rw [s1]; simp)
  · intro a
    match a with
    | ⟨0, _⟩ =>
      show 0 ≤ (scatL_dims wf).start (ix1 e) idx 0 + ((scatL_dims wf).window (ix1 e) 0 : Int) ∧ (scatL_dims wf).start (ix1 e) idx 0 + ((scatL_dims wf).window (ix1 e) 0 : Int) < (V : Int)
      rw [s0]; have := r.isLt; omega
    | ⟨1, _⟩ =>
      show 0 ≤ (scatL_dims wf).start (ix1 e) idx 1 + ((scatL_dims wf).window (ix1 e) 1 : Int) ∧ (scatL_dims wf).start (ix1 e) idx 1 + ((scatL_dims wf).window (ix1 e) 1 : Int) < (W : Int)
      rw [s1]; have := c.isLt; omega

/-- The scatter-add at (r, c): the operand there plus the values of the edges whose index pair is (r, c). -/
theorem scatL_apply (hV : V < 2 ^ 31) (hW : W < 2 ^ 31) (x : (⟨2, ![V, W]⟩ : Shape).Idx → EReal)
    (idx : IVec (⟨2, ![E, 2]⟩ : Shape) 32) (upd : (⟨1, ![E]⟩ : Shape).Idx → EReal)
    (rows : Fin E → Fin V) (cols : Fin E → Fin W)
    (hr : ∀ e, idx (ix2 e 0) = BitVec.ofNat 32 (rows e).val) (hc : ∀ e, idx (ix2 e 1) = BitVec.ofNat 32 (cols e).val)
    (r : Fin V) (c : Fin W) :
    Ideal.hostScatterAdd (scatL_dims wf) x idx upd (ix2 r c)
      = x (ix2 r c) + ∑ e : Fin E, if rows e = r ∧ cols e = c then upd (ix1 e) else 0 := by
  unfold Ideal.hostScatterAdd
  refine congrArg (x (ix2 r c) + ·) ?_
  rw [Finset.sum_filter, ← Equiv.sum_comp (idxEquiv1 (n := E)).symm]
  refine Finset.sum_congr rfl fun e _ => ?_
  show (if (scatL_dims wf).resultIdx? (ix1 e) idx = some (ix2 r c) then upd (ix1 e) else 0) = _
  rw [scatL_resultIdx wf hV hW idx e (rows e) (cols e) (hr e) (hc e)]
  refine if_congr ?_ rfl rfl
  constructor
  · intro h
    have h2 : ix2 (rows e) (cols e) = ix2 r c := Option.some.inj h
    exact ⟨congrFun h2 0, congrFun h2 1⟩
  · rintro ⟨h0, h1⟩; rw [h0, h1]

/-- The index table's first column is the first index vector. -/
theorem scatL_table_left (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (a b : IVec (⟨1, ![E]⟩ : Shape) 32) (e : Fin E) :
    concatenate (⟨2, ![E, 2]⟩ : Shape) 1
      [⟨(⟨2, ![E, 1]⟩ : Shape), broadcastInDim ⟨2, ![E, 1]⟩ ![0] hb a⟩, ⟨(⟨2, ![E, 1]⟩ : Shape), broadcastInDim ⟨2, ![E, 1]⟩ ![0] hb b⟩] hc (ix2 e 0)
      = a (ix1 e) := by
  rw [concatenate_pair_apply_left (t := ⟨2, ![E, 2]⟩) (s₁ := ⟨2, ![E, 1]⟩) (s₂ := ⟨2, ![E, 1]⟩) 1 _ _ hc (ix2 e 0) rfl (ix2 e 0)
    (by intro q; match q with | ⟨0, _⟩ => rfl | ⟨1, _⟩ => rfl)]
  refine broadcastInDim_apply ![0] hb a (ix2 e 0) (ix1 e) ?_
  intro q
  match q with
  | ⟨0, _⟩ =>
    show e.val = if E = 1 then 0 else e.val
    split
    · have := e.isLt; omega
    · rfl

/-- The index table's second column is the second index vector. -/
theorem scatL_table_right (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (a b : IVec (⟨1, ![E]⟩ : Shape) 32) (e : Fin E) :
    concatenate (⟨2, ![E, 2]⟩ : Shape) 1
      [⟨(⟨2, ![E, 1]⟩ : Shape), broadcastInDim ⟨2, ![E, 1]⟩ ![0] hb a⟩, ⟨(⟨2, ![E, 1]⟩ : Shape), broadcastInDim ⟨2, ![E, 1]⟩ ![0] hb b⟩] hc (ix2 e 1)
      = b (ix1 e) := by
  rw [concatenate_pair_apply_right (t := ⟨2, ![E, 2]⟩) (s₁ := ⟨2, ![E, 1]⟩) (s₂ := ⟨2, ![E, 1]⟩) 1 _ _ hc (ix2 e 1) rfl rfl (ix2 e 0)
    (by intro q hq; match q with | ⟨0, _⟩ => rfl | ⟨1, _⟩ => exact absurd rfl hq) rfl]
  refine broadcastInDim_apply ![0] hb b (ix2 e 0) (ix1 e) ?_
  intro q
  match q with
  | ⟨0, _⟩ =>
    show e.val = if E = 1 then 0 else e.val
    split
    · have := e.isLt; omega
    · rfl

/-- The negative-index wrap leaves the word of a small natural number alone. -/
theorem scatL_wrap_apply {s : Shape} (hb : (⟨0, ![]⟩ : Shape).BroadcastsInDim s ![]) (n : BitVec 32) (x : IVec s 32) (i : s.Idx)
    (k : Nat) (hk : k < 2 ^ 31) (hx : x i = BitVec.ofNat 32 k) :
    select (cmpi .slt x (broadcastInDim s ![] hb (constantI ⟨0, ![]⟩ 32 0#32)))
      (addi x (broadcastInDim s ![] hb (constantI ⟨0, ![]⟩ 32 n))) x i = BitVec.ofNat 32 k := by
  show Scalar.select (IntOp.cmpi .slt (x i) 0#32) _ (x i) = _
  rw [hx]
  have hne : IntOp.cmpi .slt (BitVec.ofNat 32 k) 0#32 ≠ 1#1 := by
    intro h
    have h2 := (Predicate.slt_ofNat_iff k 0 hk (by decide)).1 h
    omega
  unfold Scalar.select
  exact if_neg hne

end Scatter

/-- The whole construction at (r, c): the values scattered into a zero square matrix at in-range index pairs give the
    dense operator of the edge list. -/
theorem scatL_dense {V E : Nat}
    (wf : ScatterDims.WF (⟨2, ![V, V]⟩ : Shape) ⟨2, ![E, 2]⟩ ⟨1, ![E]⟩ [] [0, 1] [0, 1] 1) (hV : V < 2 ^ 31)
    (hz : (⟨0, ![]⟩ : Shape).BroadcastsInDim ⟨2, ![V, V]⟩ ![]) (h1 : (⟨0, ![]⟩ : Shape).BroadcastsInDim ⟨1, ![E]⟩ ![])
    (hb : (⟨1, ![E]⟩ : Shape).BroadcastsInDim ⟨2, ![E, 1]⟩ ![0])
    (hc : Shape.Concatenates [(⟨2, ![E, 1]⟩ : Shape), ⟨2, ![E, 1]⟩] ⟨2, ![E, 2]⟩ 1) (nV nW : BitVec 32)
    (rows cols : IVec (⟨1, ![E]⟩ : Shape) 32) (vals : FVec Ideal (⟨1, ![E]⟩ : Shape) .f32)
    (R C : Fin E → Fin V)
    (hR : ∀ e, rows (ix1 e) = BitVec.ofNat 32 (R e).val) (hC : ∀ e, cols (ix1 e) = BitVec.ofNat 32 (C e).val)
    (r c : Fin V) :
    Ideal.hostScatterAdd (scatL_dims wf)
        (broadcastInDim (⟨2, ![V, V]⟩ : Shape) ![] hz (constant (F := Ideal) ⟨0, ![]⟩ .f32 0x00000000#32))
        (concatenate (⟨2, ![E, 2]⟩ : Shape) 1
          [⟨(⟨2, ![E, 1]⟩ : Shape), broadcastInDim ⟨2, ![E, 1]⟩ ![0] hb
              (select (cmpi .slt rows (broadcastInDim ⟨1, ![E]⟩ ![] h1 (constantI ⟨0, ![]⟩ 32 0#32)))
                (addi rows (broadcastInDim ⟨1, ![E]⟩ ![] h1 (constantI ⟨0, ![]⟩ 32 nV))) rows)⟩,
           ⟨(⟨2, ![E, 1]⟩ : Shape), broadcastInDim ⟨2, ![E, 1]⟩ ![0] hb
              (select (cmpi .slt cols (broadcastInDim ⟨1, ![E]⟩ ![] h1 (constantI ⟨0, ![]⟩ 32 0#32)))
                (addi cols (broadcastInDim ⟨1, ![E]⟩ ![] h1 (constantI ⟨0, ![]⟩ 32 nW))) cols)⟩] hc)
        vals (ix2 r c)
      = denseE R C (cur1 vals) r c := by
  rw [scatL_apply wf hV hV _ _ _ R C
    (fun e => by
      rw [scatL_table_left]
      exact scatL_wrap_apply h1 nV rows (ix1 e) _ (by have := (R e).isLt; omega) (hR e))
    (fun e => by
      rw [scatL_table_right]
      exact scatL_wrap_apply h1 nW cols (ix1 e) _ (by have := (C e).isLt; omega) (hC e)) r c]
  show Ideal.ofBits .f32 0x00000000#32 + _ = _
  rw [Ideal.ofBits_zero_f32, zero_add]
  rfl

/-! ## The program's two instances -/

/-- The 1024 × 1024 operator's term over the three edge arrays. -/
def scatL0 (rows cols : IVec S8192 32) (vals : FVec Ideal S8192 .f32) : FVec Ideal S1024x1024 .f32 :=
  Host.scatterAdd (F := Ideal) scatter_S1024x1024_S8192x2_S8192_n_01_01_1
    (broadcastInDim S1024x1024 ![] Facts₀.bcast_S_S1024x1024 (constant (F := Ideal) S_ .f32 0x00000000#32))
    (concatenate S8192x2 1
      [⟨S8192x1, broadcastInDim S8192x1 ![0] Facts₀.bcast_S8192_S8192x1_0
          (select (cmpi .slt rows (broadcastInDim S8192 ![] Facts₀.bcast_S_S8192 (constantI S_ 32 0#32)))
            (addi rows (broadcastInDim S8192 ![] Facts₀.bcast_S_S8192 (constantI S_ 32 1024#32))) rows)⟩,
       ⟨S8192x1, broadcastInDim S8192x1 ![0] Facts₀.bcast_S8192_S8192x1_0
          (select (cmpi .slt cols (broadcastInDim S8192 ![] Facts₀.bcast_S_S8192 (constantI S_ 32 0#32)))
            (addi cols (broadcastInDim S8192 ![] Facts₀.bcast_S_S8192 (constantI S_ 32 1024#32))) cols)⟩]
      Facts₀.concatenates_S8192x1_S8192x1_S8192x2_d1)
    vals

/-- The 256 × 256 operator's term over the three edge arrays. -/
def scatL1 (rows cols : IVec S2048 32) (vals : FVec Ideal S2048 .f32) : FVec Ideal S256x256 .f32 :=
  Host.scatterAdd (F := Ideal) scatter_S256x256_S2048x2_S2048_n_01_01_1
    (broadcastInDim S256x256 ![] Facts₀.bcast_S_S256x256 (constant (F := Ideal) S_ .f32 0x00000000#32))
    (concatenate S2048x2 1
      [⟨S2048x1, broadcastInDim S2048x1 ![0] Facts₀.bcast_S2048_S2048x1_0
          (select (cmpi .slt rows (broadcastInDim S2048 ![] Facts₀.bcast_S_S2048 (constantI S_ 32 0#32)))
            (addi rows (broadcastInDim S2048 ![] Facts₀.bcast_S_S2048 (constantI S_ 32 256#32))) rows)⟩,
       ⟨S2048x1, broadcastInDim S2048x1 ![0] Facts₀.bcast_S2048_S2048x1_0
          (select (cmpi .slt cols (broadcastInDim S2048 ![] Facts₀.bcast_S_S2048 (constantI S_ 32 0#32)))
            (addi cols (broadcastInDim S2048 ![] Facts₀.bcast_S_S2048 (constantI S_ 32 256#32))) cols)⟩]
      Facts₀.concatenates_S2048x1_S2048x1_S2048x2_d1)
    vals

/-- For in-range index words the first term is the dense operator of the edge list. -/
theorem scatL0_dense (rows cols : IVec S8192 32) (vals : FVec Ideal S8192 .f32) (R C : Fin 8192 → Fin 1024)
    (hR : ∀ e, rows (ix1 e) = BitVec.ofNat 32 (R e).val) (hC : ∀ e, cols (ix1 e) = BitVec.ofNat 32 (C e).val) :
    cur2 (scatL0 rows cols vals) = denseE R C (cur1 vals) := by
  funext r c
  exact scatL_dense (V := 1024) (E := 8192) Facts₀.scatter_S1024x1024_S8192x2_S8192_n_01_01_1_wf (by decide)
    Facts₀.bcast_S_S1024x1024 Facts₀.bcast_S_S8192 Facts₀.bcast_S8192_S8192x1_0 Facts₀.concatenates_S8192x1_S8192x1_S8192x2_d1
    1024#32 1024#32 rows cols vals R C hR hC r c

/-- For in-range index words the second term is the dense operator of the edge list. -/
theorem scatL1_dense (rows cols : IVec S2048 32) (vals : FVec Ideal S2048 .f32) (R C : Fin 2048 → Fin 256)
    (hR : ∀ e, rows (ix1 e) = BitVec.ofNat 32 (R e).val) (hC : ∀ e, cols (ix1 e) = BitVec.ofNat 32 (C e).val) :
    cur2 (scatL1 rows cols vals) = denseE R C (cur1 vals) := by
  funext r c
  exact scatL_dense (V := 256) (E := 2048) Facts₀.scatter_S256x256_S2048x2_S2048_n_01_01_1_wf (by decide)
    Facts₀.bcast_S_S256x256 Facts₀.bcast_S_S2048 Facts₀.bcast_S2048_S2048x1_0 Facts₀.concatenates_S2048x1_S2048x1_S2048x2_d1
    256#32 256#32 rows cols vals R C hR hC r c

variable (m : (ℓ : Loc nD τ sig) → Buf (Elt Ideal) ℓ) (ρ : Dev nD → PrngReg) (c : Dev nD) (I : RealInputs)

set_option maxHeartbeats 1000000 in
/-- At region 0's entry the first operator's buffer holds the first term over the launch memory's edge arrays. -/
theorem V1_main_v14_term :
    (V1 (F := Ideal) m ρ c main_v14 : S1024x1024.Idx → EReal)
      = scatL0 (m ((c.tc : Thread nD τ).loc main_arg1)) (m ((c.tc : Thread nD τ).loc main_arg2)) (m ((c.tc : Thread nD τ).loc main_arg3)) := by
  show StableHlo.after hostOps0 _ (Proc.devRef .tc main_v14) = _
  after_results_simp
  rfl

set_option maxHeartbeats 1000000 in
/-- At region 0's entry the second operator's buffer holds the second term over the launch memory's edge arrays. -/
theorem V1_main_v29_term :
    (V1 (F := Ideal) m ρ c main_v29 : S256x256.Idx → EReal)
      = scatL1 (m ((c.tc : Thread nD τ).loc main_arg4)) (m ((c.tc : Thread nD τ).loc main_arg5)) (m ((c.tc : Thread nD τ).loc main_arg6)) := by
  show StableHlo.after hostOps0 _ (Proc.devRef .tc main_v29) = _
  after_results_simp
  rfl

/-- The 1024 × 1024 operator at region 0's entry. -/
theorem V1_L0 (hI : (kArgs m c).Holds I) :
    cur2 (V1 (F := Ideal) m ρ c main_v14 : S1024x1024.Idx → EReal) = denseE I.rows0 I.cols0 (c1 I.vals0) :=
  (congrArg cur2 (V1_main_v14_term m ρ c)).trans
    ((scatL0_dense _ _ _ I.rows0 I.cols0 hI.rows0 hI.cols0).trans (congrArg (denseE I.rows0 I.cols0) hI.vals0))

/-- The 256 × 256 operator at region 0's entry. -/
theorem V1_L1 (hI : (kArgs m c).Holds I) :
    cur2 (V1 (F := Ideal) m ρ c main_v29 : S256x256.Idx → EReal) = denseE I.rows1 I.cols1 (c1 I.vals1) :=
  (congrArg cur2 (V1_main_v29_term m ρ c)).trans
    ((scatL1_dense _ _ _ I.rows1 I.cols1 hI.rows1 hI.cols1).trans (congrArg (denseE I.rows1 I.cols1) hI.vals1))

end Cert.KernelIdeal.HostValue

end
-- ==== Proof.KHostWLib.lean ====
/-
  Layout chains read at coordinates, over variables: a Fo × 3 Fi matrix cut into Chebyshev term k and transposed
  (reshape to Fo × Fi × 3, slice [.., .., k], drop the unit axis, transpose): entry (f, o) is the matrix at (o, 3 f + k);
  a vector as a one-row matrix; a rank-3 array with its first two axes swapped; a vertex-major activation re-laid
  batch-major and flattened: position v · F + f of row b is the activation at (v, b, f).
-/
import proofs.«430908_j10015863734924_3_alg».proof.Proof.Spec
import Idealize.ShloMosaic.Lib.Pipeline.Value
import Idealize.ShloMosaic.Lib.ValueLayout

set_option maxRecDepth 16384

noncomputable section

namespace Cert.KernelIdeal.HostValue

open Cert.Net
open Idealize.ShloMosaic Idealize.ShloMosaic.ValueIdx

variable {α : Type}

/-- A rank-3 array with its first two axes swapped reads, at (j, i, k), the operand at (i, j, k). -/
theorem transpose_ix3_102_apply {a b n : ℕ} (x : (⟨3, ![a, b, n]⟩ : Shape).Idx → α)
    (h : (⟨3, ![a, b, n]⟩ : Shape).Transposes [1, 0, 2] ⟨3, ![b, a, n]⟩) (j : Fin b) (i : Fin a) (k : Fin n) :
    transpose ⟨3, ![b, a, n]⟩ [1, 0, 2] x h (ix3 j i k) = x (ix3 i j k) :=
  transpose_apply _ x h _ _ fun c => match c with | ⟨0, _⟩ => rfl | ⟨1, _⟩ => rfl | ⟨2, _⟩ => rfl

/-- The first two axes swapped, by coordinates. -/
theorem vmaj_read {B V F : ℕ} (X : (⟨3, ![B, V, F]⟩ : Shape).Idx → α)
    (h : (⟨3, ![B, V, F]⟩ : Shape).Transposes [1, 0, 2] ⟨3, ![V, B, F]⟩) :
    cur3 (transpose ⟨3, ![V, B, F]⟩ [1, 0, 2] X h) = vmaj (cur3 X) := by
  funext v b f
  exact transpose_ix3_102_apply X h v b f

/-- Term o of a Fo × K matrix (K = 3 Fi), transposed: entry (f, q) is the matrix at (q, 3 f + o). -/
theorem splitW_read {Fo Fi K : ℕ} (h3 : 3 * Fi = K) (o : ℕ) (ho : o < 3) (X : (⟨2, ![Fo, K]⟩ : Shape).Idx → α)
    (h1 : (⟨2, ![Fo, K]⟩ : Shape).ShapeCasts ⟨3, ![Fo, Fi, 3]⟩)
    (h2 : (⟨3, ![Fo, Fi, 3]⟩ : Shape).Slices ![0, 0, o] ⟨3, ![Fo, Fi, 1]⟩)
    (h3' : (⟨3, ![Fo, Fi, 1]⟩ : Shape).ShapeCasts ⟨2, ![Fo, Fi]⟩)
    (h4 : (⟨2, ![Fo, Fi]⟩ : Shape).Transposes [1, 0] ⟨2, ![Fi, Fo]⟩) :
    cur2 (transpose ⟨2, ![Fi, Fo]⟩ [1, 0]
        (shapeCast ⟨2, ![Fo, Fi]⟩
          (extractStridedSlice ⟨3, ![Fo, Fi, 1]⟩ ![0, 0, o] (shapeCast ⟨3, ![Fo, Fi, 3]⟩ X h1) h2) h3') h4)
      = splitW h3 (cur2 X) ⟨o, ho⟩ := by
  funext f q
  have hlt : 3 * f.val + o < K := by have := f.isLt; omega
  show transpose ⟨2, ![Fi, Fo]⟩ [1, 0] _ h4 (ix2 f q) = X (ix2 q ⟨3 * f.val + o, hlt⟩)
  rw [transpose_ix2_apply]
  refine (shapeCast_apply _ h3' (ix2 q f) (ix3 q f (0 : Fin 1)) ?_).trans ?_
  · rw [Shape.rowMajor_val_three, Shape.rowMajor_val_two]
    show (q.val * Fi + f.val) * 1 + 0 = q.val * Fi + f.val
    omega
  refine (extractStridedSlice_apply _ _ h2 (ix3 q f (0 : Fin 1)) (ix3 q f (⟨o, ho⟩ : Fin 3)) ?_).trans ?_
  · intro a
    match a with
    | ⟨0, _⟩ => exact (Nat.zero_add _).symm
    | ⟨1, _⟩ => exact (Nat.zero_add _).symm
    | ⟨2, _⟩ => exact rfl
  refine shapeCast_apply X h1 (ix3 q f (⟨o, ho⟩ : Fin 3)) (ix2 q ⟨3 * f.val + o, hlt⟩) ?_
  rw [Shape.rowMajor_val_two, Shape.rowMajor_val_three]
  show q.val * K + (3 * f.val + o) = (q.val * Fi + f.val) * 3 + o
  subst h3
  rw [Nat.add_mul, Nat.mul_comm 3 Fi, ← Nat.mul_assoc, Nat.mul_comm f.val 3]
  omega

/-- A vector as a one-row matrix: row 0 is the vector. -/
theorem row_read {a : ℕ} (X : (⟨1, ![a]⟩ : Shape).Idx → α) (h : (⟨1, ![a]⟩ : Shape).ShapeCasts ⟨2, ![1, a]⟩) :
    cur2 (shapeCast ⟨2, ![1, a]⟩ X h) 0 = cur1 X := by
  funext i
  exact shapeCast_a_1a_apply X h 0 i

/-- A vertex-major activation re-laid batch-major and flattened: position v · F + f of row b is the activation at (v, b, f). -/
theorem flat_read {B V F K : ℕ} (hK : V * F = K) (hF : 0 < F) (Y : (⟨3, ![V, B, F]⟩ : Shape).Idx → α)
    (h1 : (⟨3, ![V, B, F]⟩ : Shape).Transposes [1, 0, 2] ⟨3, ![B, V, F]⟩)
    (h2 : (⟨3, ![B, V, F]⟩ : Shape).ShapeCasts ⟨2, ![B, K]⟩) :
    cur2 (shapeCast ⟨2, ![B, K]⟩ (transpose ⟨3, ![B, V, F]⟩ [1, 0, 2] Y h1) h2) = flat hK hF (cur3 Y) := by
  funext b i
  have hv : i.val / F < V := Nat.div_lt_of_lt_mul (by rw [Nat.mul_comm, hK]; exact i.isLt)
  have hf : i.val % F < F := Nat.mod_lt _ hF
  show shapeCast ⟨2, ![B, K]⟩ _ h2 (ix2 b i) = Y (ix3 ⟨i.val / F, hv⟩ b ⟨i.val % F, hf⟩)
  refine (shapeCast_apply _ h2 (ix2 b i) (ix3 b ⟨i.val / F, hv⟩ ⟨i.val % F, hf⟩) ?_).trans ?_
  · rw [Shape.rowMajor_val_three, Shape.rowMajor_val_two]
    show (b.val * V + i.val / F) * F + i.val % F = b.val * K + i.val
    subst hK
    rw [Nat.add_mul, Nat.mul_assoc, Nat.add_assoc, Nat.div_add_mod']
  exact transpose_ix3_102_apply Y h1 b ⟨i.val / F, hv⟩ ⟨i.val % F, hf⟩

end Cert.KernelIdeal.HostValue

end
-- ==== Proof.KHostW.lean ====
/-
  The host operations before the kernel program's first two regions, read at an index: the input re-laid vertex-major
  (a transpose), each layer's weight matrix cut into its three Chebyshev terms (reshape Fo × 3 Fi to Fo × Fi × 3, slice
  term k, drop the unit axis, transpose to Fi × Fo: entry (f, o) is W o (3 f + k)), each bias as a one-row matrix.
  None of these operations writes an argument array, and region 0 writes none, so each stage reads the launch contents.
-/
import proofs.«430908_j10015863734924_3_alg».proof.Proof.Gen.KernelIdeal.Frame
import proofs.«430908_j10015863734924_3_alg».proof.Proof.Net
import proofs.«430908_j10015863734924_3_alg».proof.Proof.KArgs
import proofs.«430908_j10015863734924_3_alg».proof.Proof.KHostWLib
import Idealize.ShloMosaic.Lib.StableHlo.Run
import Idealize.ShloMosaic.Lib.Pipeline.Value
import Idealize.ShloMosaic.Lib.ValueLayout

set_option maxRecDepth 16384

noncomputable section

namespace Cert.KernelIdeal.HostValue

open Cert.KernelIdeal Cert.KernelIdeal.Gen Cert.Net
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD) (I : RealInputs)

/-- The input, vertex-major, at region 0's entry. -/
theorem V1_x (hI : (kArgs m c).Holds I) :
    cur3 (V1 (F := Ideal) m ρ c main_v30 : S1024x512x3.Idx → EReal) = vmaj (c3 I.x) := by
  have e : (V1 (F := Ideal) m ρ c main_v30 : S1024x512x3.Idx → EReal)
      = transpose S1024x512x3 [1, 0, 2] (m ((c : Thread nD τ).loc main_arg0) : S512x1024x3.Idx → EReal)
          transposes_S512x1024x3_S1024x512x3_1_0_2 := by
    show StableHlo.after hostOps0 _ (Proc.devRef .tc main_v30) = _
    after_results
    try rfl
  refine (congrArg cur3 e).trans ?_
  rw [← hI.x]
  exact vmaj_read _ _

/-- Term 0 of layer 0's weight, transposed, at region 0's entry. -/
theorem V1_W0_0 (hI : (kArgs m c).Holds I) :
    cur2 (V1 (F := Ideal) m ρ c main_v34 : S3x32.Idx → EReal) = splitW (by decide : 3 * 3 = 9) (c2 I.W0) 0 := by
  have e : (V1 (F := Ideal) m ρ c main_v34 : S3x32.Idx → EReal)
      = transpose S3x32 [1, 0]
          (shapeCast S32x3
            (extractStridedSlice S32x3x1 ![0, 0, 0]
              (shapeCast S32x3x3 (m ((c : Thread nD τ).loc main_arg7) : S32x9.Idx → EReal) shapeCasts_S32x9_S32x3x3)
              slices_S32x3x3_S32x3x1_0_0_0) shapeCasts_S32x3x1_S32x3) transposes_S32x3_S3x32_1_0 := by
    show StableHlo.after hostOps0 _ (Proc.devRef .tc main_v34) = _
    after_results
    try rfl
  refine (congrArg cur2 e).trans ?_
  rw [← hI.W0]
  exact splitW_read (by decide : 3 * 3 = 9) 0 (by decide) _ _ _ _ _

/-- Term 1 of layer 0's weight, transposed, at region 0's entry. -/
theorem V1_W0_1 (hI : (kArgs m c).Holds I) :
    cur2 (V1 (F := Ideal) m ρ c main_v37 : S3x32.Idx → EReal) = splitW (by decide : 3 * 3 = 9) (c2 I.W0) 1 := by
  have e : (V1 (F := Ideal) m ρ c main_v37 : S3x32.Idx → EReal)
      = transpose S3x32 [1, 0]
          (shapeCast S32x3
            (extractStridedSlice S32x3x1 ![0, 0, 1]
              (shapeCast S32x3x3 (m ((c : Thread nD τ).loc main_arg7) : S32x9.Idx → EReal) shapeCasts_S32x9_S32x3x3)
              slices_S32x3x3_S32x3x1_0_0_1) shapeCasts_S32x3x1_S32x3) transposes_S32x3_S3x32_1_0 := by
    show StableHlo.after hostOps0 _ (Proc.devRef .tc main_v37) = _
    after_results
    try rfl
  refine (congrArg cur2 e).trans ?_
  rw [← hI.W0]
  exact splitW_read (by decide : 3 * 3 = 9) 1 (by decide) _ _ _ _ _

/-- Term 2 of layer 0's weight, transposed, at region 0's entry. -/
theorem V1_W0_2 (hI : (kArgs m c).Holds I) :
    cur2 (V1 (F := Ideal) m ρ c main_v40 : S3x32.Idx → EReal) = splitW (by decide : 3 * 3 = 9) (c2 I.W0) 2 := by
  have e : (V1 (F := Ideal) m ρ c main_v40 : S3x32.Idx → EReal)
      = transpose S3x32 [1, 0]
          (shapeCast S32x3
            (extractStridedSlice S32x3x1 ![0, 0, 2]
              (shapeCast S32x3x3 (m ((c : Thread nD τ).loc main_arg7) : S32x9.Idx → EReal) shapeCasts_S32x9_S32x3x3)
              slices_S32x3x3_S32x3x1_0_0_2) shapeCasts_S32x3x1_S32x3) transposes_S32x3_S3x32_1_0 := by
    show StableHlo.after hostOps0 _ (Proc.devRef .tc main_v40) = _
    after_results
    try rfl
  refine (congrArg cur2 e).trans ?_
  rw [← hI.W0]
  exact splitW_read (by decide : 3 * 3 = 9) 2 (by decide) _ _ _ _ _

theorem V1_b0 (hI : (kArgs m c).Holds I) : cur2 (V1 (F := Ideal) m ρ c main_v41 : S1x32.Idx → EReal) 0 = c1 I.b0 := by
  have e : (V1 (F := Ideal) m ρ c main_v41 : S1x32.Idx → EReal)
      = shapeCast S1x32 (m ((c : Thread nD τ).loc main_arg8) : S32.Idx → EReal) shapeCasts_S32_S1x32 := by
    show StableHlo.after hostOps0 _ (Proc.devRef .tc main_v41) = _
    after_results
    try rfl
  refine (congrArg (fun x : S1x32.Idx → EReal => cur2 x 0) e).trans ?_
  rw [← hI.b0]
  exact row_read _ _

/-- Layer 1's argument array main_arg9 still holds its launch contents at region 0's exit: region 0 does not write it,
    and no operation of the first host stretch does. -/
theorem W2_main_arg9 : W2 (F := Ideal) m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- Layer 1's argument array main_arg10 still holds its launch contents at region 0's exit: region 0 does not write it,
    and no operation of the first host stretch does. -/
theorem W2_main_arg10 : W2 (F := Ideal) m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- Term 0 of layer 1's weight, transposed, at region 1's entry. -/
theorem V3_W1_0 (hI : (kArgs m c).Holds I) :
    cur2 (V3 (F := Ideal) m ρ c main_v46 : S32x32.Idx → EReal) = splitW (by decide : 3 * 32 = 96) (c2 I.W1) 0 := by
  have e : (V3 (F := Ideal) m ρ c main_v46 : S32x32.Idx → EReal)
      = transpose S32x32 [1, 0]
          (shapeCast S32x32
            (extractStridedSlice S32x32x1 ![0, 0, 0]
              (shapeCast S32x32x3 (m ((c : Thread nD τ).loc main_arg9) : S32x96.Idx → EReal) shapeCasts_S32x96_S32x32x3)
              slices_S32x32x3_S32x32x1_0_0_0) shapeCasts_S32x32x1_S32x32) transposes_S32x32_S32x32_1_0 := by
    show StableHlo.after hostOps1 _ (Proc.devRef .tc main_v46) = _
    after_results
    rw [W2_main_arg9]
    try rfl
  refine (congrArg cur2 e).trans ?_
  rw [← hI.W1]
  exact splitW_read (by decide : 3 * 32 = 96) 0 (by decide) _ _ _ _ _

/-- Term 1 of layer 1's weight, transposed, at region 1's entry. -/
theorem V3_W1_1 (hI : (kArgs m c).Holds I) :
    cur2 (V3 (F := Ideal) m ρ c main_v49 : S32x32.Idx → EReal) = splitW (by decide : 3 * 32 = 96) (c2 I.W1) 1 := by
  have e : (V3 (F := Ideal) m ρ c main_v49 : S32x32.Idx → EReal)
      = transpose S32x32 [1, 0]
          (shapeCast S32x32
            (extractStridedSlice S32x32x1 ![0, 0, 1]
              (shapeCast S32x32x3 (m ((c : Thread nD τ).loc main_arg9) : S32x96.Idx → EReal) shapeCasts_S32x96_S32x32x3)
              slices_S32x32x3_S32x32x1_0_0_1) shapeCasts_S32x32x1_S32x32) transposes_S32x32_S32x32_1_0 := by
    show StableHlo.after hostOps1 _ (Proc.devRef .tc main_v49) = _
    after_results
    rw [W2_main_arg9]
    try rfl
  refine (congrArg cur2 e).trans ?_
  rw [← hI.W1]
  exact splitW_read (by decide : 3 * 32 = 96) 1 (by decide) _ _ _ _ _

/-- Term 2 of layer 1's weight, transposed, at region 1's entry. -/
theorem V3_W1_2 (hI : (kArgs m c).Holds I) :
    cur2 (V3 (F := Ideal) m ρ c main_v52 : S32x32.Idx → EReal) = splitW (by decide : 3 * 32 = 96) (c2 I.W1) 2 := by
  have e : (V3 (F := Ideal) m ρ c main_v52 : S32x32.Idx → EReal)
      = transpose S32x32 [1, 0]
          (shapeCast S32x32
            (extractStridedSlice S32x32x1 ![0, 0, 2]
              (shapeCast S32x32x3 (m ((c : Thread nD τ).loc main_arg9) : S32x96.Idx → EReal) shapeCasts_S32x96_S32x32x3)
              slices_S32x32x3_S32x32x1_0_0_2) shapeCasts_S32x32x1_S32x32) transposes_S32x32_S32x32_1_0 := by
    show StableHlo.after hostOps1 _ (Proc.devRef .tc main_v52) = _
    after_results
    rw [W2_main_arg9]
    try rfl
  refine (congrArg cur2 e).trans ?_
  rw [← hI.W1]
  exact splitW_read (by decide : 3 * 32 = 96) 2 (by decide) _ _ _ _ _

theorem V3_b1 (hI : (kArgs m c).Holds I) : cur2 (V3 (F := Ideal) m ρ c main_v53 : S1x32.Idx → EReal) 0 = c1 I.b1 := by
  have e : (V3 (F := Ideal) m ρ c main_v53 : S1x32.Idx → EReal)
      = shapeCast S1x32 (m ((c : Thread nD τ).loc main_arg10) : S32.Idx → EReal) shapeCasts_S32_S1x32 := by
    show StableHlo.after hostOps1 _ (Proc.devRef .tc main_v53) = _
    after_results
    rw [W2_main_arg10]
    try rfl
  refine (congrArg (fun x : S1x32.Idx → EReal => cur2 x 0) e).trans ?_
  rw [← hI.b1]
  exact row_read _ _

end Cert.KernelIdeal.HostValue

end
-- ==== Proof.KHostW2.lean ====
/-
  The host operations between the kernel program's later regions (entries of regions 2 to 5), read at an index: the input re-laid vertex-major (a
  transpose), each layer's weight matrix cut into its three Chebyshev terms (reshape Fo × 3 Fi to Fo × Fi × 3, slice term k,
  drop the unit axis, transpose to Fi × Fo: entry (f, o) is W o (3 f + k)), each bias as a one-row matrix, and the last
  Chebyshev output re-laid batch-major and flattened (position v · 64 + f of row b holds the activation at (v, b, f)).
  None of these operations writes an argument array, and no region does, so each stage reads the launch contents.
-/
import proofs.«430908_j10015863734924_3_alg».proof.Proof.Gen.KernelIdeal.Frame
import proofs.«430908_j10015863734924_3_alg».proof.Proof.Net
import proofs.«430908_j10015863734924_3_alg».proof.Proof.KArgs
import proofs.«430908_j10015863734924_3_alg».proof.Proof.KHostWLib
import Idealize.ShloMosaic.Lib.StableHlo.Run
import Idealize.ShloMosaic.Lib.Pipeline.Value
import Idealize.ShloMosaic.Lib.ValueLayout

set_option maxRecDepth 16384

noncomputable section

namespace Cert.KernelIdeal.HostValue

open Cert.KernelIdeal Cert.KernelIdeal.Gen Cert.Net
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD) (I : RealInputs)

/-! ## The arguments the later stretches read still hold their launch contents

Each walk goes stage by stage back to the launch memory: a region's exit keeps every buffer that is not one of its
arrays, and a host stretch keeps every buffer none of its operations writes. -/

/-- A host stretch keeps a buffer that none of its operations writes. -/
local macro "host_keeps" ops:ident : tactic =>
  `(tactic| (refine StableHlo.after_of_forall_not_mem _ _ (List.forall_iff_forall_mem.mp ?_)
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- Argument 11 still holds its launch contents at stage 4: no host operation and no region before it writes it. -/
theorem W4_main_arg11 : W4 (F := Ideal) m ρ c (Proc.devRef .tc main_arg11) = m ((c : Thread nD τ).loc main_arg11) :=
  calc W4 (F := Ideal) m ρ c (Proc.devRef .tc main_arg11)
    _ = W3 (F := Ideal) m ρ c (Proc.devRef .tc main_arg11) := W4_of_ne m ρ c main_arg11 (by decide)
    _ = W2 (F := Ideal) m ρ c (Proc.devRef .tc main_arg11) := by host_keeps hostOps1
    _ = W1 (F := Ideal) m ρ c (Proc.devRef .tc main_arg11) := W2_of_ne m ρ c main_arg11 (by decide)
    _ = W0 (F := Ideal) m ρ c (Proc.devRef .tc main_arg11) := by host_keeps hostOps0
    _ = m ((c : Thread nD τ).loc main_arg11) := rfl

/-- Argument 12 still holds its launch contents at stage 4: no host operation and no region before it writes it. -/
theorem W4_main_arg12 : W4 (F := Ideal) m ρ c (Proc.devRef .tc main_arg12) = m ((c : Thread nD τ).loc main_arg12) :=
  calc W4 (F := Ideal) m ρ c (Proc.devRef .tc main_arg12)
    _ = W3 (F := Ideal) m ρ c (Proc.devRef .tc main_arg12) := W4_of_ne m ρ c main_arg12 (by decide)
    _ = W2 (F := Ideal) m ρ c (Proc.devRef .tc main_arg12) := by host_keeps hostOps1
    _ = W1 (F := Ideal) m ρ c (Proc.devRef .tc main_arg12) := W2_of_ne m ρ c main_arg12 (by decide)
    _ = W0 (F := Ideal) m ρ c (Proc.devRef .tc main_arg12) := by host_keeps hostOps0
    _ = m ((c : Thread nD τ).loc main_arg12) := rfl

/-- Argument 13 still holds its launch contents at stage 6: no host operation and no region before it writes it. -/
theorem W6_main_arg13 : W6 (F := Ideal) m ρ c (Proc.devRef .tc main_arg13) = m ((c : Thread nD τ).loc main_arg13) :=
  calc W6 (F := Ideal) m ρ c (Proc.devRef .tc main_arg13)
    _ = W5 (F := Ideal) m ρ c (Proc.devRef .tc main_arg13) := W6_of_ne m ρ c main_arg13 (by decide)
    _ = W4 (F := Ideal) m ρ c (Proc.devRef .tc main_arg13) := by host_keeps hostOps2
    _ = W3 (F := Ideal) m ρ c (Proc.devRef .tc main_arg13) := W4_of_ne m ρ c main_arg13 (by decide)
    _ = W2 (F := Ideal) m ρ c (Proc.devRef .tc main_arg13) := by host_keeps hostOps1
    _ = W1 (F := Ideal) m ρ c (Proc.devRef .tc main_arg13) := W2_of_ne m ρ c main_arg13 (by decide)
    _ = W0 (F := Ideal) m ρ c (Proc.devRef .tc main_arg13) := by host_keeps hostOps0
    _ = m ((c : Thread nD τ).loc main_arg13) := rfl

/-- Argument 14 still holds its launch contents at stage 6: no host operation and no region before it writes it. -/
theorem W6_main_arg14 : W6 (F := Ideal) m ρ c (Proc.devRef .tc main_arg14) = m ((c : Thread nD τ).loc main_arg14) :=
  calc W6 (F := Ideal) m ρ c (Proc.devRef .tc main_arg14)
    _ = W5 (F := Ideal) m ρ c (Proc.devRef .tc main_arg14) := W6_of_ne m ρ c main_arg14 (by decide)
    _ = W4 (F := Ideal) m ρ c (Proc.devRef .tc main_arg14) := by host_keeps hostOps2
    _ = W3 (F := Ideal) m ρ c (Proc.devRef .tc main_arg14) := W4_of_ne m ρ c main_arg14 (by decide)
    _ = W2 (F := Ideal) m ρ c (Proc.devRef .tc main_arg14) := by host_keeps hostOps1
    _ = W1 (F := Ideal) m ρ c (Proc.devRef .tc main_arg14) := W2_of_ne m ρ c main_arg14 (by decide)
    _ = W0 (F := Ideal) m ρ c (Proc.devRef .tc main_arg14) := by host_keeps hostOps0
    _ = m ((c : Thread nD τ).loc main_arg14) := rfl

/-- Argument 15 still holds its launch contents at stage 9: no host operation and no region before it writes it. -/
theorem W9_main_arg15 : W9 (F := Ideal) m ρ c (Proc.devRef .tc main_arg15) = m ((c : Thread nD τ).loc main_arg15) :=
  calc W9 (F := Ideal) m ρ c (Proc.devRef .tc main_arg15)
    _ = W8 (F := Ideal) m ρ c (Proc.devRef .tc main_arg15) := by host_keeps hostOps4
    _ = W7 (F := Ideal) m ρ c (Proc.devRef .tc main_arg15) := W8_of_ne m ρ c main_arg15 (by decide)
    _ = W6 (F := Ideal) m ρ c (Proc.devRef .tc main_arg15) := by host_keeps hostOps3
    _ = W5 (F := Ideal) m ρ c (Proc.devRef .tc main_arg15) := W6_of_ne m ρ c main_arg15 (by decide)
    _ = W4 (F := Ideal) m ρ c (Proc.devRef .tc main_arg15) := by host_keeps hostOps2
    _ = W3 (F := Ideal) m ρ c (Proc.devRef .tc main_arg15) := W4_of_ne m ρ c main_arg15 (by decide)
    _ = W2 (F := Ideal) m ρ c (Proc.devRef .tc main_arg15) := by host_keeps hostOps1
    _ = W1 (F := Ideal) m ρ c (Proc.devRef .tc main_arg15) := W2_of_ne m ρ c main_arg15 (by decide)
    _ = W0 (F := Ideal) m ρ c (Proc.devRef .tc main_arg15) := by host_keeps hostOps0
    _ = m ((c : Thread nD τ).loc main_arg15) := rfl

/-- Argument 16 still holds its launch contents at stage 8: no host operation and no region before it writes it. -/
theorem W8_main_arg16 : W8 (F := Ideal) m ρ c (Proc.devRef .tc main_arg16) = m ((c : Thread nD τ).loc main_arg16) :=
  calc W8 (F := Ideal) m ρ c (Proc.devRef .tc main_arg16)
    _ = W7 (F := Ideal) m ρ c (Proc.devRef .tc main_arg16) := W8_of_ne m ρ c main_arg16 (by decide)
    _ = W6 (F := Ideal) m ρ c (Proc.devRef .tc main_arg16) := by host_keeps hostOps3
    _ = W5 (F := Ideal) m ρ c (Proc.devRef .tc main_arg16) := W6_of_ne m ρ c main_arg16 (by decide)
    _ = W4 (F := Ideal) m ρ c (Proc.devRef .tc main_arg16) := by host_keeps hostOps2
    _ = W3 (F := Ideal) m ρ c (Proc.devRef .tc main_arg16) := W4_of_ne m ρ c main_arg16 (by decide)
    _ = W2 (F := Ideal) m ρ c (Proc.devRef .tc main_arg16) := by host_keeps hostOps1
    _ = W1 (F := Ideal) m ρ c (Proc.devRef .tc main_arg16) := W2_of_ne m ρ c main_arg16 (by decide)
    _ = W0 (F := Ideal) m ρ c (Proc.devRef .tc main_arg16) := by host_keeps hostOps0
    _ = m ((c : Thread nD τ).loc main_arg16) := rfl

/-- Argument 17 still holds its launch contents at stage 11: no host operation and no region before it writes it. -/
theorem W11_main_arg17 : W11 (F := Ideal) m ρ c (Proc.devRef .tc main_arg17) = m ((c : Thread nD τ).loc main_arg17) :=
  calc W11 (F := Ideal) m ρ c (Proc.devRef .tc main_arg17)
    _ = W10 (F := Ideal) m ρ c (Proc.devRef .tc main_arg17) := by host_keeps hostOps5
    _ = W9 (F := Ideal) m ρ c (Proc.devRef .tc main_arg17) := W10_of_ne m ρ c main_arg17 (by decide)
    _ = W8 (F := Ideal) m ρ c (Proc.devRef .tc main_arg17) := by host_keeps hostOps4
    _ = W7 (F := Ideal) m ρ c (Proc.devRef .tc main_arg17) := W8_of_ne m ρ c main_arg17 (by decide)
    _ = W6 (F := Ideal) m ρ c (Proc.devRef .tc main_arg17) := by host_keeps hostOps3
    _ = W5 (F := Ideal) m ρ c (Proc.devRef .tc main_arg17) := W6_of_ne m ρ c main_arg17 (by decide)
    _ = W4 (F := Ideal) m ρ c (Proc.devRef .tc main_arg17) := by host_keeps hostOps2
    _ = W3 (F := Ideal) m ρ c (Proc.devRef .tc main_arg17) := W4_of_ne m ρ c main_arg17 (by decide)
    _ = W2 (F := Ideal) m ρ c (Proc.devRef .tc main_arg17) := by host_keeps hostOps1
    _ = W1 (F := Ideal) m ρ c (Proc.devRef .tc main_arg17) := W2_of_ne m ρ c main_arg17 (by decide)
    _ = W0 (F := Ideal) m ρ c (Proc.devRef .tc main_arg17) := by host_keeps hostOps0
    _ = m ((c : Thread nD τ).loc main_arg17) := rfl

/-- Argument 18 still holds its launch contents at stage 10: no host operation and no region before it writes it. -/
theorem W10_main_arg18 : W10 (F := Ideal) m ρ c (Proc.devRef .tc main_arg18) = m ((c : Thread nD τ).loc main_arg18) :=
  calc W10 (F := Ideal) m ρ c (Proc.devRef .tc main_arg18)
    _ = W9 (F := Ideal) m ρ c (Proc.devRef .tc main_arg18) := W10_of_ne m ρ c main_arg18 (by decide)
    _ = W8 (F := Ideal) m ρ c (Proc.devRef .tc main_arg18) := by host_keeps hostOps4
    _ = W7 (F := Ideal) m ρ c (Proc.devRef .tc main_arg18) := W8_of_ne m ρ c main_arg18 (by decide)
    _ = W6 (F := Ideal) m ρ c (Proc.devRef .tc main_arg18) := by host_keeps hostOps3
    _ = W5 (F := Ideal) m ρ c (Proc.devRef .tc main_arg18) := W6_of_ne m ρ c main_arg18 (by decide)
    _ = W4 (F := Ideal) m ρ c (Proc.devRef .tc main_arg18) := by host_keeps hostOps2
    _ = W3 (F := Ideal) m ρ c (Proc.devRef .tc main_arg18) := W4_of_ne m ρ c main_arg18 (by decide)
    _ = W2 (F := Ideal) m ρ c (Proc.devRef .tc main_arg18) := by host_keeps hostOps1
    _ = W1 (F := Ideal) m ρ c (Proc.devRef .tc main_arg18) := W2_of_ne m ρ c main_arg18 (by decide)
    _ = W0 (F := Ideal) m ρ c (Proc.devRef .tc main_arg18) := by host_keeps hostOps0
    _ = m ((c : Thread nD τ).loc main_arg18) := rfl

/-! ## The buffers the later regions read -/

/-- Term 0 of layer 2's weight, transposed, at region 2's entry. -/
theorem V5_W2_0 (hI : (kArgs m c).Holds I) :
    cur2 (V5 (F := Ideal) m ρ c main_v58 : S32x64.Idx → EReal) = splitW (by decide : 3 * 32 = 96) (c2 I.W2) 0 := by
  have e : (V5 (F := Ideal) m ρ c main_v58 : S32x64.Idx → EReal)
      = transpose S32x64 [1, 0]
          (shapeCast S64x32
            (extractStridedSlice S64x32x1 ![0, 0, 0]
              (shapeCast S64x32x3 (m ((c : Thread nD τ).loc main_arg11) : S64x96.Idx → EReal) shapeCasts_S64x96_S64x32x3)
              slices_S64x32x3_S64x32x1_0_0_0)
            shapeCasts_S64x32x1_S64x32)
          transposes_S64x32_S32x64_1_0 := by
    rw [← W4_main_arg11 m ρ c]
    show StableHlo.after hostOps2 _ (Proc.devRef .tc main_v58) = _
    after_results
    rfl
  rw [e, ← hI.W2]
  exact splitW_read (by decide : 3 * 32 = 96) 0 (by decide) _ _ _ _ _

/-- Term 1 of layer 2's weight, transposed, at region 2's entry. -/
theorem V5_W2_1 (hI : (kArgs m c).Holds I) :
    cur2 (V5 (F := Ideal) m ρ c main_v61 : S32x64.Idx → EReal) = splitW (by decide : 3 * 32 = 96) (c2 I.W2) 1 := by
  have e : (V5 (F := Ideal) m ρ c main_v61 : S32x64.Idx → EReal)
      = transpose S32x64 [1, 0]
          (shapeCast S64x32
            (extractStridedSlice S64x32x1 ![0, 0, 1]
              (shapeCast S64x32x3 (m ((c : Thread nD τ).loc main_arg11) : S64x96.Idx → EReal) shapeCasts_S64x96_S64x32x3)
              slices_S64x32x3_S64x32x1_0_0_1)
            shapeCasts_S64x32x1_S64x32)
          transposes_S64x32_S32x64_1_0 := by
    rw [← W4_main_arg11 m ρ c]
    show StableHlo.after hostOps2 _ (Proc.devRef .tc main_v61) = _
    after_results
    rfl
  rw [e, ← hI.W2]
  exact splitW_read (by decide : 3 * 32 = 96) 1 (by decide) _ _ _ _ _

/-- Term 2 of layer 2's weight, transposed, at region 2's entry. -/
theorem V5_W2_2 (hI : (kArgs m c).Holds I) :
    cur2 (V5 (F := Ideal) m ρ c main_v64 : S32x64.Idx → EReal) = splitW (by decide : 3 * 32 = 96) (c2 I.W2) 2 := by
  have e : (V5 (F := Ideal) m ρ c main_v64 : S32x64.Idx → EReal)
      = transpose S32x64 [1, 0]
          (shapeCast S64x32
            (extractStridedSlice S64x32x1 ![0, 0, 2]
              (shapeCast S64x32x3 (m ((c : Thread nD τ).loc main_arg11) : S64x96.Idx → EReal) shapeCasts_S64x96_S64x32x3)
              slices_S64x32x3_S64x32x1_0_0_2)
            shapeCasts_S64x32x1_S64x32)
          transposes_S64x32_S32x64_1_0 := by
    rw [← W4_main_arg11 m ρ c]
    show StableHlo.after hostOps2 _ (Proc.devRef .tc main_v64) = _
    after_results
    rfl
  rw [e, ← hI.W2]
  exact splitW_read (by decide : 3 * 32 = 96) 2 (by decide) _ _ _ _ _

theorem V5_b2 (hI : (kArgs m c).Holds I) : cur2 (V5 (F := Ideal) m ρ c main_v65 : S1x64.Idx → EReal) 0 = c1 I.b2 := by
  have e : (V5 (F := Ideal) m ρ c main_v65 : S1x64.Idx → EReal)
      = shapeCast S1x64 (m ((c : Thread nD τ).loc main_arg12) : S64.Idx → EReal) shapeCasts_S64_S1x64 := by
    rw [← W4_main_arg12 m ρ c]
    show StableHlo.after hostOps2 _ (Proc.devRef .tc main_v65) = _
    after_results
    rfl
  rw [e, ← hI.b2]
  exact row_read _ _

/-- Term 0 of layer 3's weight, transposed, at region 3's entry. -/
theorem V7_W3_0 (hI : (kArgs m c).Holds I) :
    cur2 (V7 (F := Ideal) m ρ c main_v70 : S64x64.Idx → EReal) = splitW (by decide : 3 * 64 = 192) (c2 I.W3) 0 := by
  have e : (V7 (F := Ideal) m ρ c main_v70 : S64x64.Idx → EReal)
      = transpose S64x64 [1, 0]
          (shapeCast S64x64
            (extractStridedSlice S64x64x1 ![0, 0, 0]
              (shapeCast S64x64x3 (m ((c : Thread nD τ).loc main_arg13) : S64x192.Idx → EReal) shapeCasts_S64x192_S64x64x3)
              slices_S64x64x3_S64x64x1_0_0_0)
            shapeCasts_S64x64x1_S64x64)
          transposes_S64x64_S64x64_1_0 := by
    rw [← W6_main_arg13 m ρ c]
    show StableHlo.after hostOps3 _ (Proc.devRef .tc main_v70) = _
    after_results
    rfl
  rw [e, ← hI.W3]
  exact splitW_read (by decide : 3 * 64 = 192) 0 (by decide) _ _ _ _ _

/-- Term 1 of layer 3's weight, transposed, at region 3's entry. -/
theorem V7_W3_1 (hI : (kArgs m c).Holds I) :
    cur2 (V7 (F := Ideal) m ρ c main_v73 : S64x64.Idx → EReal) = splitW (by decide : 3 * 64 = 192) (c2 I.W3) 1 := by
  have e : (V7 (F := Ideal) m ρ c main_v73 : S64x64.Idx → EReal)
      = transpose S64x64 [1, 0]
          (shapeCast S64x64
            (extractStridedSlice S64x64x1 ![0, 0, 1]
              (shapeCast S64x64x3 (m ((c : Thread nD τ).loc main_arg13) : S64x192.Idx → EReal) shapeCasts_S64x192_S64x64x3)
              slices_S64x64x3_S64x64x1_0_0_1)
            shapeCasts_S64x64x1_S64x64)
          transposes_S64x64_S64x64_1_0 := by
    rw [← W6_main_arg13 m ρ c]
    show StableHlo.after hostOps3 _ (Proc.devRef .tc main_v73) = _
    after_results
    rfl
  rw [e, ← hI.W3]
  exact splitW_read (by decide : 3 * 64 = 192) 1 (by decide) _ _ _ _ _

/-- Term 2 of layer 3's weight, transposed, at region 3's entry. -/
theorem V7_W3_2 (hI : (kArgs m c).Holds I) :
    cur2 (V7 (F := Ideal) m ρ c main_v76 : S64x64.Idx → EReal) = splitW (by decide : 3 * 64 = 192) (c2 I.W3) 2 := by
  have e : (V7 (F := Ideal) m ρ c main_v76 : S64x64.Idx → EReal)
      = transpose S64x64 [1, 0]
          (shapeCast S64x64
            (extractStridedSlice S64x64x1 ![0, 0, 2]
              (shapeCast S64x64x3 (m ((c : Thread nD τ).loc main_arg13) : S64x192.Idx → EReal) shapeCasts_S64x192_S64x64x3)
              slices_S64x64x3_S64x64x1_0_0_2)
            shapeCasts_S64x64x1_S64x64)
          transposes_S64x64_S64x64_1_0 := by
    rw [← W6_main_arg13 m ρ c]
    show StableHlo.after hostOps3 _ (Proc.devRef .tc main_v76) = _
    after_results
    rfl
  rw [e, ← hI.W3]
  exact splitW_read (by decide : 3 * 64 = 192) 2 (by decide) _ _ _ _ _

theorem V7_b3 (hI : (kArgs m c).Holds I) : cur2 (V7 (F := Ideal) m ρ c main_v77 : S1x64.Idx → EReal) 0 = c1 I.b3 := by
  have e : (V7 (F := Ideal) m ρ c main_v77 : S1x64.Idx → EReal)
      = shapeCast S1x64 (m ((c : Thread nD τ).loc main_arg14) : S64.Idx → EReal) shapeCasts_S64_S1x64 := by
    rw [← W6_main_arg14 m ρ c]
    show StableHlo.after hostOps3 _ (Proc.devRef .tc main_v77) = _
    after_results
    rfl
  rw [e, ← hI.b3]
  exact row_read _ _

/-- Region 3's output array, at region 3's exit. -/
theorem W8_main_v78 :
    W8 (F := Ideal) m ρ c (Proc.devRef .tc main_v78) = (dat3 (F := Ideal) (V7 m ρ) c).arrAt 6 cfg3.N :=
  W8_arr m ρ c 6

/-- Region 4's first operand as the host stretch computes it from region 3's output buffer. -/
theorem V9_main_v80 :
    (V9 (F := Ideal) m ρ c main_v80 : S512x4096.Idx → EReal)
      = shapeCast S512x4096
          (transpose S512x64x64 [1, 0, 2] (W8 (F := Ideal) m ρ c (Proc.devRef .tc main_v78) : S64x512x64.Idx → EReal)
            transposes_S64x512x64_S512x64x64_1_0_2)
          shapeCasts_S512x64x64_S512x4096 := by
  show StableHlo.after hostOps4 _ (Proc.devRef .tc main_v80) = _
  after_results
  rfl

/-- The transpose and the reshape of that stretch, at the literal sizes. -/
theorem flat_read_64 (Y : S64x512x64.Idx → EReal) :
    cur2 (shapeCast S512x4096 (transpose S512x64x64 [1, 0, 2] Y transposes_S64x512x64_S512x64x64_1_0_2)
        shapeCasts_S512x64x64_S512x4096)
      = flat (by decide : 64 * 64 = 4096) (by decide : 0 < 64) (cur3 Y) :=
  flat_read (by decide : 64 * 64 = 4096) (by decide : 0 < 64) Y _ _

/-- Region 4's first operand: region 3's output, batch-major and flattened. -/
theorem V9_flat :
    cur2 (V9 (F := Ideal) m ρ c main_v80 : S512x4096.Idx → EReal)
      = flat (by decide : 64 * 64 = 4096) (by decide : 0 < 64) (cur3 ((dat3 (F := Ideal) (V7 m ρ) c).arrAt 6 cfg3.N : S64x512x64.Idx → EReal)) := by
  rw [V9_main_v80 m ρ c, W8_main_v78 m ρ c]
  exact flat_read_64 _

theorem V9_fcW1 (hI : (kArgs m c).Holds I) : cur2 (V9 (F := Ideal) m ρ c main_arg15 : S512x4096.Idx → EReal) = c2 I.fcW1 := by
  have e : (V9 (F := Ideal) m ρ c main_arg15 : S512x4096.Idx → EReal) = m ((c : Thread nD τ).loc main_arg15) :=
    W9_main_arg15 m ρ c
  rw [e]
  exact hI.fcW1

theorem V9_fcb1 (hI : (kArgs m c).Holds I) : cur2 (V9 (F := Ideal) m ρ c main_v81 : S1x512.Idx → EReal) 0 = c1 I.fcb1 := by
  have e : (V9 (F := Ideal) m ρ c main_v81 : S1x512.Idx → EReal)
      = shapeCast S1x512 (m ((c : Thread nD τ).loc main_arg16) : S512.Idx → EReal) shapeCasts_S512_S1x512 := by
    rw [← W8_main_arg16 m ρ c]
    show StableHlo.after hostOps4 _ (Proc.devRef .tc main_v81) = _
    after_results
    rfl
  rw [e, ← hI.fcb1]
  exact row_read _ _

theorem V11_fcW2 (hI : (kArgs m c).Holds I) : cur2 (V11 (F := Ideal) m ρ c main_arg17 : S63x512.Idx → EReal) = c2 I.fcW2 := by
  have e : (V11 (F := Ideal) m ρ c main_arg17 : S63x512.Idx → EReal) = m ((c : Thread nD τ).loc main_arg17) :=
    W11_main_arg17 m ρ c
  rw [e]
  exact hI.fcW2

theorem V11_fcb2 (hI : (kArgs m c).Holds I) : cur2 (V11 (F := Ideal) m ρ c main_v83 : S1x63.Idx → EReal) 0 = c1 I.fcb2 := by
  have e : (V11 (F := Ideal) m ρ c main_v83 : S1x63.Idx → EReal)
      = shapeCast S1x63 (m ((c : Thread nD τ).loc main_arg18) : S63.Idx → EReal) shapeCasts_S63_S1x63 := by
    rw [← W10_main_arg18 m ρ c]
    show StableHlo.after hostOps5 _ (Proc.devRef .tc main_v83) = _
    after_results
    rfl
  rw [e, ← hI.fcb2]
  exact row_read _ _

end Cert.KernelIdeal.HostValue

end
-- ==== Proof.KTrace.lean ====
/-
  What one stage of the kernel's program hands to the next: a region's output array is what the next region (or the
  host stretch before it) finds in that buffer, and the two graph operators, built before the first region, are still
  there when regions 1, 2 and 3 are entered: no host operation after the first stretch and no region writes them (a
  region reads them through an input window, whose array it leaves as entered).
-/
import proofs.«430908_j10015863734924_3_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (ρ : Dev nD → PrngReg) (c : Dev nD)

/-- No operation of a host stretch writes the buffer: each operation writes the singleton of its result reference,
    and every one of those references differs from the buffer's. -/
local macro "unwritten " ops:ident : tactic =>
  `(tactic| (refine List.forall_iff_forall_mem.mp ?_
             simp only [$ops:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The first graph operator is region 0's input window 0: the second host stretch does not write it, and region 0
    leaves an input window's array as entered. -/
theorem V3_L0 : V3 m ρ c main_v14 = V1 m ρ c main_v14 :=
  calc V3 m ρ c main_v14
    _ = W2 m ρ c (Proc.devRef .tc main_v14) :=
        StableHlo.after_of_forall_not_mem (b := Proc.devRef .tc main_v14) _ _ (by unwritten hostOps1)
    _ = (dat0 (V1 m ρ) c).arrAt 0 cfg0.N := W2_arr m ρ c 0
    _ = (dat0 (V1 m ρ) c).A 0 := (dat0 (V1 m ρ) c).arrAt_in 0 rfl _
    _ = V1 m ρ c main_v14 := A_eq0 (V1 m ρ) c 0

/-- Region 0's output array is its window 6, and the second host stretch does not write it. -/
theorem V3_h1 : V3 m ρ c main_v42 = (dat0 (V1 m ρ) c).arrAt 6 cfg0.N :=
  calc V3 m ρ c main_v42
    _ = W2 m ρ c (Proc.devRef .tc main_v42) :=
        StableHlo.after_of_forall_not_mem (b := Proc.devRef .tc main_v42) _ _ (by unwritten hostOps1)
    _ = (dat0 (V1 m ρ) c).arrAt 6 cfg0.N := W2_arr m ρ c 6

/-- The second graph operator is no array of regions 0 and 1, and the second and third host stretches do not
    write it. -/
theorem V5_L1 : V5 m ρ c main_v29 = V1 m ρ c main_v29 :=
  calc V5 m ρ c main_v29
    _ = W4 m ρ c (Proc.devRef .tc main_v29) :=
        StableHlo.after_of_forall_not_mem (b := Proc.devRef .tc main_v29) _ _ (by unwritten hostOps2)
    _ = W3 m ρ c (Proc.devRef .tc main_v29) := W4_of_ne m ρ c main_v29 (by decide)
    _ = W2 m ρ c (Proc.devRef .tc main_v29) :=
        StableHlo.after_of_forall_not_mem (b := Proc.devRef .tc main_v29) _ _ (by unwritten hostOps1)
    _ = W1 m ρ c (Proc.devRef .tc main_v29) := W2_of_ne m ρ c main_v29 (by decide)

/-- Region 1's output array is its window 6, and the third host stretch does not write it. -/
theorem V5_h2 : V5 m ρ c main_v54 = (dat1 (V3 m ρ) c).arrAt 6 cfg1.N :=
  calc V5 m ρ c main_v54
    _ = W4 m ρ c (Proc.devRef .tc main_v54) :=
        StableHlo.after_of_forall_not_mem (b := Proc.devRef .tc main_v54) _ _ (by unwritten hostOps2)
    _ = (dat1 (V3 m ρ) c).arrAt 6 cfg1.N := W4_arr m ρ c 6

/-- The second graph operator is region 2's input window 0: the fourth host stretch does not write it, and region 2
    leaves an input window's array as entered. -/
theorem V7_L1 : V7 m ρ c main_v29 = V1 m ρ c main_v29 :=
  calc V7 m ρ c main_v29
    _ = W6 m ρ c (Proc.devRef .tc main_v29) :=
        StableHlo.after_of_forall_not_mem (b := Proc.devRef .tc main_v29) _ _ (by unwritten hostOps3)
    _ = (dat2 (V5 m ρ) c).arrAt 0 cfg2.N := W6_arr m ρ c 0
    _ = (dat2 (V5 m ρ) c).A 0 := (dat2 (V5 m ρ) c).arrAt_in 0 rfl _
    _ = V5 m ρ c main_v29 := A_eq2 (V5 m ρ) c 0
    _ = V1 m ρ c main_v29 := V5_L1 m ρ c

/-- Region 2's output array is its window 6, and the fourth host stretch does not write it. -/
theorem V7_h3 : V7 m ρ c main_v66 = (dat2 (V5 m ρ) c).arrAt 6 cfg2.N :=
  calc V7 m ρ c main_v66
    _ = W6 m ρ c (Proc.devRef .tc main_v66) :=
        StableHlo.after_of_forall_not_mem (b := Proc.devRef .tc main_v66) _ _ (by unwritten hostOps3)
    _ = (dat2 (V5 m ρ) c).arrAt 6 cfg2.N := W6_arr m ρ c 6

/-- Region 4's output array is its window 3, and the sixth host stretch does not write it. -/
theorem V11_h5 : V11 m ρ c main_v82 = (dat4 (V9 m ρ) c).arrAt 3 cfg4.N :=
  calc V11 m ρ c main_v82
    _ = W10 m ρ c (Proc.devRef .tc main_v82) :=
        StableHlo.after_of_forall_not_mem (b := Proc.devRef .tc main_v82) _ _ (by unwritten hostOps5)
    _ = (dat4 (V9 m ρ) c).arrAt 3 cfg4.N := W10_arr m ρ c 3

/-- The kernel's result is region 5's output array, its window 3. -/
theorem W12_out : W12 m ρ c (Proc.devRef .tc main_v84) = (dat5 (V11 m ρ) c).arrAt 3 cfg5.N :=
  W12_arr m ρ c 3

end Cert.KernelIdeal.HostValue

end
-- ==== Proof.KernelValue.lean ====
/-
  The kernel program's result as a function of its inputs: the six regions' values chained through the host
  stretches. Region by region the array a stage leaves is the next stage's operand, so the last region's output is the
  dense arrangement of the whole network, `kernelNet`, of the inputs the launch memory holds.
-/
import proofs.«430908_j10015863734924_3_alg».proof.Proof.KRegion0
import proofs.«430908_j10015863734924_3_alg».proof.Proof.KRegion1
import proofs.«430908_j10015863734924_3_alg».proof.Proof.KRegion2
import proofs.«430908_j10015863734924_3_alg».proof.Proof.KRegion3
import proofs.«430908_j10015863734924_3_alg».proof.Proof.KRegion4
import proofs.«430908_j10015863734924_3_alg».proof.Proof.KRegion5
import proofs.«430908_j10015863734924_3_alg».proof.Proof.KHostL
import proofs.«430908_j10015863734924_3_alg».proof.Proof.KHostW
import proofs.«430908_j10015863734924_3_alg».proof.Proof.KHostW2
import proofs.«430908_j10015863734924_3_alg».proof.Proof.KTrace

set_option maxRecDepth 16384

noncomputable section

namespace Cert.KernelIdeal.HostValue

open Cert.KernelIdeal Cert.KernelIdeal.Gen Cert.KernelIdeal.RegionValue Cert.Net
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD) (I : RealInputs)

/-- Region 0 leaves the first layer's activation. -/
theorem stage1 (hI : (kArgs m c).Holds I) :
    cur3 ((dat0 (F := Ideal) (V1 m ρ) c).arrAt 6 cfg0.N : S1024x512x32.Idx → EReal) = kStage1 I := by
  rw [region0_value (V1 m ρ) c, V1_L0 m ρ c I hI, V1_x m ρ c I hI, V1_W0_0 m ρ c I hI, V1_W0_1 m ρ c I hI, V1_W0_2 m ρ c I hI,
    V1_b0 m ρ c I hI]
  rfl

/-- Region 1 leaves the second layer's pooled activation. -/
theorem stage2 (hI : (kArgs m c).Holds I) :
    cur3 ((dat1 (F := Ideal) (V3 m ρ) c).arrAt 6 cfg1.N : S256x512x32.Idx → EReal) = kStage2 I := by
  rw [region1_value (V3 m ρ) c, V3_L0 m ρ c, V3_h1 m ρ c, V1_L0 m ρ c I hI, stage1 m ρ c I hI, V3_W1_0 m ρ c I hI,
    V3_W1_1 m ρ c I hI, V3_W1_2 m ρ c I hI, V3_b1 m ρ c I hI]
  rfl

/-- Region 2 leaves the third layer's activation. -/
theorem stage3 (hI : (kArgs m c).Holds I) :
    cur3 ((dat2 (F := Ideal) (V5 m ρ) c).arrAt 6 cfg2.N : S256x512x64.Idx → EReal) = kStage3 I := by
  rw [region2_value (V5 m ρ) c, V5_L1 m ρ c, V5_h2 m ρ c, V1_L1 m ρ c I hI, stage2 m ρ c I hI, V5_W2_0 m ρ c I hI,
    V5_W2_1 m ρ c I hI, V5_W2_2 m ρ c I hI, V5_b2 m ρ c I hI]
  rfl

/-- Region 3 leaves the fourth layer's pooled activation. -/
theorem stage4 (hI : (kArgs m c).Holds I) :
    cur3 ((dat3 (F := Ideal) (V7 m ρ) c).arrAt 6 cfg3.N : S64x512x64.Idx → EReal) = kStage4 I := by
  rw [region3_value (V7 m ρ) c, V7_L1 m ρ c, V7_h3 m ρ c, V1_L1 m ρ c I hI, stage3 m ρ c I hI, V7_W3_0 m ρ c I hI,
    V7_W3_1 m ρ c I hI, V7_W3_2 m ρ c I hI, V7_b3 m ρ c I hI]
  rfl

/-- Region 4 leaves the first affine layer's result. -/
theorem stage5 (hI : (kArgs m c).Holds I) :
    cur2 ((dat4 (F := Ideal) (V9 m ρ) c).arrAt 3 cfg4.N : S512x512.Idx → EReal) = kStage5 I := by
  rw [region4_value (V9 m ρ) c, V9_flat m ρ c, stage4 m ρ c I hI, V9_fcW1 m ρ c I hI, V9_fcb1 m ρ c I hI]
  rfl

/-- The program's result buffer at the last boundary is the dense arrangement of the network. -/
theorem kernel_value (hI : (kArgs m c).Holds I) :
    cur2 (W12 (F := Ideal) m ρ c (Proc.devRef .tc main_v84) : S512x63.Idx → EReal) = kernelNet I := by
  rw [W12_out m ρ c, region5_value (V11 m ρ) c, V11_h5 m ρ c, stage5 m ρ c I hI, V11_fcW2 m ρ c I hI, V11_fcb2 m ρ c I hI]
  rfl

end Cert.KernelIdeal.HostValue

end
-- ==== Proof.RefRun.lean ====
/-
  The reference's run, as generated: re-exported here so that the modules reading it import one name.
-/
import proofs.«430908_j10015863734924_3_alg».proof.Proof.Gen.ReferenceIdeal.Run
-- ==== Proof.RefSpmm.lean ====
/-
  The reference's edge-list product, read at an index. It gathers the activation's rows at the edges' columns (the start
  index wrapped when negative and clamped into the array), scales row e by the edge's value, and scatter-adds row e into
  vertex rows e of a zero array (an out-of-range row is dropped). For in-range indices the wrap and the clamp are the
  identity and nothing is dropped, so entry (v, b, f) is 0 + the sum over the edges with rows e = v of vals e · x (cols e) b f.
-/
import proofs.«430908_j10015863734924_3_alg».proof.Proof.Gen.ReferenceIdeal
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate
set_option maxRecDepth 16384

noncomputable section

namespace Cert.ReferenceIdeal.RefValue

open Cert.ReferenceIdeal Cert.ReferenceIdeal.Gen Cert.Net
open Idealize.ShloMosaic Idealize.ShloMosaic.TcCoe Idealize.ShloMosaic.ValueIdx Idealize.SL.Sem Idealize.ShloMosaic.StableHlo

/-! ## The row gather and the row scatter at any sizes -/

section Generic
variable {V B Fi E : Nat}

theorem spmm_ix3_inj {n0 n1 n2 : Nat} (a a' : Fin n0) (b b' : Fin n1) (c c' : Fin n2) :
    ix3 a b c = ix3 a' b' c' ↔ a = a' ∧ b = b' ∧ c = c' := by
  constructor
  · intro h
    exact ⟨congrFun h (0 : Fin 3), congrFun h (1 : Fin 3), congrFun h (2 : Fin 3)⟩
  · rintro ⟨rfl, rfl, rfl⟩; rfl

/-- Gathering whole rows (axis 0) of a V × B × Fi array at E start indices. -/
abbrev spmmGather (V B Fi E : Nat)
    (wf : GatherDims.WF ⟨3, ![V, B, Fi]⟩ ⟨2, ![E, 1]⟩ ⟨3, ![E, B, Fi]⟩ [1, 2] [0] [] [0] [] 1 ![1, B, Fi]) :
    GatherDims ⟨3, ![V, B, Fi]⟩ ⟨2, ![E, 1]⟩ ⟨3, ![E, B, Fi]⟩ where
  offsetDims := [1, 2]
  collapsedSliceDims := [0]
  operandBatchingDims := []
  startIndicesBatchingDims := []
  startIndexMap := [0]
  indexVectorDim := 1
  sliceSizes := ![1, B, Fi]
  wf := wf

/-- Result index (e, b, f) of the gather reads its start index at (e, 0). -/
theorem spmmGather_siIdx (wf : GatherDims.WF ⟨3, ![V, B, Fi]⟩ ⟨2, ![E, 1]⟩ ⟨3, ![E, B, Fi]⟩ [1, 2] [0] [] [0] [] 1 ![1, B, Fi])
    (e : Fin E) (b : Fin B) (f : Fin Fi) (c : Fin (spmmGather V B Fi E wf).startIndexMap.length) :
    (spmmGather V B Fi E wf).siIdx (ix3 e b f) c = ix2 e 0 := by
  have hc : c.val < 1 := c.isLt
  funext a; refine Fin.ext ?_
  match a with
  | ⟨0, _⟩ => rfl
  | ⟨1, _⟩ => show c.val = 0; omega

/-- The gather at (e, b, f), when start index e is the in-range row c: the operand at (c, b, f). -/
theorem spmmGather_apply {α : Type} {w : Nat}
    (wf : GatherDims.WF ⟨3, ![V, B, Fi]⟩ ⟨2, ![E, 1]⟩ ⟨3, ![E, B, Fi]⟩ [1, 2] [0] [] [0] [] 1 ![1, B, Fi])
    (x : (⟨3, ![V, B, Fi]⟩ : Shape).Idx → α) (idx : IVec ⟨2, ![E, 1]⟩ w) (e : Fin E) (b : Fin B) (f : Fin Fi)
    (c : Fin V) (hc : (idx (ix2 e 0)).toInt = (c.val : Int)) :
    Host.gather (spmmGather V B Fi E wf) x idx (ix3 e b f) = x (ix3 c b f) := by
  unfold Host.gather
  have hb : ∀ a, (spmmGather V B Fi E wf).batchCoord (ix3 e b f) a = 0 := fun a =>
    GatherDims.batchCoord_eq_zero _ _ _ List.not_mem_nil
  have e0 : (spmmGather V B Fi E wf).operandIdx (ix3 e b f) idx 0 = c := by
    refine Fin.ext ?_
    show (spmmGather V B Fi E wf).start (ix3 e b f) idx 0 + (spmmGather V B Fi E wf).batchCoord (ix3 e b f) 0
      + (spmmGather V B Fi E wf).offCoord (ix3 e b f) 0 = c.val
    rw [hb, Nat.add_zero, GatherDims.offCoord_eq_zero _ _ _
      (fun h => ((GatherDims.mem_sKept _ _).mp h).1 (List.mem_singleton.mpr rfl)), Nat.add_zero]
    unfold GatherDims.start
    rw [dif_pos (show (0 : Fin 3) ∈ ([0] : List (Fin 3)) from List.mem_singleton.mpr rfl), spmmGather_siIdx, hc, Int.toNat_natCast]
    show min c.val (V - 1) = c.val
    have := c.isLt; omega
  have e1 : (spmmGather V B Fi E wf).operandIdx (ix3 e b f) idx 1 = b := by
    refine Fin.ext ?_
    show (spmmGather V B Fi E wf).start (ix3 e b f) idx 1 + (spmmGather V B Fi E wf).batchCoord (ix3 e b f) 1
      + (spmmGather V B Fi E wf).offCoord (ix3 e b f) 1 = b.val
    rw [hb, Nat.add_zero]
    unfold GatherDims.start
    rw [dif_neg (show ¬ ((1 : Fin 3) ∈ ([0] : List (Fin 3))) by decide), Nat.zero_add]
    unfold GatherDims.offCoord
    rw [dif_pos ((GatherDims.mem_sKept _ _).mpr ⟨show ¬ ((1 : Fin 3) ∈ ([0] : List (Fin 3))) by decide, List.not_mem_nil⟩)]
    rfl
  have e2 : (spmmGather V B Fi E wf).operandIdx (ix3 e b f) idx 2 = f := by
    refine Fin.ext ?_
    show (spmmGather V B Fi E wf).start (ix3 e b f) idx 2 + (spmmGather V B Fi E wf).batchCoord (ix3 e b f) 2
      + (spmmGather V B Fi E wf).offCoord (ix3 e b f) 2 = f.val
    rw [hb, Nat.add_zero]
    unfold GatherDims.start
    rw [dif_neg (show ¬ ((2 : Fin 3) ∈ ([0] : List (Fin 3))) by decide), Nat.zero_add]
    unfold GatherDims.offCoord
    rw [dif_pos ((GatherDims.mem_sKept _ _).mpr ⟨show ¬ ((2 : Fin 3) ∈ ([0] : List (Fin 3))) by decide, List.not_mem_nil⟩)]
    rfl
  refine congrArg x ?_
  refine (eq_ix3 _).trans ?_
  exact (spmm_ix3_inj _ _ _ _ _ _).mpr ⟨e0, e1, e2⟩

end Generic

section Generic2
variable {V B Fi E : Nat}

/-- Scattering E rows of B × Fi into a V × B × Fi array along axis 0. -/
abbrev spmmScatter (V B Fi E : Nat)
    (wf : ScatterDims.WF ⟨3, ![V, B, Fi]⟩ ⟨2, ![E, 1]⟩ ⟨3, ![E, B, Fi]⟩ [1, 2] [0] [0] 1) :
    ScatterDims ⟨3, ![V, B, Fi]⟩ ⟨2, ![E, 1]⟩ ⟨3, ![E, B, Fi]⟩ where
  updateWindowDims := [1, 2]
  insertedWindowDims := [0]
  scatterDimsToOperandDims := [0]
  indexVectorDim := 1
  wf := wf

/-- Update index (e, b, f) of the scatter reads its start index at (e, 0). -/
theorem spmmScatter_siIdx (wf : ScatterDims.WF ⟨3, ![V, B, Fi]⟩ ⟨2, ![E, 1]⟩ ⟨3, ![E, B, Fi]⟩ [1, 2] [0] [0] 1)
    (e : Fin E) (b : Fin B) (f : Fin Fi) (c : Fin (spmmScatter V B Fi E wf).scatterDimsToOperandDims.length) :
    (spmmScatter V B Fi E wf).siIdx (ix3 e b f) c = ix2 e 0 := by
  have hc : c.val < 1 := c.isLt
  funext a; refine Fin.ext ?_
  match a with
  | ⟨0, _⟩ => rfl
  | ⟨1, _⟩ => show c.val = 0; omega

/-- Update (e, b, f) lands at (r, b, f) when scatter index e is the in-range row r. -/
theorem spmmScatter_resultIdx {w : Nat} (wf : ScatterDims.WF ⟨3, ![V, B, Fi]⟩ ⟨2, ![E, 1]⟩ ⟨3, ![E, B, Fi]⟩ [1, 2] [0] [0] 1)
    (idx : IVec ⟨2, ![E, 1]⟩ w) (e : Fin E) (b : Fin B) (f : Fin Fi) (r : Fin V)
    (hr : (idx (ix2 e 0)).toInt = (r.val : Int)) :
    (spmmScatter V B Fi E wf).resultIdx? (ix3 e b f) idx = some (ix3 r b f) := by
  have s0 : (spmmScatter V B Fi E wf).start (ix3 e b f) idx 0 = (r.val : Int) := by
    unfold ScatterDims.start
    rw [dif_pos (show (0 : Fin 3) ∈ ([0] : List (Fin 3)) from List.mem_singleton.mpr rfl), spmmScatter_siIdx, hr]
  have s1 : (spmmScatter V B Fi E wf).start (ix3 e b f) idx 1 = 0 := by
    unfold ScatterDims.start
    rw [dif_neg (show ¬ ((1 : Fin 3) ∈ ([0] : List (Fin 3))) by decide)]
  have s2 : (spmmScatter V B Fi E wf).start (ix3 e b f) idx 2 = 0 := by
    unfold ScatterDims.start
    rw [dif_neg (show ¬ ((2 : Fin 3) ∈ ([0] : List (Fin 3))) by decide)]
  have w0 : (spmmScatter V B Fi E wf).window (ix3 e b f) 0 = 0 := rfl
  have w1 : (spmmScatter V B Fi E wf).window (ix3 e b f) 1 = b.val := rfl
  have w2 : (spmmScatter V B Fi E wf).window (ix3 e b f) 2 = f.val := rfl
  have hall : ∀ a, 0 ≤ (spmmScatter V B Fi E wf).start (ix3 e b f) idx a + (spmmScatter V B Fi E wf).window (ix3 e b f) a ∧
      (spmmScatter V B Fi E wf).start (ix3 e b f) idx a + (spmmScatter V B Fi E wf).window (ix3 e b f) a
        < ((⟨3, ![V, B, Fi]⟩ : Shape).size a : Int) := by
    intro a
    match a with
    | ⟨0, _⟩ =>
      show 0 ≤ (spmmScatter V B Fi E wf).start (ix3 e b f) idx 0 + ((spmmScatter V B Fi E wf).window (ix3 e b f) 0 : Int) ∧
        (spmmScatter V B Fi E wf).start (ix3 e b f) idx 0 + ((spmmScatter V B Fi E wf).window (ix3 e b f) 0 : Int) < (V : Int)
      rw [s0, w0]; have := r.isLt; omega
    | ⟨1, _⟩ =>
      show 0 ≤ (spmmScatter V B Fi E wf).start (ix3 e b f) idx 1 + ((spmmScatter V B Fi E wf).window (ix3 e b f) 1 : Int) ∧
        (spmmScatter V B Fi E wf).start (ix3 e b f) idx 1 + ((spmmScatter V B Fi E wf).window (ix3 e b f) 1 : Int) < (B : Int)
      rw [s1, w1]; have := b.isLt; omega
    | ⟨2, _⟩ =>
      show 0 ≤ (spmmScatter V B Fi E wf).start (ix3 e b f) idx 2 + ((spmmScatter V B Fi E wf).window (ix3 e b f) 2 : Int) ∧
        (spmmScatter V B Fi E wf).start (ix3 e b f) idx 2 + ((spmmScatter V B Fi E wf).window (ix3 e b f) 2 : Int) < (Fi : Int)
      rw [s2, w2]; have := f.isLt; omega
  unfold ScatterDims.resultIdx?
  rw [dif_pos hall]
  refine congrArg some ?_
  refine (eq_ix3 _).trans ?_
  refine (spmm_ix3_inj _ _ _ _ _ _).mpr ⟨Fin.ext ?_, Fin.ext ?_, Fin.ext ?_⟩
  · show ((spmmScatter V B Fi E wf).start (ix3 e b f) idx 0 + ((spmmScatter V B Fi E wf).window (ix3 e b f) 0 : Int)).toNat = r.val
    rw [s0, w0]; omega
  · show ((spmmScatter V B Fi E wf).start (ix3 e b f) idx 1 + ((spmmScatter V B Fi E wf).window (ix3 e b f) 1 : Int)).toNat = b.val
    rw [s1, w1]; omega
  · show ((spmmScatter V B Fi E wf).start (ix3 e b f) idx 2 + ((spmmScatter V B Fi E wf).window (ix3 e b f) 2 : Int)).toNat = f.val
    rw [s2, w2]; omega

/-- A rank-3 index set is the product of its three coordinate ranges. -/
def spmmIdxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem spmm_sum_idx3 {M : Type*} [AddCommMonoid M] {n0 n1 n2 : Nat} (g : (⟨3, ![n0, n1, n2]⟩ : Shape).Idx → M) :
    ∑ i, g i = ∑ a : Fin n0, ∑ b : Fin n1, ∑ c : Fin n2, g (ix3 a b c) := by
  rw [← Equiv.sum_comp (spmmIdxEquiv3 (n0 := n0) (n1 := n1) (n2 := n2)).symm g, Fintype.sum_prod_type]
  refine Finset.sum_congr rfl fun a _ => ?_
  rw [Fintype.sum_prod_type]
  rfl

/-- The updates that land at (v, b, f) are the rows e with r e = v, each at its (b, f) entry. -/
theorem spmmScatter_sum {w : Nat} (wf : ScatterDims.WF ⟨3, ![V, B, Fi]⟩ ⟨2, ![E, 1]⟩ ⟨3, ![E, B, Fi]⟩ [1, 2] [0] [0] 1)
    (idx : IVec ⟨2, ![E, 1]⟩ w) (rF : Fin E → Fin V) (hr : ∀ e, (idx (ix2 e 0)).toInt = ((rF e).val : Int))
    (upd : (⟨3, ![E, B, Fi]⟩ : Shape).Idx → EReal) (v : Fin V) (b : Fin B) (f : Fin Fi) :
    ∑ j ∈ Finset.univ.filter (fun j => (spmmScatter V B Fi E wf).resultIdx? j idx = some (ix3 v b f)), upd j
      = ∑ e : Fin E, if rF e = v then upd (ix3 e b f) else 0 := by
  rw [Finset.sum_filter, spmm_sum_idx3]
  refine Finset.sum_congr rfl fun e _ => ?_
  simp only [spmmScatter_resultIdx wf idx e _ _ (rF e) (hr e), Option.some.injEq, spmm_ix3_inj]
  by_cases hv : rF e = v
  · simp only [hv, true_and, if_true]
    rw [Finset.sum_eq_single b]
    · rw [Finset.sum_eq_single f]
      · simp
      · intro f' _ hf; simp [hf]
      · intro h; exact absurd (Finset.mem_univ _) h
    · intro b' _ hb; simp [hb]
    · intro h; exact absurd (Finset.mem_univ _) h
  · simp [hv]

end Generic2

section Generic3
variable {V B Fi E : Nat}

/-- The non-negative word c survives the negative-index wrap. -/
theorem spmm_wrap_small (c : Nat) (hc : c < 2 ^ 31) (n : BitVec 32) :
    Scalar.select (IntOp.cmpi .slt (BitVec.ofNat 32 c) 0#32) (IntOp.addi (BitVec.ofNat 32 c) n) (BitVec.ofNat 32 c)
      = BitVec.ofNat 32 c := by
  have h : IntOp.cmpi .slt (BitVec.ofNat 32 c) 0#32 = 0#1 := by
    apply eq_zero_of_ne_one
    intro h1
    have := (Predicate.slt_ofNat_iff c 0 hc (by norm_num)).mp h1
    omega
  rw [h, select_zero]

/-- THE EDGE-LIST PRODUCT AT ANY SIZES: zeros, scatter indices that are the in-range rows r, start indices that are
    the in-range columns c, and a weight array constant along (b, f): entry (v, b, f) of the scatter-add of the weighted
    gathered rows is the sum over the edges with r e = v of vals e · x (c e) b f. -/
theorem spmm_read (hV : V ≤ 2 ^ 31)
    (gwf : GatherDims.WF ⟨3, ![V, B, Fi]⟩ ⟨2, ![E, 1]⟩ ⟨3, ![E, B, Fi]⟩ [1, 2] [0] [] [0] [] 1 ![1, B, Fi])
    (swf : ScatterDims.WF ⟨3, ![V, B, Fi]⟩ ⟨2, ![E, 1]⟩ ⟨3, ![E, B, Fi]⟩ [1, 2] [0] [0] 1)
    (X Z : FVec Ideal ⟨3, ![V, B, Fi]⟩ .f32) (R C : IVec ⟨2, ![E, 1]⟩ 32) (W : FVec Ideal ⟨3, ![E, B, Fi]⟩ .f32)
    (rF cF : Fin E → Fin V) (vals : Fin E → EReal)
    (hZ : ∀ i, Z i = 0) (hR : ∀ e, R (ix2 e 0) = BitVec.ofNat 32 (rF e).val)
    (hC : ∀ e, C (ix2 e 0) = BitVec.ofNat 32 (cF e).val) (hW : ∀ e b f, W (ix3 e b f) = vals e)
    (v : Fin V) (b : Fin B) (f : Fin Fi) :
    Host.scatterAdd (spmmScatter V B Fi E swf) Z R (mulf W (Host.gather (spmmGather V B Fi E gwf) X C)) (ix3 v b f)
      = ∑ e : Fin E, if rF e = v then vals e * X (ix3 (cF e) b f) else 0 := by
  show Ideal.hostScatterAdd (spmmScatter V B Fi E swf) Z R (mulf W (Host.gather (spmmGather V B Fi E gwf) X C)) (ix3 v b f) = _
  unfold Ideal.hostScatterAdd
  have hRi : ∀ e, (R (ix2 e 0)).toInt = ((rF e).val : Int) := fun e => by
    rw [hR, Predicate.toInt_ofNat_small _ (by have := (rF e).isLt; omega)]
  have hCi : ∀ e, (C (ix2 e 0)).toInt = ((cF e).val : Int) := fun e => by
    rw [hC, Predicate.toInt_ofNat_small _ (by have := (cF e).isLt; omega)]
  rw [hZ, zero_add, spmmScatter_sum swf R rF hRi]
  refine Finset.sum_congr rfl fun e _ => ?_
  rw [mulf_apply, hW, spmmGather_apply gwf X C e b f (cF e) (hCi e)]

end Generic3

section Generic4
variable {V B Fi E : Nat}

/-- A length-E array broadcast to E × 1, read at (e, 0). -/
theorem spmm_bcast_col {α : Type} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e 0) = x (ix1 e) := by
  refine broadcastInDim_apply ![0] h x (ix2 e 0) (ix1 e) fun a => ?_
  match a with
  | ⟨0, _⟩ =>
    show e.val = if E = 1 then 0 else e.val
    rw [if_neg hE]

/-- A length-E array broadcast to E × 1 × 1 and then to E × B × Fi, read at (e, b, f). -/
theorem spmm_bcast_w {α : Type} (hE : E ≠ 1) (h1 : (⟨1, ![E]⟩ : Shape).BroadcastsInDim ⟨3, ![E, 1, 1]⟩ ![0])
    (h2 : (⟨3, ![E, 1, 1]⟩ : Shape).BroadcastsInDim ⟨3, ![E, B, Fi]⟩ ![0, 1, 2])
    (x : (⟨1, ![E]⟩ : Shape).Idx → α) (e : Fin E) (b : Fin B) (f : Fin Fi) :
    broadcastInDim ⟨3, ![E, B, Fi]⟩ ![0, 1, 2] h2 (broadcastInDim ⟨3, ![E, 1, 1]⟩ ![0] h1 x) (ix3 e b f) = x (ix1 e) := by
  refine (broadcastInDim_apply ![0, 1, 2] h2 _ (ix3 e b f) (ix3 e 0 0) fun a => ?_).trans
    (broadcastInDim_apply ![0] h1 x (ix3 e 0 0) (ix1 e) fun a => ?_)
  · match a with
    | ⟨0, _⟩ =>
      show e.val = if E = 1 then 0 else e.val
      rw [if_neg hE]
    | ⟨1, _⟩ => rfl
    | ⟨2, _⟩ => rfl
  · match a with
    | ⟨0, _⟩ =>
      show e.val = if E = 1 then 0 else e.val
      rw [if_neg hE]

/-- THE REFERENCE'S EDGE-LIST PRODUCT, its term at any sizes (n the wrap's addend): on in-range rows and
    columns it is the edge-list product of the specification. -/
theorem spmm_term (hV : V ≤ 2 ^ 31) (hE : E ≠ 1)
    (gwf : GatherDims.WF ⟨3, ![V, B, Fi]⟩ ⟨2, ![E, 1]⟩ ⟨3, ![E, B, Fi]⟩ [1, 2] [0] [] [0] [] 1 ![1, B, Fi])
    (swf : ScatterDims.WF ⟨3, ![V, B, Fi]⟩ ⟨2, ![E, 1]⟩ ⟨3, ![E, B, Fi]⟩ [1, 2] [0] [0] 1)
    (hz : (⟨0, ![]⟩ : Shape).BroadcastsInDim ⟨3, ![V, B, Fi]⟩ ![])
    (hcol : (⟨1, ![E]⟩ : Shape).BroadcastsInDim ⟨2, ![E, 1]⟩ ![0])
    (h1 : (⟨1, ![E]⟩ : Shape).BroadcastsInDim ⟨3, ![E, 1, 1]⟩ ![0])
    (h2 : (⟨3, ![E, 1, 1]⟩ : Shape).BroadcastsInDim ⟨3, ![E, B, Fi]⟩ ![0, 1, 2])
    (hs : (⟨0, ![]⟩ : Shape).BroadcastsInDim ⟨1, ![E]⟩ ![])
    (n : BitVec 32)
    (X : FVec Ideal ⟨3, ![V, B, Fi]⟩ .f32) (rows cols : IVec ⟨1, ![E]⟩ 32) (vals : FVec Ideal ⟨1, ![E]⟩ .f32)
    (rF cF : Fin E → Fin V) (hr : ∀ e, rows (ix1 e) = BitVec.ofNat 32 (rF e).val)
    (hc : ∀ e, cols (ix1 e) = BitVec.ofNat 32 (cF e).val) :
    cur3 (Host.scatterAdd (spmmScatter V B Fi E swf)
        (broadcastInDim ⟨3, ![V, B, Fi]⟩ ![] hz (constant (F := Ideal) ⟨0, ![]⟩ .f32 0x00000000#32))
        (broadcastInDim ⟨2, ![E, 1]⟩ ![0] hcol rows)
        (mulf (broadcastInDim ⟨3, ![E, B, Fi]⟩ ![0, 1, 2] h2 (broadcastInDim ⟨3, ![E, 1, 1]⟩ ![0] h1 vals))
          (Host.gather (spmmGather V B Fi E gwf) X
            (broadcastInDim ⟨2, ![E, 1]⟩ ![0] hcol
              (select (cmpi .slt cols (broadcastInDim ⟨1, ![E]⟩ ![] hs (constantI ⟨0, ![]⟩ 32 0#32)))
                (addi cols (broadcastInDim ⟨1, ![E]⟩ ![] hs (constantI ⟨0, ![]⟩ 32 n))) cols)))) :
          (⟨3, ![V, B, Fi]⟩ : Shape).Idx → EReal)
      = spmmE rF cF (cur1 vals) (cur3 X) := by
  funext v b f
  rw [cur3_apply]
  refine spmm_read hV gwf swf X _ _ _ _ rF cF (cur1 vals) (fun i => ?_) (fun e => ?_) (fun e => ?_) (fun e b f => ?_) v b f
  · show Ideal.ofBits .f32 0x00000000#32 = 0
    exact Ideal.ofBits_zero_f32
  · rw [spmm_bcast_col hE hcol rows e, hr]
  · rw [spmm_bcast_col hE hcol _ e]
    show Scalar.select (IntOp.cmpi .slt (cols (ix1 e)) 0#32) (IntOp.addi (cols (ix1 e)) n) (cols (ix1 e)) = _
    rw [hc]
    exact spmm_wrap_small _ (by have := (cF e).isLt; omega) n
  · rw [spmm_bcast_w hE h1 h2 vals e b f]
    rfl

end Generic4

/-! ## The four layers -/

/-- Layer A's edge-list product (1024 vertices, 3 features, 8192 edges). -/
theorem spmmA (X : FVec Ideal S1024x512x3 .f32) (rows cols : IVec S8192 32) (vals : FVec Ideal S8192 .f32)
    (rF cF : Fin 8192 → Fin 1024) (hr : ∀ e, rows (ix1 e) = BitVec.ofNat 32 (rF e).val) (hc : ∀ e, cols (ix1 e) = BitVec.ofNat 32 (cF e).val) :
    cur3 (Host.scatterAdd scatter_S1024x512x3_S8192x1_S8192x512x3_12_0_0_1 (broadcastInDim S1024x512x3 ![] bcast_S_S1024x512x3 (constant (F := Ideal) S_ .f32 0x00000000#32)) (broadcastInDim S8192x1 ![0] bcast_S8192_S8192x1_0 rows) (mulf (broadcastInDim S8192x512x3 ![0, 1, 2] bcast_S8192x1x1_S8192x512x3_0_1_2 (broadcastInDim S8192x1x1 ![0] bcast_S8192_S8192x1x1_0 vals)) (Host.gather gather_S1024x512x3_S8192x1_S8192x512x3_12_0_n_n_0_1_15123 X (broadcastInDim S8192x1 ![0] bcast_S8192_S8192x1_0 (select (cmpi .slt cols (broadcastInDim S8192 ![] bcast_S_S8192 (constantI S_ 32 0#32))) (addi cols (broadcastInDim S8192 ![] bcast_S_S8192 (constantI S_ 32 1024#32))) cols)))) : S1024x512x3.Idx → EReal)
      = spmmE rF cF (cur1 vals) (cur3 X) := by
  exact spmm_term (V := 1024) (B := 512) (Fi := 3) (E := 8192) (by norm_num) (by norm_num) _ _ _ _ _ _ _ _ X rows cols vals rF cF hr hc

/-- Layer B's edge-list product (1024 vertices, 32 features, 8192 edges). -/
theorem spmmB (X : FVec Ideal S1024x512x32 .f32) (rows cols : IVec S8192 32) (vals : FVec Ideal S8192 .f32)
    (rF cF : Fin 8192 → Fin 1024) (hr : ∀ e, rows (ix1 e) = BitVec.ofNat 32 (rF e).val) (hc : ∀ e, cols (ix1 e) = BitVec.ofNat 32 (cF e).val) :
    cur3 (Host.scatterAdd scatter_S1024x512x32_S8192x1_S8192x512x32_12_0_0_1 (broadcastInDim S1024x512x32 ![] bcast_S_S1024x512x32 (constant (F := Ideal) S_ .f32 0x00000000#32)) (broadcastInDim S8192x1 ![0] bcast_S8192_S8192x1_0 rows) (mulf (broadcastInDim S8192x512x32 ![0, 1, 2] bcast_S8192x1x1_S8192x512x32_0_1_2 (broadcastInDim S8192x1x1 ![0] bcast_S8192_S8192x1x1_0 vals)) (Host.gather gather_S1024x512x32_S8192x1_S8192x512x32_12_0_n_n_0_1_151232 X (broadcastInDim S8192x1 ![0] bcast_S8192_S8192x1_0 (select (cmpi .slt cols (broadcastInDim S8192 ![] bcast_S_S8192 (constantI S_ 32 0#32))) (addi cols (broadcastInDim S8192 ![] bcast_S_S8192 (constantI S_ 32 1024#32))) cols)))) : S1024x512x32.Idx → EReal)
      = spmmE rF cF (cur1 vals) (cur3 X) := by
  exact spmm_term (V := 1024) (B := 512) (Fi := 32) (E := 8192) (by norm_num) (by norm_num) _ _ _ _ _ _ _ _ X rows cols vals rF cF hr hc

/-- Layer C's edge-list product (256 vertices, 32 features, 2048 edges). -/
theorem spmmC (X : FVec Ideal S256x512x32 .f32) (rows cols : IVec S2048 32) (vals : FVec Ideal S2048 .f32)
    (rF cF : Fin 2048 → Fin 256) (hr : ∀ e, rows (ix1 e) = BitVec.ofNat 32 (rF e).val) (hc : ∀ e, cols (ix1 e) = BitVec.ofNat 32 (cF e).val) :
    cur3 (Host.scatterAdd scatter_S256x512x32_S2048x1_S2048x512x32_12_0_0_1 (broadcastInDim S256x512x32 ![] bcast_S_S256x512x32 (constant (F := Ideal) S_ .f32 0x00000000#32)) (broadcastInDim S2048x1 ![0] bcast_S2048_S2048x1_0 rows) (mulf (broadcastInDim S2048x512x32 ![0, 1, 2] bcast_S2048x1x1_S2048x512x32_0_1_2 (broadcastInDim S2048x1x1 ![0] bcast_S2048_S2048x1x1_0 vals)) (Host.gather gather_S256x512x32_S2048x1_S2048x512x32_12_0_n_n_0_1_151232 X (broadcastInDim S2048x1 ![0] bcast_S2048_S2048x1_0 (select (cmpi .slt cols (broadcastInDim S2048 ![] bcast_S_S2048 (constantI S_ 32 0#32))) (addi cols (broadcastInDim S2048 ![] bcast_S_S2048 (constantI S_ 32 256#32))) cols)))) : S256x512x32.Idx → EReal)
      = spmmE rF cF (cur1 vals) (cur3 X) := by
  exact spmm_term (V := 256) (B := 512) (Fi := 32) (E := 2048) (by norm_num) (by norm_num) _ _ _ _ _ _ _ _ X rows cols vals rF cF hr hc

/-- Layer D's edge-list product (256 vertices, 64 features, 2048 edges). -/
theorem spmmD (X : FVec Ideal S256x512x64 .f32) (rows cols : IVec S2048 32) (vals : FVec Ideal S2048 .f32)
    (rF cF : Fin 2048 → Fin 256) (hr : ∀ e, rows (ix1 e) = BitVec.ofNat 32 (rF e).val) (hc : ∀ e, cols (ix1 e) = BitVec.ofNat 32 (cF e).val) :
    cur3 (Host.scatterAdd scatter_S256x512x64_S2048x1_S2048x512x64_12_0_0_1 (broadcastInDim S256x512x64 ![] bcast_S_S256x512x64 (constant (F := Ideal) S_ .f32 0x00000000#32)) (broadcastInDim S2048x1 ![0] bcast_S2048_S2048x1_0 rows) (mulf (broadcastInDim S2048x512x64 ![0, 1, 2] bcast_S2048x1x1_S2048x512x64_0_1_2 (broadcastInDim S2048x1x1 ![0] bcast_S2048_S2048x1x1_0 vals)) (Host.gather gather_S256x512x64_S2048x1_S2048x512x64_12_0_n_n_0_1_151264 X (broadcastInDim S2048x1 ![0] bcast_S2048_S2048x1_0 (select (cmpi .slt cols (broadcastInDim S2048 ![] bcast_S_S2048 (constantI S_ 32 0#32))) (addi cols (broadcastInDim S2048 ![] bcast_S_S2048 (constantI S_ 32 256#32))) cols)))) : S256x512x64.Idx → EReal)
      = spmmE rF cF (cur1 vals) (cur3 X) := by
  exact spmm_term (V := 256) (B := 512) (Fi := 64) (E := 2048) (by norm_num) (by norm_num) _ _ _ _ _ _ _ _ X rows cols vals rF cF hr hc

end Cert.ReferenceIdeal.RefValue

end
-- ==== Proof.RefProj.lean ====
/-
  The reference's projection, read at an index. The three Chebyshev terms (vertex-major) are stacked along a new last
  axis, re-laid batch-major, and the last two axes merged (position 3 f + k holds term k at feature f); the result is
  contracted with the Fo × 3 Fi weight along that merged axis and the bias is added along the last axis.
-/
import proofs.«430908_j10015863734924_3_alg».proof.Proof.Gen.ReferenceIdeal
import proofs.«430908_j10015863734924_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.Net
open Idealize.ShloMosaic Idealize.ShloMosaic.TcCoe Idealize.ShloMosaic.ValueIdx Idealize.SL.Sem Idealize.ShloMosaic.StableHlo

/-! ## The projection at any sizes

`V` vertices, `B` batch rows, `Fi` input features, `K = 3 Fi` stacked features, `Fo` output features. -/

section AnySizes
variable {V B Fi K Fo : Nat}

/-- The bias, laid along the last axis of a B × V × Fo array through a 1 × 1 × Fo array, read at an index. -/
theorem bias_read (b : FVec Ideal ⟨1, ![Fo]⟩ .f32)
    (hb2 : (⟨1, ![Fo]⟩ : Shape).BroadcastsInDim ⟨3, ![1, 1, Fo]⟩ (![2] : Fin 1 → Fin 3))
    (hb3 : (⟨3, ![1, 1, Fo]⟩ : Shape).BroadcastsInDim ⟨3, ![B, V, Fo]⟩ (![0, 1, 2] : Fin 3 → Fin 3))
    (bb : Fin B) (v : Fin V) (o : Fin Fo) :
    broadcastInDim ⟨3, ![B, V, Fo]⟩ ![0, 1, 2] hb3 (broadcastInDim ⟨3, ![1, 1, Fo]⟩ ![2] hb2 b) (ix3 bb v o) = b (ix1 o) := by
  have ho := o.isLt
  refine (broadcastInDim_apply ![0, 1, 2] hb3 _ (ix3 bb v o) (ix3 (0 : Fin 1) (0 : Fin 1) o) ?_).trans ?_
  · intro a
    match a with
    | ⟨0, _⟩ => rfl
    | ⟨1, _⟩ => rfl
    | ⟨2, _⟩ =>
      show o.val = if Fo = 1 then 0 else o.val
      split
      · omega
      · rfl
  · refine broadcastInDim_apply ![2] hb2 b _ (ix1 o) ?_
    intro a
    match a with
    | ⟨0, _⟩ =>
      show o.val = if Fo = 1 then 0 else o.val
      split
      · omega
      · rfl

/-- A vertex-major array given a unit last axis, read at an index. -/
theorem unit_read {α : Type} (X : (⟨3, ![V, B, Fi]⟩ : Shape).Idx → α)
    (hb1 : (⟨3, ![V, B, Fi]⟩ : Shape).BroadcastsInDim ⟨4, ![V, B, Fi, 1]⟩ (![0, 1, 2] : Fin 3 → Fin 4))
    (v : Fin V) (bb : Fin B) (f : Fin Fi) :
    broadcastInDim ⟨4, ![V, B, Fi, 1]⟩ ![0, 1, 2] hb1 X (ix4 v bb f (0 : Fin 1)) = X (ix3 v bb f) := by
  have hv := v.isLt
  have hbb := bb.isLt
  have hf := f.isLt
  refine broadcastInDim_apply ![0, 1, 2] hb1 X _ (ix3 v bb f) ?_
  intro a
  match a with
  | ⟨0, _⟩ =>
    show v.val = if V = 1 then 0 else v.val
    split
    · omega
    · rfl
  | ⟨1, _⟩ =>
    show bb.val = if B = 1 then 0 else bb.val
    split
    · omega
    · rfl
  | ⟨2, _⟩ =>
    show f.val = if Fi = 1 then 0 else f.val
    split
    · omega
    · rfl

/-- The product with the Fo × K weight, contracted along the last axis of both, read at an index: the sum over the
    contracted coordinate. -/
theorem dot_read {φ₁ φ₂ : FTy}
    (w : DotDims.WF ⟨3, ![B, V, K]⟩ ⟨2, ![Fo, K]⟩ ⟨3, ![B, V, Fo]⟩ [2] [1] [0, 1] [0] [] [])
    (prec : Option ContractPrecision) (A : FVec Ideal ⟨3, ![B, V, K]⟩ φ₁) (Wm : FVec Ideal ⟨2, ![Fo, K]⟩ φ₂)
    (bb : Fin B) (v : Fin V) (o : Fin Fo) :
    Host.dotGeneral (⟨[2], [1], [0, 1], [0], [], [], w⟩ : DotDims _ _ _) prec A Wm (ix3 bb v o)
      = ∑ c : Fin K, A (ix3 bb v c) * Wm (ix2 o c) := by
  show FloatOps.dotGeneral _ prec _ A Wm (ix3 bb v o) = _
  rw [Ideal.dotGeneral_apply,
    ← Equiv.sum_comp (contrEquiv1 (⟨[2], [1], [0, 1], [0], [], [], w⟩ : DotDims _ _ _) K rfl rfl).symm]
  refine Finset.sum_congr rfl fun c _ => ?_
  have c3 := contrEquiv1_symm_val
    (⟨[2], [1], [0, 1], [0], [], [], w⟩ : DotDims ⟨3, ![B, V, K]⟩ ⟨2, ![Fo, K]⟩ ⟨3, ![B, V, Fo]⟩) K rfl rfl c
  have l3 : (⟨[2], [1], [0, 1], [0], [], [], w⟩ : DotDims ⟨3, ![B, V, K]⟩ ⟨2, ![Fo, K]⟩ ⟨3, ![B, V, Fo]⟩).lhsIdx (ix3 bb v o)
      ((contrEquiv1 _ K rfl rfl).symm c) = ix3 bb v c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, V, K]⟩ ⟨2, ![Fo, K]⟩ ⟨3, ![B, V, Fo]⟩).rhsIdx (ix3 bb v o)
      ((contrEquiv1 _ K rfl rfl).symm c) = ix2 o c := by
    funext ax; apply Fin.ext
    match ax with
    | ⟨0, _⟩ => simp [DotDims.rhsIdx]; rfl
    | ⟨1, _⟩ => simp [DotDims.rhsIdx]; exact c3
  rw [l3, r3]

/-- Three arrays with a unit last axis, joined along that axis, read at an index: the piece the last coordinate names. -/
theorem cat3_read {α : Type} (P0 P1 P2 : (⟨4, ![V, B, Fi, 1]⟩ : Shape).Idx → α)
    (hcat : Shape.Concatenates
      (([⟨⟨4, ![V, B, Fi, 1]⟩, P0⟩, ⟨⟨4, ![V, B, Fi, 1]⟩, P1⟩, ⟨⟨4, ![V, B, Fi, 1]⟩, P2⟩] :
        List ((s : Shape) × (s.Idx → α))).map (·.1)) ⟨4, ![V, B, Fi, 3]⟩ 3)
    (v : Fin V) (bb : Fin B) (f : Fin Fi) (kk : Fin 3) :
    concatenate ⟨4, ![V, B, Fi, 3]⟩ 3 [⟨⟨4, ![V, B, Fi, 1]⟩, P0⟩, ⟨⟨4, ![V, B, Fi, 1]⟩, P1⟩, ⟨⟨4, ![V, B, Fi, 1]⟩, P2⟩] hcat
        (ix4 v bb f kk)
      = if kk.val = 0 then P0 (ix4 v bb f (0 : Fin 1)) else if kk.val = 1 then P1 (ix4 v bb f (0 : Fin 1))
        else P2 (ix4 v bb f (0 : Fin 1)) := by
  have hkk := kk.isLt
  have hi : ∀ b : Fin 4, b.cast (rfl : 4 = 4) ≠ (3 : Fin 4) →
      ((ix4 v bb f (0 : Fin 1)) b).val = ((ix4 v bb f kk) (b.cast (rfl : 4 = 4))).val := by
    intro b
    match b with
    | ⟨0, _⟩ => exact fun _ => rfl
    | ⟨1, _⟩ => exact fun _ => rfl
    | ⟨2, _⟩ => exact fun _ => rfl
    | ⟨3, _⟩ => exact fun h => absurd rfl h
  by_cases h0 : kk.val = 0
  · rw [if_pos h0]
    refine concatenate_apply_piece 3 _ hcat (ix4 v bb f kk) 0 (show 0 < 3 by decide) ⟨4, ![V, B, Fi, 1]⟩ P0 rfl rfl 0 rfl
      (ix4 v bb f (0 : Fin 1)) hi ?_
    show 0 + 0 = kk.val
    omega
  · rw [if_neg h0]
    by_cases h1 : kk.val = 1
    · rw [if_pos h1]
      refine concatenate_apply_piece 3 _ hcat (ix4 v bb f kk) 1 (show 1 < 3 by decide) ⟨4, ![V, B, Fi, 1]⟩ P1 rfl rfl 1 rfl
        (ix4 v bb f (0 : Fin 1)) hi ?_
      show 1 + 0 = kk.val
      omega
    · rw [if_neg h1]
      refine concatenate_apply_piece 3 _ hcat (ix4 v bb f kk) 2 (show 2 < 3 by decide) ⟨4, ![V, B, Fi, 1]⟩ P2 rfl rfl 2 rfl
        (ix4 v bb f (0 : Fin 1)) hi ?_
      show 2 + 0 = kk.val
      omega

/-- The three terms stacked along a new last axis, re-laid batch-major, the last two axes merged, read at an index:
    position 3 f + k of the merged axis holds term k at feature f. -/
theorem stack_read (h3 : 3 * Fi = K) (X x1 x2 : FVec Ideal ⟨3, ![V, B, Fi]⟩ .f32)
    (hb1 : (⟨3, ![V, B, Fi]⟩ : Shape).BroadcastsInDim ⟨4, ![V, B, Fi, 1]⟩ (![0, 1, 2] : Fin 3 → Fin 4))
    (hcat : Shape.Concatenates [(⟨4, ![V, B, Fi, 1]⟩ : Shape), ⟨4, ![V, B, Fi, 1]⟩, ⟨4, ![V, B, Fi, 1]⟩] ⟨4, ![V, B, Fi, 3]⟩ 3)
    (htr : (⟨4, ![V, B, Fi, 3]⟩ : Shape).Transposes [1, 0, 2, 3] ⟨4, ![B, V, Fi, 3]⟩)
    (hsc : (⟨4, ![B, V, Fi, 3]⟩ : Shape).ShapeCasts ⟨3, ![B, V, K]⟩)
    (bb : Fin B) (v : Fin V) (i : Fin K) :
    shapeCast ⟨3, ![B, V, K]⟩ (transpose ⟨4, ![B, V, Fi, 3]⟩ [1, 0, 2, 3]
      (concatenate ⟨4, ![V, B, Fi, 3]⟩ 3 [⟨⟨4, ![V, B, Fi, 1]⟩, broadcastInDim ⟨4, ![V, B, Fi, 1]⟩ ![0, 1, 2] hb1 X⟩,
         ⟨⟨4, ![V, B, Fi, 1]⟩, broadcastInDim ⟨4, ![V, B, Fi, 1]⟩ ![0, 1, 2] hb1 x1⟩,
         ⟨⟨4, ![V, B, Fi, 1]⟩, broadcastInDim ⟨4, ![V, B, Fi, 1]⟩ ![0, 1, 2] hb1 x2⟩] hcat) htr) hsc (ix3 bb v i)
      = stack3E h3 (cur3 X) (cur3 x1) (cur3 x2) bb v i := by
  have hi := i.isLt
  have hf : i.val / 3 < Fi := by omega
  have hk : i.val % 3 < 3 := Nat.mod_lt _ (by decide)
  refine (shapeCast_apply _ hsc (ix3 bb v i) (ix4 bb v (⟨i.val / 3, hf⟩ : Fin Fi) (⟨i.val % 3, hk⟩ : Fin 3)) ?_).trans ?_
  · rw [Shape.rowMajor_val_four, Shape.rowMajor_val_three]
    show ((bb.val * V + v.val) * Fi + i.val / 3) * 3 + i.val % 3 = (bb.val * V + v.val) * K + i.val
    have e : (bb.val * V + v.val) * K = 3 * ((bb.val * V + v.val) * Fi) := by
      rw [← h3]; exact Nat.mul_left_comm _ _ _
    omega
  refine (transpose_apply [1, 0, 2, 3] _ htr (ix4 bb v (⟨i.val / 3, hf⟩ : Fin Fi) (⟨i.val % 3, hk⟩ : Fin 3))
    (ix4 v bb (⟨i.val / 3, hf⟩ : Fin Fi) (⟨i.val % 3, hk⟩ : Fin 3)) ?_).trans ?_
  · intro b
    match b with
    | ⟨0, _⟩ => rfl
    | ⟨1, _⟩ => rfl
    | ⟨2, _⟩ => rfl
    | ⟨3, _⟩ => rfl
  rw [cat3_read, unit_read, unit_read, unit_read]
  rfl

/-- The projection read at an index: the stacked terms contracted with the weight, plus the bias. -/
theorem proj_read (h3 : 3 * Fi = K) (X x1 x2 : FVec Ideal ⟨3, ![V, B, Fi]⟩ .f32) (W : FVec Ideal ⟨2, ![Fo, K]⟩ .f32)
    (b : FVec Ideal ⟨1, ![Fo]⟩ .f32)
    (hb1 : (⟨3, ![V, B, Fi]⟩ : Shape).BroadcastsInDim ⟨4, ![V, B, Fi, 1]⟩ (![0, 1, 2] : Fin 3 → Fin 4))
    (hcat : Shape.Concatenates [(⟨4, ![V, B, Fi, 1]⟩ : Shape), ⟨4, ![V, B, Fi, 1]⟩, ⟨4, ![V, B, Fi, 1]⟩] ⟨4, ![V, B, Fi, 3]⟩ 3)
    (htr : (⟨4, ![V, B, Fi, 3]⟩ : Shape).Transposes [1, 0, 2, 3] ⟨4, ![B, V, Fi, 3]⟩)
    (hsc : (⟨4, ![B, V, Fi, 3]⟩ : Shape).ShapeCasts ⟨3, ![B, V, K]⟩)
    (w : DotDims.WF ⟨3, ![B, V, K]⟩ ⟨2, ![Fo, K]⟩ ⟨3, ![B, V, Fo]⟩ [2] [1] [0, 1] [0] [] [])
    (hb2 : (⟨1, ![Fo]⟩ : Shape).BroadcastsInDim ⟨3, ![1, 1, Fo]⟩ (![2] : Fin 1 → Fin 3))
    (hb3 : (⟨3, ![1, 1, Fo]⟩ : Shape).BroadcastsInDim ⟨3, ![B, V, Fo]⟩ (![0, 1, 2] : Fin 3 → Fin 3)) :
    cur3 (addf (Host.dotGeneral (⟨[2], [1], [0, 1], [0], [], [], w⟩ : DotDims _ _ _) none
        (shapeCast ⟨3, ![B, V, K]⟩ (transpose ⟨4, ![B, V, Fi, 3]⟩ [1, 0, 2, 3]
          (concatenate ⟨4, ![V, B, Fi, 3]⟩ 3 [⟨⟨4, ![V, B, Fi, 1]⟩, broadcastInDim ⟨4, ![V, B, Fi, 1]⟩ ![0, 1, 2] hb1 X⟩,
            ⟨⟨4, ![V, B, Fi, 1]⟩, broadcastInDim ⟨4, ![V, B, Fi, 1]⟩ ![0, 1, 2] hb1 x1⟩,
            ⟨⟨4, ![V, B, Fi, 1]⟩, broadcastInDim ⟨4, ![V, B, Fi, 1]⟩ ![0, 1, 2] hb1 x2⟩] hcat) htr) hsc) W)
        (broadcastInDim ⟨3, ![B, V, Fo]⟩ ![0, 1, 2] hb3 (broadcastInDim ⟨3, ![1, 1, Fo]⟩ ![2] hb2 b))
        : (⟨3, ![B, V, Fo]⟩ : Shape).Idx → EReal)
      = fun bb v o => (∑ i : Fin K, stack3E h3 (cur3 X) (cur3 x1) (cur3 x2) bb v i * cur2 W o i) + cur1 b o := by
  funext bb v o
  rw [cur3_apply, addf_apply, dot_read, bias_read]
  refine congrArg (· + b (ix1 o)) (Finset.sum_congr rfl fun i _ => ?_)
  rw [stack_read h3]
  rfl

/-- The constant 2 laid over any shape, read at an index. -/
theorem two_read {s : Shape} (h : (⟨0, ![]⟩ : Shape).BroadcastsInDim s (![] : Fin 0 → Fin s.rank)) (j : s.Idx) :
    broadcastInDim s ![] h (constant (F := Ideal) ⟨0, ![]⟩ .f32 0x40000000#32) j = two :=
  (broadcastInDim_apply ![] h _ j ix0 (fun a => a.elim0)).trans rfl

/-- Twice an array less another, read at an index. -/
theorem x2_read (h : (⟨0, ![]⟩ : Shape).BroadcastsInDim ⟨3, ![V, B, Fi]⟩ (![] : Fin 0 → Fin 3))
    (S X : FVec Ideal ⟨3, ![V, B, Fi]⟩ .f32) :
    cur3 (subf (mulf (broadcastInDim ⟨3, ![V, B, Fi]⟩ ![] h (constant (F := Ideal) ⟨0, ![]⟩ .f32 0x40000000#32)) S) X
        : (⟨3, ![V, B, Fi]⟩ : Shape).Idx → EReal)
      = fun v bb f => two * cur3 S v bb f - cur3 X v bb f := by
  funext v bb f
  rw [cur3_apply, subf_apply, mulf_apply, two_read]
  rfl

end AnySizes

/-- Layer A's projection (1024 vertices, 3 · 3 = 9 stacked features to 32). -/
theorem projA (X x1 x2 : FVec Ideal S1024x512x3 .f32) (W : FVec Ideal S32x9 .f32) (b : FVec Ideal S32 .f32) :
    cur3 (addf (Host.dotGeneral dot_S512x1024x9_S32x9_S512x1024x32_2_1_01_0_n_n none (shapeCast _ (transpose S512x1024x3x3 [1, 0, 2, 3] (concatenate S1024x512x3x3 3 [⟨S1024x512x3x1, (broadcastInDim S1024x512x3x1 ![0, 1, 2] bcast_S1024x512x3_S1024x512x3x1_0_1_2 X)⟩, ⟨S1024x512x3x1, (broadcastInDim S1024x512x3x1 ![0, 1, 2] bcast_S1024x512x3_S1024x512x3x1_0_1_2 x1)⟩, ⟨S1024x512x3x1, (broadcastInDim S1024x512x3x1 ![0, 1, 2] bcast_S1024x512x3_S1024x512x3x1_0_1_2 x2)⟩] concatenates_S1024x512x3x1_S1024x512x3x1_S1024x512x3x1_S1024x512x3x3_d3) transposes_S1024x512x3x3_S512x1024x3x3_1_0_2_3) shapeCasts_S512x1024x3x3_S512x1024x9) W) (broadcastInDim S512x1024x32 ![0, 1, 2] bcast_S1x1x32_S512x1024x32_0_1_2 (broadcastInDim S1x1x32 ![2] bcast_S32_S1x1x32_2 b)) : S512x1024x32.Idx → EReal)
      = fun bb v o => (∑ i : Fin 9, stack3E (by decide : 3 * 3 = 9) (cur3 X) (cur3 x1) (cur3 x2) bb v i * cur2 W o i) + cur1 b o := by
  exact proj_read (by decide : 3 * 3 = 9) X x1 x2 W b _ _ _ _ _ _ _

/-- Layer A's third term, pointwise. -/
theorem x2A (S X : FVec Ideal S1024x512x3 .f32) :
    cur3 (subf (mulf (broadcastInDim S1024x512x3 ![] bcast_S_S1024x512x3 (constant (F := Ideal) S_ .f32 0x40000000#32)) S) X : S1024x512x3.Idx → EReal) = fun v bb f => two * cur3 S v bb f - cur3 X v bb f := by
  exact x2_read _ S X

/-- Layer B's projection (1024 vertices, 3 · 32 = 96 stacked features to 32). -/
theorem projB (X x1 x2 : FVec Ideal S1024x512x32 .f32) (W : FVec Ideal S32x96 .f32) (b : FVec Ideal S32 .f32) :
    cur3 (addf (Host.dotGeneral dot_S512x1024x96_S32x96_S512x1024x32_2_1_01_0_n_n none (shapeCast _ (transpose S512x1024x32x3 [1, 0, 2, 3] (concatenate S1024x512x32x3 3 [⟨S1024x512x32x1, (broadcastInDim S1024x512x32x1 ![0, 1, 2] bcast_S1024x512x32_S1024x512x32x1_0_1_2 X)⟩, ⟨S1024x512x32x1, (broadcastInDim S1024x512x32x1 ![0, 1, 2] bcast_S1024x512x32_S1024x512x32x1_0_1_2 x1)⟩, ⟨S1024x512x32x1, (broadcastInDim S1024x512x32x1 ![0, 1, 2] bcast_S1024x512x32_S1024x512x32x1_0_1_2 x2)⟩] concatenates_S1024x512x32x1_S1024x512x32x1_S1024x512x32x1_S1024x512x32x3_d3) transposes_S1024x512x32x3_S512x1024x32x3_1_0_2_3) shapeCasts_S512x1024x32x3_S512x1024x96) W) (broadcastInDim S512x1024x32 ![0, 1, 2] bcast_S1x1x32_S512x1024x32_0_1_2 (broadcastInDim S1x1x32 ![2] bcast_S32_S1x1x32_2 b)) : S512x1024x32.Idx → EReal)
      = fun bb v o => (∑ i : Fin 96, stack3E (by decide : 3 * 32 = 96) (cur3 X) (cur3 x1) (cur3 x2) bb v i * cur2 W o i) + cur1 b o := by
  exact proj_read (by decide : 3 * 32 = 96) X x1 x2 W b _ _ _ _ _ _ _

/-- Layer B's third term, pointwise. -/
theorem x2B (S X : FVec Ideal S1024x512x32 .f32) :
    cur3 (subf (mulf (broadcastInDim S1024x512x32 ![] bcast_S_S1024x512x32 (constant (F := Ideal) S_ .f32 0x40000000#32)) S) X : S1024x512x32.Idx → EReal) = fun v bb f => two * cur3 S v bb f - cur3 X v bb f := by
  exact x2_read _ S X

/-- Layer C's projection (256 vertices, 3 · 32 = 96 stacked features to 64). -/
theorem projC (X x1 x2 : FVec Ideal S256x512x32 .f32) (W : FVec Ideal S64x96 .f32) (b : FVec Ideal S64 .f32) :
    cur3 (addf (Host.dotGeneral dot_S512x256x96_S64x96_S512x256x64_2_1_01_0_n_n none (shapeCast _ (transpose S512x256x32x3 [1, 0, 2, 3] (concatenate S256x512x32x3 3 [⟨S256x512x32x1, (broadcastInDim S256x512x32x1 ![0, 1, 2] bcast_S256x512x32_S256x512x32x1_0_1_2 X)⟩, ⟨S256x512x32x1, (broadcastInDim S256x512x32x1 ![0, 1, 2] bcast_S256x512x32_S256x512x32x1_0_1_2 x1)⟩, ⟨S256x512x32x1, (broadcastInDim S256x512x32x1 ![0, 1, 2] bcast_S256x512x32_S256x512x32x1_0_1_2 x2)⟩] concatenates_S256x512x32x1_S256x512x32x1_S256x512x32x1_S256x512x32x3_d3) transposes_S256x512x32x3_S512x256x32x3_1_0_2_3) shapeCasts_S512x256x32x3_S512x256x96) W) (broadcastInDim S512x256x64 ![0, 1, 2] bcast_S1x1x64_S512x256x64_0_1_2 (broadcastInDim S1x1x64 ![2] bcast_S64_S1x1x64_2 b)) : S512x256x64.Idx → EReal)
      = fun bb v o => (∑ i : Fin 96, stack3E (by decide : 3 * 32 = 96) (cur3 X) (cur3 x1) (cur3 x2) bb v i * cur2 W o i) + cur1 b o := by
  exact proj_read (by decide : 3 * 32 = 96) X x1 x2 W b _ _ _ _ _ _ _

/-- Layer C's third term, pointwise. -/
theorem x2C (S X : FVec Ideal S256x512x32 .f32) :
    cur3 (subf (mulf (broadcastInDim S256x512x32 ![] bcast_S_S256x512x32 (constant (F := Ideal) S_ .f32 0x40000000#32)) S) X : S256x512x32.Idx → EReal) = fun v bb f => two * cur3 S v bb f - cur3 X v bb f := by
  exact x2_read _ S X

/-- Layer D's projection (256 vertices, 3 · 64 = 192 stacked features to 64). -/
theorem projD (X x1 x2 : FVec Ideal S256x512x64 .f32) (W : FVec Ideal S64x192 .f32) (b : FVec Ideal S64 .f32) :
    cur3 (addf (Host.dotGeneral dot_S512x256x192_S64x192_S512x256x64_2_1_01_0_n_n none (shapeCast _ (transpose S512x256x64x3 [1, 0, 2, 3] (concatenate S256x512x64x3 3 [⟨S256x512x64x1, (broadcastInDim S256x512x64x1 ![0, 1, 2] bcast_S256x512x64_S256x512x64x1_0_1_2 X)⟩, ⟨S256x512x64x1, (broadcastInDim S256x512x64x1 ![0, 1, 2] bcast_S256x512x64_S256x512x64x1_0_1_2 x1)⟩, ⟨S256x512x64x1, (broadcastInDim S256x512x64x1 ![0, 1, 2] bcast_S256x512x64_S256x512x64x1_0_1_2 x2)⟩] concatenates_S256x512x64x1_S256x512x64x1_S256x512x64x1_S256x512x64x3_d3) transposes_S256x512x64x3_S512x256x64x3_1_0_2_3) shapeCasts_S512x256x64x3_S512x256x192) W) (broadcastInDim S512x256x64 ![0, 1, 2] bcast_S1x1x64_S512x256x64_0_1_2 (broadcastInDim S1x1x64 ![2] bcast_S64_S1x1x64_2 b)) : S512x256x64.Idx → EReal)
      = fun bb v o => (∑ i : Fin 192, stack3E (by decide : 3 * 64 = 192) (cur3 X) (cur3 x1) (cur3 x2) bb v i * cur2 W o i) + cur1 b o := by
  exact proj_read (by decide : 3 * 64 = 192) X x1 x2 W b _ _ _ _ _ _ _

/-- Layer D's third term, pointwise. -/
theorem x2D (S X : FVec Ideal S256x512x64 .f32) :
    cur3 (subf (mulf (broadcastInDim S256x512x64 ![] bcast_S_S256x512x64 (constant (F := Ideal) S_ .f32 0x40000000#32)) S) X : S256x512x64.Idx → EReal) = fun v bb f => two * cur3 S v bb f - cur3 X v bb f := by
  exact x2_read _ S X

end Cert.ReferenceIdeal.RefValue

end
-- ==== Proof.RefTail.lean ====
/-
  The reference's remaining operations, read at an index: the batch-major / vertex-major swaps (a transpose of the first
  two axes), the max-pool (the vertex axis split into groups of four, the maximum over the group axis from −∞), the
  flattening of the last pooled activation (position v · 64 + f of row b), and the two affine layers (the weight
  transposed, then contracted along its first axis: A Wᵀ; the bias added along the last axis).
-/
import proofs.«430908_j10015863734924_3_alg».proof.Proof.Gen.ReferenceIdeal
import proofs.«430908_j10015863734924_3_alg».proof.Proof.Spec
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws

set_option maxRecDepth 16384

noncomputable section

namespace Cert.ReferenceIdeal.RefValue

open Cert.ReferenceIdeal Cert.ReferenceIdeal.Gen Cert.Net
open Idealize.ShloMosaic Idealize.ShloMosaic.TcCoe Idealize.ShloMosaic.ValueIdx Idealize.SL.Sem Idealize.ShloMosaic.StableHlo

/-! ## The operations at variable extents, read by coordinates -/

section Aux
variable {α : Type}

/-- An array with its first two axes swapped reads, at (j, i, k), the operand at (i, j, k). -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (k : Fin c) :
    transpose ⟨3, ![b, a, c]⟩ [1, 0, 2] x h (ix3 j i k) = x (ix3 i j k) :=
  transpose_apply _ x h _ _ fun d => match d with | ⟨0, _⟩ => rfl | ⟨1, _⟩ => rfl | ⟨2, _⟩ => rfl

/-- The swap of the first two axes, by coordinates. -/
theorem cur3_transpose_102 {a b c : ℕ} (x : (⟨3, ![a, b, c]⟩ : Shape).Idx → α)
    (h : (⟨3, ![a, b, c]⟩ : Shape).Transposes [1, 0, 2] ⟨3, ![b, a, c]⟩) :
    cur3 (transpose ⟨3, ![b, a, c]⟩ [1, 0, 2] x h) = vmaj (cur3 x) := by
  funext j i k
  exact transpose_ix3_102_apply x h j i k

/-- A result index (b, v, o) with coordinate k put back on the group axis is (b, v, k, o). -/
theorem lift_ix3_axis2 {B V' G Fo : ℕ} (h : (⟨4, ![B, V', G, Fo]⟩ : Shape).Reduces [2] (⟨3, ![B, V', Fo]⟩ : Shape))
    (b : Fin B) (v : Fin V') (o : Fin Fo) (k : Fin ((⟨4, ![B, V', G, Fo]⟩ : Shape).size 2)) :
    h.lift (ix3 b v o) k = ix4 b v (⟨k.val, k.isLt⟩ : Fin G) o := by
  funext c; apply Fin.ext
  fin_cases c <;> rfl

/-- The vertex axis split into groups of four: member k of group v' is vertex 4 v' + k (both sit at row-major position
    ((b V' + v') 4 + k) Fo + o = (b V + (4 v' + k)) Fo + o, as V = 4 V'). -/
theorem shapeCast_split4_apply {B V V' Fo : ℕ} (hV : 4 * V' = V) (Y : (⟨3, ![B, V, Fo]⟩ : Shape).Idx → α)
    (hc : (⟨3, ![B, V, Fo]⟩ : Shape).ShapeCasts ⟨4, ![B, V', 4, Fo]⟩) (b : Fin B) (v : Fin V') (k : Fin 4) (o : Fin Fo) :
    shapeCast ⟨4, ![B, V', 4, Fo]⟩ Y hc (ix4 b v k o)
      = Y (ix3 b ⟨4 * v.val + k.val, by have := v.isLt; have := k.isLt; omega⟩ o) :=
  shapeCast_apply Y hc _ _ (by
    rw [Shape.rowMajor_val_three, Shape.rowMajor_val_four]
    show (b.val * V + (4 * v.val + k.val)) * Fo + o.val = ((b.val * V' + v.val) * 4 + k.val) * Fo + o.val
    subst hV; ring)

/-- The maximum over each group of four consecutive vertices from −∞, batch-major, by coordinates: the reduction over the
    group axis is the fold of max from −∞ over the group's four members, in any order. -/
theorem pool_apply {B V V' Fo : ℕ} (hV : 4 * V' = V) (Y : FVec Ideal ⟨3, ![B, V, Fo]⟩ .f32)
    (hc : (⟨3, ![B, V, Fo]⟩ : Shape).ShapeCasts ⟨4, ![B, V', 4, Fo]⟩)
    (h' : (⟨4, ![B, V', 4, Fo]⟩ : Shape).ReducesTo [2] ⟨3, ![B, V', Fo]⟩)
    (h : (⟨4, ![B, V', 4, Fo]⟩ : Shape).Reduces [2] ⟨3, ![B, V', Fo]⟩)
    (hu : 0 < (⟨0, ![]⟩ : Shape).numel) :
    cur3 (Host.reduce (FloatOps.maximumf (F := Ideal) (φ := .f32)) (shapeCast ⟨4, ![B, V', 4, Fo]⟩ Y hc)
        (constant (F := Ideal) ⟨0, ![]⟩ .f32 0xFF800000#32) h' hu : (⟨3, ![B, V', Fo]⟩ : Shape).Idx → EReal)
      = poolBE hV (cur3 Y) := by
  funext b v o
  show Host.reduce _ _ _ h' hu (ix3 b v o) = _
  rw [Host.reduce_eq_fold_single FloatOps.maximumf _ _ h' h hu]
  have hf : (shapeCast ⟨4, ![B, V', 4, Fo]⟩ Y hc ∘ h.lift (ix3 b v o))
      = fun k : Fin 4 => Y (ix3 b ⟨4 * v.val + k.val, by have := v.isLt; have := k.isLt; omega⟩ o) := by
    funext k
    show shapeCast ⟨4, ![B, V', 4, Fo]⟩ Y hc (h.lift (ix3 b v o) k) = _
    rw [lift_ix3_axis2 h b v o k]
    exact shapeCast_split4_apply hV Y hc b v k o
  rw [hf]
  rfl

/-- The last two axes merged: position i of the merged axis is (v, f) = (i / F, i % F), as (i / F) F + i % F = i. -/
theorem flat_apply {B V F K : ℕ} (hK : V * F = K) (hF : 0 < F) (P : (⟨3, ![B, V, F]⟩ : Shape).Idx → α)
    (hc : (⟨3, ![B, V, F]⟩ : Shape).ShapeCasts ⟨2, ![B, K]⟩) :
    cur2 (shapeCast ⟨2, ![B, K]⟩ P hc) = flatB hK hF (cur3 P) := by
  funext b i
  refine shapeCast_apply P hc _ _ ?_
  rw [Shape.rowMajor_val_three, Shape.rowMajor_val_two]
  show (b.val * V + i.val / F) * F + i.val % F = b.val * K + i.val
  subst hK
  have := Nat.div_add_mod' i.val F
  rw [Nat.add_mul, Nat.add_assoc, this, Nat.mul_assoc]

/-- A vector laid along the columns of an M × N array (first as one row, then the row repeated down the rows) reads, at
    (i, n), its entry n. -/
theorem bias_apply {M N : ℕ} (b : (⟨1, ![N]⟩ : Shape).Idx → α)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2)) (i : Fin M) (n : Fin N) :
    broadcastInDim ⟨2, ![M, N]⟩ ![0, 1] hb2 (broadcastInDim ⟨2, ![1, N]⟩ ![1] hb1 b) (ix2 i n) = b (ix1 n) := by
  have hn : n.val = if N = 1 then 0 else n.val := by
    split
    · have := n.isLt; omega
    · rfl
  refine (broadcastInDim_apply _ hb2 _ (ix2 i n) (ix2 (0 : Fin 1) n) fun a => ?_).trans
    (broadcastInDim_apply _ hb1 _ (ix2 (0 : Fin 1) n) (ix1 n) fun a => ?_)
  · match a with
    | ⟨0, _⟩ => rfl
    | ⟨1, _⟩ => exact hn
  · match a with
    | ⟨0, _⟩ => exact hn

/-- An affine layer by coordinates: entry (i, n) of A Wᵀ is ∑ k, A i k · W n k (the transposed weight read at (k, n) is
    W n k), and the bias adds its entry n. -/
theorem fc_apply {M K N : ℕ} (A : FVec Ideal ⟨2, ![M, K]⟩ .f32) (W : FVec Ideal ⟨2, ![N, K]⟩ .f32)
    (b : FVec Ideal ⟨1, ![N]⟩ .f32)
    (ht : (⟨2, ![N, K]⟩ : Shape).Transposes [1, 0] ⟨2, ![K, N]⟩)
    (hb1 : (⟨1, ![N]⟩ : Shape).BroadcastsInDim ⟨2, ![1, N]⟩ (![1] : Fin 1 → Fin 2))
    (hb2 : (⟨2, ![1, N]⟩ : Shape).BroadcastsInDim ⟨2, ![M, N]⟩ (![0, 1] : Fin 2 → Fin 2)) :
    cur2 (addf (Host.dotGeneral (DotDims.plain M K N) none A (transpose ⟨2, ![K, N]⟩ [1, 0] W ht))
        (broadcastInDim ⟨2, ![M, N]⟩ ![0, 1] hb2 (broadcastInDim ⟨2, ![1, N]⟩ ![1] hb1 b))
        : (⟨2, ![M, N]⟩ : Shape).Idx → EReal)
      = fcE (cur2 A) (cur2 W) (cur1 b) := by
  funext i n
  show addf _ _ (ix2 i n) = _
  rw [addf_apply, StackMember.dotGeneral_plain_apply, bias_apply]
  unfold fcE
  congr 1
  refine Finset.sum_congr rfl fun k _ => ?_
  rw [transpose_ix2_apply]
  rfl

end Aux

/-! ## The reference's operations at its shapes -/

theorem tr0 (Y : FVec Ideal S512x1024x3 .f32) :
    cur3 (transpose S1024x512x3 [1, 0, 2] Y transposes_S512x1024x3_S1024x512x3_1_0_2 : S1024x512x3.Idx → EReal) = vmaj (cur3 Y) :=
  cur3_transpose_102 Y _

theorem trA (Y : FVec Ideal S512x1024x32 .f32) :
    cur3 (transpose S1024x512x32 [1, 0, 2] Y transposes_S512x1024x32_S1024x512x32_1_0_2 : S1024x512x32.Idx → EReal) = vmaj (cur3 Y) :=
  cur3_transpose_102 Y _

theorem trB (Y : FVec Ideal S512x256x32 .f32) :
    cur3 (transpose S256x512x32 [1, 0, 2] Y transposes_S512x256x32_S256x512x32_1_0_2 : S256x512x32.Idx → EReal) = vmaj (cur3 Y) :=
  cur3_transpose_102 Y _

theorem trC (Y : FVec Ideal S512x256x64 .f32) :
    cur3 (transpose S256x512x64 [1, 0, 2] Y transposes_S512x256x64_S256x512x64_1_0_2 : S256x512x64.Idx → EReal) = vmaj (cur3 Y) :=
  cur3_transpose_102 Y _

/-- The first pool: 1024 vertices to 256, batch-major. -/
theorem poolB (Y : FVec Ideal S512x1024x32 .f32) :
    cur3 (Host.reduce (FloatOps.maximumf (F := Ideal) (φ := .f32)) (shapeCast _ Y shapeCasts_S512x1024x32_S512x256x4x32) (constant (F := Ideal) S_ .f32 0xFF800000#32) reducesTo_S512x256x4x32_S512x256x32_d2 h_S_ : S512x256x32.Idx → EReal)
      = poolBE (by decide : 4 * 256 = 1024) (cur3 Y) :=
  pool_apply _ Y _ _ (by decide) _

/-- The second pool: 256 vertices to 64, batch-major. -/
theorem poolD (Y : FVec Ideal S512x256x64 .f32) :
    cur3 (Host.reduce (FloatOps.maximumf (F := Ideal) (φ := .f32)) (shapeCast _ Y shapeCasts_S512x256x64_S512x64x4x64) (constant (F := Ideal) S_ .f32 0xFF800000#32) reducesTo_S512x64x4x64_S512x64x64_d2 h_S_ : S512x64x64.Idx → EReal)
      = poolBE (by decide : 4 * 64 = 256) (cur3 Y) :=
  pool_apply _ Y _ _ (by decide) _

/-- The flattening of the pooled activation. -/
theorem flatD (P : FVec Ideal S512x64x64 .f32) :
    cur2 (shapeCast _ P shapeCasts_S512x64x64_S512x4096 : S512x4096.Idx → EReal)
      = flatB (by decide : 64 * 64 = 4096) (by decide : 0 < 64) (cur3 P) :=
  flat_apply _ _ P _

/-- The first affine layer. -/
theorem fc1 (A : FVec Ideal S512x4096 .f32) (W : FVec Ideal S512x4096 .f32) (b : FVec Ideal S512 .f32) :
    cur2 (addf (Host.dotGeneral dot_S512x4096_S4096x512_S512x512_1_0_0_1_n_n none A (transpose S4096x512 [1, 0] W transposes_S512x4096_S4096x512_1_0)) (broadcastInDim S512x512 ![0, 1] bcast_S1x512_S512x512_0_1 (broadcastInDim S1x512 ![1] bcast_S512_S1x512_1 b)) : S512x512.Idx → EReal)
      = fcE (cur2 A) (cur2 W) (cur1 b) :=
  fc_apply A W b _ _ _

/-- The second affine layer. -/
theorem fc2 (A : FVec Ideal S512x512 .f32) (W : FVec Ideal S63x512 .f32) (b : FVec Ideal S63 .f32) :
    cur2 (addf (Host.dotGeneral dot_S512x512_S512x63_S512x63_1_0_0_1_n_n none A (transpose S512x63 [1, 0] W transposes_S63x512_S512x63_1_0)) (broadcastInDim S512x63 ![0, 1] bcast_S1x63_S512x63_0_1 (broadcastInDim S1x63 ![1] bcast_S63_S1x63_1 b)) : S512x63.Idx → EReal)
      = fcE (cur2 A) (cur2 W) (cur1 b) :=
  fc_apply A W b _ _ _

end Cert.ReferenceIdeal.RefValue

end
-- ==== Proof.RefValue.lean ====
/-
  The reference program's result as a function of its inputs. The generated run names eight intermediate arrays, all
  vertex-major: the input, each layer's first Chebyshev term, and each layer's output (pooled after the second and the
  fourth). Layer by layer they are read at an index through the edge-list product, the projection, the pool and the
  swaps of the batch and vertex axes; the last pooled activation is flattened and passed through the two affine
  layers. The result is the edge-list arrangement of the whole network, `refNet`, of the inputs the launch memory holds.
-/
import proofs.«430908_j10015863734924_3_alg».proof.Proof.RefRun
import proofs.«430908_j10015863734924_3_alg».proof.Proof.RefSpmm
import proofs.«430908_j10015863734924_3_alg».proof.Proof.RefProj
import proofs.«430908_j10015863734924_3_alg».proof.Proof.RefTail
import proofs.«430908_j10015863734924_3_alg».proof.Proof.Net

set_option maxRecDepth 16384

noncomputable section

namespace Cert.ReferenceIdeal.RefValue

open Cert.ReferenceIdeal Cert.ReferenceIdeal.Gen Cert.ReferenceIdeal.Value Cert.Net
open Idealize.ShloMosaic Idealize.ShloMosaic.TcCoe Idealize.ShloMosaic.ValueIdx Idealize.SL.Sem Idealize.ShloMosaic.StableHlo

/-- The reference program's nineteen argument arrays in a valuation of its buffers. -/
abbrev rArgs (V0 : Valuation τ sig (Elt Ideal)) : Args where
  x := V0 (Proc.devRef .tc main_arg0)
  rows0 := V0 (Proc.devRef .tc main_arg1)
  cols0 := V0 (Proc.devRef .tc main_arg2)
  vals0 := V0 (Proc.devRef .tc main_arg3)
  rows1 := V0 (Proc.devRef .tc main_arg4)
  cols1 := V0 (Proc.devRef .tc main_arg5)
  vals1 := V0 (Proc.devRef .tc main_arg6)
  W0 := V0 (Proc.devRef .tc main_arg7)
  b0 := V0 (Proc.devRef .tc main_arg8)
  W1 := V0 (Proc.devRef .tc main_arg9)
  b1 := V0 (Proc.devRef .tc main_arg10)
  W2 := V0 (Proc.devRef .tc main_arg11)
  b2 := V0 (Proc.devRef .tc main_arg12)
  W3 := V0 (Proc.devRef .tc main_arg13)
  b3 := V0 (Proc.devRef .tc main_arg14)
  fcW1 := V0 (Proc.devRef .tc main_arg15)
  fcb1 := V0 (Proc.devRef .tc main_arg16)
  fcW2 := V0 (Proc.devRef .tc main_arg17)
  fcb2 := V0 (Proc.devRef .tc main_arg18)

variable (V0 : Valuation τ sig (Elt Ideal)) (I : RealInputs)

/-- The input, vertex-major. -/
theorem res0 (hI : (rArgs V0).Holds I) : cur3 (res_main_v0 (F := Ideal) V0 : S1024x512x3.Idx → EReal) = vmaj (c3 I.x) := by
  unfold res_main_v0
  rw [tr0]
  exact congrArg vmaj hI.x

/-- Layer 1's first term. -/
theorem res13 (hI : (rArgs V0).Holds I) :
    cur3 (res_main_v13 (F := Ideal) V0 : S1024x512x3.Idx → EReal) = spmmE I.rows0 I.cols0 (c1 I.vals0) (vmaj (c3 I.x)) := by
  unfold res_main_v13
  rw [spmmA (res_main_v0 V0) _ _ _ I.rows0 I.cols0 hI.rows0 hI.cols0, res0 V0 I hI]
  exact congrArg (fun v => spmmE I.rows0 I.cols0 v (vmaj (c3 I.x))) hI.vals0

/-- Layer 1's output, vertex-major. -/
theorem res40 (hI : (rArgs V0).Holds I) : cur3 (res_main_v40 (F := Ideal) V0 : S1024x512x32.Idx → EReal) = vmaj (rStage1 I) := by
  unfold res_main_v40
  rw [trA, projA, x2A, spmmA (res_main_v13 V0) _ _ _ I.rows0 I.cols0 hI.rows0 hI.cols0, res13 V0 I hI, res0 V0 I hI,
    show cur1 (V0 (Proc.devRef .tc main_arg3)) = c1 I.vals0 from hI.vals0,
    show cur2 (V0 (Proc.devRef .tc main_arg7)) = c2 I.W0 from hI.W0, show cur1 (V0 (Proc.devRef .tc main_arg8)) = c1 I.b0 from hI.b0]
  rfl

/-- Layer 2's first term. -/
theorem res53 (hI : (rArgs V0).Holds I) :
    cur3 (res_main_v53 (F := Ideal) V0 : S1024x512x32.Idx → EReal) = spmmE I.rows0 I.cols0 (c1 I.vals0) (vmaj (rStage1 I)) := by
  unfold res_main_v53
  rw [spmmB (res_main_v40 V0) _ _ _ I.rows0 I.cols0 hI.rows0 hI.cols0, res40 V0 I hI]
  exact congrArg (fun v => spmmE I.rows0 I.cols0 v (vmaj (rStage1 I))) hI.vals0

/-- Layer 2's pooled output, vertex-major. -/
theorem res82 (hI : (rArgs V0).Holds I) : cur3 (res_main_v82 (F := Ideal) V0 : S256x512x32.Idx → EReal) = vmaj (rStage2 I) := by
  unfold res_main_v82
  rw [trB, poolB, projB, x2B, spmmB (res_main_v53 V0) _ _ _ I.rows0 I.cols0 hI.rows0 hI.cols0, res53 V0 I hI, res40 V0 I hI,
    show cur1 (V0 (Proc.devRef .tc main_arg3)) = c1 I.vals0 from hI.vals0,
    show cur2 (V0 (Proc.devRef .tc main_arg9)) = c2 I.W1 from hI.W1, show cur1 (V0 (Proc.devRef .tc main_arg10)) = c1 I.b1 from hI.b1]
  rfl

/-- Layer 3's first term. -/
theorem res95 (hI : (rArgs V0).Holds I) :
    cur3 (res_main_v95 (F := Ideal) V0 : S256x512x32.Idx → EReal) = spmmE I.rows1 I.cols1 (c1 I.vals1) (vmaj (rStage2 I)) := by
  unfold res_main_v95
  rw [spmmC (res_main_v82 V0) _ _ _ I.rows1 I.cols1 hI.rows1 hI.cols1, res82 V0 I hI]
  exact congrArg (fun v => spmmE I.rows1 I.cols1 v (vmaj (rStage2 I))) hI.vals1

/-- Layer 3's output, vertex-major. -/
theorem res122 (hI : (rArgs V0).Holds I) : cur3 (res_main_v122 (F := Ideal) V0 : S256x512x64.Idx → EReal) = vmaj (rStage3 I) := by
  unfold res_main_v122
  rw [trC, projC, x2C, spmmC (res_main_v95 V0) _ _ _ I.rows1 I.cols1 hI.rows1 hI.cols1, res95 V0 I hI, res82 V0 I hI,
    show cur1 (V0 (Proc.devRef .tc main_arg6)) = c1 I.vals1 from hI.vals1,
    show cur2 (V0 (Proc.devRef .tc main_arg11)) = c2 I.W2 from hI.W2, show cur1 (V0 (Proc.devRef .tc main_arg12)) = c1 I.b2 from hI.b2]
  rfl

/-- Layer 4's first term. -/
theorem res135 (hI : (rArgs V0).Holds I) :
    cur3 (res_main_v135 (F := Ideal) V0 : S256x512x64.Idx → EReal) = spmmE I.rows1 I.cols1 (c1 I.vals1) (vmaj (rStage3 I)) := by
  unfold res_main_v135
  rw [spmmD (res_main_v122 V0) _ _ _ I.rows1 I.cols1 hI.rows1 hI.cols1, res122 V0 I hI]
  exact congrArg (fun v => spmmE I.rows1 I.cols1 v (vmaj (rStage3 I))) hI.vals1

/-- The program's result is the edge-list arrangement of the network. -/
theorem ref_value (hI : (rArgs V0).Holds I) :
    cur2 (val4 (F := Ideal) V0 (Proc.devRef .tc main_v174) : S512x63.Idx → EReal) = refNet I := by
  rw [show val4 (F := Ideal) V0 (Proc.devRef .tc main_v174) = _ from val4_main_v174 V0]
  rw [fc2, fc1, flatD, poolD, projD, x2D, spmmD (res_main_v135 V0) _ _ _ I.rows1 I.cols1 hI.rows1 hI.cols1, res135 V0 I hI, res122 V0 I hI,
    show cur1 (V0 (Proc.devRef .tc main_arg6)) = c1 I.vals1 from hI.vals1,
    show cur2 (V0 (Proc.devRef .tc main_arg13)) = c2 I.W3 from hI.W3, show cur1 (V0 (Proc.devRef .tc main_arg14)) = c1 I.b3 from hI.b3,
    show cur2 (V0 (Proc.devRef .tc main_arg15)) = c2 I.fcW1 from hI.fcW1, show cur1 (V0 (Proc.devRef .tc main_arg16)) = c1 I.fcb1 from hI.fcb1,
    show cur2 (V0 (Proc.devRef .tc main_arg17)) = c2 I.fcW2 from hI.fcW2, show cur1 (V0 (Proc.devRef .tc main_arg18)) = c1 I.fcb2 from hI.fcb2]
  rfl

end Cert.ReferenceIdeal.RefValue

end
-- ==== Proof.PreDecode.lean ====
/-
  The precondition read back: where the printed predicate `finite_inputs` of the nineteen argument arrays is all ones,
  every float array is finite at every index — hence the coercion of a real array — and every index word lies in its
  array's range (0 ≤ rows0, cols0 < 1024 and 0 ≤ rows1, cols1 < 256, signed), hence is the word of an in-range index.
-/
import proofs.«430908_j10015863734924_3_alg».proof.Pre_finite_inputs
import proofs.«430908_j10015863734924_3_alg».proof.Proof.Gen.Pre_finite_inputs
import proofs.«430908_j10015863734924_3_alg».proof.Proof.Net
import Idealize.ShloMosaic.Lib.ReduceAll
import Idealize.ShloMosaic.Lib.StableHlo.Predicate

noncomputable section

namespace Cert.PreDecode

open Cert.Net Idealize.ShloMosaic Idealize.ShloMosaic.ValueIdx

/-- The predicate's value on a record of argument arrays. -/
def pre (A : Args) : IVec Cert.Pre_finite_inputs.S_ 1 :=
  Cert.Pre_finite_inputs.fn (F := Ideal) A.x A.rows0 A.cols0 A.vals0 A.rows1 A.cols1 A.vals1 A.W0 A.b0 A.W1 A.b1 A.W2 A.b2 A.W3 A.b3
    A.fcW1 A.fcb1 A.fcW2 A.fcb2

/-- The scalar shape has one index. -/
instance : Subsingleton (⟨0, ![]⟩ : Shape).Idx := ⟨fun a b => funext fun d => d.elim0⟩

/-! ## One element: |x| < +∞ says x is a real; 0 ≤ w < c signed says w is below c unsigned -/

/-- An extended real whose absolute value lies below the f32 word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  rw [StableHlo.Predicate.ofBool_eq_one_iff] at h
  have hlt : max x (-x) < ⊤ := by simpa using h
  rw [max_lt_iff] at hlt
  induction x using EReal.rec with
  | bot => exact absurd hlt.2 (by simp)
  | coe r => exact ⟨r, rfl⟩
  | top => exact absurd hlt.1 (by simp)

/-- A 32-bit word that is at least 0 and below c as signed integers, c non-negative, is below c as a number. -/
theorem toNat_lt_of_signed {w c : BitVec 32} (hc : c.toNat < 2 ^ 31) (h1 : IntOp.cmpi .sge w 0#32 = 1#1)
    (h2 : IntOp.cmpi .slt w c = 1#1) : w.toNat < c.toNat := by
  have h1' : BitVec.ofBool ((0#32 : BitVec 32).sle w) = 1#1 := h1
  have h2' : BitVec.ofBool (w.slt c) = 1#1 := h2
  rw [StableHlo.Predicate.ofBool_eq_one_iff] at h1' h2'
  simp only [BitVec.sle, BitVec.slt, decide_eq_true_eq] at h1' h2'
  have h0 : (0#32 : BitVec 32).toInt = 0 := by decide
  have hw := BitVec.toInt_eq_toNat_cond w
  have hcc := BitVec.toInt_eq_toNat_cond c
  have hwl := w.isLt
  split_ifs at hw hcc <;> omega

/-! ## One array: the all-reduction of the elementwise test, read at every index -/

section Arrays
variable {s u : Shape} {axes : List (Fin s.rank)}

/-- A float array all of whose entries pass |x| < +∞ has a real at every index. -/
theorem real_of_all (x : FVec Ideal s .f32) (hb : (⟨0, ![]⟩ : Shape).BroadcastsInDim s (![] : Fin 0 → Fin s.rank))
    (hr : s.ReducesTo axes ⟨0, ![]⟩) (hu : 0 < u.numel) (init : u.Idx → BitVec 1)
    (e : Host.reduce IntOp.andi
      (cmpf .olt (Host.absf x) (broadcastInDim s ![] hb (constant (F := Ideal) ⟨0, ![]⟩ .f32 0x7F800000#32))) init hr hu ix0 = 1#1)
    (i : s.Idx) : ∃ r : ℝ, x i = (r : EReal) :=
  real_of_abs_lt_inf (x i) (Host.reduce_andi_all _ init hr hu ix0 e i)

/-- An index array all of whose words pass 0 ≤ w < c (signed) has every word below c. -/
theorem lt_of_all (idx : IVec s 32) (c : BitVec 32) (hc : c.toNat < 2 ^ 31)
    (hb : (⟨0, ![]⟩ : Shape).BroadcastsInDim s (![] : Fin 0 → Fin s.rank))
    (hr : s.ReducesTo axes ⟨0, ![]⟩) (hu : 0 < u.numel) (init : u.Idx → BitVec 1)
    (e : Host.reduce IntOp.andi
      (andi (cmpi .sge idx (broadcastInDim s ![] hb (constantI ⟨0, ![]⟩ 32 0#32)))
        (cmpi .slt idx (broadcastInDim s ![] hb (constantI ⟨0, ![]⟩ 32 c)))) init hr hu ix0 = 1#1)
    (i : s.Idx) : (idx i).toNat < c.toNat := by
  have hi := Host.reduce_andi_all _ init hr hu ix0 e i
  have hi' : IntOp.andi (IntOp.cmpi .sge (idx i) 0#32) (IntOp.cmpi .slt (idx i) c) = 1#1 := hi
  obtain ⟨h1, h2⟩ := IntOp.andi_eq_one.1 hi'
  exact toNat_lt_of_signed hc h1 h2

end Arrays

/-! ## From "a real at every index" to a real array; from "below N at every index" to an index map -/

theorem real1 {a : Nat} (x : (⟨1, ![a]⟩ : Shape).Idx → EReal) (h : ∀ i, ∃ r : ℝ, x i = (r : EReal)) :
    ∃ X : Fin a → ℝ, cur1 x = c1 X :=
  ⟨fun i => Classical.choose (h (ix1 i)), funext fun i => Classical.choose_spec (h (ix1 i))⟩

theorem real2 {a b : Nat} (x : (⟨2, ![a, b]⟩ : Shape).Idx → EReal) (h : ∀ i, ∃ r : ℝ, x i = (r : EReal)) :
    ∃ X : Fin a → Fin b → ℝ, cur2 x = c2 X :=
  ⟨fun i j => Classical.choose (h (ix2 i j)), funext fun i => funext fun j => Classical.choose_spec (h (ix2 i j))⟩

theorem real3 {a b c : Nat} (x : (⟨3, ![a, b, c]⟩ : Shape).Idx → EReal) (h : ∀ i, ∃ r : ℝ, x i = (r : EReal)) :
    ∃ X : Fin a → Fin b → Fin c → ℝ, cur3 x = c3 X :=
  ⟨fun i j k => Classical.choose (h (ix3 i j k)),
    funext fun i => funext fun j => funext fun k => Classical.choose_spec (h (ix3 i j k))⟩

theorem index1 {n N : Nat} (x : (⟨1, ![n]⟩ : Shape).Idx → BitVec 32) (h : ∀ i, (x i).toNat < N) :
    ∃ f : Fin n → Fin N, ∀ e, x (ix1 e) = BitVec.ofNat 32 (f e).val :=
  ⟨fun e => ⟨(x (ix1 e)).toNat, h _⟩, fun e => BitVec.eq_of_toNat_eq (by
    have := (x (ix1 e)).isLt
    simp only [BitVec.toNat_ofNat]
    omega)⟩

/-- The conjunction of two one-bit arrays read at an index. -/
theorem andi_apply_eq_one {t : Shape} (p q : IVec t 1) (i : t.Idx) : andi p q i = 1#1 ↔ p i = 1#1 ∧ q i = 1#1 :=
  IntOp.andi_eq_one

/-- Where the predicate is all ones the arrays hold finite, in-range inputs. -/
theorem holds_of_pre (A : Args) (h : pre A = (fun _ => 1#1)) : ∃ I : RealInputs, A.Holds I := by
  have h0 := congrFun h ix0
  unfold pre Cert.Pre_finite_inputs.fn Cert.Pre_finite_inputs.fn_part1 Cert.Pre_finite_inputs.fn_part2 Cert.Pre_finite_inputs.fn_part3
    Cert.Pre_finite_inputs.fn_part4 Cert.Pre_finite_inputs.fn_part5 at h0
  dsimp only at h0
  simp only [andi_apply_eq_one] at h0
  obtain ⟨⟨⟨⟨⟨⟨⟨⟨⟨⟨⟨⟨⟨⟨⟨⟨⟨⟨hx, hvals0⟩, hvals1⟩, hW0⟩, hb0⟩, hW1⟩, hb1⟩, hW2⟩, hb2⟩, hW3⟩, hb3⟩, hfcW1⟩, hfcb1⟩, hfcW2⟩, hfcb2⟩,
    hrows0⟩, hcols0⟩, hrows1⟩, hcols1⟩ := h0
  obtain ⟨x, ex⟩ := real3 A.x (real_of_all A.x _ _ _ _ hx)
  obtain ⟨vals0, evals0⟩ := real1 A.vals0 (real_of_all A.vals0 _ _ _ _ hvals0)
  obtain ⟨vals1, evals1⟩ := real1 A.vals1 (real_of_all A.vals1 _ _ _ _ hvals1)
  obtain ⟨W0, eW0⟩ := real2 A.W0 (real_of_all A.W0 _ _ _ _ hW0)
  obtain ⟨b0, eb0⟩ := real1 A.b0 (real_of_all A.b0 _ _ _ _ hb0)
  obtain ⟨W1, eW1⟩ := real2 A.W1 (real_of_all A.W1 _ _ _ _ hW1)
  obtain ⟨b1, eb1⟩ := real1 A.b1 (real_of_all A.b1 _ _ _ _ hb1)
  obtain ⟨W2, eW2⟩ := real2 A.W2 (real_of_all A.W2 _ _ _ _ hW2)
  obtain ⟨b2, eb2⟩ := real1 A.b2 (real_of_all A.b2 _ _ _ _ hb2)
  obtain ⟨W3, eW3⟩ := real2 A.W3 (real_of_all A.W3 _ _ _ _ hW3)
  obtain ⟨b3, eb3⟩ := real1 A.b3 (real_of_all A.b3 _ _ _ _ hb3)
  obtain ⟨fcW1, efcW1⟩ := real2 A.fcW1 (real_of_all A.fcW1 _ _ _ _ hfcW1)
  obtain ⟨fcb1, efcb1⟩ := real1 A.fcb1 (real_of_all A.fcb1 _ _ _ _ hfcb1)
  obtain ⟨fcW2, efcW2⟩ := real2 A.fcW2 (real_of_all A.fcW2 _ _ _ _ hfcW2)
  obtain ⟨fcb2, efcb2⟩ := real1 A.fcb2 (real_of_all A.fcb2 _ _ _ _ hfcb2)
  obtain ⟨rows0, erows0⟩ := index1 (N := 1024) A.rows0 (lt_of_all A.rows0 1024#32 (by decide) _ _ _ _ hrows0)
  obtain ⟨cols0, ecols0⟩ := index1 (N := 1024) A.cols0 (lt_of_all A.cols0 1024#32 (by decide) _ _ _ _ hcols0)
  obtain ⟨rows1, erows1⟩ := index1 (N := 256) A.rows1 (lt_of_all A.rows1 256#32 (by decide) _ _ _ _ hrows1)
  obtain ⟨cols1, ecols1⟩ := index1 (N := 256) A.cols1 (lt_of_all A.cols1 256#32 (by decide) _ _ _ _ hcols1)
  exact ⟨⟨x, rows0, cols0, vals0, rows1, cols1, vals1, W0, b0, W1, b1, W2, b2, W3, b3, fcW1, fcb1, fcW2, fcb2⟩,
    ⟨ex, erows0, ecols0, evals0, erows1, ecols1, evals1, eW0, eb0, eW1, eb1, eW2, eb2, eW3, eb3, efcW1, efcb1, efcW2, efcb2⟩⟩

end Cert.PreDecode

end
-- ==== Proof.Algebra.lean ====
/-
  The two arrangements of the network agree on real inputs, and on real inputs every extended-real function of
  Proof/Spec.lean is the coercion of its real twin (so finiteness is carried by the types: nothing here meets ±∞).

  The one law that is not re-association: with L v u = ∑ e, [rows e = v ∧ cols e = u] vals e,
  ∑ u, L v u * x u = ∑ e, [rows e = v] vals e * x (cols e)   (sum over u of the indicator, then the edge's own column),
  which distributes a product over a sum and therefore is proved over the reals.
-/
import proofs.«430908_j10015863734924_3_alg».proof.Proof.Net
import Mathlib.Data.EReal.Operations
import Mathlib.Algebra.BigOperators.Fin

noncomputable section

namespace Cert.Net

open Idealize.ShloMosaic

/-! ## The constants -/

theorem two_eq : two = ((2 : ℝ) : EReal) := by
  simp [two, Ideal.ofBits, Ideal.ieee, -EReal.coe_mul]; norm_num

theorem ninf_eq : ninf = (⊥ : EReal) := by
  simp [ninf, Ideal.ofBits, Ideal.ieee]

theorem zeroE_eq : zeroE = (0 : EReal) := by
  simp [zeroE, Ideal.ofBits, Ideal.ieee]

/-! ## Coercion commutes with finite sums and with max -/

/-- The coercion of a finite real sum is the extended-real sum of the coercions. -/
theorem coe_finsetSum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion is monotone, so it commutes with max. -/
theorem coe_maxReal (a b : ℝ) : ((max a b : ℝ) : EReal) = max (a : EReal) (b : EReal) :=
  EReal.coe_strictMono.monotone.map_max

/-- The fold of max from ⊥ over four values is their maximum. -/
theorem fold_max_fin4 (g : Fin 4 → EReal) :
    (Finset.univ : Finset (Fin 4)).fold max ⊥ g = max (max (max (g 0) (g 1)) (g 2)) (g 3) := by
  rw [Fin.univ_succ, Finset.fold_cons, Fin.univ_succ, Finset.map_cons, Finset.fold_cons, Fin.univ_succ, Finset.map_cons,
    Finset.map_cons, Finset.fold_cons, Fin.univ_succ, Finset.map_cons, Finset.map_cons, Finset.map_cons, Finset.fold_cons]
  simp [max_assoc]

/-- A sum over 3 n positions, grouped in threes. -/
theorem sum_fin_three_mul {n K : Nat} (h3 : 3 * n = K) (g : Fin K → ℝ) :
    ∑ i, g i = ∑ f : Fin n,
      ((g ⟨3 * f.val + 0, by have := f.isLt; omega⟩ + g ⟨3 * f.val + 1, by have := f.isLt; omega⟩)
        + g ⟨3 * f.val + 2, by have := f.isLt; omega⟩) := by
  subst h3
  let e : Fin n × Fin 3 ≃ Fin (3 * n) := finProdFinEquiv.trans (finCongr (Nat.mul_comm n 3))
  rw [← Equiv.sum_comp e g, Fintype.sum_prod_type]
  refine Finset.sum_congr rfl (fun f _ => ?_)
  rw [Fin.sum_univ_three]
  have h0 : e (f, 0) = ⟨3 * f.val + 0, by have := f.isLt; omega⟩ := by
    apply Fin.ext; simp [e, finProdFinEquiv]
  have h1 : e (f, 1) = ⟨3 * f.val + 1, by have := f.isLt; omega⟩ := by
    apply Fin.ext; simp [e, finProdFinEquiv]; omega
  have h2 : e (f, 2) = ⟨3 * f.val + 2, by have := f.isLt; omega⟩ := by
    apply Fin.ext; simp [e, finProdFinEquiv]; omega
  rw [h0, h1, h2]

/-! ## Each extended-real function on real inputs is the coercion of the real one -/

section Coe
variable {E V V' B F Fi Fo K M N : Nat}

theorem vmaj_c3 (x : Fin B → Fin V → Fin F → ℝ) : vmaj (c3 x) = c3 (vmaj x) := rfl

theorem spmmE_coe (rows cols : Fin E → Fin V) (vals : Fin E → ℝ) (x : Fin V → Fin B → Fin Fi → ℝ) :
    spmmE rows cols (c1 vals) (c3 x) = c3 (spmmR rows cols vals x) := by
  funext v b f
  unfold spmmE spmmR c3 c1
  rw [coe_finsetSum]
  refine Finset.sum_congr rfl (fun e _ => ?_)
  split_ifs
  · rw [EReal.coe_mul]
  · rfl

/-- The third Chebyshev term through the edge list, on real inputs. -/
theorem cheb2CooE_coe (rows cols : Fin E → Fin V) (vals : Fin E → ℝ) (x : Fin V → Fin B → Fin Fi → ℝ) :
    cheb2CooE rows cols (c1 vals) (c3 x) = c3 (cheb2CooR rows cols vals x) := by
  funext v b f
  unfold cheb2CooE cheb2CooR
  rw [spmmE_coe, spmmE_coe, two_eq]
  unfold c3
  rw [EReal.coe_sub, EReal.coe_mul]

/-- The interleaving of three real activations. -/
theorem stack3E_coe (h3 : 3 * Fi = K) (x0 x1 x2 : Fin V → Fin B → Fin Fi → ℝ) :
    stack3E h3 (c3 x0) (c3 x1) (c3 x2) = c3 (stack3R h3 x0 x1 x2) := by
  funext b v i
  unfold stack3E stack3R c3
  simp only
  split_ifs <;> rfl

/-- The edge-list layer on real inputs. -/
theorem chebCooE_coe (rows cols : Fin E → Fin V) (vals : Fin E → ℝ) (x : Fin B → Fin V → Fin Fi → ℝ) (h3 : 3 * Fi = K)
    (W : Fin Fo → Fin K → ℝ) (bias : Fin Fo → ℝ) :
    chebCooE rows cols (c1 vals) (c3 x) h3 (c2 W) (c1 bias) = c3 (chebR rows cols vals x h3 W bias) := by
  funext b v o
  unfold chebCooE chebR
  rw [vmaj_c3, spmmE_coe, cheb2CooE_coe, stack3E_coe]
  unfold c3 c2 c1
  rw [EReal.coe_add, coe_finsetSum]
  congr 1

/-! ### The dense operator over the reals, and the one law that is not re-association -/

/-- The V × V graph operator of a real edge list. -/
def denseR (rows cols : Fin E → Fin V) (vals : Fin E → ℝ) (r c : Fin V) : ℝ :=
  ∑ e : Fin E, if rows e = r ∧ cols e = c then vals e else 0

/-- A real V × V matrix applied along the vertex axis of a vertex-major activation. -/
def lmulR (L : Fin V → Fin V → ℝ) (x : Fin V → Fin B → Fin Fi → ℝ) (v : Fin V) (b : Fin B) (f : Fin Fi) : ℝ :=
  ∑ u : Fin V, L v u * x u b f

theorem denseE_coe (rows cols : Fin E → Fin V) (vals : Fin E → ℝ) :
    denseE rows cols (c1 vals) = c2 (denseR rows cols vals) := by
  funext r c
  unfold denseE denseR c2 c1
  rw [coe_finsetSum]
  refine Finset.sum_congr rfl (fun e _ => ?_)
  split_ifs <;> rfl

theorem lmulE_coe (L : Fin V → Fin V → ℝ) (x : Fin V → Fin B → Fin Fi → ℝ) :
    lmulE (c2 L) (c3 x) = c3 (lmulR L x) := by
  funext v b f
  unfold lmulE lmulR c3 c2
  rw [coe_finsetSum]
  refine Finset.sum_congr rfl (fun u _ => ?_)
  rw [EReal.coe_mul]

/-- The dense operator of an edge list acts as the edge list does: summing the indicator of (rows e = v ∧ cols e = u)
    against x u over u leaves the edge's own column. -/
theorem lmulR_denseR (rows cols : Fin E → Fin V) (vals : Fin E → ℝ) (x : Fin V → Fin B → Fin Fi → ℝ) :
    lmulR (denseR rows cols vals) x = spmmR rows cols vals x := by
  funext v b f
  unfold lmulR denseR spmmR
  simp_rw [Finset.sum_mul]
  rw [Finset.sum_comm]
  refine Finset.sum_congr rfl (fun e _ => ?_)
  by_cases hr : rows e = v
  · simp only [hr, true_and, if_true]
    simp_rw [ite_mul, zero_mul]
    rw [Finset.sum_ite_eq]
    simp
  · simp [hr]

/-- The dense operator of a real edge list applied to a real activation is the edge list applied to it. -/
theorem lmulE_denseE_coe (rows cols : Fin E → Fin V) (vals : Fin E → ℝ) (x : Fin V → Fin B → Fin Fi → ℝ) :
    lmulE (denseE rows cols (c1 vals)) (c3 x) = c3 (spmmR rows cols vals x) := by
  rw [denseE_coe, lmulE_coe, lmulR_denseR]

/-- The third Chebyshev term through the dense operator, on real inputs. -/
theorem cheb2E_coe (rows cols : Fin E → Fin V) (vals : Fin E → ℝ) (x : Fin V → Fin B → Fin Fi → ℝ) :
    cheb2E (denseE rows cols (c1 vals)) (c3 x) = c3 (cheb2CooR rows cols vals x) := by
  funext v b f
  unfold cheb2E cheb2CooR
  rw [lmulE_denseE_coe, lmulE_denseE_coe, two_eq]
  unfold c3
  rw [EReal.coe_sub, EReal.coe_mul]

/-- The interleaved three-term sum splits into the three terms' sums against the split weights. -/
theorem sum_stack3R (h3 : 3 * Fi = K) (x0 x1 x2 : Fin V → Fin B → Fin Fi → ℝ) (W : Fin Fo → Fin K → ℝ)
    (b : Fin B) (v : Fin V) (o : Fin Fo) :
    ∑ i : Fin K, stack3R h3 x0 x1 x2 b v i * W o i
      = ((∑ f : Fin Fi, x0 v b f * splitW h3 W 0 f o) + ∑ f : Fin Fi, x1 v b f * splitW h3 W 1 f o)
          + ∑ f : Fin Fi, x2 v b f * splitW h3 W 2 f o := by
  rw [sum_fin_three_mul h3, ← Finset.sum_add_distrib, ← Finset.sum_add_distrib]
  refine Finset.sum_congr rfl (fun f _ => ?_)
  have e0 : stack3R h3 x0 x1 x2 b v ⟨3 * f.val + 0, by have := f.isLt; omega⟩ = x0 v b f := by
    unfold stack3R
    simp only
    rw [if_pos (by omega)]
    congr 1
    apply Fin.ext
    show (3 * f.val + 0) / 3 = f.val
    omega
  have e1 : stack3R h3 x0 x1 x2 b v ⟨3 * f.val + 1, by have := f.isLt; omega⟩ = x1 v b f := by
    unfold stack3R
    simp only
    rw [if_neg (by omega), if_pos (by omega)]
    congr 1
    apply Fin.ext
    show (3 * f.val + 1) / 3 = f.val
    omega
  have e2 : stack3R h3 x0 x1 x2 b v ⟨3 * f.val + 2, by have := f.isLt; omega⟩ = x2 v b f := by
    unfold stack3R
    simp only
    rw [if_neg (by omega), if_neg (by omega)]
    congr 1
    apply Fin.ext
    show (3 * f.val + 2) / 3 = f.val
    omega
  rw [e0, e1, e2]
  rfl

/-- The dense layer, on the dense operator of the edge list, the vertex-major input and the split weights, is the
    edge-list layer read vertex-major. -/
theorem chebDenseE_coe (rows cols : Fin E → Fin V) (vals : Fin E → ℝ) (x : Fin B → Fin V → Fin Fi → ℝ) (h3 : 3 * Fi = K)
    (W : Fin Fo → Fin K → ℝ) (bias : Fin Fo → ℝ) :
    chebDenseE (denseE rows cols (c1 vals)) (vmaj (c3 x)) (splitW h3 (c2 W) 0) (splitW h3 (c2 W) 1) (splitW h3 (c2 W) 2) (c1 bias)
      = vmaj (c3 (chebR rows cols vals x h3 W bias)) := by
  funext v b o
  unfold chebDenseE
  rw [vmaj_c3, lmulE_denseE_coe, cheb2E_coe]
  show _ = ((chebR rows cols vals x h3 W bias b v o : ℝ) : EReal)
  unfold chebR
  rw [sum_stack3R, EReal.coe_add, EReal.coe_add, EReal.coe_add, coe_finsetSum, coe_finsetSum, coe_finsetSum]
  unfold c3 c1
  congr 1

theorem poolBE_coe (h : 4 * V' = V) (y : Fin B → Fin V → Fin Fo → ℝ) : poolBE h (c3 y) = c3 (poolR h y) := by
  funext b v o
  unfold poolBE poolR
  rw [ninf_eq, fold_max_fin4]
  unfold c3
  rw [coe_maxReal, coe_maxReal, coe_maxReal]
  rfl

theorem poolE_coe (h : 4 * V' = V) (y : Fin B → Fin V → Fin Fo → ℝ) : poolE h (vmaj (c3 y)) = vmaj (c3 (poolR h y)) := by
  funext v b o
  unfold poolE
  show _ = ((poolR h y b v o : ℝ) : EReal)
  unfold poolR
  rw [ninf_eq, fold_max_fin4]
  rw [coe_maxReal, coe_maxReal, coe_maxReal]
  rfl

theorem fcE_coe (A : Fin M → Fin K → ℝ) (W : Fin N → Fin K → ℝ) (bias : Fin N → ℝ) :
    fcE (c2 A) (c2 W) (c1 bias) = c2 (fcR A W bias) := by
  funext i n
  unfold fcE fcR c2 c1
  rw [EReal.coe_add, coe_finsetSum]
  congr 1

theorem flat_coe (hK : V * F = K) (hF : 0 < F) (y : Fin B → Fin V → Fin F → ℝ) :
    flat hK hF (vmaj (c3 y)) = c2 (flatB hK hF y) := rfl

theorem flatB_coe (hK : V * F = K) (hF : 0 < F) (y : Fin B → Fin V → Fin F → ℝ) :
    flatB hK hF (c3 y) = c2 (flatB hK hF y) := rfl

end Coe

/-! ## The two arrangements of the whole network agree -/

/-- The real activation after the first layer, batch-major. -/
def realStage1 (I : RealInputs) : Fin 512 → Fin 1024 → Fin 32 → ℝ :=
  chebR I.rows0 I.cols0 I.vals0 I.x (by decide : 3 * 3 = 9) I.W0 I.b0
/-- The real activation after the second layer and the pool. -/
def realStage2 (I : RealInputs) : Fin 512 → Fin 256 → Fin 32 → ℝ :=
  poolR (by decide : 4 * 256 = 1024) (chebR I.rows0 I.cols0 I.vals0 (realStage1 I) (by decide : 3 * 32 = 96) I.W1 I.b1)
/-- The real activation after the third layer. -/
def realStage3 (I : RealInputs) : Fin 512 → Fin 256 → Fin 64 → ℝ :=
  chebR I.rows1 I.cols1 I.vals1 (realStage2 I) (by decide : 3 * 32 = 96) I.W2 I.b2
/-- The real activation after the fourth layer and the pool. -/
def realStage4 (I : RealInputs) : Fin 512 → Fin 64 → Fin 64 → ℝ :=
  poolR (by decide : 4 * 64 = 256) (chebR I.rows1 I.cols1 I.vals1 (realStage3 I) (by decide : 3 * 64 = 192) I.W3 I.b3)
/-- The real activation after the first affine layer. -/
def realStage5 (I : RealInputs) : Fin 512 → Fin 512 → ℝ :=
  fcR (flatB (by decide : 64 * 64 = 4096) (by decide : 0 < 64) (realStage4 I)) I.fcW1 I.fcb1

theorem kStage1_eq (I : RealInputs) : kStage1 I = vmaj (c3 (realStage1 I)) := by
  unfold kStage1 realStage1
  exact chebDenseE_coe _ _ _ _ _ _ _

theorem rStage1_eq (I : RealInputs) : rStage1 I = c3 (realStage1 I) := by
  unfold rStage1 realStage1
  exact chebCooE_coe _ _ _ _ _ _ _

theorem kStage2_eq (I : RealInputs) : kStage2 I = vmaj (c3 (realStage2 I)) := by
  unfold kStage2 realStage2
  rw [kStage1_eq, chebDenseE_coe, poolE_coe]

theorem rStage2_eq (I : RealInputs) : rStage2 I = c3 (realStage2 I) := by
  unfold rStage2 realStage2
  rw [rStage1_eq, chebCooE_coe, poolBE_coe]

theorem kStage3_eq (I : RealInputs) : kStage3 I = vmaj (c3 (realStage3 I)) := by
  unfold kStage3 realStage3
  rw [kStage2_eq, chebDenseE_coe]

theorem rStage3_eq (I : RealInputs) : rStage3 I = c3 (realStage3 I) := by
  unfold rStage3 realStage3
  rw [rStage2_eq, chebCooE_coe]

theorem kStage4_eq (I : RealInputs) : kStage4 I = vmaj (c3 (realStage4 I)) := by
  unfold kStage4 realStage4
  rw [kStage3_eq, chebDenseE_coe, poolE_coe]

theorem rStage4_eq (I : RealInputs) : rStage4 I = c3 (realStage4 I) := by
  unfold rStage4 realStage4
  rw [rStage3_eq, chebCooE_coe, poolBE_coe]

theorem kStage5_eq (I : RealInputs) : kStage5 I = c2 (realStage5 I) := by
  unfold kStage5 realStage5
  rw [kStage4_eq, flat_coe, fcE_coe]

theorem rStage5_eq (I : RealInputs) : rStage5 I = c2 (realStage5 I) := by
  unfold rStage5 realStage5
  rw [rStage4_eq, flatB_coe, fcE_coe]

/-- Stage by stage the dense arrangement's activation is the edge-list arrangement's read vertex-major, both the coercion
    of one real array; the affine layers are shared. -/
theorem kernelNet_eq_refNet (I : RealInputs) : kernelNet I = refNet I := by
  unfold kernelNet refNet
  rw [kStage5_eq, rStage5_eq]

end Cert.Net

end
-- ==== Proof.lean ====
/-
  The certificate. Kernel: a graph network of four Chebyshev layers of order three (two of them followed by a max-pool over
  groups of four vertices) and two affine layers, run as six tiled regions on a dense V × V graph operator that the host
  builds from the edge list. Reference: the same network with the operator applied edge by edge (gather, scale,
  scatter-add).

  Under the precondition — every float input finite, every edge index inside its vertex range — the launch memory holds
  real arrays and in-range index maps (Proof/PreDecode.lean). The kernel's result buffer is then the dense arrangement of
  the network of those inputs (Proof/KernelValue.lean, region by region over Proof/KRegion0…5.lean and the host glue), the
  reference's result the edge-list arrangement (Proof/RefValue.lean), and on real inputs the two arrangements agree
  (Proof/Algebra.lean): with L v u = ∑ e, [rows e = v ∧ cols e = u] vals e one has ∑ u, L v u · x u = ∑ e, [rows e = v] vals e · x (cols e),
  which distributes a product over a sum and so is where finiteness is used; everything else is re-association.
  The three frames are the generated ones (the reference's is its generated run with the result dropped); the ideal
  pass's ledger is empty, so `preserves` is `True`.
-/
import proofs.«430908_j10015863734924_3_alg».proof.Defs
import proofs.«430908_j10015863734924_3_alg».proof.Proof.Gen.Kernel
import proofs.«430908_j10015863734924_3_alg».proof.Proof.Gen.Kernel.Skeleton
import proofs.«430908_j10015863734924_3_alg».proof.Proof.Gen.Kernel.Launch
import proofs.«430908_j10015863734924_3_alg».proof.Proof.Gen.Kernel.Points
import proofs.«430908_j10015863734924_3_alg».proof.Proof.Gen.Kernel.Frame
import proofs.«430908_j10015863734924_3_alg».proof.Proof.Gen.KernelIdeal
import proofs.«430908_j10015863734924_3_alg».proof.Proof.Gen.KernelIdeal.Skeleton
import proofs.«430908_j10015863734924_3_alg».proof.Proof.Gen.KernelIdeal.Launch
import proofs.«430908_j10015863734924_3_alg».proof.Proof.Gen.KernelIdeal.Points
import proofs.«430908_j10015863734924_3_alg».proof.Proof.Gen.KernelIdeal.Frame
import proofs.«430908_j10015863734924_3_alg».proof.Proof.Gen.ReferenceIdeal
import proofs.«430908_j10015863734924_3_alg».proof.Proof.Gen.Pre_finite_inputs
import proofs.«430908_j10015863734924_3_alg».proof.Proof.KernelRun
import proofs.«430908_j10015863734924_3_alg».proof.Proof.KernelValue
import proofs.«430908_j10015863734924_3_alg».proof.Proof.RefValue
import proofs.«430908_j10015863734924_3_alg».proof.Proof.PreDecode
import proofs.«430908_j10015863734924_3_alg».proof.Proof.Algebra
import Idealize.ShloMosaic.Adequacy
import Idealize.ShloMosaic.Init

set_option maxRecDepth 16384

noncomputable section

namespace Cert.Proof

open Idealize.ShloMosaic Idealize.SL.Sem Idealize.ShloMosaic.StableHlo Cert.Net

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Memories that agree on the arguments hold the same nineteen argument arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.RefValue.rArgs (launchContents m' c) = Cert.KernelIdeal.HostValue.kArgs m c := by
  show Args.mk _ _ _ _ _ _ _ _ _ _ _ _ _ _ _ _ _ _ _ = Args.mk _ _ _ _ _ _ _ _ _ _ _ _ _ _ _ _ _ _ _
  rw [show launchContents m' c (Proc.devRef .tc Cert.ReferenceIdeal.main_arg0) = _ from h0,
    show launchContents m' c (Proc.devRef .tc Cert.ReferenceIdeal.main_arg1) = _ from h1,
    show launchContents m' c (Proc.devRef .tc Cert.ReferenceIdeal.main_arg2) = _ from h2,
    show launchContents m' c (Proc.devRef .tc Cert.ReferenceIdeal.main_arg3) = _ from h3,
    show launchContents m' c (Proc.devRef .tc Cert.ReferenceIdeal.main_arg4) = _ from h4,
    show launchContents m' c (Proc.devRef .tc Cert.ReferenceIdeal.main_arg5) = _ from h5,
    show launchContents m' c (Proc.devRef .tc Cert.ReferenceIdeal.main_arg6) = _ from h6,
    show launchContents m' c (Proc.devRef .tc Cert.ReferenceIdeal.main_arg7) = _ from h7,
    show launchContents m' c (Proc.devRef .tc Cert.ReferenceIdeal.main_arg8) = _ from h8,
    show launchContents m' c (Proc.devRef .tc Cert.ReferenceIdeal.main_arg9) = _ from h9,
    show launchContents m' c (Proc.devRef .tc Cert.ReferenceIdeal.main_arg10) = _ from h10,
    show launchContents m' c (Proc.devRef .tc Cert.ReferenceIdeal.main_arg11) = _ from h11,
    show launchContents m' c (Proc.devRef .tc Cert.ReferenceIdeal.main_arg12) = _ from h12,
    show launchContents m' c (Proc.devRef .tc Cert.ReferenceIdeal.main_arg13) = _ from h13,
    show launchContents m' c (Proc.devRef .tc Cert.ReferenceIdeal.main_arg14) = _ from h14,
    show launchContents m' c (Proc.devRef .tc Cert.ReferenceIdeal.main_arg15) = _ from h15,
    show launchContents m' c (Proc.devRef .tc Cert.ReferenceIdeal.main_arg16) = _ from h16,
    show launchContents m' c (Proc.devRef .tc Cert.ReferenceIdeal.main_arg17) = _ from h17,
    show launchContents m' c (Proc.devRef .tc Cert.ReferenceIdeal.main_arg18) = _ from h18]

/-- Both runs end with the same result: the kernel's is the dense arrangement of the network of the inputs the memory
    holds, the reference's the edge-list arrangement, and the two agree on real inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W12 (F := Ideal) m ρ c (Proc.devRef .tc Cert.KernelIdeal.main_v84),
    Cert.KernelIdeal.RunValue.run_value (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨I, hI⟩ := Cert.PreDecode.holds_of_pre (Cert.KernelIdeal.HostValue.kArgs m c) (hpre c)
  have hk := Cert.KernelIdeal.HostValue.kernel_value m ρ c I hI
  obtain ⟨h0, h1, h2, h3, h4, h5, h6, h7, h8, h9, h10, h11, h12, h13, h14, h15, h16, h17, h18⟩ := hagree c
  have hr : (Cert.ReferenceIdeal.RefValue.rArgs (launchContents m' c)).Holds I := by
    rw [args_eq m m' c h0 h1 h2 h3 h4 h5 h6 h7 h8 h9 h10 h11 h12 h13 h14 h15 h16 h17 h18]; exact hI
  have hv := Cert.ReferenceIdeal.RefValue.ref_value (launchContents m' c) I hr
  rw [← Cert.ReferenceIdeal.Value.val4_main_v174 (launchContents m' c)]
  exact cur2_inj (hv.trans ((kernelNet_eq_refNet I).symm.trans hk.symm))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
